-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 512]⟩ ⟨2, ![16384, 512]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S2048x512 : Shape := ⟨2, ![2048, 512]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel

variable [Facts]

def fn {F : FTy → Type} [FloatOps F] (main_arg0 : FVec F S2048x512 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  main_v3
-- ==== Pre_finite_inputs_ReferenceIdeal.lean ====
abbrev S16384x512 : Shape := ⟨2, ![16384, 512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel

variable [Facts]

def fn {F : FTy → Type} [FloatOps F] (main_arg0 : FVec F S16384x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  main_v3
-- ==== Kernel.lean ====
abbrev S2048x512 : Shape := ⟨2, ![2048, 512]⟩
abbrev S3x14 : Shape := ⟨2, ![3, 14]⟩
abbrev S_ : Shape := ⟨0, ![]⟩
abbrev S1x1 : Shape := ⟨2, ![1, 1]⟩
abbrev S88x512 : Shape := ⟨2, ![88, 512]⟩
abbrev S80x512 : Shape := ⟨2, ![80, 512]⟩

abbrev nBuf : Space → Nat
  | .hbm => 2
  | .vmem => 5
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 86 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | _ => false

abbrev sig : RefSig :=
  (ofTc nBuf bufTy 1 86 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.xori v2 c3_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_off1 (d0 : Dev nD) (c0_i32_15 : BitVec 32) (c1_i32_10 : BitVec 32) (c3_i32_11 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v13 : BitVec 32 := Scalar.xori v2 c1_i32_10
  let v14 : BitVec 32 := Scalar.xori v13 c3_i32_11
  let c88_i32_14 : BitVec 32 := 88#32
  let v18 : BitVec 32 := Scalar.muli v14 c88_i32_14
  let v19 : BitVec 32 := Scalar.addi c0_i32_15 v18
  let c0_i32_22 : BitVec 32 := 0#32
  ![v19.toNat, 0]
def k0_off1_at (r : Fin 10) : BitVec 32 × BitVec 32 × BitVec 32 :=
  if r.val < 5 then
    if r.val < 2 then
      if r.val < 1 then
        (0#32, 1#32, 3#32)
      else
        (0#32, 1#32, 7#32)
    else
      if r.val < 3 then
        (0#32, 1#32, 0#32)
      else
        if r.val < 4 then
          (0#32, 1#32, 4#32)
        else
          (1344#32, 4#32, 1#32)
  else
    if r.val < 7 then
      if r.val < 6 then
        (1344#32, 4#32, 2#32)
      else
        (1344#32, 4#32, 0#32)
    else
      if r.val < 8 then
        (1344#32, 4#32, 3#32)
      else
        if r.val < 9 then
          (0#32, 3#32, 4#32)
        else
          (1344#32, 1#32, 3#32)
def k0_dev4 (d0 : Dev nD) : Nat :=
  let c0_i32_21 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_12 : BitVec 32 := 1#32
  let v15 : BitVec 32 := Scalar.xori v2 c1_i32_12
  let c1_i32_20 : BitVec 32 := 1#32
  let v20 : BitVec 32 := Scalar.muli v15 c1_i32_20
  let v21 : BitVec 32 := Scalar.addi c0_i32_21 v20
  v21.toNat
def k0_dev5 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_25 : BitVec 32 := 1#32
  let v30 : BitVec 32 := Scalar.xori v2 c1_i32_25
  let c1_i32_34 : BitVec 32 := 1#32
  let v35 : BitVec 32 := Scalar.muli v30 c1_i32_34
  let v36 : BitVec 32 := Scalar.addi c0_i32_35 v35
  v36.toNat
def k0_dev6 (d0 : Dev nD) : Nat :=
  let c0_i32_49 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_40 : BitVec 32 := 1#32
  let v45 : BitVec 32 := Scalar.xori v2 c1_i32_40
  let c1_i32_48 : BitVec 32 := 1#32
  let v50 : BitVec 32 := Scalar.muli v45 c1_i32_48
  let v51 : BitVec 32 := Scalar.addi c0_i32_49 v50
  v51.toNat
def k0_dev7 (d0 : Dev nD) : Nat :=
  let c0_i32_64 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_54 : BitVec 32 := 1#32
  let v60 : BitVec 32 := Scalar.xori v2 c1_i32_54
  let c1_i32_63 : BitVec 32 := 1#32
  let v65 : BitVec 32 := Scalar.muli v60 c1_i32_63
  let v66 : BitVec 32 := Scalar.addi c0_i32_64 v65
  v66.toNat
def k0_off2 (d0 : Dev nD) (c3_i32_67 : BitVec 32) (c4_i32_68 : BitVec 32) : Fin 2 → Nat :=
  let c704_i32_71 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v73 : BitVec 32 := Scalar.xori v2 c3_i32_67
  let v74 : BitVec 32 := Scalar.xori v73 c4_i32_68
  let c80_i32_70 : BitVec 32 := 80#32
  let v78 : BitVec 32 := Scalar.muli v74 c80_i32_70
  let v79 : BitVec 32 := Scalar.addi c704_i32_71 v78
  let c0_i32_78 : BitVec 32 := 0#32
  ![v79.toNat, 0]
def k0_off2_at (r : Fin 5) : BitVec 32 × BitVec 32 :=
  if r.val < 2 then
    if r.val < 1 then
      (3#32, 4#32)
    else
      (3#32, 5#32)
  else
    if r.val < 3 then
      (3#32, 0#32)
    else
      if r.val < 4 then
        (3#32, 1#32)
      else
        (4#32, 1#32)
def k0_dev8 (d0 : Dev nD) : Nat :=
  let c0_i32_77 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_69 : BitVec 32 := 3#32
  let v75 : BitVec 32 := Scalar.xori v2 c3_i32_69
  let c1_i32_76 : BitVec 32 := 1#32
  let v80 : BitVec 32 := Scalar.muli v75 c1_i32_76
  let v81 : BitVec 32 := Scalar.addi c0_i32_77 v80
  v81.toNat
def k0_dev9 (d0 : Dev nD) : Nat :=
  let c0_i32_91 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_81 : BitVec 32 := 3#32
  let v90 : BitVec 32 := Scalar.xori v2 c3_i32_81
  let c1_i32_90 : BitVec 32 := 1#32
  let v95 : BitVec 32 := Scalar.muli v90 c1_i32_90
  let v96 : BitVec 32 := Scalar.addi c0_i32_91 v95
  v96.toNat
def k0_dev10 (d0 : Dev nD) : Nat :=
  let c0_i32_106 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_96 : BitVec 32 := 3#32
  let v105 : BitVec 32 := Scalar.xori v2 c3_i32_96
  let c1_i32_105 : BitVec 32 := 1#32
  let v110 : BitVec 32 := Scalar.muli v105 c1_i32_105
  let v111 : BitVec 32 := Scalar.addi c0_i32_106 v110
  v111.toNat
def k0_dev11 (d0 : Dev nD) : Nat :=
  let c0_i32_121 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_111 : BitVec 32 := 3#32
  let v120 : BitVec 32 := Scalar.xori v2 c3_i32_111
  let c1_i32_120 : BitVec 32 := 1#32
  let v125 : BitVec 32 := Scalar.muli v120 c1_i32_120
  let v126 : BitVec 32 := Scalar.addi c0_i32_121 v125
  v126.toNat
def k0_dev12 (d0 : Dev nD) : Nat :=
  let c0_i32_135 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_126 : BitVec 32 := 4#32
  let v135 : BitVec 32 := Scalar.xori v2 c4_i32_126
  let c1_i32_134 : BitVec 32 := 1#32
  let v140 : BitVec 32 := Scalar.muli v135 c1_i32_134
  let v141 : BitVec 32 := Scalar.addi c0_i32_135 v140
  v141.toNat
def k0_dev13 (d0 : Dev nD) : Nat :=
  let c0_i32_150 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_140 : BitVec 32 := 4#32
  let v150 : BitVec 32 := Scalar.xori v2 c4_i32_140
  let c1_i32_149 : BitVec 32 := 1#32
  let v155 : BitVec 32 := Scalar.muli v150 c1_i32_149
  let v156 : BitVec 32 := Scalar.addi c0_i32_150 v155
  v156.toNat
def k0_dev14 (d0 : Dev nD) : Nat :=
  let c0_i32_165 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_155 : BitVec 32 := 4#32
  let v165 : BitVec 32 := Scalar.xori v2 c4_i32_155
  let c1_i32_164 : BitVec 32 := 1#32
  let v170 : BitVec 32 := Scalar.muli v165 c1_i32_164
  let v171 : BitVec 32 := Scalar.addi c0_i32_165 v170
  v171.toNat
def k0_dev15 (d0 : Dev nD) : Nat :=
  let c0_i32_180 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_170 : BitVec 32 := 4#32
  let v180 : BitVec 32 := Scalar.xori v2 c4_i32_170
  let c1_i32_179 : BitVec 32 := 1#32
  let v185 : BitVec 32 := Scalar.muli v180 c1_i32_179
  let v186 : BitVec 32 := Scalar.addi c0_i32_180 v185
  v186.toNat
def k0_off3 (d0 : Dev nD) (c0_i32_193 : BitVec 32) (c3_i32_191 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v199 : BitVec 32 := Scalar.xori v2 c3_i32_191
  let c88_i32_192 : BitVec 32 := 88#32
  let v200 : BitVec 32 := Scalar.muli v199 c88_i32_192
  let v201 : BitVec 32 := Scalar.addi c0_i32_193 v200
  let v202 : Index := Scalar.indexCast v201
  let c0 : Index := 0#32
  ![v202.toNat, 0]
def k0_off3_at (r : Fin 6) : BitVec 32 × BitVec 32 :=
  if r.val < 3 then
    if r.val < 1 then
      (0#32, 3#32)
    else
      if r.val < 2 then
        (1344#32, 1#32)
      else
        (0#32, 0#32)
  else
    if r.val < 4 then
      (0#32, 4#32)
    else
      if r.val < 5 then
        (1344#32, 0#32)
      else
        (1344#32, 3#32)
def k0_off4 (d0 : Dev nD) (c0_i32_204 : BitVec 32) (c3_i32_191 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v199 : BitVec 32 := Scalar.xori v2 c3_i32_191
  let c88_i32_203 : BitVec 32 := 88#32
  let v217 : BitVec 32 := Scalar.muli v199 c88_i32_203
  let v218 : BitVec 32 := Scalar.addi c0_i32_204 v217
  let c0_i32_211 : BitVec 32 := 0#32
  ![v218.toNat, 0]
def k0_off4_at (r : Fin 4) : BitVec 32 × BitVec 32 :=
  if r.val < 2 then
    if r.val < 1 then
      (0#32, 3#32)
    else
      (1344#32, 1#32)
  else
    if r.val < 3 then
      (0#32, 4#32)
    else
      (1344#32, 3#32)
def k0_dev16 (d0 : Dev nD) : Nat :=
  let c0_i32_210 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_200 : BitVec 32 := 3#32
  let v214 : BitVec 32 := Scalar.xori v2 c3_i32_200
  let c1_i32_209 : BitVec 32 := 1#32
  let v219 : BitVec 32 := Scalar.muli v214 c1_i32_209
  let v220 : BitVec 32 := Scalar.addi c0_i32_210 v219
  v220.toNat
def k0_off5 (d0 : Dev nD) (c4_i32_221 : BitVec 32) : Fin 2 → Nat :=
  let c704_i32_223 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v233 : BitVec 32 := Scalar.xori v2 c4_i32_221
  let c80_i32_222 : BitVec 32 := 80#32
  let v234 : BitVec 32 := Scalar.muli v233 c80_i32_222
  let v235 : BitVec 32 := Scalar.addi c704_i32_223 v234
  let v236 : Index := Scalar.indexCast v235
  let c0_224 : Index := 0#32
  ![v236.toNat, 0]
def k0_off5_at (r : Fin 3) : BitVec 32 :=
  if r.val < 1 then
    4#32
  else
    if r.val < 2 then
      0#32
    else
      1#32
def k0_off6 (d0 : Dev nD) (c4_i32_221 : BitVec 32) : Fin 2 → Nat :=
  let c704_i32_235 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v233 : BitVec 32 := Scalar.xori v2 c4_i32_221
  let c80_i32_234 : BitVec 32 := 80#32
  let v251 : BitVec 32 := Scalar.muli v233 c80_i32_234
  let v252 : BitVec 32 := Scalar.addi c704_i32_235 v251
  let c0_i32_242 : BitVec 32 := 0#32
  ![v252.toNat, 0]
def k0_dev17 (d0 : Dev nD) : Nat :=
  let c0_i32_241 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_231 : BitVec 32 := 4#32
  let v248 : BitVec 32 := Scalar.xori v2 c4_i32_231
  let c1_i32_240 : BitVec 32 := 1#32
  let v253 : BitVec 32 := Scalar.muli v248 c1_i32_240
  let v254 : BitVec 32 := Scalar.addi c0_i32_241 v253
  v254.toNat
def k0_dev18 (d0 : Dev nD) : Nat :=
  let c0_i32_272 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_262 : BitVec 32 := 1#32
  let v282 : BitVec 32 := Scalar.xori v2 c1_i32_262
  let c1_i32_271 : BitVec 32 := 1#32
  let v287 : BitVec 32 := Scalar.muli v282 c1_i32_271
  let v288 : BitVec 32 := Scalar.addi c0_i32_272 v287
  v288.toNat
def k0_off7 (d0 : Dev nD) (c0_i32_286 : BitVec 32) (c3_i32_283 : BitVec 32) (c4_i32_284 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v301 : BitVec 32 := Scalar.xori v2 c3_i32_283
  let v302 : BitVec 32 := Scalar.xori v301 c4_i32_284
  let c88_i32_285 : BitVec 32 := 88#32
  let v303 : BitVec 32 := Scalar.muli v302 c88_i32_285
  let v304 : BitVec 32 := Scalar.addi c0_i32_286 v303
  let v305 : Index := Scalar.indexCast v304
  let c0_287 : Index := 0#32
  ![v305.toNat, 0]
def k0_off7_at (r : Fin 2) : BitVec 32 × BitVec 32 × BitVec 32 :=
  if r.val < 1 then
    (0#32, 3#32, 4#32)
  else
    (1344#32, 1#32, 3#32)
def k0_dev19 (d0 : Dev nD) : Nat :=
  let c0_i32_304 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_294 : BitVec 32 := 3#32
  let v317 : BitVec 32 := Scalar.xori v2 c3_i32_294
  let c1_i32_303 : BitVec 32 := 1#32
  let v322 : BitVec 32 := Scalar.muli v317 c1_i32_303
  let v323 : BitVec 32 := Scalar.addi c0_i32_304 v322
  v323.toNat
def k0_off8 (d0 : Dev nD) : Fin 2 → Nat :=
  let c704_i32_318 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_315 : BitVec 32 := 4#32
  let v336 : BitVec 32 := Scalar.xori v2 c4_i32_315
  let c1_i32_316 : BitVec 32 := 1#32
  let v337 : BitVec 32 := Scalar.xori v336 c1_i32_316
  let c80_i32_317 : BitVec 32 := 80#32
  let v338 : BitVec 32 := Scalar.muli v337 c80_i32_317
  let v339 : BitVec 32 := Scalar.addi c704_i32_318 v338
  let v340 : Index := Scalar.indexCast v339
  let c0_319 : Index := 0#32
  ![v340.toNat, 0]
def k0_dev20 (d0 : Dev nD) : Nat :=
  let c0_i32_336 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_326 : BitVec 32 := 4#32
  let v352 : BitVec 32 := Scalar.xori v2 c4_i32_326
  let c1_i32_335 : BitVec 32 := 1#32
  let v357 : BitVec 32 := Scalar.muli v352 c1_i32_335
  let v358 : BitVec 32 := Scalar.addi c0_i32_336 v357
  v358.toNat
def k0_dev21 (d0 : Dev nD) : Nat :=
  let c0_i32_368 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_358 : BitVec 32 := 1#32
  let v387 : BitVec 32 := Scalar.xori v2 c1_i32_358
  let c1_i32_367 : BitVec 32 := 1#32
  let v392 : BitVec 32 := Scalar.muli v387 c1_i32_367
  let v393 : BitVec 32 := Scalar.addi c0_i32_368 v392
  v393.toNat
def k0_off9 (d0 : Dev nD) (c0_i32_488 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c88_i32_487 : BitVec 32 := 88#32
  let v532 : BitVec 32 := Scalar.muli v2 c88_i32_487
  let v533 : BitVec 32 := Scalar.addi c0_i32_488 v532
  let v534 : Index := Scalar.indexCast v533
  let c0_489 : Index := 0#32
  ![v534.toNat, 0]
def k0_off10 (d0 : Dev nD) (c0_i32_500 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c88_i32_499 : BitVec 32 := 88#32
  let v549 : BitVec 32 := Scalar.muli v2 c88_i32_499
  let v550 : BitVec 32 := Scalar.addi c0_i32_500 v549
  let c0_i32_506 : BitVec 32 := 0#32
  ![v550.toNat, 0]
def k0_dev22 (d0 : Dev nD) : Nat :=
  let c0_i32_505 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_496 : BitVec 32 := 4#32
  let v546 : BitVec 32 := Scalar.xori v2 c4_i32_496
  let c1_i32_504 : BitVec 32 := 1#32
  let v551 : BitVec 32 := Scalar.muli v546 c1_i32_504
  let v552 : BitVec 32 := Scalar.addi c0_i32_505 v551
  v552.toNat
def k0_off11 (d0 : Dev nD) : Fin 2 → Nat :=
  let c704_i32_517 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c80_i32_516 : BitVec 32 := 80#32
  let v565 : BitVec 32 := Scalar.muli v2 c80_i32_516
  let v566 : BitVec 32 := Scalar.addi c704_i32_517 v565
  let v567 : Index := Scalar.indexCast v566
  let c0_518 : Index := 0#32
  ![v567.toNat, 0]
def k0_off12 (d0 : Dev nD) : Fin 2 → Nat :=
  let c704_i32_529 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c80_i32_528 : BitVec 32 := 80#32
  let v582 : BitVec 32 := Scalar.muli v2 c80_i32_528
  let v583 : BitVec 32 := Scalar.addi c704_i32_529 v582
  let c0_i32_536 : BitVec 32 := 0#32
  ![v583.toNat, 0]
def k0_dev23 (d0 : Dev nD) : Nat :=
  let c0_i32_535 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_525 : BitVec 32 := 1#32
  let v579 : BitVec 32 := Scalar.xori v2 c1_i32_525
  let c1_i32_534 : BitVec 32 := 1#32
  let v584 : BitVec 32 := Scalar.muli v579 c1_i32_534
  let v585 : BitVec 32 := Scalar.addi c0_i32_535 v584
  v585.toNat
def k0_dev24 (d0 : Dev nD) : Nat :=
  let c0_i32_565 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_555 : BitVec 32 := 3#32
  let v612 : BitVec 32 := Scalar.xori v2 c3_i32_555
  let c1_i32_564 : BitVec 32 := 1#32
  let v617 : BitVec 32 := Scalar.muli v612 c1_i32_564
  let v618 : BitVec 32 := Scalar.addi c0_i32_565 v617
  v618.toNat
def k0_dev25 (d0 : Dev nD) : Nat :=
  let c0_i32_597 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_587 : BitVec 32 := 4#32
  let v647 : BitVec 32 := Scalar.xori v2 c4_i32_587
  let c1_i32_596 : BitVec 32 := 1#32
  let v652 : BitVec 32 := Scalar.muli v647 c1_i32_596
  let v653 : BitVec 32 := Scalar.addi c0_i32_597 v652
  v653.toNat
def k0_dev26 (d0 : Dev nD) : Nat :=
  let c0_i32_629 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_619 : BitVec 32 := 1#32
  let v682 : BitVec 32 := Scalar.xori v2 c1_i32_619
  let c1_i32_628 : BitVec 32 := 1#32
  let v687 : BitVec 32 := Scalar.muli v682 c1_i32_628
  let v688 : BitVec 32 := Scalar.addi c0_i32_629 v687
  v688.toNat
def k0_dev27 (d0 : Dev nD) : Nat :=
  let c0_i32_661 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_651 : BitVec 32 := 3#32
  let v717 : BitVec 32 := Scalar.xori v2 c3_i32_651
  let c1_i32_660 : BitVec 32 := 1#32
  let v722 : BitVec 32 := Scalar.muli v717 c1_i32_660
  let v723 : BitVec 32 := Scalar.addi c0_i32_661 v722
  v723.toNat
def k0_dev28 (d0 : Dev nD) : Nat :=
  let c0_i32_699 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_690 : BitVec 32 := 3#32
  let v756 : BitVec 32 := Scalar.xori v2 c3_i32_690
  let c1_i32_698 : BitVec 32 := 1#32
  let v761 : BitVec 32 := Scalar.muli v756 c1_i32_698
  let v762 : BitVec 32 := Scalar.addi c0_i32_699 v761
  v762.toNat
def k0_dev29 (d0 : Dev nD) : Nat :=
  let c0_i32_712 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_703 : BitVec 32 := 1#32
  let v770 : BitVec 32 := Scalar.xori v2 c1_i32_703
  let c1_i32_711 : BitVec 32 := 1#32
  let v775 : BitVec 32 := Scalar.muli v770 c1_i32_711
  let v776 : BitVec 32 := Scalar.addi c0_i32_712 v775
  v776.toNat
def k0_dev30 (d0 : Dev nD) : Nat :=
  let c0_i32_751 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_741 : BitVec 32 := 4#32
  let v809 : BitVec 32 := Scalar.xori v2 c4_i32_741
  let c1_i32_750 : BitVec 32 := 1#32
  let v814 : BitVec 32 := Scalar.muli v809 c1_i32_750
  let v815 : BitVec 32 := Scalar.addi c0_i32_751 v814
  v815.toNat
def k0_dev31 (d0 : Dev nD) : Nat :=
  let c0_i32_765 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_755 : BitVec 32 := 3#32
  let v823 : BitVec 32 := Scalar.xori v2 c3_i32_755
  let c1_i32_764 : BitVec 32 := 1#32
  let v828 : BitVec 32 := Scalar.muli v823 c1_i32_764
  let v829 : BitVec 32 := Scalar.addi c0_i32_765 v828
  v829.toNat
def k0_dev32 (d0 : Dev nD) : Nat :=
  let c0_i32_804 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_794 : BitVec 32 := 1#32
  let v862 : BitVec 32 := Scalar.xori v2 c1_i32_794
  let c1_i32_803 : BitVec 32 := 1#32
  let v867 : BitVec 32 := Scalar.muli v862 c1_i32_803
  let v868 : BitVec 32 := Scalar.addi c0_i32_804 v867
  v868.toNat
def k0_dev33 (d0 : Dev nD) : Nat :=
  let c0_i32_818 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_808 : BitVec 32 := 4#32
  let v876 : BitVec 32 := Scalar.xori v2 c4_i32_808
  let c1_i32_817 : BitVec 32 := 1#32
  let v881 : BitVec 32 := Scalar.muli v876 c1_i32_817
  let v882 : BitVec 32 := Scalar.addi c0_i32_818 v881
  v882.toNat
def k0_dev34 (d0 : Dev nD) : Nat :=
  let c0_i32_855 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_845 : BitVec 32 := 3#32
  let v913 : BitVec 32 := Scalar.xori v2 c3_i32_845
  let c1_i32_854 : BitVec 32 := 1#32
  let v918 : BitVec 32 := Scalar.muli v913 c1_i32_854
  let v919 : BitVec 32 := Scalar.addi c0_i32_855 v918
  v919.toNat
def k0_dev35 (d0 : Dev nD) : Nat :=
  let c0_i32_867 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_858 : BitVec 32 := 1#32
  let v926 : BitVec 32 := Scalar.xori v2 c1_i32_858
  let c1_i32_866 : BitVec 32 := 1#32
  let v931 : BitVec 32 := Scalar.muli v926 c1_i32_866
  let v932 : BitVec 32 := Scalar.addi c0_i32_867 v931
  v932.toNat
def k0_dev36 (d0 : Dev nD) : Nat :=
  let c0_i32_904 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_894 : BitVec 32 := 4#32
  let v963 : BitVec 32 := Scalar.xori v2 c4_i32_894
  let c1_i32_903 : BitVec 32 := 1#32
  let v968 : BitVec 32 := Scalar.muli v963 c1_i32_903
  let v969 : BitVec 32 := Scalar.addi c0_i32_904 v968
  v969.toNat
def k0_dev37 (d0 : Dev nD) : Nat :=
  let c0_i32_917 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_907 : BitVec 32 := 3#32
  let v976 : BitVec 32 := Scalar.xori v2 c3_i32_907
  let c1_i32_916 : BitVec 32 := 1#32
  let v981 : BitVec 32 := Scalar.muli v976 c1_i32_916
  let v982 : BitVec 32 := Scalar.addi c0_i32_917 v981
  v982.toNat
def k0_dev38 (d0 : Dev nD) : Nat :=
  let c0_i32_954 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_944 : BitVec 32 := 1#32
  let v1013 : BitVec 32 := Scalar.xori v2 c1_i32_944
  let c1_i32_953 : BitVec 32 := 1#32
  let v1018 : BitVec 32 := Scalar.muli v1013 c1_i32_953
  let v1019 : BitVec 32 := Scalar.addi c0_i32_954 v1018
  v1019.toNat
def k0_dev39 (d0 : Dev nD) : Nat :=
  let c0_i32_967 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_957 : BitVec 32 := 4#32
  let v1026 : BitVec 32 := Scalar.xori v2 c4_i32_957
  let c1_i32_966 : BitVec 32 := 1#32
  let v1031 : BitVec 32 := Scalar.muli v1026 c1_i32_966
  let v1032 : BitVec 32 := Scalar.addi c0_i32_967 v1031
  v1032.toNat
def k0_dev40 (d0 : Dev nD) : Nat :=
  let c0_i32_988 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_979 : BitVec 32 := 1#32
  let v1046 : BitVec 32 := Scalar.xori v2 c1_i32_979
  let c1_i32_987 : BitVec 32 := 1#32
  let v1051 : BitVec 32 := Scalar.muli v1046 c1_i32_987
  let v1052 : BitVec 32 := Scalar.addi c0_i32_988 v1051
  v1052.toNat
def k0_dev41 (d0 : Dev nD) : Nat :=
  let c0_i32_1010 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1000 : BitVec 32 := 3#32
  let v1066 : BitVec 32 := Scalar.xori v2 c3_i32_1000
  let c1_i32_1009 : BitVec 32 := 1#32
  let v1071 : BitVec 32 := Scalar.muli v1066 c1_i32_1009
  let v1072 : BitVec 32 := Scalar.addi c0_i32_1010 v1071
  v1072.toNat
def k0_dev42 (d0 : Dev nD) : Nat :=
  let c0_i32_1032 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1022 : BitVec 32 := 4#32
  let v1086 : BitVec 32 := Scalar.xori v2 c4_i32_1022
  let c1_i32_1031 : BitVec 32 := 1#32
  let v1091 : BitVec 32 := Scalar.muli v1086 c1_i32_1031
  let v1092 : BitVec 32 := Scalar.addi c0_i32_1032 v1091
  v1092.toNat
def k0_dev43 (d0 : Dev nD) : Nat :=
  let c0_i32_1054 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1045 : BitVec 32 := 1#32
  let v1107 : BitVec 32 := Scalar.xori v2 c1_i32_1045
  let c1_i32_1053 : BitVec 32 := 1#32
  let v1112 : BitVec 32 := Scalar.muli v1107 c1_i32_1053
  let v1113 : BitVec 32 := Scalar.addi c0_i32_1054 v1112
  v1113.toNat
def k0_dev44 (d0 : Dev nD) : Nat :=
  let c0_i32_1077 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1067 : BitVec 32 := 3#32
  let v1128 : BitVec 32 := Scalar.xori v2 c3_i32_1067
  let c1_i32_1076 : BitVec 32 := 1#32
  let v1133 : BitVec 32 := Scalar.muli v1128 c1_i32_1076
  let v1134 : BitVec 32 := Scalar.addi c0_i32_1077 v1133
  v1134.toNat
def k0_dev45 (d0 : Dev nD) : Nat :=
  let c0_i32_1100 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1090 : BitVec 32 := 4#32
  let v1149 : BitVec 32 := Scalar.xori v2 c4_i32_1090
  let c1_i32_1099 : BitVec 32 := 1#32
  let v1154 : BitVec 32 := Scalar.muli v1149 c1_i32_1099
  let v1155 : BitVec 32 := Scalar.addi c0_i32_1100 v1154
  v1155.toNat
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  hamt_3 : (3#32 : BitVec 32).msb = false
  inb_S3x14_S1x1_0_0 : ∀ a, (![0, 0] : Fin 2 → Nat) a + S1x1.size a ≤ S3x14.size a
  squeezes_S1x1_S_ : S1x1.Squeezes S_
  inb_S3x14_S1x1_0_1 : ∀ a, (![0, 1] : Fin 2 → Nat) a + S1x1.size a ≤ S3x14.size a
  inb_S3x14_S1x1_0_2 : ∀ a, (![0, 2] : Fin 2 → Nat) a + S1x1.size a ≤ S3x14.size a
  inb_S3x14_S1x1_0_3 : ∀ a, (![0, 3] : Fin 2 → Nat) a + S1x1.size a ≤ S3x14.size a
  inb_S3x14_S1x1_1_0 : ∀ a, (![1, 0] : Fin 2 → Nat) a + S1x1.size a ≤ S3x14.size a
  inb_S3x14_S1x1_1_1 : ∀ a, (![1, 1] : Fin 2 → Nat) a + S1x1.size a ≤ S3x14.size a
  inb_S3x14_S1x1_1_2 : ∀ a, (![1, 2] : Fin 2 → Nat) a + S1x1.size a ≤ S3x14.size a
  inb_S3x14_S1x1_1_3 : ∀ a, (![1, 3] : Fin 2 → Nat) a + S1x1.size a ≤ S3x14.size a
  inb_S3x14_S1x1_2_0 : ∀ a, (![2, 0] : Fin 2 → Nat) a + S1x1.size a ≤ S3x14.size a
  inb_S3x14_S1x1_2_1 : ∀ a, (![2, 1] : Fin 2 → Nat) a + S1x1.size a ≤ S3x14.size a
  inb_S3x14_S1x1_2_2 : ∀ a, (![2, 2] : Fin 2 → Nat) a + S1x1.size a ≤ S3x14.size a
  inb_S3x14_S1x1_2_3 : ∀ a, (![2, 3] : Fin 2 → Nat) a + S1x1.size a ≤ S3x14.size a
  h_S88x512 : 0 < S88x512.numel
  shapeCasts_S88x512_S88x512 : S88x512.ShapeCasts S88x512
  inb_S3x14_S1x1_0_4 : ∀ a, (![0, 4] : Fin 2 → Nat) a + S1x1.size a ≤ S3x14.size a
  h_S80x512 : 0 < S80x512.numel
  shapeCasts_S80x512_S80x512 : S80x512.ShapeCasts S80x512
  inb_S3x14_S1x1_1_4 : ∀ a, (![1, 4] : Fin 2 → Nat) a + S1x1.size a ≤ S3x14.size a
  inb_S3x14_S1x1_2_4 : ∀ a, (![2, 4] : Fin 2 → Nat) a + S1x1.size a ≤ S3x14.size a
  inb_S3x14_S1x1_0_5 : ∀ a, (![0, 5] : Fin 2 → Nat) a + S1x1.size a ≤ S3x14.size a
  inb_S3x14_S1x1_1_5 : ∀ a, (![1, 5] : Fin 2 → Nat) a + S1x1.size a ≤ S3x14.size a
  inb_S3x14_S1x1_2_5 : ∀ a, (![2, 5] : Fin 2 → Nat) a + S1x1.size a ≤ S3x14.size a
  inb_S3x14_S1x1_0_6 : ∀ a, (![0, 6] : Fin 2 → Nat) a + S1x1.size a ≤ S3x14.size a
  inb_S3x14_S1x1_1_6 : ∀ a, (![1, 6] : Fin 2 → Nat) a + S1x1.size a ≤ S3x14.size a
  inb_S3x14_S1x1_2_6 : ∀ a, (![2, 6] : Fin 2 → Nat) a + S1x1.size a ≤ S3x14.size a
  inb_S3x14_S1x1_0_7 : ∀ a, (![0, 7] : Fin 2 → Nat) a + S1x1.size a ≤ S3x14.size a
  inb_S3x14_S1x1_1_7 : ∀ a, (![1, 7] : Fin 2 → Nat) a + S1x1.size a ≤ S3x14.size a
  inb_S3x14_S1x1_2_7 : ∀ a, (![2, 7] : Fin 2 → Nat) a + S1x1.size a ≤ S3x14.size a
  inb_S3x14_S1x1_0_9 : ∀ a, (![0, 9] : Fin 2 → Nat) a + S1x1.size a ≤ S3x14.size a
  inb_S3x14_S1x1_0_11 : ∀ a, (![0, 11] : Fin 2 → Nat) a + S1x1.size a ≤ S3x14.size a
  inb_S3x14_S1x1_1_9 : ∀ a, (![1, 9] : Fin 2 → Nat) a + S1x1.size a ≤ S3x14.size a
  inb_S3x14_S1x1_1_11 : ∀ a, (![1, 11] : Fin 2 → Nat) a + S1x1.size a ≤ S3x14.size a
  inb_S3x14_S1x1_2_9 : ∀ a, (![2, 9] : Fin 2 → Nat) a + S1x1.size a ≤ S3x14.size a
  inb_S3x14_S1x1_2_11 : ∀ a, (![2, 11] : Fin 2 → Nat) a + S1x1.size a ≤ S3x14.size a
  inb_S3x14_S1x1_0_8 : ∀ a, (![0, 8] : Fin 2 → Nat) a + S1x1.size a ≤ S3x14.size a
  inb_S3x14_S1x1_0_10 : ∀ a, (![0, 10] : Fin 2 → Nat) a + S1x1.size a ≤ S3x14.size a
  inb_S3x14_S1x1_1_8 : ∀ a, (![1, 8] : Fin 2 → Nat) a + S1x1.size a ≤ S3x14.size a
  inb_S3x14_S1x1_1_10 : ∀ a, (![1, 10] : Fin 2 → Nat) a + S1x1.size a ≤ S3x14.size a
  inb_S3x14_S1x1_2_8 : ∀ a, (![2, 8] : Fin 2 → Nat) a + S1x1.size a ≤ S3x14.size a
  inb_S3x14_S1x1_2_10 : ∀ a, (![2, 10] : Fin 2 → Nat) a + S1x1.size a ≤ S3x14.size a
  inb_S3x14_S1x1_0_12 : ∀ a, (![0, 12] : Fin 2 → Nat) a + S1x1.size a ≤ S3x14.size a
  inb_S3x14_S1x1_1_12 : ∀ a, (![1, 12] : Fin 2 → Nat) a + S1x1.size a ≤ S3x14.size a
  inb_S3x14_S1x1_2_12 : ∀ a, (![2, 12] : Fin 2 → Nat) a + S1x1.size a ≤ S3x14.size a
  inb_S3x14_S1x1_0_13 : ∀ a, (![0, 13] : Fin 2 → Nat) a + S1x1.size a ≤ S3x14.size a
  inb_S3x14_S1x1_1_13 : ∀ a, (![1, 13] : Fin 2 → Nat) a + S1x1.size a ≤ S3x14.size a
  inb_S3x14_S1x1_2_13 : ∀ a, (![2, 13] : Fin 2 → Nat) a + S1x1.size a ≤ S3x14.size a
  hcc0_scratch3 : 2 + S3x14.numel ≤ 86
  hcc0_scratch4 : 44 + S3x14.numel ≤ 86
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_off1_inb : ∀ d0 : Dev nD, ∀ (r : Fin 10), ∀ a, (k0_off1 d0 (k0_off1_at r).1 (k0_off1_at r).2.1 (k0_off1_at r).2.2) a + S88x512.size a ≤ S2048x512.size a
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_off2_inb : ∀ d0 : Dev nD, ∀ (r : Fin 5), ∀ a, (k0_off2 d0 (k0_off2_at r).1 (k0_off2_at r).2) a + S80x512.size a ≤ S2048x512.size a
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_off3_inb : ∀ d0 : Dev nD, ∀ (r : Fin 6), ∀ a, (k0_off3 d0 (k0_off3_at r).1 (k0_off3_at r).2) a + S88x512.size a ≤ S2048x512.size a
  k0_off4_inb : ∀ d0 : Dev nD, ∀ (r : Fin 4), ∀ a, (k0_off4 d0 (k0_off4_at r).1 (k0_off4_at r).2) a + S88x512.size a ≤ S2048x512.size a
  k0_dev16_lt : ∀ d0 : Dev nD, (k0_dev16 d0) < nD
  k0_off5_inb : ∀ d0 : Dev nD, ∀ (r : Fin 3), ∀ a, (k0_off5 d0 (k0_off5_at r)) a + S80x512.size a ≤ S2048x512.size a
  k0_off6_inb : ∀ d0 : Dev nD, ∀ (r : Fin 2), ∀ a, (k0_off6 d0 (BitVec.ofNat 32 (1 + 3 * r.val))) a + S80x512.size a ≤ S2048x512.size a
  k0_dev17_lt : ∀ d0 : Dev nD, (k0_dev17 d0) < nD
  k0_dev18_lt : ∀ d0 : Dev nD, (k0_dev18 d0) < nD
  k0_off7_inb : ∀ d0 : Dev nD, ∀ (r : Fin 2), ∀ a, (k0_off7 d0 (k0_off7_at r).1 (k0_off7_at r).2.1 (k0_off7_at r).2.2) a + S88x512.size a ≤ S2048x512.size a
  k0_dev19_lt : ∀ d0 : Dev nD, (k0_dev19 d0) < nD
  k0_off8_inb : ∀ d0 : Dev nD, ∀ a, (k0_off8 d0) a + S80x512.size a ≤ S2048x512.size a
  k0_dev20_lt : ∀ d0 : Dev nD, (k0_dev20 d0) < nD
  k0_dev21_lt : ∀ d0 : Dev nD, (k0_dev21 d0) < nD
  k0_off9_inb : ∀ d0 : Dev nD, ∀ (r : Fin 2), ∀ a, (k0_off9 d0 (BitVec.ofNat 32 (1344 * r.val))) a + S88x512.size a ≤ S2048x512.size a
  k0_off10_inb : ∀ d0 : Dev nD, ∀ (r : Fin 2), ∀ a, (k0_off10 d0 (BitVec.ofNat 32 (1344 * r.val))) a + S88x512.size a ≤ S2048x512.size a
  k0_dev22_lt : ∀ d0 : Dev nD, (k0_dev22 d0) < nD
  k0_off11_inb : ∀ d0 : Dev nD, ∀ a, (k0_off11 d0) a + S80x512.size a ≤ S2048x512.size a
  k0_off12_inb : ∀ d0 : Dev nD, ∀ a, (k0_off12 d0) a + S80x512.size a ≤ S2048x512.size a
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  hstage0_0 : ∀ j, (stage0_0 j).IsWhole
  hstage0_1 : ∀ j, (stage0_1 j).IsWhole

variable [Facts₀]

abbrev cc0_scratch3 : DmaSems sig S3x14 := SemArray.consecutive 2 S3x14 hcc0_scratch3
abbrev cc0_scratch4 : DmaSems sig S3x14 := SemArray.consecutive 44 S3x14 hcc0_scratch4

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16384x512 : Shape := ⟨2, ![16384, 512]⟩
abbrev S8x2048x512 : Shape := ⟨3, ![8, 2048, 512]⟩
abbrev S_ : Shape := ⟨0, ![]⟩
abbrev S2048x512 : Shape := ⟨2, ![2048, 512]⟩

abbrev nBuf : Space → Nat
  | .hbm => 4
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S8x2048x512, .f32⟩
  | .hbm, ⟨2, _⟩ => ⟨S_, .f32⟩
  | .hbm, ⟨3, _⟩ => ⟨S2048x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  shapeCasts_S16384x512_S8x2048x512 : S16384x512.ShapeCasts S8x2048x512
  reducesTo_S8x2048x512_S2048x512_d0 : S8x2048x512.ReducesTo [0] S2048x512
  h_S_ : 0 < S_.numel

variable [Facts₀]

class Facts : Prop extends Facts₀ where

variable [Facts]
-- ==== Proof.Mesh.lean ====
import proofs.«900695_g7700000000000696_dist_ar_v7x_i8_i_m2048_n512_f32_1_alg».proof.Proof.Gen.KernelIdeal

/-!
# The mesh of eight devices as the vector space GF(2)³, and the butterfly's geometry

The kernel is an all-reduce over eight devices in three stages. A device's id is read as three bits;
its partner at a stage is the device whose id differs by that stage's MASK (bitwise exclusive or). The
per-device array of 2048 rows is cut into three BANDS of rows (rows 0–703, 704–1343, 1344–2047), each band
into eight CHUNKS (of 88, 80, 88 rows); band `b` runs the three stages with the masks `(1, 3, 4)` in the
cyclic order `mk b`, so that the three bands load the three links of a device evenly. Since `1, 3, 4`
are linearly independent over GF(2), the eight ids `c ⊕ h` (`h` a sum of a subset of the masks) are all
devices: a chunk is named by the device whose index it carries.

Every transfer of the kernel moves ONE chunk of one band to one partner. There are fourteen per band
(`Fin 14`, the kernel's semaphore slot): `cmask b s` is the chunk it carries RELATIVE TO THE SENDER
(chunk `sender ⊕ cmask b s`), `tmask b s` the partner (`sender ⊕ tmask b s`).
-/

namespace Cert.KernelIdeal.Ar

open Idealize.ShloMosaic Cert.KernelIdeal

/-- Device `c` with the bits of `k` flipped. -/
def xr (c : Dev nD) (k : Fin 8) : Dev nD := ⟨(c.val ^^^ k.val) % 8, Nat.mod_lt _ (by decide)⟩

theorem xr_xr : ∀ (c : Dev nD) (k : Fin 8), xr (xr c k) k = c := by decide
theorem xr_zero : ∀ c : Dev nD, xr c 0 = c := by decide
theorem xr_inj : ∀ (c d : Dev nD) (k : Fin 8), xr c k = xr d k → c = d := by decide
/-- Flipping twice is flipping the sum. -/
theorem xr_xr' : ∀ (c : Dev nD) (j k : Fin 8), xr (xr c j) k = xr c ⟨(j.val ^^^ k.val) % 8, Nat.mod_lt _ (by decide)⟩ := by decide

/-- Flipping by `k` is an involution of the devices. -/
def xrEquiv (k : Fin 8) : Dev nD ≃ Dev nD := ⟨fun c => xr c k, fun c => xr c k, fun c => xr_xr c k, fun c => xr_xr c k⟩

/-- The three masks of band `b`, in the order of its stages. -/
def mk : Fin 3 → Fin 3 → Fin 8 := ![![1, 3, 4], ![3, 4, 1], ![4, 1, 3]]

/-- The masks of the entry handshake: each device signals these three partners. -/
def bmask : Fin 3 → Fin 8 := ![1, 3, 4]

/-- First row of band `b`, and the rows of one of its chunks. -/
def base : Fin 3 → Nat := ![0, 704, 1344]
def rws : Fin 3 → Nat := ![88, 80, 88]

/-- Which of the band's three masks `(m₁, m₂, m₃)` slot `s`'s chunk is away from its sender: the first stage sends the four
    chunks `m₁ ⊕ {m₂, m₂ ⊕ m₃, 0, m₃}` (slots 0–3), the second the partial sums of chunks `m₂`, `m₂ ⊕ m₃` (slots 4, 5), the
    third those of the sender's own chunk and of chunk `m₃` (slots 6, 7); the finished chunks `0` and `m₃` then go to the
    second-stage partner (slots 8, 9) and to the first-stage partner (slots 10, 11), which also gets the two chunks that
    arrived from the second-stage partner, `m₂` and `m₂ ⊕ m₃` (slots 12, 13). -/
def csel : Fin 14 → Bool × Bool × Bool :=
  ![(true, true, false), (true, true, true), (true, false, false), (true, false, true),
    (false, true, false), (false, true, true),
    (false, false, false), (false, false, true),
    (false, false, false), (false, false, true), (false, false, false), (false, false, true),
    (false, true, false), (false, true, true)]

/-- The stage whose partner slot `s` goes to (0, 1, 2 for `m₁, m₂, m₃`). -/
def tsel : Fin 14 → Fin 3 := ![0, 0, 0, 0, 1, 1, 2, 2, 1, 1, 0, 0, 0, 0]

/-- A mask if selected, else nothing. -/
def selMask (e : Bool) (m : Fin 8) : Nat := if e then m.val else 0

/-- The chunk a transfer carries, relative to its sender. -/
def cmask (b : Fin 3) (s : Fin 14) : Fin 8 :=
  ⟨(selMask (csel s).1 (mk b 0) ^^^ selMask (csel s).2.1 (mk b 1) ^^^ selMask (csel s).2.2 (mk b 2)) % 8, Nat.mod_lt _ (by decide)⟩

/-- The partner a transfer goes to, relative to its sender. -/
def tmask (b : Fin 3) (s : Fin 14) : Fin 8 := mk b (tsel s)

/-- Offset of chunk `k` of band `b` in the array of 2048 × 512. -/
def coff (b : Fin 3) (k : Dev nD) : Fin 2 → Nat := ![base b + rws b * k.val, 0]

/-- Extent of a chunk of band `b`. -/
def csz (b : Fin 3) : Fin 2 → Nat := ![rws b, 512]

theorem coff_inb : ∀ (b : Fin 3) (k : Dev nD) (a : Fin 2), coff b k a + csz b a ≤ S2048x512.size a := by decide

/-- The chunks of one band do not overlap, and the bands follow one another: chunk `(b, k)` is rows
    `base b + rws b * k` up to `base b + rws b * (k + 1)`, below the next chunk's first row. -/
theorem chunk_next : ∀ (b : Fin 3) (k : Dev nD), base b + rws b * (k.val + 1) ≤ 2048 := by decide
theorem band_next : base 0 + rws 0 * 8 = base 1 ∧ base 1 + rws 1 * 8 = base 2 ∧ base 2 + rws 2 * 8 = 2048 := by decide

end Cert.KernelIdeal.Ar
-- ==== Proof.Vals.lean ====
import proofs.«900695_g7700000000000696_dist_ar_v7x_i8_i_m2048_n512_f32_1_alg».proof.Proof.Mesh
import Idealize.ShloMosaic.PureOps.Vector

/-!
# What the butterfly computes, as whole-array functions

`X c` is device `c`'s block of the input, an array of 2048 × 512. In band `b` with masks `(m₁, m₂, m₃)`:
after the first stage a device holds `A1 b c = X c + X (c ⊕ m₁)` on the four chunks it keeps, after the second
`A2 b c = A1 b c + A1 b (c ⊕ m₂)` on two of them, after the third `A3 b c = A2 b c + A2 b (c ⊕ m₃)`, the sum over all
eight devices in one particular bracketing, on its own chunk and on chunk `c ⊕ m₃`. The all-gather then copies
finished chunks around unchanged, so chunk `k` of device `c`'s result is `A3 b d` for the device `d = srcDev b c k`
that finished the copy which reached `c`: `k` itself when `c ⊕ k` is a sum of `m₁, m₂` only, else `k ⊕ m₃`.
The sums are written with the element type's own addition, in the order the kernel adds (`x + r₁`, then `+ r₂`,
then `+ r₃`), so the same text reads at the word-level instance and at the extended reals.
-/

noncomputable section

namespace Cert.KernelIdeal.Ar

open Idealize.ShloMosaic Cert.KernelIdeal

variable {F : FTy → Type} [FloatOps F]

/-- A device's array of 2048 × 512. -/
abbrev Arr (F : FTy → Type) : Type := FVec F S2048x512 .f32

/-- The three partial sums of band `b` at device `c`, as whole arrays (only the band's rows are ever read). -/
def A1 (X : Dev nD → Arr F) (b : Fin 3) (c : Dev nD) : Arr F := addf (X c) (X (xr c (mk b 0)))
def A2 (X : Dev nD → Arr F) (b : Fin 3) (c : Dev nD) : Arr F := addf (A1 X b c) (A1 X b (xr c (mk b 1)))
def A3 (X : Dev nD → Arr F) (b : Fin 3) (c : Dev nD) : Arr F := addf (A2 X b c) (A2 X b (xr c (mk b 2)))

/-- The band a row lies in, and its chunk within the band. -/
def bandOf (r : Nat) : Fin 3 := if r < 704 then 0 else if r < 1344 then 1 else 2
def chunkOf (r : Nat) : Dev nD := ⟨((r - base (bandOf r)) / rws (bandOf r)) % 8, Nat.mod_lt _ (by decide)⟩

/-- `h` is a sum of the first two masks of band `b` only. -/
def inSpan12 (b : Fin 3) (h : Fin 8) : Bool :=
  decide (h = 0 ∨ h = mk b 0 ∨ h = mk b 1 ∨ h.val = (mk b 0).val ^^^ (mk b 1).val)

/-- The device whose finished sum ends in chunk `k` of device `c`'s result. -/
def srcDev (b : Fin 3) (c k : Dev nD) : Dev nD :=
  if inSpan12 b ⟨(c.val ^^^ k.val) % 8, Nat.mod_lt _ (by decide)⟩ then k else xr k (mk b 2)

/-- Device `c`'s result array when the kernel returns. -/
def outAt (X : Dev nD → Arr F) (c : Dev nD) : Arr F :=
  fun i => A3 X (bandOf (i 0).val) (srcDev (bandOf (i 0).val) c (chunkOf (i 0).val)) i

end Cert.KernelIdeal.Ar

end
-- ==== Proof.MeshTab.lean ====
import proofs.«900695_g7700000000000696_dist_ar_v7x_i8_i_m2048_n512_f32_1_alg».proof.Proof.Mesh

/-! The printed device chains and chunk offsets in closed form: device `c`'s partner is `c` with a mask's bits flipped, and
    every offset the body computes is the first row of a chunk `(band, c ⊕ h)`. One equation per printed function and
    parameter tuple, each decided over the eight devices. -/

namespace Cert.KernelIdeal.Ar

open Idealize.ShloMosaic Cert.KernelIdeal Cert.KernelIdeal.Gen

theorem dev1_eq : ∀ c : Dev nD, (⟨k0_dev1 c, Gen.k0_dev1_lt c⟩ : Dev nD) = xr c 1 := by decide +kernel
theorem dev2_eq : ∀ c : Dev nD, (⟨k0_dev2 c, Gen.k0_dev2_lt c⟩ : Dev nD) = xr c 3 := by decide +kernel
theorem dev3_eq : ∀ c : Dev nD, (⟨k0_dev3 c, Gen.k0_dev3_lt c⟩ : Dev nD) = xr c 4 := by decide +kernel
theorem dev4_eq : ∀ c : Dev nD, (⟨k0_dev4 c, Gen.k0_dev4_lt c⟩ : Dev nD) = xr c 1 := by decide +kernel
theorem dev5_eq : ∀ c : Dev nD, (⟨k0_dev5 c, Gen.k0_dev5_lt c⟩ : Dev nD) = xr c 1 := by decide +kernel
theorem dev6_eq : ∀ c : Dev nD, (⟨k0_dev6 c, Gen.k0_dev6_lt c⟩ : Dev nD) = xr c 1 := by decide +kernel
theorem dev7_eq : ∀ c : Dev nD, (⟨k0_dev7 c, Gen.k0_dev7_lt c⟩ : Dev nD) = xr c 1 := by decide +kernel
theorem dev8_eq : ∀ c : Dev nD, (⟨k0_dev8 c, Gen.k0_dev8_lt c⟩ : Dev nD) = xr c 3 := by decide +kernel
theorem dev9_eq : ∀ c : Dev nD, (⟨k0_dev9 c, Gen.k0_dev9_lt c⟩ : Dev nD) = xr c 3 := by decide +kernel
theorem dev10_eq : ∀ c : Dev nD, (⟨k0_dev10 c, Gen.k0_dev10_lt c⟩ : Dev nD) = xr c 3 := by decide +kernel
theorem dev11_eq : ∀ c : Dev nD, (⟨k0_dev11 c, Gen.k0_dev11_lt c⟩ : Dev nD) = xr c 3 := by decide +kernel
theorem dev12_eq : ∀ c : Dev nD, (⟨k0_dev12 c, Gen.k0_dev12_lt c⟩ : Dev nD) = xr c 4 := by decide +kernel
theorem dev13_eq : ∀ c : Dev nD, (⟨k0_dev13 c, Gen.k0_dev13_lt c⟩ : Dev nD) = xr c 4 := by decide +kernel
theorem dev14_eq : ∀ c : Dev nD, (⟨k0_dev14 c, Gen.k0_dev14_lt c⟩ : Dev nD) = xr c 4 := by decide +kernel
theorem dev15_eq : ∀ c : Dev nD, (⟨k0_dev15 c, Gen.k0_dev15_lt c⟩ : Dev nD) = xr c 4 := by decide +kernel
theorem dev16_eq : ∀ c : Dev nD, (⟨k0_dev16 c, Gen.k0_dev16_lt c⟩ : Dev nD) = xr c 3 := by decide +kernel
theorem dev17_eq : ∀ c : Dev nD, (⟨k0_dev17 c, Gen.k0_dev17_lt c⟩ : Dev nD) = xr c 4 := by decide +kernel
theorem dev18_eq : ∀ c : Dev nD, (⟨k0_dev18 c, Gen.k0_dev18_lt c⟩ : Dev nD) = xr c 1 := by decide +kernel
theorem dev19_eq : ∀ c : Dev nD, (⟨k0_dev19 c, Gen.k0_dev19_lt c⟩ : Dev nD) = xr c 3 := by decide +kernel
theorem dev20_eq : ∀ c : Dev nD, (⟨k0_dev20 c, Gen.k0_dev20_lt c⟩ : Dev nD) = xr c 4 := by decide +kernel
theorem dev21_eq : ∀ c : Dev nD, (⟨k0_dev21 c, Gen.k0_dev21_lt c⟩ : Dev nD) = xr c 1 := by decide +kernel
theorem dev22_eq : ∀ c : Dev nD, (⟨k0_dev22 c, Gen.k0_dev22_lt c⟩ : Dev nD) = xr c 4 := by decide +kernel
theorem dev23_eq : ∀ c : Dev nD, (⟨k0_dev23 c, Gen.k0_dev23_lt c⟩ : Dev nD) = xr c 1 := by decide +kernel
theorem dev24_eq : ∀ c : Dev nD, (⟨k0_dev24 c, Gen.k0_dev24_lt c⟩ : Dev nD) = xr c 3 := by decide +kernel
theorem dev25_eq : ∀ c : Dev nD, (⟨k0_dev25 c, Gen.k0_dev25_lt c⟩ : Dev nD) = xr c 4 := by decide +kernel
theorem dev26_eq : ∀ c : Dev nD, (⟨k0_dev26 c, Gen.k0_dev26_lt c⟩ : Dev nD) = xr c 1 := by decide +kernel
theorem dev27_eq : ∀ c : Dev nD, (⟨k0_dev27 c, Gen.k0_dev27_lt c⟩ : Dev nD) = xr c 3 := by decide +kernel
theorem dev28_eq : ∀ c : Dev nD, (⟨k0_dev28 c, Gen.k0_dev28_lt c⟩ : Dev nD) = xr c 3 := by decide +kernel
theorem dev29_eq : ∀ c : Dev nD, (⟨k0_dev29 c, Gen.k0_dev29_lt c⟩ : Dev nD) = xr c 1 := by decide +kernel
theorem dev30_eq : ∀ c : Dev nD, (⟨k0_dev30 c, Gen.k0_dev30_lt c⟩ : Dev nD) = xr c 4 := by decide +kernel
theorem dev31_eq : ∀ c : Dev nD, (⟨k0_dev31 c, Gen.k0_dev31_lt c⟩ : Dev nD) = xr c 3 := by decide +kernel
theorem dev32_eq : ∀ c : Dev nD, (⟨k0_dev32 c, Gen.k0_dev32_lt c⟩ : Dev nD) = xr c 1 := by decide +kernel
theorem dev33_eq : ∀ c : Dev nD, (⟨k0_dev33 c, Gen.k0_dev33_lt c⟩ : Dev nD) = xr c 4 := by decide +kernel
theorem dev34_eq : ∀ c : Dev nD, (⟨k0_dev34 c, Gen.k0_dev34_lt c⟩ : Dev nD) = xr c 3 := by decide +kernel
theorem dev35_eq : ∀ c : Dev nD, (⟨k0_dev35 c, Gen.k0_dev35_lt c⟩ : Dev nD) = xr c 1 := by decide +kernel
theorem dev36_eq : ∀ c : Dev nD, (⟨k0_dev36 c, Gen.k0_dev36_lt c⟩ : Dev nD) = xr c 4 := by decide +kernel
theorem dev37_eq : ∀ c : Dev nD, (⟨k0_dev37 c, Gen.k0_dev37_lt c⟩ : Dev nD) = xr c 3 := by decide +kernel
theorem dev38_eq : ∀ c : Dev nD, (⟨k0_dev38 c, Gen.k0_dev38_lt c⟩ : Dev nD) = xr c 1 := by decide +kernel
theorem dev39_eq : ∀ c : Dev nD, (⟨k0_dev39 c, Gen.k0_dev39_lt c⟩ : Dev nD) = xr c 4 := by decide +kernel
theorem dev40_eq : ∀ c : Dev nD, (⟨k0_dev40 c, Gen.k0_dev40_lt c⟩ : Dev nD) = xr c 1 := by decide +kernel
theorem dev41_eq : ∀ c : Dev nD, (⟨k0_dev41 c, Gen.k0_dev41_lt c⟩ : Dev nD) = xr c 3 := by decide +kernel
theorem dev42_eq : ∀ c : Dev nD, (⟨k0_dev42 c, Gen.k0_dev42_lt c⟩ : Dev nD) = xr c 4 := by decide +kernel
theorem dev43_eq : ∀ c : Dev nD, (⟨k0_dev43 c, Gen.k0_dev43_lt c⟩ : Dev nD) = xr c 1 := by decide +kernel
theorem dev44_eq : ∀ c : Dev nD, (⟨k0_dev44 c, Gen.k0_dev44_lt c⟩ : Dev nD) = xr c 3 := by decide +kernel
theorem dev45_eq : ∀ c : Dev nD, (⟨k0_dev45 c, Gen.k0_dev45_lt c⟩ : Dev nD) = xr c 4 := by decide +kernel

theorem off1_0_1_3_eq : ∀ c : Dev nD, k0_off1 c 0#32 1#32 3#32 = coff 0 (xr c 2) := by decide +kernel
theorem off1_0_1_7_eq : ∀ c : Dev nD, k0_off1 c 0#32 1#32 7#32 = coff 0 (xr c 6) := by decide +kernel
theorem off1_0_1_0_eq : ∀ c : Dev nD, k0_off1 c 0#32 1#32 0#32 = coff 0 (xr c 1) := by decide +kernel
theorem off1_0_1_4_eq : ∀ c : Dev nD, k0_off1 c 0#32 1#32 4#32 = coff 0 (xr c 5) := by decide +kernel
theorem off2_3_4_eq : ∀ c : Dev nD, k0_off2 c 3#32 4#32 = coff 1 (xr c 7) := by decide +kernel
theorem off2_3_5_eq : ∀ c : Dev nD, k0_off2 c 3#32 5#32 = coff 1 (xr c 6) := by decide +kernel
theorem off2_3_0_eq : ∀ c : Dev nD, k0_off2 c 3#32 0#32 = coff 1 (xr c 3) := by decide +kernel
theorem off2_3_1_eq : ∀ c : Dev nD, k0_off2 c 3#32 1#32 = coff 1 (xr c 2) := by decide +kernel
theorem off1_1344_4_1_eq : ∀ c : Dev nD, k0_off1 c 1344#32 4#32 1#32 = coff 2 (xr c 5) := by decide +kernel
theorem off1_1344_4_2_eq : ∀ c : Dev nD, k0_off1 c 1344#32 4#32 2#32 = coff 2 (xr c 6) := by decide +kernel
theorem off1_1344_4_0_eq : ∀ c : Dev nD, k0_off1 c 1344#32 4#32 0#32 = coff 2 (xr c 4) := by decide +kernel
theorem off1_1344_4_3_eq : ∀ c : Dev nD, k0_off1 c 1344#32 4#32 3#32 = coff 2 (xr c 7) := by decide +kernel
theorem off3_0_3_eq : ∀ c : Dev nD, k0_off3 c 0#32 3#32 = coff 0 (xr c 3) := by decide +kernel
theorem off4_0_3_eq : ∀ c : Dev nD, k0_off4 c 0#32 3#32 = coff 0 (xr c 3) := by decide +kernel
theorem off5_4_eq : ∀ c : Dev nD, k0_off5 c 4#32 = coff 1 (xr c 4) := by decide +kernel
theorem off6_4_eq : ∀ c : Dev nD, k0_off6 c 4#32 = coff 1 (xr c 4) := by decide +kernel
theorem off3_1344_1_eq : ∀ c : Dev nD, k0_off3 c 1344#32 1#32 = coff 2 (xr c 1) := by decide +kernel
theorem off4_1344_1_eq : ∀ c : Dev nD, k0_off4 c 1344#32 1#32 = coff 2 (xr c 1) := by decide +kernel
theorem off7_0_3_4_eq : ∀ c : Dev nD, k0_off7 c 0#32 3#32 4#32 = coff 0 (xr c 7) := by decide +kernel
theorem off1_0_3_4_eq : ∀ c : Dev nD, k0_off1 c 0#32 3#32 4#32 = coff 0 (xr c 7) := by decide +kernel
theorem off8_eq : ∀ c : Dev nD, k0_off8 c = coff 1 (xr c 5) := by decide +kernel
theorem off2_4_1_eq : ∀ c : Dev nD, k0_off2 c 4#32 1#32 = coff 1 (xr c 5) := by decide +kernel
theorem off7_1344_1_3_eq : ∀ c : Dev nD, k0_off7 c 1344#32 1#32 3#32 = coff 2 (xr c 2) := by decide +kernel
theorem off1_1344_1_3_eq : ∀ c : Dev nD, k0_off1 c 1344#32 1#32 3#32 = coff 2 (xr c 2) := by decide +kernel
theorem off3_0_0_eq : ∀ c : Dev nD, k0_off3 c 0#32 0#32 = coff 0 (xr c 0) := by decide +kernel
theorem off3_0_4_eq : ∀ c : Dev nD, k0_off3 c 0#32 4#32 = coff 0 (xr c 4) := by decide +kernel
theorem off5_0_eq : ∀ c : Dev nD, k0_off5 c 0#32 = coff 1 (xr c 0) := by decide +kernel
theorem off5_1_eq : ∀ c : Dev nD, k0_off5 c 1#32 = coff 1 (xr c 1) := by decide +kernel
theorem off3_1344_0_eq : ∀ c : Dev nD, k0_off3 c 1344#32 0#32 = coff 2 (xr c 0) := by decide +kernel
theorem off3_1344_3_eq : ∀ c : Dev nD, k0_off3 c 1344#32 3#32 = coff 2 (xr c 3) := by decide +kernel
theorem off9_0_eq : ∀ c : Dev nD, k0_off9 c 0#32 = coff 0 (xr c 0) := by decide +kernel
theorem off10_0_eq : ∀ c : Dev nD, k0_off10 c 0#32 = coff 0 (xr c 0) := by decide +kernel
theorem off11_eq : ∀ c : Dev nD, k0_off11 c = coff 1 (xr c 0) := by decide +kernel
theorem off12_eq : ∀ c : Dev nD, k0_off12 c = coff 1 (xr c 0) := by decide +kernel
theorem off9_1344_eq : ∀ c : Dev nD, k0_off9 c 1344#32 = coff 2 (xr c 0) := by decide +kernel
theorem off10_1344_eq : ∀ c : Dev nD, k0_off10 c 1344#32 = coff 2 (xr c 0) := by decide +kernel
theorem off4_0_4_eq : ∀ c : Dev nD, k0_off4 c 0#32 4#32 = coff 0 (xr c 4) := by decide +kernel
theorem off6_1_eq : ∀ c : Dev nD, k0_off6 c 1#32 = coff 1 (xr c 1) := by decide +kernel
theorem off4_1344_3_eq : ∀ c : Dev nD, k0_off4 c 1344#32 3#32 = coff 2 (xr c 3) := by decide +kernel

end Cert.KernelIdeal.Ar
-- ==== Proof.Sched.lean ====
import proofs.«900695_g7700000000000696_dist_ar_v7x_i8_i_m2048_n512_f32_1_alg».proof.Proof.Vals
import proofs.«900695_g7700000000000696_dist_ar_v7x_i8_i_m2048_n512_f32_1_alg».proof.Proof.MeshTab
import proofs.«900695_g7700000000000696_dist_ar_v7x_i8_i_m2048_n512_f32_1_alg».proof.Proof.Gen.KernelIdeal.Launch
import Idealize.ShloMosaic.Lib.Pipeline.Launch
import Idealize.ShloMosaic.Lib.Pipeline.Kit
import Idealize.ShloMosaic.Lib.Tactic

/-!
# The butterfly's protocol under the rounds discipline

Cells. Each device has the barrier semaphore (three duties in its one round: one unit from each of its three
partners), and per band and slot a SEND semaphore and a RECEIVE semaphore (one duty each: the transfer of that
slot, which credits the sender's send cell once its source chunk is read and the receiver's receive cell once the
chunk has landed).

What moves. A chunk of a buffer is owned through `cown`: device `p` owns chunk `k` of band `b` of the buffer `M`
at share `q`, and it holds the rows of the whole-array function `G` there. The payload of a receive cell is the
landed chunk at the value the sender's source held (`cval`): the sender's input in the first stage, its partial sums
`A1`, `A2` in the second and third, a finished sum `A3` in the all-gather. Slots 4 and 5 also hand the receiver the
SOURCE chunk (a chunk of the sender's result buffer): the receiver later writes the finished sum into exactly that
chunk (slots 8, 9), and the sender never touches it in between. The payload of a send cell is the source chunk back
(nothing for slots 4, 5). The payload of barrier duty `j` of device `p` is every chunk of partner `p ⊕ bmask j`'s
scratch and result buffers that `p`'s transfers to that partner will land in, at whatever they hold.
-/

noncomputable section

namespace Cert.KernelIdeal.Ar

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's (duty names `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Buffers and chunks -/

abbrev MX : Memref sig .tc .vmem S2048x512 .f32 := Memref.whole cc0_stg0_0
abbrev MO : Memref sig .tc .vmem S2048x512 .f32 := Memref.whole cc0_stg1_0
abbrev MR1 : Memref sig .tc .vmem S2048x512 .f32 := Memref.whole cc0_scratch0
abbrev MR2 : Memref sig .tc .vmem S2048x512 .f32 := Memref.whole cc0_scratch1
abbrev MR3 : Memref sig .tc .vmem S2048x512 .f32 := Memref.whole cc0_scratch2

/-- The buffer a slot's transfer reads, and the one it lands in (on the partner). -/
def srcM : Fin 14 → Memref sig .tc .vmem S2048x512 .f32 := ![MX, MX, MX, MX, MO, MO, MO, MO, MO, MO, MO, MO, MO, MO]
def dstM : Fin 14 → Memref sig .tc .vmem S2048x512 .f32 := ![MR1, MR1, MR1, MR1, MR2, MR2, MR3, MR3, MO, MO, MO, MO, MO, MO]

/-- The rows of chunk `k` of band `b`. -/
abbrev crect (b : Fin 3) (k : Dev nD) : Rect S2048x512 := Rect.unit (s := S2048x512) (coff b k) (csz b) (coff_inb b k)

/-- Chunk `k` of band `b` of a buffer, as a memref. -/
abbrev chunkM (M : Memref sig .tc .vmem S2048x512 .f32) (b : Fin 3) (k : Dev nD) : Memref sig .tc .vmem (crect b k).shape .f32 :=
  M.slice (crect b k) (fun _ => rfl)

/-- Device `p` owns chunk `k` of band `b` of `M` at share `q`, holding the rows of `G` there. -/
def cown (p : Dev nD) (M : Memref sig .tc .vmem S2048x512 .f32) (b : Fin 3) (k : Dev nD) (q : PosShare TreeShare) (G : Arr F) : sProp 𝕄 :=
  owns (p : Thread nD τ) (chunkM M b k) q (fun j => G ((crect b k).emb j))

/-- The same at some contents, outright. -/
def cownAny (p : Dev nD) (M : Memref sig .tc .vmem S2048x512 .f32) (b : Fin 3) (k : Dev nD) : sProp 𝕄 :=
  iprop(∃ G : Arr F, cown p M b k fullShare G)

instance cown_storable (p : Dev nD) (M) (b k q) (G : Arr F) : BI.Storable (upEmb : UEmb _ 𝕄) (cown p M b k q G) := by
  unfold cown; infer_instance
instance cownAny_storable (p : Dev nD) (M) (b k) : BI.Storable (upEmb : UEmb _ 𝕄) (cownAny (F := F) p M b k) := by
  unfold cownAny; infer_instance

/-! ## Semaphores and cells -/

theorem slot_inb : ∀ (b : Fin 3) (s : Fin 14) (a : Fin 2), (![b.val, s.val] : Fin 2 → Nat) a + S1x1.size a ≤ S3x14.size a := by decide

/-- The send and the receive DMA semaphore of band `b`, slot `s`. -/
def sendS (b : Fin 3) (s : Fin 14) : DmaSem sig :=
  ((cc0_scratch3.slice (Rect.unit (s := S3x14) ![b.val, s.val] S1x1.size (slot_inb b s))).squeeze S_ squeezes_S1x1_S_).sem
def recvS (b : Fin 3) (s : Fin 14) : DmaSem sig :=
  ((cc0_scratch4.slice (Rect.unit (s := S3x14) ![b.val, s.val] S1x1.size (slot_inb b s))).squeeze S_ squeezes_S1x1_S_).sem

theorem sendS_val : ∀ (b : Fin 3) (s : Fin 14), (sendS b s).val = 2 + 14 * b.val + s.val := by decide
theorem recvS_val : ∀ (b : Fin 3) (s : Fin 14), (recvS b s).val = 44 + 14 * b.val + s.val := by decide

/-- The runtime's barrier semaphore of this collective. -/
abbrev barS : Sem sig := (SemArray.scalar (sig.barrier 0 rfl) : Sems sig S_).sem

abbrev barCell (c : Dev nD) : GSem nD τ sig := ((c : Thread nD τ), .reg barS)
abbrev sendCell (c : Dev nD) (b : Fin 3) (s : Fin 14) : GSem nD τ sig := ((c : Thread nD τ), .dma (sendS b s))
abbrev recvCell (c : Dev nD) (b : Fin 3) (s : Fin 14) : GSem nD τ sig := ((c : Thread nD τ), .dma (recvS b s))

theorem chunk_numel_pos : ∀ (b : Fin 3) (k : Dev nD), 0 < (crect b k).shape.numel := by decide

/-- The credit of a slot's transfer: its destination chunk's. -/
def Namt (b : Fin 3) (s : Fin 14) : ℕ := (chunkM (dstM s) b 0).view.dmaCredit

/-! ## Values carried -/

variable (X : Dev nD → Arr F)

/-- What the source chunk of slot `s` of band `b` holds on the sender `d` when the transfer is issued. -/
def cval (b : Fin 3) (s : Fin 14) (d : Dev nD) : Arr F :=
  if s.val < 4 then X d else if s.val < 6 then A1 X b d else if s.val < 8 then A2 X b d
  else if s.val < 12 then A3 X b d else A3 X b (xr d (mk b 1))

/-- The chunk a slot lands in, relative to the RECEIVER. -/
def rmask (b : Fin 3) (s : Fin 14) : Fin 8 := ⟨((tmask b s).val ^^^ (cmask b s).val) % 8, Nat.mod_lt _ (by decide)⟩

/-- The share of its source chunk a slot's transfer borrows: the finished chunks are sent twice at once. -/
def sshare (s : Fin 14) : PosShare TreeShare :=
  if s.val = 8 ∨ s.val = 9 then fullShare.left else if s.val = 10 ∨ s.val = 11 then fullShare.right else fullShare

/-- Slots whose source chunk travels with the landing. -/
def withSrc (s : Fin 14) : Bool := decide (s.val = 4 ∨ s.val = 5)

/-- Receive cell of device `p`: the landed chunk at the sender's value; for slots 4, 5 also the sender's source chunk. -/
def recvPay (p : Dev nD) (b : Fin 3) (s : Fin 14) : sProp 𝕄 :=
  iprop(cown p (dstM s) b (xr p (rmask b s)) fullShare (cval X b s (xr p (tmask b s)))
    ∗ (if withSrc s then cown (xr p (tmask b s)) MO b (xr p (rmask b s)) fullShare (cval X b s (xr p (tmask b s))) else iprop(emp)))

/-- Send cell of device `p`: the source chunk back (nothing for slots 4, 5). -/
def sendPay (p : Dev nD) (b : Fin 3) (s : Fin 14) : sProp 𝕄 :=
  if withSrc s then iprop(emp) else cown p (srcM s) b (xr p (cmask b s)) (sshare s) (cval X b s p)

/-- The (band, slot) pairs of the transfers a device sends to its partner by mask `bmask j`, whose destination
    chunks the partner hands over at the entry handshake (all but slots 8, 9). -/
def handed (j : Fin 3) : Finset (Fin 3 × Fin 14) :=
  Finset.univ.filter fun bs => tmask bs.1 bs.2 = bmask j ∧ bs.2.val ≠ 8 ∧ bs.2.val ≠ 9

/-- Barrier duty `j` of device `p`, paid by partner `n = p ⊕ bmask j`: the chunks of `n`'s buffers that `p`'s transfers to `n`
    land in. -/
def barPay (p : Dev nD) (j : Fin 3) : sProp 𝕄 :=
  bigSep (handed j) fun bs => cownAny (F := F) (xr p (bmask j)) (dstM bs.2) bs.1 (xr p (cmask bs.1 bs.2))

/-! ## The schedule -/

/-- Which cell a DMA semaphore is: a send cell `(b, s)`, a receive cell, or none of the protocol's. -/
def isSend (q : DmaSem sig) : Prop := 2 ≤ q.val ∧ q.val < 44
def isRecv (q : DmaSem sig) : Prop := 44 ≤ q.val
instance (q : DmaSem sig) : Decidable (isSend q) := by unfold isSend; infer_instance
instance (q : DmaSem sig) : Decidable (isRecv q) := by unfold isRecv; infer_instance
def bandOfSem (q : DmaSem sig) (base : Nat) : Fin 3 := ⟨((q.val - base) / 14) % 3, Nat.mod_lt _ (by decide)⟩
def slotOfSem (q : DmaSem sig) (base : Nat) : Fin 14 := ⟨(q.val - base) % 14, Nat.mod_lt _ (by decide)⟩

def arRd : Rounds.Schedule (GSem nD τ sig) (Fin 3) 𝕄 where
  duties g r :=
    if r = 0 ∧ g.1.2 = .tc then
      match g.2 with
      | .reg s => if s = barS then Finset.univ else ∅
      | .dma q => if isSend q ∨ isRecv q then {0} else ∅
    else ∅
  unitless _ := False
  amount g _ _ :=
    match g.2 with
    | .reg _ => 1
    | .dma q => if isRecv q then Namt (bandOfSem q 44) (slotOfSem q 44) else if isSend q then Namt (bandOfSem q 2) (slotOfSem q 2) else 1
  payload g _ d :=
    match g.2 with
    | .reg _ => barPay g.1.1 d
    | .dma q => if isRecv q then recvPay X g.1.1 (bandOfSem q 44) (slotOfSem q 44)
                else if isSend q then sendPay X g.1.1 (bandOfSem q 2) (slotOfSem q 2) else iprop(emp)
  amount_pos g _ _ _ := by
    rcases g with ⟨t, (s | q)⟩
    · exact Nat.one_pos
    · dsimp only
      split
      · exact View.dmaCredit_pos _ (chunk_numel_pos _ _)
      · split
        · exact View.dmaCredit_pos _ (chunk_numel_pos _ _)
        · exact Nat.one_pos

end Cert.KernelIdeal.Ar

end
-- ==== Proof.Iface.lean ====
import proofs.«900695_g7700000000000696_dist_ar_v7x_i8_i_m2048_n512_f32_1_alg».proof.Proof.Vals
import proofs.«900695_g7700000000000696_dist_ar_v7x_i8_i_m2048_n512_f32_1_alg».proof.Defs

/-!
# The kernel's run, as the launch states it and the claims use it

`Xof m c` is device `c`'s block of the input as the memory `m` holds it at launch; `RunPost m` says of a final state
that every device's result array holds `outAt` of those blocks and its input block is unchanged.
-/

noncomputable section

namespace Cert.KernelIdeal.Ar

open Idealize.ShloMosaic Idealize.SL.Sem Cert.KernelIdeal

variable {F : FTy → Type} [FloatOps F]

/-- Device `c`'s block of the input at launch. -/
def Xof (m : (ℓ : Loc nD τ sig) → Buf (Elt F) ℓ) (c : Dev nD) : Arr F := m ((c.tc : Thread nD τ).loc main_arg0)

/-- What the kernel's run leaves: on every device the result array is the butterfly's value of the launch-time input
    blocks, and the input block is as it was. -/
def RunPost (m : (ℓ : Loc nD τ sig) → Buf (Elt F) ℓ) (r : PUnit × MemSt nD τ sig (Elt F)) : Prop :=
  ∀ c : Dev nD,
    r.2.mem ((c.tc : Thread nD τ).loc main_v1) = (outAt (Xof m) c : Buf (Elt F) ((c.tc : Thread nD τ).loc main_v1))
    ∧ r.2.mem ((c.tc : Thread nD τ).loc main_arg0) = m ((c.tc : Thread nD τ).loc main_arg0)

end Cert.KernelIdeal.Ar

end
-- ==== Proof.Ghost.lean ====
import proofs.«900695_g7700000000000696_dist_ar_v7x_i8_i_m2048_n512_f32_1_alg».proof.Proof.Sched
import proofs.«900695_g7700000000000696_dist_ar_v7x_i8_i_m2048_n512_f32_1_alg».proof.Proof.Iface

/-!
# What a device starts from, what it owes, the levels, and the pipeline's proof data

A device pays: one unit on each partner's barrier cell (duty `j` of partner `c ⊕ bmask j`: the same `j`, since
flipping by a mask is an involution), and for every band and slot the landing on its partner's receive cell and the
departure on its own send cell. Levels order the waits: a device waits on its barrier cell while it owes every landing,
so the barrier cells lie below all receive cells; the receive cells are ordered by the place of their wait in the
program (slot order 0,…,9,11,10,12,13, bands interleaved), because whenever a device waits for slot `s` of band `b` every
landing it still owes belongs to a slot waited for later. Send cells and the pipeline's staging cells are never owed by
another device: they lie at the bottom.
-/

noncomputable section

namespace Cert.KernelIdeal.Ar

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- The schedule at the launch-time input blocks. -/
abbrev Rd : Rounds.Schedule (GSem nD τ sig) (Fin 3) 𝕄 := arRd (F := F) (Xof m)

/-! ## The cells, indexed -/

/-- A device's cells of the protocol: its barrier cell, its send cells, its receive cells. -/
abbrev CK : Type := Unit ⊕ ((Fin 3 × Fin 14) ⊕ (Fin 3 × Fin 14))

def ksem : CK → SemLoc sig
  | .inl _ => .reg barS
  | .inr (.inl bs) => .dma (sendS bs.1 bs.2)
  | .inr (.inr bs) => .dma (recvS bs.1 bs.2)

abbrev kcell (ck : Dev nD × CK) : GSem nD τ sig := ((ck.1 : Thread nD τ), ksem ck.2)

/-- The persistent part, the same for every device: every cell's invariant under the names `K`, and that round 0
    of every cell is reached. -/
def records (K : Dev nD × CK → ℕ) : sProp 𝕄 :=
  iprop((bigSep Finset.univ fun ck : Dev nD × CK => cellInv ER (Rd m) (K ck) (kcell ck))
    ∗ bigSep Finset.univ fun ck : Dev nD × CK => reached ER (kcell ck) 0)

instance records_persistent (K : Dev nD × CK → ℕ) : BI.Persistent (records m K) := by unfold records; infer_instance

/-- What stays with device `c`: its positions at round 0 of its own cells, and the tokens of the duties IT pays. -/
def linear (c : Dev nD) : sProp 𝕄 :=
  iprop((bigSep Finset.univ fun k : CK => atPos ER (kcell (c, k)) 0 ∅ 0)
    ∗ (bigSep Finset.univ fun j : Fin 3 => dutyTok ER (barCell (xr c (bmask j))) 0 j)
    ∗ (bigSep Finset.univ fun bs : Fin 3 × Fin 14 => dutyTok ER (recvCell (xr c (tmask bs.1 bs.2)) bs.1 bs.2) 0 (0 : Fin 3))
    ∗ (bigSep Finset.univ fun bs : Fin 3 × Fin 14 => dutyTok ER (sendCell c bs.1 bs.2) 0 (0 : Fin 3)))

/-- The credit a device is dealt at launch: its barrier's three units and every landing on its receive cells. -/
def creds (c : Dev nD) : sProp 𝕄 :=
  iprop(cred (tallyAt (barCell c) () 3)
    ∗ bigSep Finset.univ fun bs : Fin 3 × Fin 14 => cred (tallyAt (recvCell c bs.1 bs.2) () (Namt bs.1 bs.2)))

/-! ## What a device owes; the levels -/

/-- The landings of the slots `T` still owed, and the barrier units of the partners `J` still owed. -/
def owedRecv (c : Dev nD) (T : Finset (Fin 3 × Fin 14)) : CellTallies nD τ sig Unit :=
  ∑ bs ∈ T, tallyAt (recvCell (xr c (tmask bs.1 bs.2)) bs.1 bs.2) () (Namt bs.1 bs.2)
def owedBar (c : Dev nD) (J : Finset (Fin 3)) : CellTallies nD τ sig Unit :=
  ∑ j ∈ J, tallyAt (barCell (xr c (bmask j))) () 1

def O₀ (c : Dev nD) : CellTallies nD τ sig Unit := owedRecv c Finset.univ + owedBar c Finset.univ

def L (g : GSem nD τ sig) : Finset Unit := if g.1.2 = .tc then {()} else ∅

/-- The place of slot `s`'s receive wait among the fourteen. -/
def wrank : Fin 14 → ℕ := ![0, 1, 2, 3, 4, 5, 6, 7, 8, 9, 11, 10, 12, 13]

def lv (g : GSem nD τ sig) (_ : Unit) : ℕ :=
  match g.2 with
  | .reg _ => 1
  | .dma q => if isRecv q then 2 + 3 * wrank (slotOfSem q 44) + (bandOfSem q 44).val else 0

/-! ## The pipeline's proof data -/

/-- Device `c`'s block of the input as the input window stages it. -/
def xstg (c : Dev nD) : (cc0_stg0_0 : Ref sig .tc).ty.Contents (Elt F) :=
  (win0_0.blk (0 : Fin 1)).view.read (Elt F) ((s₀ m ρ).mem ((c : Thread nD τ).loc main_arg0))

/-- A scratch buffer whole, at some contents. -/
def scrAny (c : Dev nD) (b : Ref sig .tc) : sProp 𝕄 := iprop(∃ f : Buf (Elt F) ((c : Thread nD τ).loc b), ((c : Thread nD τ).loc b) ↦{fullShare} f)

/-- What device `c`'s body starts from besides its buffers: the records at some names, its linear ghost state, its
    launch credit, the level facts. -/
def start (c : Dev nD) : sProp 𝕄 :=
  iprop((∃ K, records m K ∗ linear c) ∗ creds c ∗ levAts L lv)

def Φ₀ (c : Dev nD) : sProp 𝕄 :=
  iprop(start m c ∗ scrAny c cc0_scratch0 ∗ scrAny c cc0_scratch1 ∗ scrAny c cc0_scratch2)

/-- After the point: the scratch buffers whole again, and the device's own 84 cells at zero, closed. -/
def Φ₁ (c : Dev nD) : sProp 𝕄 :=
  iprop((scrAny c cc0_scratch0 ∗ scrAny c cc0_scratch1 ∗ scrAny c cc0_scratch2)
    ∗ (bigSep Finset.univ fun bs : Fin 3 × Fin 14 => semVal (sendCell c bs.1 bs.2) 0)
    ∗ (bigSep Finset.univ fun bs : Fin 3 × Fin 14 => semVal (recvCell c bs.1 bs.2) 0))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt (Xof m) c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

end Cert.KernelIdeal.Ar

end
-- ==== Proof.Proto.lean ====
import proofs.«900695_g7700000000000696_dist_ar_v7x_i8_i_m2048_n512_f32_1_alg».proof.Proof.Ghost

/-!
# The protocol's bookkeeping as one assertion over a finite state

`St c σ` is everything device `c` holds of the rounds discipline at a point of its body, where `σ` records which of its
transfers it has issued (`sent`), which of its send cells (`swt`) and receive cells (`rcv`) it has waited on, which of the
three handshake signals it has sent (`sig`) and whether it has passed the handshake wait (`bar`): what it still owes
(the landings of the transfers not yet issued, the handshake units not yet sent), the tokens of the duties it still has
to pay, the credit of the transfers in flight on its send cells, the credit dealt at launch for the landings it has not
yet consumed, and its position on each of its cells (round 0 until the wait, round 1 after it). The data — chunks of
buffers — is not part of it: each step below takes the chunks it needs and returns the chunks it yields.
-/

noncomputable section

namespace Cert.KernelIdeal.Ar

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A (band, slot) pair. -/
abbrev BS : Type := Fin 3 × Fin 14

/-- Where a device stands in the protocol. -/
structure PSt where
  sent : Finset BS
  swt : Finset BS
  rcv : Finset BS
  sig : Finset (Fin 3)
  bar : Bool

def PSt.init : PSt := ⟨∅, ∅, ∅, ∅, false⟩
def PSt.final : PSt := ⟨Finset.univ, Finset.univ, Finset.univ, Finset.univ, true⟩

/-- The protocol's linear resources of device `c` at state `σ`. -/
def St (c : Dev nD) (σ : PSt) : sProp 𝕄 :=
  iprop((∃ W, owes (c : Thread nD τ) (owedRecv c (Finset.univ \ σ.sent) + owedBar c (Finset.univ \ σ.sig)) W)
    ∗ (bigSep (Finset.univ \ σ.sig) fun j : Fin 3 => dutyTok ER (barCell (xr c (bmask j))) 0 j)
    ∗ (bigSep (Finset.univ \ σ.sent) fun bs : BS =>
        iprop(dutyTok ER (sendCell c bs.1 bs.2) 0 (0 : Fin 3) ∗ dutyTok ER (recvCell (xr c (tmask bs.1 bs.2)) bs.1 bs.2) 0 (0 : Fin 3)))
    ∗ (bigSep (σ.sent \ σ.swt) fun bs : BS => cred (tallyAt (sendCell c bs.1 bs.2) () (Namt bs.1 bs.2)))
    ∗ (bigSep (Finset.univ \ σ.swt) fun bs : BS => atPos ER (sendCell c bs.1 bs.2) 0 ∅ 0)
    ∗ (bigSep σ.swt fun bs : BS => atPos ER (sendCell c bs.1 bs.2) 1 ∅ 0)
    ∗ (bigSep (Finset.univ \ σ.rcv) fun bs : BS =>
        iprop(cred (tallyAt (recvCell c bs.1 bs.2) () (Namt bs.1 bs.2)) ∗ atPos ER (recvCell c bs.1 bs.2) 0 ∅ 0))
    ∗ (bigSep σ.rcv fun bs : BS => atPos ER (recvCell c bs.1 bs.2) 1 ∅ 0)
    ∗ (if σ.bar then atPos ER (barCell c) 1 ∅ 0 else iprop(cred (tallyAt (barCell c) () 3) ∗ atPos ER (barCell c) 0 ∅ 0)))

/-- The persistent context of every step: the cells' invariants and reached rounds, and the level facts. -/
def Pers (K : Dev nD × CK → ℕ) : sProp 𝕄 := iprop(records m K ∗ levAts L lv)

instance Pers_persistent (K : Dev nD × CK → ℕ) : BI.Persistent (Pers m K) := by unfold Pers; infer_instance

end Cert.KernelIdeal.Ar

end
-- ==== Proof.Chunks.lean ====
import proofs.«900695_g7700000000000696_dist_ar_v7x_i8_i_m2048_n512_f32_1_alg».proof.Proof.Sched
import Idealize.ShloMosaic.Lib.Memref

/-!
# A buffer of 2048 × 512 is the disjoint union of its twenty-four chunks

The rows 0–2047 are cut into three bands, each band into eight chunks of equal height; chunk `k` of band `b` is
rows `base b + rws b · k` up to `base b + rws b · (k + 1)`, all 512 columns. Consecutive chunks abut and the
bands follow one another without a gap, so every row lies in exactly one chunk: the one named by `bandOf` and
`chunkOf` of the row. Hence owning a whole buffer is owning each of its chunks, at one array's rows or, joined
back, at each chunk's own array.
-/

noncomputable section

namespace Cert.KernelIdeal.Ar

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Rows -/

/-- The first row and the height of each band's chunks, as numbers. -/
theorem base_vals : base 0 = 0 ∧ base 1 = 704 ∧ base 2 = 1344 := ⟨rfl, rfl, rfl⟩
theorem rws_vals : rws 0 = 88 ∧ rws 1 = 80 ∧ rws 2 = 88 := ⟨rfl, rfl, rfl⟩

/-- A row between the first row of chunk `k` of band `b` and the first row of the next chunk has band `b` and
    chunk `k`. -/
theorem band_chunk_row (b : Fin 3) (k : Dev nD) (r : Nat)
    (h1 : base b + rws b * k.val ≤ r) (h2 : r < base b + rws b * k.val + rws b) :
    bandOf r = b ∧ chunkOf r = k := by
  have hk : k.val < 8 := k.isLt
  obtain ⟨b0, b1, b2⟩ := base_vals
  obtain ⟨r0, r1, r2⟩ := rws_vals
  have hb : bandOf r = b := by
    unfold bandOf
    fin_cases b
    · rw [show ((⟨0, by decide⟩ : Fin 3)) = 0 from rfl] at h1 h2 ⊢
      rw [b0, r0] at h2
      rw [if_pos (by omega)]
    · rw [show ((⟨1, by decide⟩ : Fin 3)) = 1 from rfl] at h1 h2 ⊢
      rw [b1, r1] at h1 h2
      rw [if_neg (by omega), if_pos (by omega)]
    · rw [show ((⟨2, by decide⟩ : Fin 3)) = 2 from rfl] at h1 h2 ⊢
      rw [b2, r2] at h1
      rw [if_neg (by omega), if_neg (by omega)]
  refine ⟨hb, Fin.ext ?_⟩
  show ((r - base (bandOf r)) / rws (bandOf r)) % 8 = k.val
  rw [hb]
  fin_cases b
  · rw [show ((⟨0, by decide⟩ : Fin 3)) = 0 from rfl] at h1 h2 ⊢
    rw [b0, r0] at h1 h2 ⊢; omega
  · rw [show ((⟨1, by decide⟩ : Fin 3)) = 1 from rfl] at h1 h2 ⊢
    rw [b1, r1] at h1 h2 ⊢; omega
  · rw [show ((⟨2, by decide⟩ : Fin 3)) = 2 from rfl] at h1 h2 ⊢
    rw [b2, r2] at h1 h2 ⊢; omega

/-- Every row lies in the chunk its band and chunk name. -/
theorem row_in_chunk (r : Nat) (hr : r < 2048) :
    base (bandOf r) + rws (bandOf r) * (chunkOf r).val ≤ r
      ∧ r < base (bandOf r) + rws (bandOf r) * (chunkOf r).val + rws (bandOf r) := by
  obtain ⟨b0, b1, b2⟩ := base_vals
  obtain ⟨r0, r1, r2⟩ := rws_vals
  show base (bandOf r) + rws (bandOf r) * (((r - base (bandOf r)) / rws (bandOf r)) % 8) ≤ r
    ∧ r < base (bandOf r) + rws (bandOf r) * (((r - base (bandOf r)) / rws (bandOf r)) % 8) + rws (bandOf r)
  by_cases c0 : r < 704
  · rw [show bandOf r = 0 from if_pos c0, b0, r0]; omega
  · by_cases c1 : r < 1344
    · rw [show bandOf r = 1 from (if_neg c0).trans (if_pos c1), b1, r1]; omega
    · rw [show bandOf r = 2 from (if_neg c0).trans (if_neg c1), b2, r2]; omega

/-! ## The chunks are pairwise disjoint and cover the array -/

/-- Two different chunks are separated along the rows. -/
theorem chunks_apart : ∀ t t' : Fin 3 × Dev nD, t ≠ t' →
    coff t.1 t.2 0 + csz t.1 0 ≤ coff t'.1 t'.2 0 ∨ coff t'.1 t'.2 0 + csz t'.1 0 ≤ coff t.1 t.2 0 := by decide

theorem chunks_disjoint : ∀ t t' : Fin 3 × Dev nD, t ≠ t' → Disjoint (crect t.1 t.2).set (crect t'.1 t'.2).set :=
  fun t t' h => Rect.unit_disjoint (0 : Fin S2048x512.rank) (chunks_apart t t' h)

theorem chunks_cover : (Finset.univ : Finset (Fin 3 × Dev nD)).biUnion (fun t => (crect t.1 t.2).set) = Finset.univ := by
  refine Finset.eq_univ_iff_forall.mpr fun i => Finset.mem_biUnion.mpr
    ⟨(bandOf (i 0).val, chunkOf (i 0).val), Finset.mem_univ _, Rect.mem_set_unit.mpr fun a => ?_⟩
  have hrow := row_in_chunk (i 0).val (i 0).isLt
  match a with
  | ⟨0, _⟩ => exact hrow
  | ⟨1, _⟩ => exact ⟨Nat.zero_le _, by have h1 : (i 1).val < 512 := (i 1).isLt; show (i 1).val < 0 + 512; omega⟩

/-- An entry of chunk `k` of band `b` has band `b` and chunk `k`. -/
theorem band_chunk_of (b : Fin 3) (k : Dev nD) (j : (crect b k).shape.Idx) :
    bandOf ((crect b k).emb j 0).val = b ∧ chunkOf ((crect b k).emb j 0).val = k := by
  have hj : (j 0).val < rws b := (j 0).isLt
  refine band_chunk_row b k _ ?_ ?_
  · show base b + rws b * k.val ≤ base b + rws b * k.val + 1 * (j 0).val; omega
  · show base b + rws b * k.val + 1 * (j 0).val < base b + rws b * k.val + rws b; omega

/-! ## Owning a whole buffer is owning its chunks -/

/-- A buffer owned at the array `G` is each of its chunks owned at `G`'s rows there, -/
theorem whole_split (p : Dev nD) (M : Memref sig .tc .vmem S2048x512 .f32) (q : PosShare TreeShare) (G : Arr F) :
    (owns (p : Thread nD τ) M q G : sProp 𝕄) ⊢ bigSep Finset.univ fun t : Fin 3 × Dev nD => cown p M t.1 t.2 q G :=
by
  unfold cown
  exact owns_rects (Val := Elt F) (p : Thread nD τ) M q (fun t : Fin 3 × Dev nD => crect t.1 t.2) (fun _ _ => rfl)
    chunks_disjoint chunks_cover G

/-- and chunks owned each at its own array's rows are the buffer owned at the array that reads, in every row,
    the array of that row's chunk. -/
theorem whole_join (p : Dev nD) (M : Memref sig .tc .vmem S2048x512 .f32) (q : PosShare TreeShare)
    (Gs : Fin 3 × Dev nD → Arr F) :
    (bigSep Finset.univ fun t : Fin 3 × Dev nD => cown p M t.1 t.2 q (Gs t) : sProp 𝕄)
      ⊢ owns (p : Thread nD τ) M q (fun i => Gs (bandOf (i 0).val, chunkOf (i 0).val) i) := by
  have e : (bigSep Finset.univ fun t : Fin 3 × Dev nD => cown p M t.1 t.2 q (Gs t) : sProp 𝕄)
      = bigSep Finset.univ fun t : Fin 3 × Dev nD =>
          owns (p : Thread nD τ) (M.slice (crect t.1 t.2) (fun _ => rfl)) q
            (fun j => (fun i : S2048x512.Idx => Gs (bandOf (i 0).val, chunkOf (i 0).val) i) ((crect t.1 t.2).emb j)) :=
    bigSep_congr fun t _ => by
      unfold cown
      refine congrArg (owns (p : Thread nD τ) (chunkM M t.1 t.2) q) (funext fun j => ?_)
      obtain ⟨hb, hk⟩ := band_chunk_of t.1 t.2 j
      show Gs t ((crect t.1 t.2).emb j)
        = Gs (bandOf ((crect t.1 t.2).emb j 0).val, chunkOf ((crect t.1 t.2).emb j 0).val) ((crect t.1 t.2).emb j)
      rw [hb, hk]
  rw [e]
  exact owns_of_rects (Val := Elt F) (Ix := Unit) (Name := ℕ) (U := UU) (Lvl := ℕ) (p : Thread nD τ) M q
    (fun t : Fin 3 × Dev nD => crect t.1 t.2) (fun _ _ => rfl) chunks_disjoint chunks_cover
    (fun i : S2048x512.Idx => Gs (bandOf (i 0).val, chunkOf (i 0).val) i)

/-- The same at some contents, outright: a buffer held whole at some array is every chunk held at some array, -/
theorem whole_splitAny (p : Dev nD) (M : Memref sig .tc .vmem S2048x512 .f32) :
    (iprop(∃ G : Arr F, owns (p : Thread nD τ) M fullShare G) : sProp 𝕄)
      ⊢ bigSep Finset.univ fun t : Fin 3 × Dev nD => cownAny (F := F) p M t.1 t.2 := by
  iintro ⟨%G, H⟩
  ihave H' := (whole_split p M fullShare G) $$ H
  have hm : (bigSep Finset.univ (fun t : Fin 3 × Dev nD => cown p M t.1 t.2 fullShare G) : sProp 𝕄)
      ⊢ bigSep Finset.univ fun t : Fin 3 × Dev nD => cownAny (F := F) p M t.1 t.2 :=
    bigSep_mono fun t _ => (show (cown p M t.1 t.2 fullShare G : sProp 𝕄) ⊢ cownAny (F := F) p M t.1 t.2 from by
      unfold cownAny; iintro Ht; iexists G; iexact Ht)
  iapply hm
  iexact H'

/-- and back: the arrays chosen chunk by chunk are put together row by row. -/
theorem whole_joinAny (p : Dev nD) (M : Memref sig .tc .vmem S2048x512 .f32) :
    (bigSep Finset.univ fun t : Fin 3 × Dev nD => cownAny (F := F) p M t.1 t.2 : sProp 𝕄)
      ⊢ iprop(∃ G : Arr F, owns (p : Thread nD τ) M fullShare G) := by
  haveI : Nonempty (Arr F) := ⟨fun _ => (Elt.inhabited F .f32).default⟩
  refine (bigSep_exists_pi (Y := fun _ : Fin 3 × Dev nD => Arr F) Finset.univ
    (fun t G => cown p M t.1 t.2 fullShare G)).trans ?_
  iintro ⟨%Gs, H⟩
  iexists fun i => Gs (bandOf (i 0).val, chunkOf (i 0).val) i
  iapply (whole_join p M fullShare Gs)
  iexact H

/-! ## The chunks of a band, named from one device's side -/

/-- Flipping the bits of `c` by `k`, as a bijection from the masks to the devices. -/
def xrFrom (c : Dev nD) : Fin 8 ≃ Dev nD :=
  ⟨fun k => xr c k, fun d => xr c d,
    (by decide : ∀ (c : Dev nD) (k : Fin 8), xr c (xr c k) = k) c,
    (by decide : ∀ (c : Dev nD) (d : Dev nD), xr c (xr c d) = d) c⟩

/-- A conjunction over all chunks may be taken over the chunks `c ⊕ h`, `h` a mask. -/
theorem bigSep_xr (c : Dev nD) (Φ : Fin 3 → Dev nD → sProp 𝕄) :
    (bigSep Finset.univ fun t : Fin 3 × Dev nD => Φ t.1 t.2)
      = bigSep Finset.univ fun t : Fin 3 × Fin 8 => Φ t.1 (xr c t.2) :=
  bigSep_univ_equiv ((Equiv.refl (Fin 3)).prodCongr (xrFrom c)) fun t : Fin 3 × Dev nD => Φ t.1 t.2

end Cert.KernelIdeal.Ar

end
-- ==== Proof.Frame0.lean ====
import proofs.«900695_g7700000000000696_dist_ar_v7x_i8_i_m2048_n512_f32_1_alg».proof.Proof.Proto
import proofs.«900695_g7700000000000696_dist_ar_v7x_i8_i_m2048_n512_f32_1_alg».proof.Proof.Chunks

/-!
# The chunks a device's body starts with and ends with

At the start a device holds its input block whole (cut into the 24 chunks, each at the block's values), its result
buffer and its three scratch buffers at arbitrary contents. Of the result buffer it keeps, per band, the four chunks it
fills itself (its own, `⊕ m₃`, `⊕ m₂`, `⊕ m₂ ⊕ m₃`); the other four, and the scratch chunks its partners' transfers land
in, are what the three handshake signals hand over (`barPay`); the scratch chunks no transfer uses stay aside
(`restR`). At the end it holds every chunk again: the input as it was, result chunk `c ⊕ h` of band `b` at the finished sum
`A3 b (c ⊕ osrc b h)` of the device that completed it, the scratch chunks at whatever landed there.
-/

noncomputable section

namespace Cert.KernelIdeal.Ar

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The sum of the second and third masks of band `b`. -/
def m23 (b : Fin 3) : Fin 8 := ⟨((mk b 1).val ^^^ (mk b 2).val) % 8, Nat.mod_lt _ (by decide)⟩

/-- The three scratch buffers, and the slots that land in each. -/
def MR : Fin 3 → Memref sig .tc .vmem S2048x512 .f32 := ![MR1, MR2, MR3]
def slotsR : Fin 3 → Finset (Fin 14) := ![{0, 1, 2, 3}, {4, 5}, {6, 7}]

/-- The chunks (band, offset from the device) of scratch buffer `i` that some transfer lands in. -/
def usedR (i : Fin 3) : Finset (Fin 3 × Fin 8) := (Finset.univ ×ˢ slotsR i).image fun bs => (bs.1, rmask bs.1 bs.2)

/-- The scratch chunks no transfer touches. -/
def restR (c : Dev nD) : sProp 𝕄 :=
  bigSep Finset.univ fun i : Fin 3 => bigSep (Finset.univ \ usedR i) fun t : Fin 3 × Fin 8 => cownAny (F := F) c (MR i) t.1 (xr c t.2)

/-- The chunks the body starts with. -/
def ChIn (c : Dev nD) : sProp 𝕄 :=
  iprop((bigSep Finset.univ fun t : Fin 3 × Fin 8 => cown c MX t.1 (xr c t.2) fullShare (Xof m c))
    ∗ (bigSep Finset.univ fun b : Fin 3 =>
        iprop(cownAny (F := F) c MO b (xr c 0) ∗ cownAny (F := F) c MO b (xr c (mk b 2)) ∗ cownAny (F := F) c MO b (xr c (mk b 1)) ∗ cownAny (F := F) c MO b (xr c (m23 b))))
    ∗ barPay (F := F) (xr c (bmask 0)) 0 ∗ barPay (F := F) (xr c (bmask 1)) 1 ∗ barPay (F := F) (xr c (bmask 2)) 2
    ∗ restR c)

/-- The offset of the device that completed result chunk `c ⊕ h` of band `b`: `h` without its third-mask part. -/
def osrc (b : Fin 3) (h : Fin 8) : Fin 8 :=
  if inSpan12 b h then h else ⟨(h.val ^^^ (mk b 2).val) % 8, Nat.mod_lt _ (by decide)⟩

/-- The chunks the body ends with. -/
def ChOut (c : Dev nD) : sProp 𝕄 :=
  iprop((bigSep Finset.univ fun t : Fin 3 × Fin 8 => cown c MX t.1 (xr c t.2) fullShare (Xof m c))
    ∗ (bigSep Finset.univ fun t : Fin 3 × Fin 8 => cown c MO t.1 (xr c t.2) fullShare (A3 (Xof m) t.1 (xr c (osrc t.1 t.2))))
    ∗ (bigSep Finset.univ fun i : Fin 3 => bigSep (usedR i) fun t : Fin 3 × Fin 8 => cownAny (F := F) c (MR i) t.1 (xr c t.2))
    ∗ restR c)

/-- The body's core statement: from the protocol's initial state and the initial chunks to the final state and chunks. -/
def BodyCore : Prop :=
  ∀ (K : Dev nD × CK → ℕ) (c : Dev nD) (Kt : PUnit → sProp 𝕄),
    iprop(Pers m K ∗ St c PSt.init ∗ ChIn m c ∗ (iprop(St c PSt.final ∗ ChOut m c) -∗ Kt ⟨⟩))
      ⊢ wp frame (wpE (defs₀ (F := F)) 𝒱₀ (c : Thread nD τ) none) Set.univ
          (cc0_body MX (Memref.isWhole_whole _) MO (Memref.isWhole_whole _) MR1 (Memref.isWhole_whole _) MR2 (Memref.isWhole_whole _)
            MR3 (Memref.isWhole_whole _) cc0_scratch3 cc0_scratch4) Kt

end Cert.KernelIdeal.Ar

end
-- ==== Proof.ScrAny.lean ====
import proofs.«900695_g7700000000000696_dist_ar_v7x_i8_i_m2048_n512_f32_1_alg».proof.Proof.Ghost
import Idealize.ShloMosaic.Lib.Memref

/-!
# A scratch buffer held whole, as ownership of its whole memref

A device starts from each scratch buffer whole at some contents. A whole buffer's memref reads the buffer's
contents as they are, so this is owning that memref, outright, at some array: the form in which the buffer is
then cut into its chunks.
-/

noncomputable section

namespace Cert.KernelIdeal.Ar

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- Holding a buffer whole at some contents is owning its whole memref at some array. -/
theorem scrAny_iff (c : Dev nD) (b : Ref sig .tc) :
    scrAny (F := F) c b ⊣⊢ iprop(∃ G, owns (c : Thread nD τ) (Memref.whole b) fullShare G) := by
  unfold scrAny
  simp only [owns_whole]
  exact .rfl

end Cert.KernelIdeal.Ar

end
-- ==== Proof.Tables.lean ====
import proofs.«900695_g7700000000000696_dist_ar_v7x_i8_i_m2048_n512_f32_1_alg».proof.Proof.Ghost

/-!
# The schedule's tables per cell, and the levels of the waits

The schedule has one round. A device's barrier cell has three duties of one unit each, one per partner; each send
cell and each receive cell has the single duty `0`, of the credit of the slot's destination chunk. The tables below
read the schedule off at each of these cells. A semaphore's index tells which cell it is: the send semaphore of band
`b`, slot `s` is number `2 + 14 b + s`, the receive semaphore `44 + 14 b + s`, so band and slot are recovered by
division with remainder.

Levels. Send cells and staging cells lie at 0, barrier cells at 1, the receive cell of band `b`, slot `s` at
`2 + 3 · wrank s + b`: the place of its wait in the program. A wait is allowed when every cell still owed lies
strictly above the cell waited on.
-/

noncomputable section

namespace Cert.KernelIdeal.Ar

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Which cell a semaphore is -/

theorem isSend_sendS : ∀ (b : Fin 3) (s : Fin 14), isSend (sendS b s) := by decide
theorem not_isRecv_sendS : ∀ (b : Fin 3) (s : Fin 14), ¬ isRecv (sendS b s) := by decide
theorem isRecv_recvS : ∀ (b : Fin 3) (s : Fin 14), isRecv (recvS b s) := by decide
theorem band_sendS : ∀ (b : Fin 3) (s : Fin 14), bandOfSem (sendS b s) 2 = b := by decide
theorem slot_sendS : ∀ (b : Fin 3) (s : Fin 14), slotOfSem (sendS b s) 2 = s := by decide
theorem band_recvS : ∀ (b : Fin 3) (s : Fin 14), bandOfSem (recvS b s) 44 = b := by decide
theorem slot_recvS : ∀ (b : Fin 3) (s : Fin 14), slotOfSem (recvS b s) 44 = s := by decide

/-! ## The payloads may sit in an invariant -/

instance arRd_payload_storable (X : Dev nD → Arr F) (g : GSem nD τ sig) (r : ℕ) (d : Fin 3) :
    BI.Storable (upEmb : UEmb _ 𝕄) ((arRd X).payload g r d) := by
  rcases g with ⟨t, (s | q)⟩
  · show BI.Storable upEmb (barPay (F := F) t.1 d)
    unfold barPay; infer_instance
  · show BI.Storable upEmb (if isRecv q then recvPay X t.1 (bandOfSem q 44) (slotOfSem q 44)
      else if isSend q then sendPay X t.1 (bandOfSem q 2) (slotOfSem q 2) else iprop(emp))
    unfold recvPay sendPay
    (repeat' split) <;> infer_instance

section Sched
variable (c : Dev nD) (b : Fin 3) (s : Fin 14)

/-! ## Duties -/

theorem duties_bar : (Rd (F := F) m).duties (barCell c) 0 = Finset.univ := by
  show (if (0 = 0 ∧ (Kind.tc : Kind) = .tc) then (if barS = barS then (Finset.univ : Finset (Fin 3)) else ∅) else ∅) = _
  rw [if_pos ⟨rfl, rfl⟩, if_pos rfl]
theorem duties_send : (Rd (F := F) m).duties (sendCell c b s) 0 = {0} := by
  show (if (0 = 0 ∧ (Kind.tc : Kind) = .tc) then (if isSend (sendS b s) ∨ isRecv (sendS b s) then ({0} : Finset (Fin 3)) else ∅) else ∅) = _
  rw [if_pos ⟨rfl, rfl⟩, if_pos (.inl (isSend_sendS b s))]
theorem duties_recv : (Rd (F := F) m).duties (recvCell c b s) 0 = {0} := by
  show (if (0 = 0 ∧ (Kind.tc : Kind) = .tc) then (if isSend (recvS b s) ∨ isRecv (recvS b s) then ({0} : Finset (Fin 3)) else ∅) else ∅) = _
  rw [if_pos ⟨rfl, rfl⟩, if_pos (.inr (isRecv_recvS b s))]
theorem duties_later (g : GSem nD τ sig) : ∀ r, 1 ≤ r → (Rd (F := F) m).duties g r = ∅ :=
  fun r hr => by
    show (if r = 0 ∧ g.1.2 = .tc then _ else (∅ : Finset (Fin 3))) = ∅
    exact if_neg fun h => by omega

/-! ## Amounts -/

theorem amount_bar (d : Fin 3) : (Rd (F := F) m).amount (barCell c) 0 d = 1 := rfl
theorem amount_send (d : Fin 3) : (Rd (F := F) m).amount (sendCell c b s) 0 d = Namt b s := by
  show (if isRecv (sendS b s) then Namt (bandOfSem (sendS b s) 44) (slotOfSem (sendS b s) 44)
    else if isSend (sendS b s) then Namt (bandOfSem (sendS b s) 2) (slotOfSem (sendS b s) 2) else 1) = _
  rw [if_neg (not_isRecv_sendS b s), if_pos (isSend_sendS b s), band_sendS, slot_sendS]
theorem amount_recv (d : Fin 3) : (Rd (F := F) m).amount (recvCell c b s) 0 d = Namt b s := by
  show (if isRecv (recvS b s) then Namt (bandOfSem (recvS b s) 44) (slotOfSem (recvS b s) 44)
    else if isSend (recvS b s) then Namt (bandOfSem (recvS b s) 2) (slotOfSem (recvS b s) 2) else 1) = _
  rw [if_pos (isRecv_recvS b s), band_recvS, slot_recvS]

/-! ## Expected units of the round -/

theorem expect_bar : (Rd (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_send : (Rd (F := F) m).expect (sendCell c b s) 0 = Namt b s := by
  unfold Schedule.expect Schedule.amountOf; rw [duties_send, Finset.sum_singleton, amount_send]
theorem expect_recv : (Rd (F := F) m).expect (recvCell c b s) 0 = Namt b s := by
  unfold Schedule.expect Schedule.amountOf; rw [duties_recv, Finset.sum_singleton, amount_recv]

/-! ## Payloads -/

theorem payload_bar (j : Fin 3) : (Rd (F := F) m).payload (barCell c) 0 j = barPay c j := rfl
theorem payload_send (d : Fin 3) : (Rd (F := F) m).payload (sendCell c b s) 0 d = sendPay (Xof m) c b s := by
  show (if isRecv (sendS b s) then recvPay (Xof m) c (bandOfSem (sendS b s) 44) (slotOfSem (sendS b s) 44)
    else if isSend (sendS b s) then sendPay (Xof m) c (bandOfSem (sendS b s) 2) (slotOfSem (sendS b s) 2) else iprop(emp)) = _
  rw [if_neg (not_isRecv_sendS b s), if_pos (isSend_sendS b s), band_sendS, slot_sendS]
theorem payload_recv (d : Fin 3) : (Rd (F := F) m).payload (recvCell c b s) 0 d = recvPay (Xof m) c b s := by
  show (if isRecv (recvS b s) then recvPay (Xof m) c (bandOfSem (recvS b s) 44) (slotOfSem (recvS b s) 44)
    else if isSend (recvS b s) then sendPay (Xof m) c (bandOfSem (recvS b s) 2) (slotOfSem (recvS b s) 2) else iprop(emp)) = _
  rw [if_pos (isRecv_recvS b s), band_recvS, slot_recvS]

/-! ## The rest of a round, no duty taken -/

theorem rest_bar : bigSep ((Rd (F := F) m).duties (barCell c) 0 \ ∅) (fun d => (Rd (F := F) m).payload (barCell c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons,
    bigSepL_singleton, payload_bar, payload_bar, payload_bar]
  rfl
theorem rest_send : bigSep ((Rd (F := F) m).duties (sendCell c b s) 0 \ ∅) (fun d => (Rd (F := F) m).payload (sendCell c b s) 0 d)
    = sendPay (Xof m) c b s := by
  rw [Finset.sdiff_empty, duties_send, bigSep_singleton, payload_send]
theorem rest_recv : bigSep ((Rd (F := F) m).duties (recvCell c b s) 0 \ ∅) (fun d => (Rd (F := F) m).payload (recvCell c b s) 0 d)
    = recvPay (Xof m) c b s := by
  rw [Finset.sdiff_empty, duties_recv, bigSep_singleton, payload_recv]

end Sched

/-! ## The credit of a slot's transfer does not depend on the chunk -/

theorem amount_dst (b : Fin 3) (s : Fin 14) (k : Dev nD) (q : DmaSem sig) :
    (chunkM (dstM s) b k).view.amount (.dma q) = Namt b s := rfl

/-! ## Cells are told apart -/

theorem sendS_inj {b b' : Fin 3} {s s' : Fin 14} (h : sendS b s = sendS b' s') : b = b' ∧ s = s' := by
  have hv := congrArg (fun q : DmaSem sig => q.val) h
  dsimp only at hv
  rw [sendS_val, sendS_val] at hv
  exact ⟨Fin.ext (by omega), Fin.ext (by omega)⟩
theorem recvS_inj {b b' : Fin 3} {s s' : Fin 14} (h : recvS b s = recvS b' s') : b = b' ∧ s = s' := by
  have hv := congrArg (fun q : DmaSem sig => q.val) h
  dsimp only at hv
  rw [recvS_val, recvS_val] at hv
  exact ⟨Fin.ext (by omega), Fin.ext (by omega)⟩
theorem sendS_ne_recvS (b b' : Fin 3) (s s' : Fin 14) : sendS b s ≠ recvS b' s' := fun h => by
  have hv := congrArg (fun q : DmaSem sig => q.val) h
  dsimp only at hv
  rw [sendS_val, recvS_val] at hv
  omega

theorem ksem_injective : Function.Injective (ksem : CK → SemLoc sig) := by
  intro a a' h
  rcases a with _ | ⟨⟨b, s⟩⟩ | ⟨⟨b, s⟩⟩ <;> rcases a' with _ | ⟨⟨b', s'⟩⟩ | ⟨⟨b', s'⟩⟩
  · rfl
  · exact absurd h (fun h => by cases h)
  · exact absurd h (fun h => by cases h)
  · exact absurd h (fun h => by cases h)
  · obtain ⟨rfl, rfl⟩ := sendS_inj (SemLoc.dma.inj h); rfl
  · exact absurd (SemLoc.dma.inj h) (sendS_ne_recvS b b' s s')
  · exact absurd h (fun h => by cases h)
  · exact absurd (SemLoc.dma.inj h).symm (sendS_ne_recvS b' b s' s)
  · obtain ⟨rfl, rfl⟩ := recvS_inj (SemLoc.dma.inj h); rfl

theorem kcell_injective : Function.Injective (kcell : Dev nD × CK → GSem nD τ sig) := by
  rintro ⟨c, k⟩ ⟨c', k'⟩ h
  obtain ⟨hc, hk⟩ := Prod.mk.inj (show ((c : Thread nD τ), ksem k) = ((c' : Thread nD τ), ksem k') from h)
  rw [(Prod.mk.inj hc).1, ksem_injective hk]

/-! ## Levels -/

theorem L_of_ne (g : GSem nD τ sig) (h : g.1.2 ≠ .tc) : L g = ∅ := if_neg h
theorem L_tc (c : Dev nD) (sm : SemLoc sig) : L ((c : Thread nD τ), sm) = {()} := if_pos rfl

/-- A landing still owed is the landing of one of the owed slots, on that slot's partner. -/
theorem owedRecv_pos {c : Dev nD} {T : Finset (Fin 3 × Fin 14)} {g : GSem nD τ sig} {u : Unit} (h : 0 < owedRecv c T g u) :
    ∃ bs ∈ T, g = recvCell (xr c (tmask bs.1 bs.2)) bs.1 bs.2 := by
  unfold owedRecv at h
  obtain ⟨bs, hbs, hp⟩ := Pipeline.sum_pos_exists h
  refine ⟨bs, hbs, ?_⟩
  rw [tallyAt_apply] at hp
  by_contra hn
  rw [if_neg fun h' => hn h'.1] at hp
  exact Nat.lt_irrefl 0 hp

/-- A barrier unit still owed is owed to one of the partners not yet signalled. -/
theorem owedBar_pos {c : Dev nD} {J : Finset (Fin 3)} {g : GSem nD τ sig} {u : Unit} (h : 0 < owedBar c J g u) :
    ∃ j ∈ J, g = barCell (xr c (bmask j)) := by
  unfold owedBar at h
  obtain ⟨j, hj, hp⟩ := Pipeline.sum_pos_exists h
  refine ⟨j, hj, ?_⟩
  rw [tallyAt_apply] at hp
  by_contra hn
  rw [if_neg fun h' => hn h'.1] at hp
  exact Nat.lt_irrefl 0 hp

theorem owed_pos {c : Dev nD} {T : Finset (Fin 3 × Fin 14)} {J : Finset (Fin 3)} {g : GSem nD τ sig} {u : Unit}
    (h : 0 < (owedRecv c T + owedBar c J) g u) :
    (∃ bs ∈ T, g = recvCell (xr c (tmask bs.1 bs.2)) bs.1 bs.2) ∨ (∃ j ∈ J, g = barCell (xr c (bmask j))) := by
  rcases Pipeline.add_pos_cases h with h | h
  · exact .inl (owedRecv_pos h)
  · exact .inr (owedBar_pos h)

theorem lv_recv (c : Dev nD) (b : Fin 3) (s : Fin 14) : lv (recvCell c b s) () = 2 + 3 * wrank s + b.val := by
  show (if isRecv (recvS b s) then 2 + 3 * wrank (slotOfSem (recvS b s) 44) + (bandOfSem (recvS b s) 44).val else 0) = _
  rw [if_pos (isRecv_recvS b s), band_recvS, slot_recvS]
theorem lv_bar (c : Dev nD) : lv (barCell c) () = 1 := rfl
theorem lv_send (c : Dev nD) (b : Fin 3) (s : Fin 14) : lv (sendCell c b s) () = 0 := by
  show (if isRecv (sendS b s) then 2 + 3 * wrank (slotOfSem (sendS b s) 44) + (bandOfSem (sendS b s) 44).val else 0) = _
  rw [if_neg (not_isRecv_sendS b s)]

/-- A wait at level `n` while owing only landings of the slots `T`, all of which lie above `n`. -/
theorem mayWait_below (c : Dev nD) (sm : SemLoc sig) (n : ℕ) (hn : lv ((c : Thread nD τ), sm) () = n) (T : Finset (Fin 3 × Fin 14))
    (hT : ∀ bs ∈ T, n < 2 + 3 * wrank bs.2 + bs.1.val) :
    (levAts L lv : sProp 𝕄) ⊢ MayWait (c : Thread nD τ) sm () (owedRecv c T) :=
  Pipeline.mayWait_of_levAts (by rw [L_tc]; exact Finset.mem_singleton_self _) (fun g u hg => by
    obtain ⟨bs, hbs, rfl⟩ := owedRecv_pos hg
    refine ⟨by rw [L_tc]; exact Finset.mem_singleton_self _, ?_⟩
    show lv ((c : Thread nD τ), sm) () < lv (recvCell (xr c (tmask bs.1 bs.2)) bs.1 bs.2) ()
    rw [hn, lv_recv]; exact hT bs hbs)

theorem mayWait_recv (c : Dev nD) (b : Fin 3) (s : Fin 14) (T : Finset (Fin 3 × Fin 14))
    (hT : ∀ bs ∈ T, 3 * wrank s + b.val < 3 * wrank bs.2 + bs.1.val) :
    (levAts L lv : sProp 𝕄) ⊢ MayWait (c : Thread nD τ) (.dma (recvS b s)) () (owedRecv c T) :=
  mayWait_below c _ _ (lv_recv c b s) T fun bs hbs => by have := hT bs hbs; omega

theorem mayWait_send (c : Dev nD) (b : Fin 3) (s : Fin 14) (T : Finset (Fin 3 × Fin 14)) :
    (levAts L lv : sProp 𝕄) ⊢ MayWait (c : Thread nD τ) (.dma (sendS b s)) () (owedRecv c T) :=
  mayWait_below c _ _ (lv_send c b s) T fun bs hbs => by omega

theorem mayWait_bar (c : Dev nD) (T : Finset (Fin 3 × Fin 14)) :
    (levAts L lv : sProp 𝕄) ⊢ MayWait (c : Thread nD τ) (.reg barS) () (owedRecv c T) :=
  mayWait_below c _ _ (lv_bar c) T fun bs hbs => by omega

theorem mayWait_stage (c : Dev nD) (q : DmaSem sig) (hq : ¬ isSend q ∧ ¬ isRecv q) (O : CellTallies nD τ sig Unit)
    (hO : O = O₀ c ∨ O = 0) :
    (levAts L lv : sProp 𝕄) ⊢ MayWait (c : Thread nD τ) (.dma q) () O := by
  rcases hO with rfl | rfl
  · have h0 : lv ((c : Thread nD τ), SemLoc.dma q) () = 0 := by
      show (if isRecv q then 2 + 3 * wrank (slotOfSem q 44) + (bandOfSem q 44).val else 0) = 0
      rw [if_neg hq.2]
    refine Pipeline.mayWait_of_levAts (by rw [L_tc]; exact Finset.mem_singleton_self _) (fun g u hg => ?_)
    rcases owed_pos (T := Finset.univ) (J := Finset.univ) hg with ⟨bs, _, rfl⟩ | ⟨j, _, rfl⟩
    · refine ⟨by rw [L_tc]; exact Finset.mem_singleton_self _, ?_⟩
      show lv ((c : Thread nD τ), SemLoc.dma q) () < lv (recvCell (xr c (tmask bs.1 bs.2)) bs.1 bs.2) ()
      rw [h0, lv_recv]; omega
    · refine ⟨by rw [L_tc]; exact Finset.mem_singleton_self _, ?_⟩
      show lv ((c : Thread nD τ), SemLoc.dma q) () < lv (barCell (xr c (bmask j))) ()
      rw [h0, lv_bar]; exact Nat.one_pos
  · rw [MayWait_zero]; iintro -; iempintro

/-! ## What the module rests on -/

/-- info: 'Cert.KernelIdeal.Ar.arRd_payload_storable' depends on axioms: [propext, Classical.choice, Quot.sound] -/
#guard_msgs in #print axioms arRd_payload_storable

/-- info: 'Cert.KernelIdeal.Ar.rest_bar' depends on axioms: [propext, Classical.choice, Quot.sound] -/
#guard_msgs in #print axioms rest_bar

/-- info: 'Cert.KernelIdeal.Ar.rest_send' depends on axioms: [propext, Classical.choice, Quot.sound] -/
#guard_msgs in #print axioms rest_send

/-- info: 'Cert.KernelIdeal.Ar.rest_recv' depends on axioms: [propext, Classical.choice, Quot.sound] -/
#guard_msgs in #print axioms rest_recv

/-- info: 'Cert.KernelIdeal.Ar.kcell_injective' depends on axioms: [propext, Classical.choice, Quot.sound] -/
#guard_msgs in #print axioms kcell_injective

/-- info: 'Cert.KernelIdeal.Ar.mayWait_recv' depends on axioms: [propext, Classical.choice, Quot.sound] -/
#guard_msgs in #print axioms mayWait_recv

/-- info: 'Cert.KernelIdeal.Ar.mayWait_send' depends on axioms: [propext, Classical.choice, Quot.sound] -/
#guard_msgs in #print axioms mayWait_send

/-- info: 'Cert.KernelIdeal.Ar.mayWait_bar' depends on axioms: [propext, Classical.choice, Quot.sound] -/
#guard_msgs in #print axioms mayWait_bar

/-- info: 'Cert.KernelIdeal.Ar.mayWait_stage' depends on axioms: [propext, Classical.choice, Quot.sound] -/
#guard_msgs in #print axioms mayWait_stage

end Cert.KernelIdeal.Ar

end
-- ==== Proof.StepsA.lean ====
import proofs.«900695_g7700000000000696_dist_ar_v7x_i8_i_m2048_n512_f32_1_alg».proof.Proof.Proto
import proofs.«900695_g7700000000000696_dist_ar_v7x_i8_i_m2048_n512_f32_1_alg».proof.Proof.Tables

/-!
# The entry handshake's steps

The initial state from what the launch deals; a handshake signal; the handshake wait.
-/

noncomputable section

namespace Cert.KernelIdeal.Ar

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What the launch hands a device is the initial state. -/
theorem St_init (c : Dev nD) (W : Waits sig Unit) : iprop(linear c ∗ creds c ∗ owes (c : Thread nD τ) (O₀ c) W) ⊢ (St c PSt.init : sProp 𝕄) := by
  have h0 : bigSep (Finset.univ : Finset CK) (fun k : CK => atPos ER (kcell (c, k)) 0 ∅ 0)
      = (iprop(atPos ER (barCell c) 0 ∅ 0
          ∗ (bigSep (Finset.univ : Finset BS) fun bs : BS => atPos ER (sendCell c bs.1 bs.2) 0 ∅ 0)
          ∗ bigSep (Finset.univ : Finset BS) fun bs : BS => atPos ER (recvCell c bs.1 bs.2) 0 ∅ 0) : sProp 𝕄) := by
    rw [bigSep_univ_sum, bigSep_univ_sum, bigSep_univ_of_subsingleton ()]
    rfl
  have h1 : bigSep (Finset.univ : Finset BS) (fun bs : BS =>
        iprop(dutyTok ER (sendCell c bs.1 bs.2) 0 (0 : Fin 3) ∗ dutyTok ER (recvCell (xr c (tmask bs.1 bs.2)) bs.1 bs.2) 0 (0 : Fin 3)))
      = (iprop((bigSep (Finset.univ : Finset BS) fun bs : BS => dutyTok ER (sendCell c bs.1 bs.2) 0 (0 : Fin 3))
          ∗ bigSep (Finset.univ : Finset BS) fun bs : BS => dutyTok ER (recvCell (xr c (tmask bs.1 bs.2)) bs.1 bs.2) 0 (0 : Fin 3)) : sProp 𝕄) :=
    bigSep_sep _ _ _
  have h2 : bigSep (Finset.univ : Finset BS) (fun bs : BS =>
        iprop(cred (tallyAt (recvCell c bs.1 bs.2) () (Namt bs.1 bs.2)) ∗ atPos ER (recvCell c bs.1 bs.2) 0 ∅ 0))
      = (iprop((bigSep (Finset.univ : Finset BS) fun bs : BS => cred (tallyAt (recvCell c bs.1 bs.2) () (Namt bs.1 bs.2)))
          ∗ bigSep (Finset.univ : Finset BS) fun bs : BS => atPos ER (recvCell c bs.1 bs.2) 0 ∅ 0) : sProp 𝕄) :=
    bigSep_sep _ _ _
  unfold St PSt.init linear creds O₀
  simp only [Finset.sdiff_empty, bigSep_empty, Bool.false_eq_true, if_false]
  rw [h0, h1, h2]
  iintro ⟨⟨⟨Hab, Has, Har⟩, Htb, Htr, Hts⟩, ⟨Hcb, Hcr⟩, Ho⟩
  isplitl [Ho]; · iexists W; iexact Ho
  isplitl [Htb]; · iexact Htb
  isplitl [Hts Htr]
  · isplitl [Hts]; · iexact Hts
    iexact Htr
  isplitr; · iempintro
  isplitl [Has]; · iexact Has
  isplitr; · iempintro
  isplitl [Hcr Har]
  · isplitl [Hcr]; · iexact Hcr
    iexact Har
  isplitr; · iempintro
  isplitl [Hcb]; · iexact Hcb
  iexact Hab

/-- The invariant of one cell, out of the records. -/
private theorem inv_at (K : Dev nD × CK → ℕ) (ck : Dev nD × CK) :
    (records m K : sProp 𝕄) ⊢ cellInv ER (Rd (F := F) m) (K ck) (kcell ck) := by
  unfold records
  iintro ⟨H, -⟩
  ihave H' := (bigSep_pick (Φ := fun ck : Dev nD × CK => cellInv ER (Rd (F := F) m) (K ck) (kcell ck)) (Finset.mem_univ ck)) $$ H
  icases H' with ⟨H', -⟩
  iexact H'

/-- Round 0 of one cell is reached, out of the records. -/
private theorem reached_at (K : Dev nD × CK → ℕ) (ck : Dev nD × CK) :
    (records m K : sProp 𝕄) ⊢ reached ER (kcell ck) 0 := by
  unfold records
  iintro ⟨-, H⟩
  ihave H' := (bigSep_pick (Φ := fun ck : Dev nD × CK => reached ER (kcell ck) 0) (Finset.mem_univ ck)) $$ H
  icases H' with ⟨H', -⟩
  iexact H'

section Steps

variable (K : Dev nD × CK → ℕ) (c : Dev nD) (σ : PSt)

local notation "WP" => wp frame (wpE (defs₀ (F := F)) 𝒱₀ (c : Thread nD τ) none) Set.univ

/-- A handshake signal to partner `c ⊕ bmask j`: the chunks of `c`'s buffers that partner's transfers land in go with it. -/
theorem step_signal {α : Type} {Q : α → sProp 𝕄} (j : Fin 3) (hj : j ∉ σ.sig) {k : PUnit → Prog (TpuEff nD τ sig (Elt F) Λ₀ .tc) α} :
    iprop(Pers m K ∗ St c σ ∗ barPay (F := F) (xr c (bmask j)) j)
      ⊢ iprop((St c { σ with sig := insert j σ.sig } -∗ WP (k ⟨⟩) Q)
          -∗ WP (.op (.semSignal ((xr c (bmask j) : Dev nD) : Thread nD τ) barS 1) k) Q) := by
  have hjm : j ∈ Finset.univ \ σ.sig := Finset.mem_sdiff.mpr ⟨Finset.mem_univ _, hj⟩
  have hset : Finset.univ \ insert j σ.sig = (Finset.univ \ σ.sig).erase j := by
    ext x
    simp only [Finset.mem_sdiff, Finset.mem_univ, true_and, Finset.mem_insert, Finset.mem_erase, not_or]
  have hO : owedRecv c (Finset.univ \ σ.sent) + owedBar c (Finset.univ \ σ.sig)
      = (owedRecv c (Finset.univ \ σ.sent) + owedBar c (Finset.univ \ insert j σ.sig))
          + tallyAt (barCell (xr c (bmask j))) () 1 := by
    unfold owedBar
    rw [hset, add_assoc, Finset.sum_erase_add _ _ hjm]
  unfold St Pers
  dsimp only
  iintro ⟨⟨#Hrec, #Hlev⟩, ⟨⟨%W, Ho⟩, Htb, Hrest⟩, Hpay⟩ Hk
  ihave Ht := (bigSep_pick (Φ := fun j : Fin 3 => dutyTok ER (barCell (xr c (bmask j))) 0 j) hjm) $$ Htb
  icases Ht with ⟨Htj, Htb⟩
  iapply (wp_signal 𝒱₀ ER (Rd (F := F) m) (c : Thread nD τ) none (dst := ((xr c (bmask j) : Dev nD) : Thread nD τ)) (sem := barS) (r := 0) (d := j) (k' := 1)
      (κ := K (xr c (bmask j), Sum.inl ()))
      (by rw [duties_bar]; exact Finset.mem_univ _) (amount_bar m _ j) () _ hO) $$ [Ho Htj Hpay]
  · isplitr
    · iapply (inv_at m K (xr c (bmask j), Sum.inl ())); iexact Hrec
    isplitl [Ho]; · iexact Ho
    isplitl [Htj]; · iexact Htj
    isplitl [Hpay]; · rw [payload_bar]; iexact Hpay
    iapply (reached_at m K (xr c (bmask j), Sum.inl ())); iexact Hrec
  iintro Ho
  iapply Hk
  isplitl [Ho]; · iexists W; iexact Ho
  rw [hset]
  isplitl [Htb]; · iexact Htb
  iexact Hrest

/-- The handshake wait, all three signals sent and nothing else done: the three partners' chunks arrive. -/
theorem step_barwait {α : Type} {Q : α → sProp 𝕄} (hs : σ.sig = Finset.univ) (hb : σ.bar = false) {k : PUnit → Prog (TpuEff nD τ sig (Elt F) Λ₀ .tc) α} :
    iprop(Pers m K ∗ St c σ)
      ⊢ iprop((iprop(St c { σ with bar := true } ∗ barPay (F := F) c 0 ∗ barPay (F := F) c 1 ∗ barPay (F := F) c 2) -∗ WP (k ⟨⟩) Q)
          -∗ WP (.op (.semWait barS 3) k) Q) := by
  have hO : owedRecv c (Finset.univ \ σ.sent) + owedBar c (Finset.univ \ σ.sig) = owedRecv c (Finset.univ \ σ.sent) := by
    rw [hs, Finset.sdiff_self]
    unfold owedBar
    rw [Finset.sum_empty, add_zero]
  unfold St Pers
  dsimp only
  rw [hO, hb]
  simp only [Bool.false_eq_true, if_false, if_true]
  iintro ⟨⟨#Hrec, #Hlev⟩, ⟨%W, Ho⟩, Htb, Hts, Hcs, Has0, Has1, Hr0, Hr1, Hcb, Hab⟩ Hk
  iapply (wp_wait_rest_token 𝒱₀ ER (Rd (F := F) m) (c : Thread nD τ) none
      (wpE_semWait_eq 𝒱₀ (c : Thread nD τ) none Set.univ) (Set.mem_univ (K (c, Sum.inl ()))) ()
      (R := 0) (T := ∅) (m := 0) (by rw [expect_bar])) $$ [Hcb Ho Hab]
  · isplitr
    · iapply (inv_at m K (c, Sum.inl ())); iexact Hrec
    isplitl [Hcb]; · iexact Hcb
    isplitl [Ho]; · iexact Ho
    isplitr; · iapply (mayWait_bar c (Finset.univ \ σ.sent)); iexact Hlev
    iexact Hab
  iintro ⟨Ho, Hab, -, Hpay⟩
  ihave Hp := (Entails.of_eq (rest_bar m c)) $$ Hpay
  iapply Hk
  isplitr [Hp]
  · isplitl [Ho]; · iexists _; iexact Ho
    isplitl [Htb]; · iexact Htb
    isplitl [Hts]; · iexact Hts
    isplitl [Hcs]; · iexact Hcs
    isplitl [Has0]; · iexact Has0
    isplitl [Has1]; · iexact Has1
    isplitl [Hr0]; · iexact Hr0
    isplitl [Hr1]; · iexact Hr1
    iexact Hab
  iexact Hp

end Steps

/-- info: 'Cert.KernelIdeal.Ar.St_init' depends on axioms: [propext, Classical.choice, Quot.sound] -/
#guard_msgs in #print axioms St_init

/-- info: 'Cert.KernelIdeal.Ar.step_signal' depends on axioms: [propext, Classical.choice, Quot.sound] -/
#guard_msgs in #print axioms step_signal

/-- info: 'Cert.KernelIdeal.Ar.step_barwait' depends on axioms: [propext, Classical.choice, Quot.sound] -/
#guard_msgs in #print axioms step_barwait

end Cert.KernelIdeal.Ar

end
-- ==== Proof.StepsC.lean ====
import proofs.«900695_g7700000000000696_dist_ar_v7x_i8_i_m2048_n512_f32_1_alg».proof.Proof.Proto
import proofs.«900695_g7700000000000696_dist_ar_v7x_i8_i_m2048_n512_f32_1_alg».proof.Proof.Tables

/-!
# The waits on the device's own transfer cells, and closing them
-/

noncomputable section

namespace Cert.KernelIdeal.Ar

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Steps

variable (K : Dev nD × CK → ℕ) (c : Dev nD) (σ : PSt)

local notation "WP" => wp frame (wpE (defs₀ (F := F)) 𝒱₀ (c : Thread nD τ) none) Set.univ

/-- Taking one more element out of a complement. -/
theorem univ_sdiff_insert {I : Type} [Fintype I] [DecidableEq I] (i : I) (A : Finset I) :
    (Finset.univ \ insert i A : Finset I) = (Finset.univ \ A).erase i := by
  ext x
  simp only [Finset.mem_sdiff, Finset.mem_univ, true_and, Finset.mem_insert, Finset.mem_erase, not_or]

/-- With every handshake signal sent, nothing is owed on a barrier cell. -/
theorem owedBar_done (hsig : σ.sig = Finset.univ) : owedBar c (Finset.univ \ σ.sig) = 0 := by
  rw [hsig, Finset.sdiff_self]; exact Finset.sum_empty

/-- The persistent context holds every cell's invariant under its name. -/
theorem Pers_cellInv (ck : Dev nD × CK) : Pers m K ⊢ cellInv ER (Rd (F := F) m) (K ck) (kcell ck) := by
  unfold Pers records
  iintro ⟨⟨Hinv, -⟩, -⟩
  iapply (show bigSep Finset.univ (fun ck : Dev nD × CK => cellInv ER (Rd (F := F) m) (K ck) (kcell ck))
      ⊢ cellInv ER (Rd (F := F) m) (K ck) (kcell ck) from bigSep_elim (Finset.mem_univ ck))
  iexact Hinv

/-- The persistent context holds the level facts. -/
theorem Pers_levAts : Pers m K ⊢ (levAts L lv : sProp 𝕄) := by
  unfold Pers
  iintro ⟨-, Hlev⟩
  iexact Hlev

/-- One summand put back into an iterated separating conjunction. -/
theorem bigSep_put {I : Type} [DecidableEq I] {S : Finset I} {i : I} (hi : i ∉ S) {Φ : I → sProp 𝕄} :
    iprop(Φ i ∗ bigSep S Φ) ⊢ bigSep (insert i S) Φ :=
  Entails.of_eq (bigSep_insert hi).symm

/-- Taking one more element out of a difference. -/
theorem sdiff_insert_erase {I : Type} [DecidableEq I] (A B : Finset I) (i : I) : A \ insert i B = (A \ B).erase i := by
  ext x
  simp only [Finset.mem_sdiff, Finset.mem_insert, Finset.mem_erase, not_or]
  tauto

/-- A send cell at round 1, where no round has a duty any more, closes at zero. -/
theorem close_send (bs : BS) :
    iprop(Pers m K ∗ atPos ER (sendCell c bs.1 bs.2) 1 ∅ 0) ⊢ iprop(|={Set.univ}=> semVal (sendCell c bs.1 bs.2) 0) := by
  iintro ⟨#HP, Hat⟩
  ihave #HI := (Pers_cellInv m K (c, Sum.inr (Sum.inl bs))) $$ HP
  iapply (Rounds.cell_close ER (Rd (F := F) m) (Set.mem_univ (K (c, Sum.inr (Sum.inl bs)))) (fun h => h) (R := 1)
    (duties_later m (sendCell c bs.1 bs.2)))
  isplitr; · iexact HI
  iexact Hat

/-- Likewise a receive cell. -/
theorem close_recv (bs : BS) :
    iprop(Pers m K ∗ atPos ER (recvCell c bs.1 bs.2) 1 ∅ 0) ⊢ iprop(|={Set.univ}=> semVal (recvCell c bs.1 bs.2) 0) := by
  iintro ⟨#HP, Hat⟩
  ihave #HI := (Pers_cellInv m K (c, Sum.inr (Sum.inr bs))) $$ HP
  iapply (Rounds.cell_close ER (Rd (F := F) m) (Set.mem_univ (K (c, Sum.inr (Sum.inr bs)))) (fun h => h) (R := 1)
    (duties_later m (recvCell c bs.1 bs.2)))
  isplitr; · iexact HI
  iexact Hat

/-- All of a device's send cells close, under one update. -/
theorem close_sends :
    iprop(Pers m K ∗ bigSep Finset.univ fun bs : BS => atPos ER (sendCell c bs.1 bs.2) 1 ∅ 0)
      ⊢ iprop(|={Set.univ}=> bigSep Finset.univ fun bs : BS => semVal (sendCell c bs.1 bs.2) 0) :=
  (bigSep_with_persistent fun bs _ => close_send m K c bs).trans (bigSep_fupd Finset.univ _)

/-- All of a device's receive cells close, under one update. -/
theorem close_recvs :
    iprop(Pers m K ∗ bigSep Finset.univ fun bs : BS => atPos ER (recvCell c bs.1 bs.2) 1 ∅ 0)
      ⊢ iprop(|={Set.univ}=> bigSep Finset.univ fun bs : BS => semVal (recvCell c bs.1 bs.2) 0) :=
  (bigSep_with_persistent fun bs _ => close_recv m K c bs).trans (bigSep_fupd Finset.univ _)

/-- At the end nothing is owed. -/
theorem owed_final : owedRecv c (Finset.univ \ PSt.final.sent) + owedBar c (Finset.univ \ PSt.final.sig) = 0 := by
  show owedRecv c (Finset.univ \ Finset.univ) + owedBar c (Finset.univ \ Finset.univ) = 0
  rw [Finset.sdiff_self, Finset.sdiff_self]
  unfold owedRecv owedBar
  rw [Finset.sum_empty, Finset.sum_empty, add_zero]

/-- The wait on receive cell `(b, s)`: every landing still owed belongs to a slot waited for later. -/
theorem step_recvwait {α : Type} {Q : α → sProp 𝕄} (b : Fin 3) (s : Fin 14) (hr : (b, s) ∉ σ.rcv) (hsig : σ.sig = Finset.univ)
    (hlv : ∀ bs ∈ (Finset.univ \ σ.sent : Finset BS), 3 * wrank s + b.val < 3 * wrank bs.2 + bs.1.val)
    {sp' : Space} {s' : Shape} {e' : EltTy} {src : Memref sig .tc sp' s' e'} (k0 : Dev nD) {hse} {hde}
    {k : PUnit → Prog (TpuEff nD τ sig (Elt F) Λ₀ .tc) α} :
    iprop(Pers m K ∗ St c σ)
      ⊢ iprop((iprop(St c { σ with rcv := insert (b, s) σ.rcv } ∗ recvPay (Xof m) c b s) -∗ WP (k ⟨⟩) Q)
          -∗ WP (.op (.waitDma2 (recvS b s) src (chunkM (dstM s) b k0) hse hde) k) Q) := by
  have hmem : (b, s) ∈ (Finset.univ \ σ.rcv : Finset BS) := Finset.mem_sdiff.mpr ⟨Finset.mem_univ _, hr⟩
  have hamt : (chunkM (dstM s) b k0).view.dmaCredit = Namt b s := amount_dst b s k0 (recvS b s)
  have hO : owedRecv c (Finset.univ \ σ.sent) + owedBar c (Finset.univ \ σ.sig) = owedRecv c (Finset.univ \ σ.sent) := by
    rw [owedBar_done c σ hsig, add_zero]
  unfold St
  iintro ⟨#HP, ⟨%W, HO⟩, Htsig, Htsent, Hcsend, Hps0, Hps1, Hrc0, Hrc1, Hbar⟩ Hk
  ihave #HI := (Pers_cellInv m K (c, Sum.inr (Sum.inr (b, s)))) $$ HP
  ihave #Hlev := (Pers_levAts m K) $$ HP
  ihave Hpick := (Rounds.bigSep_pick hmem) $$ Hrc0
  icases Hpick with ⟨⟨Hcr, Hat⟩, Hrc0⟩
  iapply (Rounds.wp_wait_rest_token 𝒱₀ ER (Rd (F := F) m) (c : Thread nD τ) none (κ := K (c, Sum.inr (Sum.inr (b, s))))
      (wpE_waitDma2_eq 𝒱₀ (c : Thread nD τ) none Set.univ) (Set.mem_univ _) ()
      (O := owedRecv c (Finset.univ \ σ.sent) + owedBar c (Finset.univ \ σ.sig)) (W := W) (R := 0) (m := 0) (T := ∅)
      (by rw [Nat.zero_add, expect_recv, hamt])) $$ [Hcr HO Hat]
  · isplitr; · iexact HI
    isplitl [Hcr]; · rw [hamt]; iexact Hcr
    isplitl [HO]; · iexact HO
    isplitr; · rw [hO]; iapply (mayWait_recv c b s (Finset.univ \ σ.sent) hlv); iexact Hlev
    iexact Hat
  iintro ⟨HO, Hat, -, Hpay⟩
  ihave Hp := (Entails.of_eq (rest_recv m c b s)) $$ Hpay
  iapply Hk
  isplitr [Hp]
  rotate_left
  · iexact Hp
  rw [univ_sdiff_insert (b, s) σ.rcv]
  isplitl [HO]; · iexists (insert (SemLoc.dma (recvS b s), ()) W); iexact HO
  isplitl [Htsig]; · iexact Htsig
  isplitl [Htsent]; · iexact Htsent
  isplitl [Hcsend]; · iexact Hcsend
  isplitl [Hps0]; · iexact Hps0
  isplitl [Hps1]; · iexact Hps1
  isplitl [Hrc0]; · iexact Hrc0
  isplitl [Hat Hrc1]
  · iapply (bigSep_put hr)
    isplitl [Hat]; · iexact Hat
    iexact Hrc1
  iexact Hbar

/-- The wait on send cell `(b, s)` of a transfer in flight. -/
theorem step_sendwait {α : Type} {Q : α → sProp 𝕄} (b : Fin 3) (s : Fin 14) (hs : (b, s) ∈ σ.sent) (hw : (b, s) ∉ σ.swt) (hsig : σ.sig = Finset.univ)
    {sp' : Space} {s' : Shape} {e' : EltTy} {src : Memref sig .tc sp' s' e'} (k0 : Dev nD) {hse} {hde}
    {k : PUnit → Prog (TpuEff nD τ sig (Elt F) Λ₀ .tc) α} :
    iprop(Pers m K ∗ St c σ)
      ⊢ iprop((iprop(St c { σ with swt := insert (b, s) σ.swt } ∗ sendPay (Xof m) c b s) -∗ WP (k ⟨⟩) Q)
          -∗ WP (.op (.waitDma2 (sendS b s) src (chunkM (dstM s) b k0) hse hde) k) Q) := by
  have hmemS : (b, s) ∈ (σ.sent \ σ.swt : Finset BS) := Finset.mem_sdiff.mpr ⟨hs, hw⟩
  have hmemU : (b, s) ∈ (Finset.univ \ σ.swt : Finset BS) := Finset.mem_sdiff.mpr ⟨Finset.mem_univ _, hw⟩
  have hamt : (chunkM (dstM s) b k0).view.dmaCredit = Namt b s := amount_dst b s k0 (sendS b s)
  have hO : owedRecv c (Finset.univ \ σ.sent) + owedBar c (Finset.univ \ σ.sig) = owedRecv c (Finset.univ \ σ.sent) := by
    rw [owedBar_done c σ hsig, add_zero]
  unfold St
  iintro ⟨#HP, ⟨%W, HO⟩, Htsig, Htsent, Hcsend, Hps0, Hps1, Hrc0, Hrc1, Hbar⟩ Hk
  ihave #HI := (Pers_cellInv m K (c, Sum.inr (Sum.inl (b, s)))) $$ HP
  ihave #Hlev := (Pers_levAts m K) $$ HP
  ihave Hpick := (Rounds.bigSep_pick hmemS) $$ Hcsend
  icases Hpick with ⟨Hcr, Hcsend⟩
  ihave Hpick := (Rounds.bigSep_pick hmemU) $$ Hps0
  icases Hpick with ⟨Hat, Hps0⟩
  iapply (Rounds.wp_wait_rest_token 𝒱₀ ER (Rd (F := F) m) (c : Thread nD τ) none (κ := K (c, Sum.inr (Sum.inl (b, s))))
      (wpE_waitDma2_eq 𝒱₀ (c : Thread nD τ) none Set.univ) (Set.mem_univ _) ()
      (O := owedRecv c (Finset.univ \ σ.sent) + owedBar c (Finset.univ \ σ.sig)) (W := W) (R := 0) (m := 0) (T := ∅)
      (by rw [Nat.zero_add, expect_send, hamt])) $$ [Hcr HO Hat]
  · isplitr; · iexact HI
    isplitl [Hcr]; · rw [hamt]; iexact Hcr
    isplitl [HO]; · iexact HO
    isplitr; · rw [hO]; iapply (mayWait_send c b s (Finset.univ \ σ.sent)); iexact Hlev
    iexact Hat
  iintro ⟨HO, Hat, -, Hpay⟩
  ihave Hp := (Entails.of_eq (rest_send m c b s)) $$ Hpay
  iapply Hk
  isplitr [Hp]
  rotate_left
  · iexact Hp
  rw [sdiff_insert_erase σ.sent σ.swt (b, s), univ_sdiff_insert (b, s) σ.swt]
  isplitl [HO]; · iexists (insert (SemLoc.dma (sendS b s), ()) W); iexact HO
  isplitl [Htsig]; · iexact Htsig
  isplitl [Htsent]; · iexact Htsent
  isplitl [Hcsend]; · iexact Hcsend
  isplitl [Hps0]; · iexact Hps0
  isplitl [Hat Hps1]
  · iapply (bigSep_put hw)
    isplitl [Hat]; · iexact Hat
    iexact Hps1
  isplitl [Hrc0]; · iexact Hrc0
  isplitl [Hrc1]; · iexact Hrc1
  iexact Hbar

/-- At the end: every cell of the device's own 84 closes at zero, and it owes nothing. -/
theorem St_final :
    iprop(Pers m K ∗ St c PSt.final)
      ⊢ |={Set.univ}=> iprop((bigSep Finset.univ fun bs : BS => semVal (sendCell c bs.1 bs.2) 0)
          ∗ (bigSep Finset.univ fun bs : BS => semVal (recvCell c bs.1 bs.2) 0) ∗ ∃ W, owes (c : Thread nD τ) 0 W) := by
  unfold St
  iintro ⟨#HP, ⟨%W, HO⟩, -, -, -, -, Hps1, -, Hrc1, -⟩
  imod (close_sends m K c) $$ [Hps1] with Hs
  · isplitr; · iexact HP
    iexact Hps1
  imod (close_recvs m K c) $$ [Hrc1] with Hr
  · isplitr; · iexact HP
    iexact Hrc1
  imodintro
  isplitl [Hs]; · iexact Hs
  isplitl [Hr]; · iexact Hr
  iexists W
  rw [owed_final c]
  iexact HO

/-- In this program a transfer's credit depends on the view's extent and element type only, not on the buffer: the chunk of
    a slot's source buffer credits what the chunk of its destination buffer does. -/
theorem amount_src (b : Fin 3) (s : Fin 14) (k : Dev nD) (q : DmaSem sig) :
    (chunkM (srcM s) b k).view.amount (.dma q) = Namt b s := rfl

/-- The wait on send cell `(b, s)` through any view whose credit is the slot's. -/
theorem step_sendwait_at {α : Type} {Q : α → sProp 𝕄} (b : Fin 3) (s : Fin 14) (hs : (b, s) ∈ σ.sent) (hw : (b, s) ∉ σ.swt) (hsig : σ.sig = Finset.univ)
    {sp' : Space} {s' : Shape} {e' : EltTy} {src : Memref sig .tc sp' s' e'}
    {κd : Kind} {spd : Space} {sd : Shape} {ed : EltTy} {dst : Memref sig κd spd sd ed} (hamt : dst.view.dmaCredit = Namt b s) {hse} {hde}
    {k : PUnit → Prog (TpuEff nD τ sig (Elt F) Λ₀ .tc) α} :
    iprop(Pers m K ∗ St c σ)
      ⊢ iprop((iprop(St c { σ with swt := insert (b, s) σ.swt } ∗ sendPay (Xof m) c b s) -∗ WP (k ⟨⟩) Q)
          -∗ WP (.op (.waitDma2 (sendS b s) src dst hse hde) k) Q) := by
  have hmemS : (b, s) ∈ (σ.sent \ σ.swt : Finset BS) := Finset.mem_sdiff.mpr ⟨hs, hw⟩
  have hmemU : (b, s) ∈ (Finset.univ \ σ.swt : Finset BS) := Finset.mem_sdiff.mpr ⟨Finset.mem_univ _, hw⟩
  have hO : owedRecv c (Finset.univ \ σ.sent) + owedBar c (Finset.univ \ σ.sig) = owedRecv c (Finset.univ \ σ.sent) := by
    rw [owedBar_done c σ hsig, add_zero]
  unfold St
  iintro ⟨#HP, ⟨%W, HO⟩, Htsig, Htsent, Hcsend, Hps0, Hps1, Hrc0, Hrc1, Hbar⟩ Hk
  ihave #HI := (Pers_cellInv m K (c, Sum.inr (Sum.inl (b, s)))) $$ HP
  ihave #Hlev := (Pers_levAts m K) $$ HP
  ihave Hpick := (Rounds.bigSep_pick hmemS) $$ Hcsend
  icases Hpick with ⟨Hcr, Hcsend⟩
  ihave Hpick := (Rounds.bigSep_pick hmemU) $$ Hps0
  icases Hpick with ⟨Hat, Hps0⟩
  iapply (Rounds.wp_wait_rest_token 𝒱₀ ER (Rd (F := F) m) (c : Thread nD τ) none (κ := K (c, Sum.inr (Sum.inl (b, s))))
      (wpE_waitDma2_eq 𝒱₀ (c : Thread nD τ) none Set.univ) (Set.mem_univ _) ()
      (O := owedRecv c (Finset.univ \ σ.sent) + owedBar c (Finset.univ \ σ.sig)) (W := W) (R := 0) (m := 0) (T := ∅)
      (by rw [Nat.zero_add, expect_send, hamt])) $$ [Hcr HO Hat]
  · isplitr; · iexact HI
    isplitl [Hcr]; · rw [hamt]; iexact Hcr
    isplitl [HO]; · iexact HO
    isplitr; · rw [hO]; iapply (mayWait_send c b s (Finset.univ \ σ.sent)); iexact Hlev
    iexact Hat
  iintro ⟨HO, Hat, -, Hpay⟩
  ihave Hp := (Entails.of_eq (rest_send m c b s)) $$ Hpay
  iapply Hk
  isplitr [Hp]
  rotate_left
  · iexact Hp
  rw [sdiff_insert_erase σ.sent σ.swt (b, s), univ_sdiff_insert (b, s) σ.swt]
  isplitl [HO]; · iexists (insert (SemLoc.dma (sendS b s), ()) W); iexact HO
  isplitl [Htsig]; · iexact Htsig
  isplitl [Htsent]; · iexact Htsent
  isplitl [Hcsend]; · iexact Hcsend
  isplitl [Hps0]; · iexact Hps0
  isplitl [Hat Hps1]
  · iapply (bigSep_put hw)
    isplitl [Hat]; · iexact Hat
    iexact Hps1
  isplitl [Hrc0]; · iexact Hrc0
  isplitl [Hrc1]; · iexact Hrc1
  iexact Hbar

/-- The same wait named through the chunk of the slot's SOURCE buffer, as the kernel writes it: the credit is the same. -/
theorem step_sendwait_srcbuf {α : Type} {Q : α → sProp 𝕄} (b : Fin 3) (s : Fin 14) (hs : (b, s) ∈ σ.sent) (hw : (b, s) ∉ σ.swt) (hsig : σ.sig = Finset.univ)
    {sp' : Space} {s' : Shape} {e' : EltTy} {src : Memref sig .tc sp' s' e'} (k0 : Dev nD) {hse} {hde}
    {k : PUnit → Prog (TpuEff nD τ sig (Elt F) Λ₀ .tc) α} :
    iprop(Pers m K ∗ St c σ)
      ⊢ iprop((iprop(St c { σ with swt := insert (b, s) σ.swt } ∗ sendPay (Xof m) c b s) -∗ WP (k ⟨⟩) Q)
          -∗ WP (.op (.waitDma2 (sendS b s) src (chunkM (srcM s) b k0) hse hde) k) Q) := by
  exact step_sendwait_at m K c σ b s hs hw hsig (amount_src b s k0 (sendS b s))

/-- info: 'Cert.KernelIdeal.Ar.step_recvwait' depends on axioms: [propext, Classical.choice, Quot.sound] -/
#guard_msgs in #print axioms step_recvwait

/-- info: 'Cert.KernelIdeal.Ar.step_sendwait' depends on axioms: [propext, Classical.choice, Quot.sound] -/
#guard_msgs in #print axioms step_sendwait

/-- info: 'Cert.KernelIdeal.Ar.St_final' depends on axioms: [propext, Classical.choice, Quot.sound] -/
#guard_msgs in #print axioms St_final

/-- info: 'Cert.KernelIdeal.Ar.step_sendwait_srcbuf' depends on axioms: [propext, Classical.choice, Quot.sound] -/
#guard_msgs in #print axioms step_sendwait_srcbuf

end Steps

end Cert.KernelIdeal.Ar

end
-- ==== Proof.Launch.lean ====
import proofs.«900695_g7700000000000696_dist_ar_v7x_i8_i_m2048_n512_f32_1_alg».proof.Proof.Ghost
import proofs.«900695_g7700000000000696_dist_ar_v7x_i8_i_m2048_n512_f32_1_alg».proof.Proof.Tables
import proofs.«900695_g7700000000000696_dist_ar_v7x_i8_i_m2048_n512_f32_1_alg».proof.Proof.Gen.KernelIdeal.Points

/-!
# The launch: from every device's body to the run of the whole mesh

The launch theorem turns "each device's body is proved" into the run of @main on the eight devices. It is handed:
the kernel's own 84 scoped semaphores; the protocol's ghost state funded for the 85 cells of every device and the
duty tokens of their one round; the global step that puts every cell's counter under its invariant and deals each
duty token to the device that pays the duty (a barrier duty to the partner across that mask, a landing to its
sender, a departure to the sender itself); the launch credit, which is exactly what a device waits for; and the
reading of the two arrays after the run: the input as it was, the result written whole at the one point.
-/

noncomputable section

namespace Cert.KernelIdeal.Ar

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

/-- A device's own scoped semaphores besides the staging pair: the send and the receive semaphore of every band and slot. -/
abbrev OK : Type := (Fin 3 × Fin 14) ⊕ (Fin 3 × Fin 14)

def osem : OK → SemLoc sig
  | .inl bs => .dma (sendS bs.1 bs.2)
  | .inr bs => .dma (recvS bs.1 bs.2)

theorem ownSemFacts : Pipeline.OwnSemFacts cfg0.spec osem := by decide

theorem share_eq (c : Dev nD) (w : Fin cfg0.W) : (dats m ρ 0 c).share w = fullShare := by unfold Dat.share; split <;> rfl

/-! ## The cells and tokens funded -/

def arCells : Finset (GSem nD τ sig) := Finset.univ.map ⟨kcell, kcell_injective⟩

/-- The duties of a device's own cells: the barrier's three, and the one of each send and receive cell. -/
abbrev TK : Type := Fin 3 ⊕ OK

/-- The cell a duty belongs to, and its name there. -/
def tcell : TK → CK
  | .inl _ => .inl ()
  | .inr k => .inr k
def tduty : TK → Fin 3
  | .inl j => j
  | .inr _ => 0

def tokOf (cj : Dev nD × TK) : GSem nD τ sig × ℕ × Fin 3 := (kcell (cj.1, tcell cj.2), 0, tduty cj.2)

theorem tokOf_injective : Function.Injective (tokOf : Dev nD × TK → GSem nD τ sig × ℕ × Fin 3) := by
  rintro ⟨c, t⟩ ⟨c', t'⟩ h
  obtain ⟨h1, h2⟩ := Prod.mk.inj (show (kcell (c, tcell t), (0 : ℕ), tduty t) = (kcell (c', tcell t'), (0 : ℕ), tduty t') from h)
  have h3 : tduty t = tduty t' := (Prod.mk.inj h2).2
  obtain ⟨hc, hk⟩ := Prod.mk.inj (kcell_injective h1)
  subst hc
  have : t = t' := by
    rcases t with j | k <;> rcases t' with j' | k'
    · exact congrArg Sum.inl h3
    · exact absurd hk (fun h => by cases h)
    · exact absurd hk (fun h => by cases h)
    · exact congrArg Sum.inr (Sum.inr.inj hk)
  rw [this]

def arToks : Finset (GSem nD τ sig × ℕ × Fin 3) := Finset.univ.map ⟨tokOf, tokOf_injective⟩

def u₀ : UU :=
  (initOf (Pipeline.cells cfgs cellOf_inj) (Pipeline.launchToks cfgs cellOf_inj), initOf arCells arToks)

/-- The duty tokens of device `c`'s own cells, as minted. -/
def toks (c : Dev nD) : sProp 𝕄 :=
  iprop((bigSep Finset.univ fun j : Fin 3 => dutyTok ER (barCell c) 0 j)
    ∗ (bigSep Finset.univ fun bs : Fin 3 × Fin 14 => dutyTok ER (sendCell c bs.1 bs.2) 0 (0 : Fin 3))
    ∗ (bigSep Finset.univ fun bs : Fin 3 × Fin 14 => dutyTok ER (recvCell c bs.1 bs.2) 0 (0 : Fin 3)))

/-- What the launch element deals device `c`. -/
def G (c : Dev nD) : sProp 𝕄 :=
  iprop((bigSep Finset.univ fun k : CK => roundState ER (Rd m) (kcell (c, k)) 0)
    ∗ (bigSep Finset.univ fun k : CK => iprop(atPos ER (kcell (c, k)) 0 ∅ 0 ∗ reached ER (kcell (c, k)) 0)) ∗ toks c)

/-- What the global step makes of it. -/
def G' (c : Dev nD) : sProp 𝕄 := iprop(∃ K, records m K ∗ linear c)

omit [FloatOps F] in
/-- A conjunction over a device's cells, cell kind by cell kind. -/
theorem bigSep_CK (Φ : CK → sProp 𝕄) :
    bigSep Finset.univ Φ = iprop(Φ (.inl ()) ∗ (bigSep Finset.univ fun bs : Fin 3 × Fin 14 => Φ (.inr (.inl bs)))
      ∗ (bigSep Finset.univ fun bs : Fin 3 × Fin 14 => Φ (.inr (.inr bs)))) := by
  rw [bigSep_univ_sum, bigSep_univ_sum, bigSep_univ_of_subsingleton ()]
  rfl

omit [FloatOps F] in
/-- A conjunction over three duties, one by one. -/
theorem bigSep_fin3 (Φ : Fin 3 → sProp 𝕄) : bigSep Finset.univ Φ = iprop(Φ 0 ∗ Φ 1 ∗ Φ 2) := bigSep_univ_eq_bigSepL [0, 1, 2] (by decide) (by decide) Φ

theorem fund_ar : BI.own (ER (initOf arCells arToks)) ⊢ (|==> bigSep Finset.univ (G m) : sProp 𝕄) := by
  have hX (Φ : GSem nD τ sig → sProp 𝕄) : bigSep arCells Φ = bigSep Finset.univ fun c : Dev nD => bigSep Finset.univ fun k : CK => Φ (kcell (c, k)) := by
    unfold arCells; rw [bigSep_map, bigSep_univ_prod]; rfl
  have hT : bigSep arToks (fun x => (dutyTok ER x.1 x.2.1 x.2.2 : sProp 𝕄)) = bigSep Finset.univ fun c : Dev nD => toks c := by
    unfold arToks; rw [bigSep_map, bigSep_univ_prod]
    exact bigSep_congr fun c _ => by unfold toks; rw [bigSep_univ_sum, bigSep_univ_sum]; rfl
  iintro HX
  imod (Rounds.fund ER (Rd m) arCells arToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every cell under its invariant, every token with its payer -/

omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun bs : Fin 3 × Fin 14 => semVal (sendCell c bs.1 bs.2) 0)
      ∗ (bigSep Finset.univ fun bs : Fin 3 × Fin 14 => semVal (recvCell c bs.1 bs.2) 0)) := by
  unfold Pipeline.ownSems0; rw [bigSep_univ_sum]; rfl

omit [FloatOps F] in
/-- The barrier semaphore is the one semaphore of a core that is not scoped. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, bigSep_CK]
  iintro ⟨⟨HS, HV⟩, HB⟩
  isplitl [HB]; · iexact HB
  isplitl [HS]; · iexact HS
  iexact HV

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (Rd m) κ (kcell (c, k))))
          ∗ (bigSep Finset.univ fun k : CK => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (Rd m) (kcell (c, k)) 0)
      ⊢ (|={Set.univ}=> bigSep Finset.univ fun k : CK => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens of the duties device `c` pays: a unit on each partner's barrier cell, every landing on a partner's receive
    cell, every departure on its own send cell. -/
def payToks (c : Dev nD) : sProp 𝕄 :=
  iprop((bigSep Finset.univ fun j : Fin 3 => dutyTok ER (barCell (xr c (bmask j))) 0 j)
    ∗ (bigSep Finset.univ fun bs : Fin 3 × Fin 14 => dutyTok ER (recvCell (xr c (tmask bs.1 bs.2)) bs.1 bs.2) 0 (0 : Fin 3))
    ∗ (bigSep Finset.univ fun bs : Fin 3 × Fin 14 => dutyTok ER (sendCell c bs.1 bs.2) 0 (0 : Fin 3)))

omit [FloatOps F] in
/-- Dealing across the masks: a family indexed by (device, duty) is the same family with each duty's device flipped by that
    duty's mask, since flipping by a mask permutes the devices. -/
theorem deal {J : Type} [Fintype J] (f : J → Fin 8) (Φ : Dev nD → J → sProp 𝕄) :
    (bigSep Finset.univ fun c : Dev nD => bigSep Finset.univ fun j : J => Φ c j)
      = bigSep Finset.univ fun c : Dev nD => bigSep Finset.univ fun j : J => Φ (xr c (f j)) j := by
  rw [bigSep_univ_comm, bigSep_univ_comm (fun c j => Φ (xr c (f j)) j)]
  exact bigSep_congr fun j _ => bigSep_univ_equiv (xrEquiv (f j)) (fun c => Φ c j)

omit [FloatOps F] in
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    deal bmask (fun c j => (dutyTok ER (barCell c) 0 j : sProp 𝕄)),
    deal (fun bs : Fin 3 × Fin 14 => tmask bs.1 bs.2) (fun c bs => (dutyTok ER (recvCell c bs.1 bs.2) 0 (0 : Fin 3) : sProp 𝕄))]
  iintro ⟨H1, H2, H3⟩
  isplitl [H1]; · iexact H1
  isplitl [H3]; · iexact H3
  iexact H2

omit [FloatOps F] in
/-- A persistent assertion is shared out to every member of a conjunction. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CK => iprop(∃ κ : ℕ, cellInv ER (Rd m) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CK => iprop(∃ κ : ℕ, cellInv ER (Rd m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (Rd m) κ (kcell ck) : sProp 𝕄))) $$ HI
  icases HK with ⟨%K, #HI⟩
  ihave Htk := (toks_around (F := F)) $$ Htok
  iapply (bigSep_with_persistent (R := records m K) fun c _ => show iprop(records m K ∗ linear c) ⊢ G' m c from by
    unfold G'; iintro H; iexists K; iexact H)
  isplitr
  · unfold records; isplitl; · iexact HI
    iexact HR
  · iapply ((Entails.of_eq (bigSep_sep' Finset.univ (fun c : Dev nD => bigSep Finset.univ fun k : CK => (atPos ER (kcell (c, k)) 0 ∅ 0 : sProp 𝕄)) payToks).symm).trans
      (bigSep_mono fun c _ => show _ ⊢ linear c from Entails.of_eq (by unfold linear payToks; rfl)))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

omit [FloatOps F] in
/-- Three units on one cell are the credit of three. -/
theorem cred3 (g : GSem nD τ sig) :
    iprop(cred (tallyAt g () 1) ∗ cred (tallyAt g () 1) ∗ cred (tallyAt g () 1)) ⊢ (cred (tallyAt g () 3) : sProp 𝕄) := by
  rw [show (tallyAt g () 3 : CellTallies nD τ sig Unit) = tallyAt g () 1 + (tallyAt g () 1 + tallyAt g () 1) from by rw [tallyAt_add, tallyAt_add]]
  exact (sep_mono_right (cred_add _ _).2).trans (cred_add _ _).2

omit [FloatOps F] in
/-- What the devices owe at launch, summed over them, is what each device waits for: its three partners' units on its barrier
    cell (the partner across mask `j` owes duty `j`) and, per band and slot, the landing its partner across that slot's mask
    owes its receive cell. -/
theorem creds_intro (c : Dev nD) : (Pipeline.launchCred O₀ c : sProp 𝕄) ⊢ creds c := by
  have hO : (O₀ : Dev nD → CellTallies nD τ sig Unit)
      = fun d => (∑ bs ∈ (Finset.univ : Finset (Fin 3 × Fin 14)), tallyAt (recvCell (xr d (tmask bs.1 bs.2)) bs.1 bs.2) () (Namt bs.1 bs.2))
          + ∑ j ∈ (Finset.univ : Finset (Fin 3)), tallyAt (barCell (xr d (bmask j))) () 1 := rfl
  rw [hO, Pipeline.launchCred_add,
    Pipeline.launchCred_sum Finset.univ (fun (bs : Fin 3 × Fin 14) (d : Dev nD) => (tallyAt (recvCell (xr d (tmask bs.1 bs.2)) bs.1 bs.2) () (Namt bs.1 bs.2) : CellTallies nD τ sig Unit)) c,
    Pipeline.launchCred_sum Finset.univ (fun (j : Fin 3) (d : Dev nD) => (tallyAt (barCell (xr d (bmask j))) () 1 : CellTallies nD τ sig Unit)) c]
  unfold creds
  have hB : (bigSep Finset.univ fun j : Fin 3 => Pipeline.launchCred (fun d : Dev nD => (tallyAt (barCell (xr d (bmask j))) () 1 : CellTallies nD τ sig Unit)) c : sProp 𝕄)
      ⊢ cred (tallyAt (barCell c) () 3) :=
    ((bigSep_mono fun j _ => Pipeline.launchCred_tallyAt (SemLoc.reg barS) (fun d : Dev nD => xr d (bmask j)) (fun d => xr d (bmask j))
        (fun d => xr_xr d _) (fun d => xr_xr d _) () 1 c).trans
      (Entails.of_eq (bigSep_fin3 fun _ : Fin 3 => (cred (tallyAt (barCell c) () 1) : sProp 𝕄)))).trans (cred3 (barCell c))
  have hR : (bigSep Finset.univ fun bs : Fin 3 × Fin 14 =>
        Pipeline.launchCred (fun d : Dev nD => (tallyAt (recvCell (xr d (tmask bs.1 bs.2)) bs.1 bs.2) () (Namt bs.1 bs.2) : CellTallies nD τ sig Unit)) c : sProp 𝕄)
      ⊢ bigSep Finset.univ fun bs : Fin 3 × Fin 14 => cred (tallyAt (recvCell c bs.1 bs.2) () (Namt bs.1 bs.2)) :=
    bigSep_mono fun bs _ => Pipeline.launchCred_tallyAt (SemLoc.dma (recvS bs.1 bs.2)) (fun d : Dev nD => xr d (tmask bs.1 bs.2)) (fun d => xr d (tmask bs.1 bs.2))
      (fun d => xr_xr d _) (fun d => xr_xr d _) () (Namt bs.1 bs.2) c
  iintro ⟨HR, HB⟩
  isplitl [HB]
  · iapply hB; iexact HB
  · iapply hR; iexact HR

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scrAny
  iintro ⟨Hs, -, H0, H1, H2⟩
  isplitl [Hs]; · iexact Hs
  isplitl [H0]; · iexact H0
  isplitl [H1]; · iexact H1
  iexact H2

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁ scrAny
  iintro ⟨⟨H0, H1, H2⟩, HzS, HzV⟩
  isplitr; · iempintro
  isplitl [HzS HzV]
  · isplitl [HzS] <;> iassumption
  isplitl [H0]; · iexact H0
  isplitl [H1]; · iexact H1
  iexact H2

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The arrays after the run -/

/-- The input array is never written back: it ends as the launch-time memory holds it. -/
theorem final_in (c : Dev nD) :
    (dats m ρ 0 c).arrAt (0 : Fin 2) cfg0.N = m ((c : Thread nD τ).loc main_arg0) :=
  (dats (F := F) m ρ 0 c).arrAt_in (0 : Fin 2) rfl _

/-- The result window's block is the whole array and the grid has one point, which writes it back: the array ends as what the
    body leaves in the result's staging buffer, written whole. -/
theorem final_out (c : Dev nD) :
    (dats m ρ 0 c).arrAt (1 : Fin 2) cfg0.N = (outAt (Xof m) c : Buf (Elt F) ((c : Thread nD τ).loc main_v1)) := by
  show (dats m ρ 0 c).arrAt (1 : Fin 2) ((t0_0 : Fin cfg0.N).val + 1) = _
  rw [Dat.arrAt_succ, flush0_1, if_pos rfl]
  have hz : (fun a => win0_1.index t0_0 a * main_v1.ty.shape.size a) = fun _ => 0 := funext fun a => Nat.zero_mul _
  exact Memref.write_access_unit_zero_univ (Elt F) main_v1 hz (fun a => by rw [congrFun hz a]; simp) _ (outAt (Xof m) c)

/-! ## The run -/

set_option maxRecDepth 100000 in
/-- At the compiled mesh of eight devices, for any float values, from any memory with zero counters: every weakly fair
    execution of @main terminates, and every final state has each device's result array at the butterfly's value of the
    launch-time input blocks and its input block unchanged — given the body's obligation on every device. -/
theorem run_main (hbody : ∀ c : Dev nD, BodyObligation (dats (F := F) m ρ 0 c) (defs₀ (F := F)) 𝒱₀ () Set.univ) :
    θ_run (defs (F := F)) (onTc (τ := τ) (main (F := F))) (s₀ m ρ) (RunPost m) := by
  refine Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := ?hmain)
    (hbody := ?hbody) (hne := ?hne) (harr := ?harr) (hstage := ?hstage) (hshare := ?hshare)
    (hdistinct := ?hdistinct)
    (O₀ := O₀) (howed₀ := ?howed0) (howedN := ?howedN)
    (L := L) (lv := lv) (hL := ?hL) (hwaits := ?hwaits)
    (G := G m) (G' := G' m) (u₀ := u₀)
    (hu₀ := ?hu0)
    (hglob := ?hglob)
    (hA := ?hA) (hpf := ?hpf)
    (X := start m) (Y := fun _ => iprop(emp)) (Z := fun _ => iprop(emp))
    (hX := ?hX) (hin := ?hin) (hout := ?hout)
    (QY := fun _ _ => True)
    (hY := ?hY)
    (hQ := ?hQ)
  case hmain => exact fun _ => rfl
  case hbody => exact hbody
  case hne => exact block_pos0
  case harr => exact arr_whole0
  case hstage => exact stage_whole0
  case hshare => exact share_eq m ρ
  case hdistinct => exact winFacts0.arr_inj
  case howed0 => exact fun _ => rfl
  case howedN => exact fun _ => rfl
  case hL => exact L_of_ne
  case hwaits => exact waits m ρ
  case hu0 =>
    unfold u₀
    iintro Hu
    ihave H := (ownU_pair _ _) $$ Hu
    icases H with ⟨HP, HX⟩
    imod (fund_ar m) $$ HX with HG
    imodintro
    isplitl [HP] <;> iassumption
  case hglob => exact glob m
  case hA => exact fun _ _ => rfl
  case hpf => exact fun _ k => k.elim0
  case hX => exact start_intro m ρ
  case hin => exact phi0_intro m ρ
  case hout => exact phi1_exit m ρ
  case hY =>
    intro c s'
    iintro ⟨-, -, HSI⟩
    imodintro
    isplitr; · ipureintro; trivial
    iexact HSI
  case hQ => exact fun s h c => ⟨((h c).1 (1 : Fin 2)).trans (final_out m ρ c), ((h c).1 (0 : Fin 2)).trans (final_in m ρ c)⟩

/-- info: 'Cert.KernelIdeal.Ar.run_main' depends on axioms: [propext, Classical.choice, Quot.sound] -/
#guard_msgs in #print axioms run_main

end Cert.KernelIdeal.Ar

end
-- ==== Proof.BodyOb.lean ====
import proofs.«900695_g7700000000000696_dist_ar_v7x_i8_i_m2048_n512_f32_1_alg».proof.Proof.Frame0
import proofs.«900695_g7700000000000696_dist_ar_v7x_i8_i_m2048_n512_f32_1_alg».proof.Proof.ScrAny
import proofs.«900695_g7700000000000696_dist_ar_v7x_i8_i_m2048_n512_f32_1_alg».proof.Proof.StepsA
import proofs.«900695_g7700000000000696_dist_ar_v7x_i8_i_m2048_n512_f32_1_alg».proof.Proof.StepsC
import proofs.«900695_g7700000000000696_dist_ar_v7x_i8_i_m2048_n512_f32_1_alg».proof.Proof.Tables
import proofs.«900695_g7700000000000696_dist_ar_v7x_i8_i_m2048_n512_f32_1_alg».proof.Proof.Launch
import proofs.«900695_g7700000000000696_dist_ar_v7x_i8_i_m2048_n512_f32_1_alg».proof.Proof.Gen.KernelIdeal.Launch
import proofs.«900695_g7700000000000696_dist_ar_v7x_i8_i_m2048_n512_f32_1_alg».proof.Proof.Gen.KernelIdeal.Points

/-!
# A device's body against the pipeline's body obligation

The pipeline hands a device's body, at the grid's one point, the launch-time ghost state, the input block in its staging
buffer, the result's staging buffer and the three scratch buffers at arbitrary contents. The buffers are cut into chunks and
regrouped into what the protocol's first step needs (the chunks the device keeps, and those its three handshake signals hand
over); the body's core statement then runs the protocol; at the end the chunks are joined into whole buffers again, the
result buffer reading, row by row, the finished sum of the device that completed that row's chunk.
-/

noncomputable section

namespace Cert.KernelIdeal.Ar

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cutting the buffers into the protocol's chunks, and joining them again -/

omit [FloatOps F] in
/-- A conjunction over the image of a set under a map injective on it is the conjunction over the set. -/
theorem bigSep_image {I J : Type} [DecidableEq J] {s : Finset I} {f : I → J} (hf : ∀ x ∈ s, ∀ y ∈ s, f x = f y → x = y)
    (Φ : J → sProp 𝕄) : bigSep (s.image f) Φ = bigSep s fun i => Φ (f i) :=
  Finset.fold_image hf

omit [FloatOps F] in
theorem bigSep_fin3' (Φ : Fin 3 → sProp 𝕄) : bigSep Finset.univ Φ = iprop(Φ 0 ∗ Φ 1 ∗ Φ 2) :=
  bigSep_univ_eq_bigSepL [0, 1, 2] (by decide) (by decide) Φ
omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The chunk (band, offset from the receiver) that slot `s` of band `b` lands in. -/
def gch (bs : BS) : Fin 3 × Fin 8 := (bs.1, rmask bs.1 bs.2)

/-- The slots landing in scratch buffer `i`, and those landing in a partner's result buffer at the hand-over (10 to 13), over
    all bands. -/
def SL (i : Fin 3) : Finset BS := Finset.univ ×ˢ slotsR i
def SO : Finset BS := Finset.univ ×ˢ ({10, 11, 12, 13} : Finset (Fin 14))

/-- The four result chunks of band `b` a device fills itself. -/
def kk (bn : Fin 3 × Fin 4) : Fin 3 × Fin 8 := (bn.1, ![0, mk bn.1 2, mk bn.1 1, m23 bn.1] bn.2)

/-- The landing chunk of a slot, on the receiving device `c`, at whatever it holds. -/
def land (c : Dev nD) (bs : BS) : sProp 𝕄 := cownAny (F := F) c (dstM bs.2) bs.1 (xr c (rmask bs.1 bs.2))

theorem gch_inj_SL : ∀ i : Fin 3, ∀ x ∈ SL i, ∀ y ∈ SL i, gch x = gch y → x = y := by decide
theorem gch_inj_SO : ∀ x ∈ SO, ∀ y ∈ SO, gch x = gch y → x = y := by decide
theorem kk_inj : ∀ x y : Fin 3 × Fin 4, kk x = kk y → x = y := by decide
/-- Every result chunk is one the device fills itself or one a hand-over slot lands in, and not both. -/
theorem keep_hand : (Finset.univ : Finset (Fin 3 × Fin 8)) = (Finset.univ.image kk) ∪ (SO.image gch) := by decide
theorem keep_hand_disj : Disjoint ((Finset.univ : Finset (Fin 3 × Fin 4)).image kk) (SO.image gch) := by decide
/-- Every slot but 8 and 9 is handed to exactly one partner; grouped by destination buffer these are the slots of the three
    scratch buffers and the hand-over slots of the result buffer. -/
theorem handed_union : handed 0 ∪ (handed 1 ∪ handed 2) = SL 0 ∪ (SL 1 ∪ (SL 2 ∪ SO)) := by decide
theorem handed_disj : Disjoint (handed 0) (handed 1 ∪ handed 2) ∧ Disjoint (handed 1) (handed 2) := by decide
theorem SL_disj : Disjoint (SL 0) (SL 1 ∪ (SL 2 ∪ SO)) ∧ Disjoint (SL 1) (SL 2 ∪ SO) ∧ Disjoint (SL 2) SO := by decide

theorem dstM_SL : ∀ (i : Fin 3) (s : Fin 14), s ∈ slotsR i → dstM s = MR i := by
  intro i s
  fin_cases i <;> fin_cases s <;> first | (intro _; rfl) | (intro h; exact absurd h (by decide))
theorem dstM_SO : ∀ s : Fin 14, s ∈ ({10, 11, 12, 13} : Finset (Fin 14)) → dstM s = MO := by
  intro s
  fin_cases s <;> first | (intro _; rfl) | (intro h; exact absurd h (by decide))

omit [FloatOps F] in
/-- The handshake duty `j` that device `c` pays its partner across mask `j`, seen from `c`: the landing chunks, on `c`, of the
    slots that partner sends to `c`. -/
theorem barPay_eq (c : Dev nD) (j : Fin 3) : barPay (F := F) (xr c (bmask j)) j = bigSep (handed j) (land (F := F) c) := by
  unfold barPay land
  refine bigSep_congr fun bs hbs => ?_
  have htm : tmask bs.1 bs.2 = bmask j := (Finset.mem_filter.mp hbs).2.1
  have h2 : xr (xr c (bmask j)) (cmask bs.1 bs.2) = xr c (rmask bs.1 bs.2) := by rw [xr_xr', ← htm]; rfl
  rw [xr_xr, h2]

omit [FloatOps F] in
theorem hands_eq (c : Dev nD) :
    (iprop(barPay (F := F) (xr c (bmask 0)) 0 ∗ barPay (F := F) (xr c (bmask 1)) 1 ∗ barPay (F := F) (xr c (bmask 2)) 2) : sProp 𝕄)
      = iprop(bigSep (SL 0) (land c) ∗ bigSep (SL 1) (land c) ∗ bigSep (SL 2) (land c) ∗ bigSep SO (land c)) := by
  have e1 : bigSep (handed 0 ∪ (handed 1 ∪ handed 2)) (land (F := F) c)
      = iprop(bigSep (handed 0) (land c) ∗ bigSep (handed 1) (land c) ∗ bigSep (handed 2) (land c)) := by
    rw [bigSep_union handed_disj.1, bigSep_union handed_disj.2]
    rfl
  have e2 : bigSep (SL 0 ∪ (SL 1 ∪ (SL 2 ∪ SO))) (land (F := F) c)
      = iprop(bigSep (SL 0) (land c) ∗ bigSep (SL 1) (land c) ∗ bigSep (SL 2) (land c) ∗ bigSep SO (land c)) := by
    rw [bigSep_union SL_disj.1, bigSep_union SL_disj.2.1, bigSep_union SL_disj.2.2]
    rfl
  rw [barPay_eq c 0, barPay_eq c 1, barPay_eq c 2]
  exact e1.symm.trans ((congrArg (fun S => bigSep S (land (F := F) c)) handed_union).trans e2)

/-- A scratch buffer held whole is the chunks its slots land in and the chunks no transfer touches (`hb`: holding the buffer
    whole is owning scratch memref `i` at some array). -/
theorem scr_split (c : Dev nD) (i : Fin 3) (b : Ref sig .tc)
    (hb : (scrAny (F := F) c b : sProp 𝕄) ⊢ iprop(∃ G : Arr F, owns (c : Thread nD τ) (MR i) fullShare G)) :
    (scrAny (F := F) c b : sProp 𝕄)
      ⊢ iprop(bigSep (SL i) (land c) ∗ bigSep (Finset.univ \ usedR i) fun t : Fin 3 × Fin 8 => cownAny (F := F) c (MR i) t.1 (xr c t.2)) := by
  have hU : (bigSep (usedR i) fun t : Fin 3 × Fin 8 => cownAny (F := F) c (MR i) t.1 (xr c t.2)) = bigSep (SL i) (land (F := F) c) := by
    show bigSep ((SL i).image gch) _ = _
    rw [bigSep_image (gch_inj_SL i)]
    exact bigSep_congr fun bs hbs => by unfold land; rw [dstM_SL i bs.2 (Finset.mem_product.mp hbs).2] <;> rfl
  refine hb.trans ((whole_splitAny c (MR i)).trans (Entails.of_eq ?_))
  rw [bigSep_xr c (fun b k => cownAny (F := F) c (MR i) b k), bigSep_sdiff_split (Finset.subset_univ (usedR i))]
  exact congrArg (fun A : sProp 𝕄 => iprop(A ∗ bigSep (Finset.univ \ usedR i) fun t : Fin 3 × Fin 8 => cownAny (F := F) c (MR i) t.1 (xr c t.2))) hU

/-- and back. -/
theorem scr_join (c : Dev nD) (i : Fin 3) (b : Ref sig .tc)
    (hb : iprop(∃ G : Arr F, owns (c : Thread nD τ) (MR i) fullShare G) ⊢ (scrAny (F := F) c b : sProp 𝕄)) :
    (iprop((bigSep (usedR i) fun t : Fin 3 × Fin 8 => cownAny (F := F) c (MR i) t.1 (xr c t.2))
        ∗ bigSep (Finset.univ \ usedR i) fun t : Fin 3 × Fin 8 => cownAny (F := F) c (MR i) t.1 (xr c t.2)) : sProp 𝕄)
      ⊢ scrAny (F := F) c b := by
  refine (Entails.of_eq ?_).trans ((whole_joinAny c (MR i)).trans hb)
  rw [bigSep_xr c (fun b k => cownAny (F := F) c (MR i) b k), bigSep_sdiff_split (Finset.subset_univ (usedR i))]
  rfl

/-- The result buffer held whole is, per band, the four chunks the device fills itself, and the landing chunks of the hand-over
    slots. -/
theorem mo_split (c : Dev nD) :
    (iprop(∃ G : Arr F, owns (c : Thread nD τ) MO fullShare G) : sProp 𝕄)
      ⊢ iprop((bigSep Finset.univ fun b : Fin 3 =>
            iprop(cownAny (F := F) c MO b (xr c 0) ∗ cownAny (F := F) c MO b (xr c (mk b 2)) ∗ cownAny (F := F) c MO b (xr c (mk b 1)) ∗ cownAny (F := F) c MO b (xr c (m23 b))))
          ∗ bigSep SO (land c)) := by
  have hA : (bigSep Finset.univ fun a : Fin 3 => bigSep Finset.univ fun n : Fin 4 => cownAny (F := F) c MO (kk (a, n)).1 (xr c (kk (a, n)).2))
      = bigSep Finset.univ fun b : Fin 3 =>
          iprop(cownAny (F := F) c MO b (xr c 0) ∗ cownAny (F := F) c MO b (xr c (mk b 2)) ∗ cownAny (F := F) c MO b (xr c (mk b 1)) ∗ cownAny (F := F) c MO b (xr c (m23 b))) :=
    bigSep_congr fun b _ => bigSep_fin4 fun n : Fin 4 => cownAny (F := F) c MO (kk (b, n)).1 (xr c (kk (b, n)).2)
  have hB : (bigSep SO fun bs : BS => cownAny (F := F) c MO (gch bs).1 (xr c (gch bs).2)) = bigSep SO (land (F := F) c) :=
    bigSep_congr fun bs hbs => by unfold land; rw [dstM_SO bs.2 (Finset.mem_product.mp hbs).2] <;> rfl
  refine (whole_splitAny c MO).trans (Entails.of_eq ?_)
  rw [bigSep_xr c (fun b k => cownAny (F := F) c MO b k), keep_hand, bigSep_union keep_hand_disj,
    bigSep_image (fun x _ y _ h => kk_inj x y h), bigSep_image gch_inj_SO, bigSep_univ_prod]
  exact congrArg₂ (fun A B : sProp 𝕄 => iprop(A ∗ B)) hA hB

theorem pre_split (c : Dev nD) :
    iprop(owns (c : Thread nD τ) MX fullShare (Xof m c) ∗ (∃ G : Arr F, owns (c : Thread nD τ) MO fullShare G)
        ∗ scrAny c cc0_scratch0 ∗ scrAny c cc0_scratch1 ∗ scrAny c cc0_scratch2)
      ⊢ (ChIn m c : sProp 𝕄) := by
  have hX : (owns (c : Thread nD τ) MX fullShare (Xof m c) : sProp 𝕄)
      ⊢ bigSep Finset.univ fun t : Fin 3 × Fin 8 => cown c MX t.1 (xr c t.2) fullShare (Xof m c) :=
    (whole_split c MX fullShare (Xof m c)).trans (Entails.of_eq (bigSep_xr c (fun b k => cown c MX b k fullShare (Xof m c))))
  have hB := hands_eq (F := F) c
  iintro ⟨Hx, Ho, H0, H1, H2⟩
  ihave Hx' := hX $$ Hx
  ihave Ho' := (mo_split c) $$ Ho
  icases Ho' with ⟨Hkeep, HLO⟩
  ihave H0' := (scr_split c 0 cc0_scratch0 (scrAny_iff c cc0_scratch0).1) $$ H0
  icases H0' with ⟨HL0, HR0⟩
  ihave H1' := (scr_split c 1 cc0_scratch1 (scrAny_iff c cc0_scratch1).1) $$ H1
  icases H1' with ⟨HL1, HR1⟩
  ihave H2' := (scr_split c 2 cc0_scratch2 (scrAny_iff c cc0_scratch2).1) $$ H2
  icases H2' with ⟨HL2, HR2⟩
  ihave HB := (Entails.of_eq hB.symm) $$ [HL0 HL1 HL2 HLO]
  · isplitl [HL0]; · iexact HL0
    isplitl [HL1]; · iexact HL1
    isplitl [HL2]; · iexact HL2
    iexact HLO
  icases HB with ⟨B0, B1, B2⟩
  unfold ChIn restR
  rw [bigSep_fin3' fun i : Fin 3 => bigSep (Finset.univ \ usedR i) fun t : Fin 3 × Fin 8 => cownAny (F := F) c (MR i) t.1 (xr c t.2)]
  isplitl [Hx']; · iexact Hx'
  isplitl [Hkeep]; · iexact Hkeep
  isplitl [B0]; · iexact B0
  isplitl [B1]; · iexact B1
  isplitl [B2]; · iexact B2
  isplitl [HR0]; · iexact HR0
  isplitl [HR1]; · iexact HR1
  iexact HR2

/-- The device that completed result chunk `c ⊕ h` of band `b`, as the value names it. -/
theorem srcDev_xr : ∀ (b : Fin 3) (c : Dev nD) (h : Fin 8), srcDev b c (xr c h) = xr c (osrc b h) := by decide

theorem post_join (c : Dev nD) :
    (ChOut m c : sProp 𝕄)
      ⊢ iprop(owns (c : Thread nD τ) MX fullShare (Xof m c) ∗ owns (c : Thread nD τ) MO fullShare (outAt (Xof m) c)
        ∗ scrAny c cc0_scratch0 ∗ scrAny c cc0_scratch1 ∗ scrAny c cc0_scratch2) := by
  have hX : (bigSep Finset.univ fun t : Fin 3 × Fin 8 => cown c MX t.1 (xr c t.2) fullShare (Xof m c) : sProp 𝕄)
      ⊢ owns (c : Thread nD τ) MX fullShare (Xof m c) := by
    rw [← bigSep_xr c (fun b k => cown c MX b k fullShare (Xof m c))]
    exact whole_join c MX fullShare (fun _ => Xof m c)
  have hO : (bigSep Finset.univ fun t : Fin 3 × Fin 8 => cown c MO t.1 (xr c t.2) fullShare (A3 (Xof m) t.1 (xr c (osrc t.1 t.2))) : sProp 𝕄)
      ⊢ owns (c : Thread nD τ) MO fullShare (outAt (Xof m) c) := by
    rw [bigSep_congr (Ψ := fun t : Fin 3 × Fin 8 => cown c MO t.1 (xr c t.2) fullShare (A3 (Xof m) t.1 (srcDev t.1 c (xr c t.2))))
        (fun t _ => by rw [srcDev_xr]),
      ← bigSep_xr c (fun b k => cown c MO b k fullShare (A3 (Xof m) b (srcDev b c k)))]
    exact whole_join c MO fullShare (fun t => A3 (Xof m) t.1 (srcDev t.1 c t.2))
  unfold ChOut restR
  rw [bigSep_fin3' fun i : Fin 3 => bigSep (usedR i) fun t : Fin 3 × Fin 8 => cownAny (F := F) c (MR i) t.1 (xr c t.2),
    bigSep_fin3' fun i : Fin 3 => bigSep (Finset.univ \ usedR i) fun t : Fin 3 × Fin 8 => cownAny (F := F) c (MR i) t.1 (xr c t.2)]
  iintro ⟨Hx, Ho, ⟨U0, U1, U2⟩, R0, R1, R2⟩
  isplitl [Hx]; · iapply hX; iexact Hx
  isplitl [Ho]; · iapply hO; iexact Ho
  isplitl [U0 R0]
  · iapply (scr_join c 0 cc0_scratch0 (scrAny_iff c cc0_scratch0).2)
    isplitl [U0]; · iexact U0
    iexact R0
  isplitl [U1 R1]
  · iapply (scr_join c 1 cc0_scratch1 (scrAny_iff c cc0_scratch1).2)
    isplitl [U1]; · iexact U1
    iexact R1
  iapply (scr_join c 2 cc0_scratch2 (scrAny_iff c cc0_scratch2).2)
  isplitl [U2]; · iexact U2
  iexact R2

/-! ## The body obligation -/

/-- The input window's block is the whole array: what it stages is the device's input block. -/
theorem xstg_eq (c : Dev nD) : xstg m ρ c = Xof m c := by
  unfold xstg Xof
  have hz : (fun a => win0_0.index (0 : Fin 1) a * main_arg0.ty.shape.size a) = fun _ => 0 := funext fun a => Nat.zero_mul _
  exact Memref.read_access_unit_zero (Elt F) main_arg0 hz (fun a => by rw [congrFun hz a]; simp) _

set_option maxRecDepth 100000 in
/-- What the pipeline hands the body at the one point, -/
def bodyPre' (c : Dev nD) : sProp 𝕄 :=
  iprop(Φ₀ m c ∗ (dats m ρ 0 c).owesAt () t0_0.castSucc
    ∗ (∃ d, owns (c : Thread nD τ) MX fullShare ((dats m ρ 0 c).before (0 : Fin 2) t0_0 d))
    ∗ (∃ d, owns (c : Thread nD τ) MO fullShare ((dats m ρ 0 c).before (1 : Fin 2) t0_0 d)))

set_option maxRecDepth 100000 in
/-- and what it takes back. -/
def bodyPost (c : Dev nD) : sProp 𝕄 :=
  iprop(Φ₁ c ∗ (dats m ρ 0 c).owesAt () t0_0.succ
    ∗ owns (c : Thread nD τ) MX fullShare (xstg m ρ c) ∗ owns (c : Thread nD τ) MO fullShare (outAt (Xof m) c))

set_option maxRecDepth 100000 in
theorem body_from_core_upd (hcore : BodyCore (F := F) m) (c : Dev nD) :
    bodyPre' m ρ c ⊢ wp frame (wpE (defs₀ (F := F)) 𝒱₀ (c : Thread nD τ) none) Set.univ
      (cc0_body MX (Memref.isWhole_whole _) MO (Memref.isWhole_whole _) MR1 (Memref.isWhole_whole _) MR2 (Memref.isWhole_whole _)
        MR3 (Memref.isWhole_whole _) cc0_scratch3 cc0_scratch4) (fun _ => iprop(|={Set.univ}=> bodyPost m ρ c)) := by
  unfold bodyPre' Φ₀ start
  iintro ⟨⟨⟨⟨%K, #Hrec, Hlin⟩, Hcr, #Hlev⟩, Hs0, Hs1, Hs2⟩, Ho, ⟨%d0, Hx⟩, ⟨%d1, Hout⟩⟩
  have hx : (dats m ρ 0 c).before (0 : Fin 2) t0_0 d0 = Xof m c := by
    unfold Dat.before; rw [if_pos (fetch0_0 t0_0)]; exact xstg_eq m ρ c
  rw [hx]
  unfold Dat.owesAt Pipeline.owesWithin
  icases Ho with ⟨%W, %hW, HO⟩
  rw [show (dats m ρ 0 c).owed t0_0.castSucc = O₀ c from rfl]
  ihave HSt := (St_init (F := F) c W) $$ [Hlin Hcr HO]
  · isplitl [Hlin]; · iexact Hlin
    isplitl [Hcr]; · iexact Hcr
    iexact HO
  ihave HCh := (pre_split m c) $$ [Hx Hout Hs0 Hs1 Hs2]
  · isplitl [Hx]; · iexact Hx
    isplitl [Hout]; · iexists _; iexact Hout
    isplitl [Hs0]; · iexact Hs0
    isplitl [Hs1]; · iexact Hs1
    iexact Hs2
  iapply (hcore K c (fun _ => iprop(|={Set.univ}=> bodyPost m ρ c)))
  isplitr
  · unfold Pers; isplitr; · iexact Hrec
    iexact Hlev
  isplitl [HSt]; · iexact HSt
  isplitl [HCh]; · iexact HCh
  iintro ⟨HSt', HCh'⟩
  imod (St_final m K c) $$ [HSt'] with ⟨HzS, HzV, %W', HO'⟩
  · isplitr
    · unfold Pers; isplitr; · iexact Hrec
      iexact Hlev
    iexact HSt'
  imodintro
  ihave HB := (post_join m c) $$ HCh'
  icases HB with ⟨Hx', Hout', Hs0', Hs1', Hs2'⟩
  unfold bodyPost Φ₁ Dat.owesAt Pipeline.owesWithin
  rw [show (dats m ρ 0 c).owed t0_0.succ = 0 from rfl, xstg_eq]
  isplitl [Hs0' Hs1' Hs2' HzS HzV]
  · isplitl [Hs0' Hs1' Hs2']
    · isplitl [Hs0']; · iexact Hs0'
      isplitl [Hs1']; · iexact Hs1'
      iexact Hs2'
    isplitl [HzS]; · iexact HzS
    iexact HzV
  isplitl [HO']
  · iexists W'
    isplitr; · ipureintro; exact fun _ _ => Or.inl trivial
    iexact HO'
  isplitl [Hx']; · iexact Hx'
  iexact Hout'

set_option maxRecDepth 100000 in
/-- The closing update is absorbed by the body's weakest precondition. -/
theorem body_from_core (hcore : BodyCore (F := F) m) (c : Dev nD) :
    bodyPre' m ρ c ⊢ wp frame (wpE (defs₀ (F := F)) 𝒱₀ (c : Thread nD τ) none) Set.univ
      (cc0_body MX (Memref.isWhole_whole _) MO (Memref.isWhole_whole _) MR1 (Memref.isWhole_whole _) MR2 (Memref.isWhole_whole _)
        MR3 (Memref.isWhole_whole _) cc0_scratch3 cc0_scratch4) (fun _ => bodyPost m ρ c) :=
  (body_from_core_upd m ρ hcore c).trans (wp_fupd frame (wpE (defs₀ (F := F)) 𝒱₀ (c : Thread nD τ) none) Set.univ _ _)

set_option maxRecDepth 100000 in
/-- The library's body obligation on device `c`, from the body's core statement. -/
theorem body_obligation (hcore : BodyCore (F := F) m) (c : Dev nD) :
    BodyObligation (dats (F := F) m ρ 0 c) (defs₀ (F := F)) 𝒱₀ () Set.univ := fun t => by
  obtain rfl := fin_N0 t
  rw [bigSep_W0, bigSep_W0]
  exact body_from_core m ρ hcore c

/-- info: 'Cert.KernelIdeal.Ar.body_obligation' depends on axioms: [propext, Classical.choice, Quot.sound] -/
#guard_msgs in #print axioms body_obligation

/-! ## The run, from the body's core statement -/

/-- At the compiled mesh of eight devices, from any memory with zero counters: every weakly fair execution of @main terminates,
    and every final state has each device's result array at the butterfly's value of the launch-time input blocks and its input
    block unchanged — given the body's core statement. -/
theorem run_all (hcore : BodyCore (F := F) m) :
    θ_run (defs (F := F)) (onTc (τ := τ) (main (F := F))) (s₀ m ρ) (RunPost m) :=
  run_main m ρ (body_obligation m ρ hcore)

/-- info: 'Cert.KernelIdeal.Ar.run_all' depends on axioms: [propext, Classical.choice, Quot.sound] -/
#guard_msgs in #print axioms run_all

end Cert.KernelIdeal.Ar

end
-- ==== Proof.MeshK.lean ====
import proofs.«900695_g7700000000000696_dist_ar_v7x_i8_i_m2048_n512_f32_1_alg».proof.Proof.Gen.Kernel

/-!
# The mesh of eight devices as the vector space GF(2)³, and the butterfly's geometry

The kernel is an all-reduce over eight devices in three stages. A device's id is read as three bits;
its partner at a stage is the device whose id differs by that stage's MASK (bitwise exclusive or). The
per-device array of 2048 rows is cut into three BANDS of rows (rows 0–703, 704–1343, 1344–2047), each band
into eight CHUNKS (of 88, 80, 88 rows); band `b` runs the three stages with the masks `(1, 3, 4)` in the
cyclic order `mk b`, so that the three bands load the three links of a device evenly. Since `1, 3, 4`
are linearly independent over GF(2), the eight ids `c ⊕ h` (`h` a sum of a subset of the masks) are all
devices: a chunk is named by the device whose index it carries.

Every transfer of the kernel moves ONE chunk of one band to one partner. There are fourteen per band
(`Fin 14`, the kernel's semaphore slot): `cmask b s` is the chunk it carries RELATIVE TO THE SENDER
(chunk `sender ⊕ cmask b s`), `tmask b s` the partner (`sender ⊕ tmask b s`).
-/

namespace Cert.Kernel.Ar

open Idealize.ShloMosaic Cert.Kernel

/-- Device `c` with the bits of `k` flipped. -/
def xr (c : Dev nD) (k : Fin 8) : Dev nD := ⟨(c.val ^^^ k.val) % 8, Nat.mod_lt _ (by decide)⟩

theorem xr_xr : ∀ (c : Dev nD) (k : Fin 8), xr (xr c k) k = c := by decide
theorem xr_zero : ∀ c : Dev nD, xr c 0 = c := by decide
theorem xr_inj : ∀ (c d : Dev nD) (k : Fin 8), xr c k = xr d k → c = d := by decide
/-- Flipping twice is flipping the sum. -/
theorem xr_xr' : ∀ (c : Dev nD) (j k : Fin 8), xr (xr c j) k = xr c ⟨(j.val ^^^ k.val) % 8, Nat.mod_lt _ (by decide)⟩ := by decide

/-- Flipping by `k` is an involution of the devices. -/
def xrEquiv (k : Fin 8) : Dev nD ≃ Dev nD := ⟨fun c => xr c k, fun c => xr c k, fun c => xr_xr c k, fun c => xr_xr c k⟩

/-- The three masks of band `b`, in the order of its stages. -/
def mk : Fin 3 → Fin 3 → Fin 8 := ![![1, 3, 4], ![3, 4, 1], ![4, 1, 3]]

/-- The masks of the entry handshake: each device signals these three partners. -/
def bmask : Fin 3 → Fin 8 := ![1, 3, 4]

/-- First row of band `b`, and the rows of one of its chunks. -/
def base : Fin 3 → Nat := ![0, 704, 1344]
def rws : Fin 3 → Nat := ![88, 80, 88]

/-- Which of the band's three masks `(m₁, m₂, m₃)` slot `s`'s chunk is away from its sender: the first stage sends the four
    chunks `m₁ ⊕ {m₂, m₂ ⊕ m₃, 0, m₃}` (slots 0–3), the second the partial sums of chunks `m₂`, `m₂ ⊕ m₃` (slots 4, 5), the
    third those of the sender's own chunk and of chunk `m₃` (slots 6, 7); the finished chunks `0` and `m₃` then go to the
    second-stage partner (slots 8, 9) and to the first-stage partner (slots 10, 11), which also gets the two chunks that
    arrived from the second-stage partner, `m₂` and `m₂ ⊕ m₃` (slots 12, 13). -/
def csel : Fin 14 → Bool × Bool × Bool :=
  ![(true, true, false), (true, true, true), (true, false, false), (true, false, true),
    (false, true, false), (false, true, true),
    (false, false, false), (false, false, true),
    (false, false, false), (false, false, true), (false, false, false), (false, false, true),
    (false, true, false), (false, true, true)]

/-- The stage whose partner slot `s` goes to (0, 1, 2 for `m₁, m₂, m₃`). -/
def tsel : Fin 14 → Fin 3 := ![0, 0, 0, 0, 1, 1, 2, 2, 1, 1, 0, 0, 0, 0]

/-- A mask if selected, else nothing. -/
def selMask (e : Bool) (m : Fin 8) : Nat := if e then m.val else 0

/-- The chunk a transfer carries, relative to its sender. -/
def cmask (b : Fin 3) (s : Fin 14) : Fin 8 :=
  ⟨(selMask (csel s).1 (mk b 0) ^^^ selMask (csel s).2.1 (mk b 1) ^^^ selMask (csel s).2.2 (mk b 2)) % 8, Nat.mod_lt _ (by decide)⟩

/-- The partner a transfer goes to, relative to its sender. -/
def tmask (b : Fin 3) (s : Fin 14) : Fin 8 := mk b (tsel s)

/-- Offset of chunk `k` of band `b` in the array of 2048 × 512. -/
def coff (b : Fin 3) (k : Dev nD) : Fin 2 → Nat := ![base b + rws b * k.val, 0]

/-- Extent of a chunk of band `b`. -/
def csz (b : Fin 3) : Fin 2 → Nat := ![rws b, 512]

theorem coff_inb : ∀ (b : Fin 3) (k : Dev nD) (a : Fin 2), coff b k a + csz b a ≤ S2048x512.size a := by decide

/-- The chunks of one band do not overlap, and the bands follow one another: chunk `(b, k)` is rows
    `base b + rws b * k` up to `base b + rws b * (k + 1)`, below the next chunk's first row. -/
theorem chunk_next : ∀ (b : Fin 3) (k : Dev nD), base b + rws b * (k.val + 1) ≤ 2048 := by decide
theorem band_next : base 0 + rws 0 * 8 = base 1 ∧ base 1 + rws 1 * 8 = base 2 ∧ base 2 + rws 2 * 8 = 2048 := by decide

end Cert.Kernel.Ar
-- ==== Proof.ValsK.lean ====
import proofs.«900695_g7700000000000696_dist_ar_v7x_i8_i_m2048_n512_f32_1_alg».proof.Proof.MeshK
import Idealize.ShloMosaic.PureOps.Vector

/-!
# What the butterfly computes, as whole-array functions

`X c` is device `c`'s block of the input, an array of 2048 × 512. In band `b` with masks `(m₁, m₂, m₃)`:
after the first stage a device holds `A1 b c = X c + X (c ⊕ m₁)` on the four chunks it keeps, after the second
`A2 b c = A1 b c + A1 b (c ⊕ m₂)` on two of them, after the third `A3 b c = A2 b c + A2 b (c ⊕ m₃)`, the sum over all
eight devices in one particular bracketing, on its own chunk and on chunk `c ⊕ m₃`. The all-gather then copies
finished chunks around unchanged, so chunk `k` of device `c`'s result is `A3 b d` for the device `d = srcDev b c k`
that finished the copy which reached `c`: `k` itself when `c ⊕ k` is a sum of `m₁, m₂` only, else `k ⊕ m₃`.
The sums are written with the element type's own addition, in the order the kernel adds (`x + r₁`, then `+ r₂`,
then `+ r₃`), so the same text reads at the word-level instance and at the extended reals.
-/

noncomputable section

namespace Cert.Kernel.Ar

open Idealize.ShloMosaic Cert.Kernel

variable {F : FTy → Type} [FloatOps F]

/-- A device's array of 2048 × 512. -/
abbrev Arr (F : FTy → Type) : Type := FVec F S2048x512 .f32

/-- The three partial sums of band `b` at device `c`, as whole arrays (only the band's rows are ever read). -/
def A1 (X : Dev nD → Arr F) (b : Fin 3) (c : Dev nD) : Arr F := addf (X c) (X (xr c (mk b 0)))
def A2 (X : Dev nD → Arr F) (b : Fin 3) (c : Dev nD) : Arr F := addf (A1 X b c) (A1 X b (xr c (mk b 1)))
def A3 (X : Dev nD → Arr F) (b : Fin 3) (c : Dev nD) : Arr F := addf (A2 X b c) (A2 X b (xr c (mk b 2)))

/-- The band a row lies in, and its chunk within the band. -/
def bandOf (r : Nat) : Fin 3 := if r < 704 then 0 else if r < 1344 then 1 else 2
def chunkOf (r : Nat) : Dev nD := ⟨((r - base (bandOf r)) / rws (bandOf r)) % 8, Nat.mod_lt _ (by decide)⟩

/-- `h` is a sum of the first two masks of band `b` only. -/
def inSpan12 (b : Fin 3) (h : Fin 8) : Bool :=
  decide (h = 0 ∨ h = mk b 0 ∨ h = mk b 1 ∨ h.val = (mk b 0).val ^^^ (mk b 1).val)

/-- The device whose finished sum ends in chunk `k` of device `c`'s result. -/
def srcDev (b : Fin 3) (c k : Dev nD) : Dev nD :=
  if inSpan12 b ⟨(c.val ^^^ k.val) % 8, Nat.mod_lt _ (by decide)⟩ then k else xr k (mk b 2)

/-- Device `c`'s result array when the kernel returns. -/
def outAt (X : Dev nD → Arr F) (c : Dev nD) : Arr F :=
  fun i => A3 X (bandOf (i 0).val) (srcDev (bandOf (i 0).val) c (chunkOf (i 0).val)) i

end Cert.Kernel.Ar

end
-- ==== Proof.MeshTabK.lean ====
import proofs.«900695_g7700000000000696_dist_ar_v7x_i8_i_m2048_n512_f32_1_alg».proof.Proof.MeshK

/-! The printed device chains and chunk offsets in closed form: device `c`'s partner is `c` with a mask's bits flipped, and
    every offset the body computes is the first row of a chunk `(band, c ⊕ h)`. One equation per printed function and
    parameter tuple, each decided over the eight devices. -/

namespace Cert.Kernel.Ar

open Idealize.ShloMosaic Cert.Kernel Cert.Kernel.Gen

theorem dev1_eq : ∀ c : Dev nD, (⟨k0_dev1 c, Gen.k0_dev1_lt c⟩ : Dev nD) = xr c 1 := by decide +kernel
theorem dev2_eq : ∀ c : Dev nD, (⟨k0_dev2 c, Gen.k0_dev2_lt c⟩ : Dev nD) = xr c 3 := by decide +kernel
theorem dev3_eq : ∀ c : Dev nD, (⟨k0_dev3 c, Gen.k0_dev3_lt c⟩ : Dev nD) = xr c 4 := by decide +kernel
theorem dev4_eq : ∀ c : Dev nD, (⟨k0_dev4 c, Gen.k0_dev4_lt c⟩ : Dev nD) = xr c 1 := by decide +kernel
theorem dev5_eq : ∀ c : Dev nD, (⟨k0_dev5 c, Gen.k0_dev5_lt c⟩ : Dev nD) = xr c 1 := by decide +kernel
theorem dev6_eq : ∀ c : Dev nD, (⟨k0_dev6 c, Gen.k0_dev6_lt c⟩ : Dev nD) = xr c 1 := by decide +kernel
theorem dev7_eq : ∀ c : Dev nD, (⟨k0_dev7 c, Gen.k0_dev7_lt c⟩ : Dev nD) = xr c 1 := by decide +kernel
theorem dev8_eq : ∀ c : Dev nD, (⟨k0_dev8 c, Gen.k0_dev8_lt c⟩ : Dev nD) = xr c 3 := by decide +kernel
theorem dev9_eq : ∀ c : Dev nD, (⟨k0_dev9 c, Gen.k0_dev9_lt c⟩ : Dev nD) = xr c 3 := by decide +kernel
theorem dev10_eq : ∀ c : Dev nD, (⟨k0_dev10 c, Gen.k0_dev10_lt c⟩ : Dev nD) = xr c 3 := by decide +kernel
theorem dev11_eq : ∀ c : Dev nD, (⟨k0_dev11 c, Gen.k0_dev11_lt c⟩ : Dev nD) = xr c 3 := by decide +kernel
theorem dev12_eq : ∀ c : Dev nD, (⟨k0_dev12 c, Gen.k0_dev12_lt c⟩ : Dev nD) = xr c 4 := by decide +kernel
theorem dev13_eq : ∀ c : Dev nD, (⟨k0_dev13 c, Gen.k0_dev13_lt c⟩ : Dev nD) = xr c 4 := by decide +kernel
theorem dev14_eq : ∀ c : Dev nD, (⟨k0_dev14 c, Gen.k0_dev14_lt c⟩ : Dev nD) = xr c 4 := by decide +kernel
theorem dev15_eq : ∀ c : Dev nD, (⟨k0_dev15 c, Gen.k0_dev15_lt c⟩ : Dev nD) = xr c 4 := by decide +kernel
theorem dev16_eq : ∀ c : Dev nD, (⟨k0_dev16 c, Gen.k0_dev16_lt c⟩ : Dev nD) = xr c 3 := by decide +kernel
theorem dev17_eq : ∀ c : Dev nD, (⟨k0_dev17 c, Gen.k0_dev17_lt c⟩ : Dev nD) = xr c 4 := by decide +kernel
theorem dev18_eq : ∀ c : Dev nD, (⟨k0_dev18 c, Gen.k0_dev18_lt c⟩ : Dev nD) = xr c 1 := by decide +kernel
theorem dev19_eq : ∀ c : Dev nD, (⟨k0_dev19 c, Gen.k0_dev19_lt c⟩ : Dev nD) = xr c 3 := by decide +kernel
theorem dev20_eq : ∀ c : Dev nD, (⟨k0_dev20 c, Gen.k0_dev20_lt c⟩ : Dev nD) = xr c 4 := by decide +kernel
theorem dev21_eq : ∀ c : Dev nD, (⟨k0_dev21 c, Gen.k0_dev21_lt c⟩ : Dev nD) = xr c 1 := by decide +kernel
theorem dev22_eq : ∀ c : Dev nD, (⟨k0_dev22 c, Gen.k0_dev22_lt c⟩ : Dev nD) = xr c 4 := by decide +kernel
theorem dev23_eq : ∀ c : Dev nD, (⟨k0_dev23 c, Gen.k0_dev23_lt c⟩ : Dev nD) = xr c 1 := by decide +kernel
theorem dev24_eq : ∀ c : Dev nD, (⟨k0_dev24 c, Gen.k0_dev24_lt c⟩ : Dev nD) = xr c 3 := by decide +kernel
theorem dev25_eq : ∀ c : Dev nD, (⟨k0_dev25 c, Gen.k0_dev25_lt c⟩ : Dev nD) = xr c 4 := by decide +kernel
theorem dev26_eq : ∀ c : Dev nD, (⟨k0_dev26 c, Gen.k0_dev26_lt c⟩ : Dev nD) = xr c 1 := by decide +kernel
theorem dev27_eq : ∀ c : Dev nD, (⟨k0_dev27 c, Gen.k0_dev27_lt c⟩ : Dev nD) = xr c 3 := by decide +kernel
theorem dev28_eq : ∀ c : Dev nD, (⟨k0_dev28 c, Gen.k0_dev28_lt c⟩ : Dev nD) = xr c 3 := by decide +kernel
theorem dev29_eq : ∀ c : Dev nD, (⟨k0_dev29 c, Gen.k0_dev29_lt c⟩ : Dev nD) = xr c 1 := by decide +kernel
theorem dev30_eq : ∀ c : Dev nD, (⟨k0_dev30 c, Gen.k0_dev30_lt c⟩ : Dev nD) = xr c 4 := by decide +kernel
theorem dev31_eq : ∀ c : Dev nD, (⟨k0_dev31 c, Gen.k0_dev31_lt c⟩ : Dev nD) = xr c 3 := by decide +kernel
theorem dev32_eq : ∀ c : Dev nD, (⟨k0_dev32 c, Gen.k0_dev32_lt c⟩ : Dev nD) = xr c 1 := by decide +kernel
theorem dev33_eq : ∀ c : Dev nD, (⟨k0_dev33 c, Gen.k0_dev33_lt c⟩ : Dev nD) = xr c 4 := by decide +kernel
theorem dev34_eq : ∀ c : Dev nD, (⟨k0_dev34 c, Gen.k0_dev34_lt c⟩ : Dev nD) = xr c 3 := by decide +kernel
theorem dev35_eq : ∀ c : Dev nD, (⟨k0_dev35 c, Gen.k0_dev35_lt c⟩ : Dev nD) = xr c 1 := by decide +kernel
theorem dev36_eq : ∀ c : Dev nD, (⟨k0_dev36 c, Gen.k0_dev36_lt c⟩ : Dev nD) = xr c 4 := by decide +kernel
theorem dev37_eq : ∀ c : Dev nD, (⟨k0_dev37 c, Gen.k0_dev37_lt c⟩ : Dev nD) = xr c 3 := by decide +kernel
theorem dev38_eq : ∀ c : Dev nD, (⟨k0_dev38 c, Gen.k0_dev38_lt c⟩ : Dev nD) = xr c 1 := by decide +kernel
theorem dev39_eq : ∀ c : Dev nD, (⟨k0_dev39 c, Gen.k0_dev39_lt c⟩ : Dev nD) = xr c 4 := by decide +kernel
theorem dev40_eq : ∀ c : Dev nD, (⟨k0_dev40 c, Gen.k0_dev40_lt c⟩ : Dev nD) = xr c 1 := by decide +kernel
theorem dev41_eq : ∀ c : Dev nD, (⟨k0_dev41 c, Gen.k0_dev41_lt c⟩ : Dev nD) = xr c 3 := by decide +kernel
theorem dev42_eq : ∀ c : Dev nD, (⟨k0_dev42 c, Gen.k0_dev42_lt c⟩ : Dev nD) = xr c 4 := by decide +kernel
theorem dev43_eq : ∀ c : Dev nD, (⟨k0_dev43 c, Gen.k0_dev43_lt c⟩ : Dev nD) = xr c 1 := by decide +kernel
theorem dev44_eq : ∀ c : Dev nD, (⟨k0_dev44 c, Gen.k0_dev44_lt c⟩ : Dev nD) = xr c 3 := by decide +kernel
theorem dev45_eq : ∀ c : Dev nD, (⟨k0_dev45 c, Gen.k0_dev45_lt c⟩ : Dev nD) = xr c 4 := by decide +kernel

theorem off1_0_1_3_eq : ∀ c : Dev nD, k0_off1 c 0#32 1#32 3#32 = coff 0 (xr c 2) := by decide +kernel
theorem off1_0_1_7_eq : ∀ c : Dev nD, k0_off1 c 0#32 1#32 7#32 = coff 0 (xr c 6) := by decide +kernel
theorem off1_0_1_0_eq : ∀ c : Dev nD, k0_off1 c 0#32 1#32 0#32 = coff 0 (xr c 1) := by decide +kernel
theorem off1_0_1_4_eq : ∀ c : Dev nD, k0_off1 c 0#32 1#32 4#32 = coff 0 (xr c 5) := by decide +kernel
theorem off2_3_4_eq : ∀ c : Dev nD, k0_off2 c 3#32 4#32 = coff 1 (xr c 7) := by decide +kernel
theorem off2_3_5_eq : ∀ c : Dev nD, k0_off2 c 3#32 5#32 = coff 1 (xr c 6) := by decide +kernel
theorem off2_3_0_eq : ∀ c : Dev nD, k0_off2 c 3#32 0#32 = coff 1 (xr c 3) := by decide +kernel
theorem off2_3_1_eq : ∀ c : Dev nD, k0_off2 c 3#32 1#32 = coff 1 (xr c 2) := by decide +kernel
theorem off1_1344_4_1_eq : ∀ c : Dev nD, k0_off1 c 1344#32 4#32 1#32 = coff 2 (xr c 5) := by decide +kernel
theorem off1_1344_4_2_eq : ∀ c : Dev nD, k0_off1 c 1344#32 4#32 2#32 = coff 2 (xr c 6) := by decide +kernel
theorem off1_1344_4_0_eq : ∀ c : Dev nD, k0_off1 c 1344#32 4#32 0#32 = coff 2 (xr c 4) := by decide +kernel
theorem off1_1344_4_3_eq : ∀ c : Dev nD, k0_off1 c 1344#32 4#32 3#32 = coff 2 (xr c 7) := by decide +kernel
theorem off3_0_3_eq : ∀ c : Dev nD, k0_off3 c 0#32 3#32 = coff 0 (xr c 3) := by decide +kernel
theorem off4_0_3_eq : ∀ c : Dev nD, k0_off4 c 0#32 3#32 = coff 0 (xr c 3) := by decide +kernel
theorem off5_4_eq : ∀ c : Dev nD, k0_off5 c 4#32 = coff 1 (xr c 4) := by decide +kernel
theorem off6_4_eq : ∀ c : Dev nD, k0_off6 c 4#32 = coff 1 (xr c 4) := by decide +kernel
theorem off3_1344_1_eq : ∀ c : Dev nD, k0_off3 c 1344#32 1#32 = coff 2 (xr c 1) := by decide +kernel
theorem off4_1344_1_eq : ∀ c : Dev nD, k0_off4 c 1344#32 1#32 = coff 2 (xr c 1) := by decide +kernel
theorem off7_0_3_4_eq : ∀ c : Dev nD, k0_off7 c 0#32 3#32 4#32 = coff 0 (xr c 7) := by decide +kernel
theorem off1_0_3_4_eq : ∀ c : Dev nD, k0_off1 c 0#32 3#32 4#32 = coff 0 (xr c 7) := by decide +kernel
theorem off8_eq : ∀ c : Dev nD, k0_off8 c = coff 1 (xr c 5) := by decide +kernel
theorem off2_4_1_eq : ∀ c : Dev nD, k0_off2 c 4#32 1#32 = coff 1 (xr c 5) := by decide +kernel
theorem off7_1344_1_3_eq : ∀ c : Dev nD, k0_off7 c 1344#32 1#32 3#32 = coff 2 (xr c 2) := by decide +kernel
theorem off1_1344_1_3_eq : ∀ c : Dev nD, k0_off1 c 1344#32 1#32 3#32 = coff 2 (xr c 2) := by decide +kernel
theorem off3_0_0_eq : ∀ c : Dev nD, k0_off3 c 0#32 0#32 = coff 0 (xr c 0) := by decide +kernel
theorem off3_0_4_eq : ∀ c : Dev nD, k0_off3 c 0#32 4#32 = coff 0 (xr c 4) := by decide +kernel
theorem off5_0_eq : ∀ c : Dev nD, k0_off5 c 0#32 = coff 1 (xr c 0) := by decide +kernel
theorem off5_1_eq : ∀ c : Dev nD, k0_off5 c 1#32 = coff 1 (xr c 1) := by decide +kernel
theorem off3_1344_0_eq : ∀ c : Dev nD, k0_off3 c 1344#32 0#32 = coff 2 (xr c 0) := by decide +kernel
theorem off3_1344_3_eq : ∀ c : Dev nD, k0_off3 c 1344#32 3#32 = coff 2 (xr c 3) := by decide +kernel
theorem off9_0_eq : ∀ c : Dev nD, k0_off9 c 0#32 = coff 0 (xr c 0) := by decide +kernel
theorem off10_0_eq : ∀ c : Dev nD, k0_off10 c 0#32 = coff 0 (xr c 0) := by decide +kernel
theorem off11_eq : ∀ c : Dev nD, k0_off11 c = coff 1 (xr c 0) := by decide +kernel
theorem off12_eq : ∀ c : Dev nD, k0_off12 c = coff 1 (xr c 0) := by decide +kernel
theorem off9_1344_eq : ∀ c : Dev nD, k0_off9 c 1344#32 = coff 2 (xr c 0) := by decide +kernel
theorem off10_1344_eq : ∀ c : Dev nD, k0_off10 c 1344#32 = coff 2 (xr c 0) := by decide +kernel
theorem off4_0_4_eq : ∀ c : Dev nD, k0_off4 c 0#32 4#32 = coff 0 (xr c 4) := by decide +kernel
theorem off6_1_eq : ∀ c : Dev nD, k0_off6 c 1#32 = coff 1 (xr c 1) := by decide +kernel
theorem off4_1344_3_eq : ∀ c : Dev nD, k0_off4 c 1344#32 3#32 = coff 2 (xr c 3) := by decide +kernel

end Cert.Kernel.Ar
-- ==== Proof.SchedK.lean ====
import proofs.«900695_g7700000000000696_dist_ar_v7x_i8_i_m2048_n512_f32_1_alg».proof.Proof.ValsK
import proofs.«900695_g7700000000000696_dist_ar_v7x_i8_i_m2048_n512_f32_1_alg».proof.Proof.MeshTabK
import proofs.«900695_g7700000000000696_dist_ar_v7x_i8_i_m2048_n512_f32_1_alg».proof.Proof.Gen.Kernel.Launch
import Idealize.ShloMosaic.Lib.Pipeline.Launch
import Idealize.ShloMosaic.Lib.Pipeline.Kit
import Idealize.ShloMosaic.Lib.Tactic

/-!
# The butterfly's protocol under the rounds discipline

Cells. Each device has the barrier semaphore (three duties in its one round: one unit from each of its three
partners), and per band and slot a SEND semaphore and a RECEIVE semaphore (one duty each: the transfer of that
slot, which credits the sender's send cell once its source chunk is read and the receiver's receive cell once the
chunk has landed).

What moves. A chunk of a buffer is owned through `cown`: device `p` owns chunk `k` of band `b` of the buffer `M`
at share `q`, and it holds the rows of the whole-array function `G` there. The payload of a receive cell is the
landed chunk at the value the sender's source held (`cval`): the sender's input in the first stage, its partial sums
`A1`, `A2` in the second and third, a finished sum `A3` in the all-gather. Slots 4 and 5 also hand the receiver the
SOURCE chunk (a chunk of the sender's result buffer): the receiver later writes the finished sum into exactly that
chunk (slots 8, 9), and the sender never touches it in between. The payload of a send cell is the source chunk back
(nothing for slots 4, 5). The payload of barrier duty `j` of device `p` is every chunk of partner `p ⊕ bmask j`'s
scratch and result buffers that `p`'s transfers to that partner will land in, at whatever they hold.
-/

noncomputable section

namespace Cert.Kernel.Ar

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's (duty names `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Buffers and chunks -/

abbrev MX : Memref sig .tc .vmem S2048x512 .f32 := Memref.whole cc0_stg0_0
abbrev MO : Memref sig .tc .vmem S2048x512 .f32 := Memref.whole cc0_stg1_0
abbrev MR1 : Memref sig .tc .vmem S2048x512 .f32 := Memref.whole cc0_scratch0
abbrev MR2 : Memref sig .tc .vmem S2048x512 .f32 := Memref.whole cc0_scratch1
abbrev MR3 : Memref sig .tc .vmem S2048x512 .f32 := Memref.whole cc0_scratch2

/-- The buffer a slot's transfer reads, and the one it lands in (on the partner). -/
def srcM : Fin 14 → Memref sig .tc .vmem S2048x512 .f32 := ![MX, MX, MX, MX, MO, MO, MO, MO, MO, MO, MO, MO, MO, MO]
def dstM : Fin 14 → Memref sig .tc .vmem S2048x512 .f32 := ![MR1, MR1, MR1, MR1, MR2, MR2, MR3, MR3, MO, MO, MO, MO, MO, MO]

/-- The rows of chunk `k` of band `b`. -/
abbrev crect (b : Fin 3) (k : Dev nD) : Rect S2048x512 := Rect.unit (s := S2048x512) (coff b k) (csz b) (coff_inb b k)

/-- Chunk `k` of band `b` of a buffer, as a memref. -/
abbrev chunkM (M : Memref sig .tc .vmem S2048x512 .f32) (b : Fin 3) (k : Dev nD) : Memref sig .tc .vmem (crect b k).shape .f32 :=
  M.slice (crect b k) (fun _ => rfl)

/-- Device `p` owns chunk `k` of band `b` of `M` at share `q`, holding the rows of `G` there. -/
def cown (p : Dev nD) (M : Memref sig .tc .vmem S2048x512 .f32) (b : Fin 3) (k : Dev nD) (q : PosShare TreeShare) (G : Arr F) : sProp 𝕄 :=
  owns (p : Thread nD τ) (chunkM M b k) q (fun j => G ((crect b k).emb j))

/-- The same at some contents, outright. -/
def cownAny (p : Dev nD) (M : Memref sig .tc .vmem S2048x512 .f32) (b : Fin 3) (k : Dev nD) : sProp 𝕄 :=
  iprop(∃ G : Arr F, cown p M b k fullShare G)

instance cown_storable (p : Dev nD) (M) (b k q) (G : Arr F) : BI.Storable (upEmb : UEmb _ 𝕄) (cown p M b k q G) := by
  unfold cown; infer_instance
instance cownAny_storable (p : Dev nD) (M) (b k) : BI.Storable (upEmb : UEmb _ 𝕄) (cownAny (F := F) p M b k) := by
  unfold cownAny; infer_instance

/-! ## Semaphores and cells -/

theorem slot_inb : ∀ (b : Fin 3) (s : Fin 14) (a : Fin 2), (![b.val, s.val] : Fin 2 → Nat) a + S1x1.size a ≤ S3x14.size a := by decide

/-- The send and the receive DMA semaphore of band `b`, slot `s`. -/
def sendS (b : Fin 3) (s : Fin 14) : DmaSem sig :=
  ((cc0_scratch3.slice (Rect.unit (s := S3x14) ![b.val, s.val] S1x1.size (slot_inb b s))).squeeze S_ squeezes_S1x1_S_).sem
def recvS (b : Fin 3) (s : Fin 14) : DmaSem sig :=
  ((cc0_scratch4.slice (Rect.unit (s := S3x14) ![b.val, s.val] S1x1.size (slot_inb b s))).squeeze S_ squeezes_S1x1_S_).sem

theorem sendS_val : ∀ (b : Fin 3) (s : Fin 14), (sendS b s).val = 2 + 14 * b.val + s.val := by decide
theorem recvS_val : ∀ (b : Fin 3) (s : Fin 14), (recvS b s).val = 44 + 14 * b.val + s.val := by decide

/-- The runtime's barrier semaphore of this collective. -/
abbrev barS : Sem sig := (SemArray.scalar (sig.barrier 0 rfl) : Sems sig S_).sem

abbrev barCell (c : Dev nD) : GSem nD τ sig := ((c : Thread nD τ), .reg barS)
abbrev sendCell (c : Dev nD) (b : Fin 3) (s : Fin 14) : GSem nD τ sig := ((c : Thread nD τ), .dma (sendS b s))
abbrev recvCell (c : Dev nD) (b : Fin 3) (s : Fin 14) : GSem nD τ sig := ((c : Thread nD τ), .dma (recvS b s))

theorem chunk_numel_pos : ∀ (b : Fin 3) (k : Dev nD), 0 < (crect b k).shape.numel := by decide

/-- The credit of a slot's transfer: its destination chunk's. -/
def Namt (b : Fin 3) (s : Fin 14) : ℕ := (chunkM (dstM s) b 0).view.dmaCredit

/-! ## Values carried -/

variable (X : Dev nD → Arr F)

/-- What the source chunk of slot `s` of band `b` holds on the sender `d` when the transfer is issued. -/
def cval (b : Fin 3) (s : Fin 14) (d : Dev nD) : Arr F :=
  if s.val < 4 then X d else if s.val < 6 then A1 X b d else if s.val < 8 then A2 X b d
  else if s.val < 12 then A3 X b d else A3 X b (xr d (mk b 1))

/-- The chunk a slot lands in, relative to the RECEIVER. -/
def rmask (b : Fin 3) (s : Fin 14) : Fin 8 := ⟨((tmask b s).val ^^^ (cmask b s).val) % 8, Nat.mod_lt _ (by decide)⟩

/-- The share of its source chunk a slot's transfer borrows: the finished chunks are sent twice at once. -/
def sshare (s : Fin 14) : PosShare TreeShare :=
  if s.val = 8 ∨ s.val = 9 then fullShare.left else if s.val = 10 ∨ s.val = 11 then fullShare.right else fullShare

/-- Slots whose source chunk travels with the landing. -/
def withSrc (s : Fin 14) : Bool := decide (s.val = 4 ∨ s.val = 5)

/-- Receive cell of device `p`: the landed chunk at the sender's value; for slots 4, 5 also the sender's source chunk. -/
def recvPay (p : Dev nD) (b : Fin 3) (s : Fin 14) : sProp 𝕄 :=
  iprop(cown p (dstM s) b (xr p (rmask b s)) fullShare (cval X b s (xr p (tmask b s)))
    ∗ (if withSrc s then cown (xr p (tmask b s)) MO b (xr p (rmask b s)) fullShare (cval X b s (xr p (tmask b s))) else iprop(emp)))

/-- Send cell of device `p`: the source chunk back (nothing for slots 4, 5). -/
def sendPay (p : Dev nD) (b : Fin 3) (s : Fin 14) : sProp 𝕄 :=
  if withSrc s then iprop(emp) else cown p (srcM s) b (xr p (cmask b s)) (sshare s) (cval X b s p)

/-- The (band, slot) pairs of the transfers a device sends to its partner by mask `bmask j`, whose destination
    chunks the partner hands over at the entry handshake (all but slots 8, 9). -/
def handed (j : Fin 3) : Finset (Fin 3 × Fin 14) :=
  Finset.univ.filter fun bs => tmask bs.1 bs.2 = bmask j ∧ bs.2.val ≠ 8 ∧ bs.2.val ≠ 9

/-- Barrier duty `j` of device `p`, paid by partner `n = p ⊕ bmask j`: the chunks of `n`'s buffers that `p`'s transfers to `n`
    land in. -/
def barPay (p : Dev nD) (j : Fin 3) : sProp 𝕄 :=
  bigSep (handed j) fun bs => cownAny (F := F) (xr p (bmask j)) (dstM bs.2) bs.1 (xr p (cmask bs.1 bs.2))

/-! ## The schedule -/

/-- Which cell a DMA semaphore is: a send cell `(b, s)`, a receive cell, or none of the protocol's. -/
def isSend (q : DmaSem sig) : Prop := 2 ≤ q.val ∧ q.val < 44
def isRecv (q : DmaSem sig) : Prop := 44 ≤ q.val
instance (q : DmaSem sig) : Decidable (isSend q) := by unfold isSend; infer_instance
instance (q : DmaSem sig) : Decidable (isRecv q) := by unfold isRecv; infer_instance
def bandOfSem (q : DmaSem sig) (base : Nat) : Fin 3 := ⟨((q.val - base) / 14) % 3, Nat.mod_lt _ (by decide)⟩
def slotOfSem (q : DmaSem sig) (base : Nat) : Fin 14 := ⟨(q.val - base) % 14, Nat.mod_lt _ (by decide)⟩

def arRd : Rounds.Schedule (GSem nD τ sig) (Fin 3) 𝕄 where
  duties g r :=
    if r = 0 ∧ g.1.2 = .tc then
      match g.2 with
      | .reg s => if s = barS then Finset.univ else ∅
      | .dma q => if isSend q ∨ isRecv q then {0} else ∅
    else ∅
  unitless _ := False
  amount g _ _ :=
    match g.2 with
    | .reg _ => 1
    | .dma q => if isRecv q then Namt (bandOfSem q 44) (slotOfSem q 44) else if isSend q then Namt (bandOfSem q 2) (slotOfSem q 2) else 1
  payload g _ d :=
    match g.2 with
    | .reg _ => barPay g.1.1 d
    | .dma q => if isRecv q then recvPay X g.1.1 (bandOfSem q 44) (slotOfSem q 44)
                else if isSend q then sendPay X g.1.1 (bandOfSem q 2) (slotOfSem q 2) else iprop(emp)
  amount_pos g _ _ _ := by
    rcases g with ⟨t, (s | q)⟩
    · exact Nat.one_pos
    · dsimp only
      split
      · exact View.dmaCredit_pos _ (chunk_numel_pos _ _)
      · split
        · exact View.dmaCredit_pos _ (chunk_numel_pos _ _)
        · exact Nat.one_pos

end Cert.Kernel.Ar

end
-- ==== Proof.IfaceK.lean ====
import proofs.«900695_g7700000000000696_dist_ar_v7x_i8_i_m2048_n512_f32_1_alg».proof.Proof.ValsK
import proofs.«900695_g7700000000000696_dist_ar_v7x_i8_i_m2048_n512_f32_1_alg».proof.Defs

/-!
# The kernel's run, as the launch states it and the claims use it

`Xof m c` is device `c`'s block of the input as the memory `m` holds it at launch; `RunPost m` says of a final state
that every device's result array holds `outAt` of those blocks and its input block is unchanged.
-/

noncomputable section

namespace Cert.Kernel.Ar

open Idealize.ShloMosaic Idealize.SL.Sem Cert.Kernel

variable {F : FTy → Type} [FloatOps F]

/-- Device `c`'s block of the input at launch. -/
def Xof (m : (ℓ : Loc nD τ sig) → Buf (Elt F) ℓ) (c : Dev nD) : Arr F := m ((c.tc : Thread nD τ).loc main_arg0)

/-- What the kernel's run leaves: on every device the result array is the butterfly's value of the launch-time input
    blocks, and the input block is as it was. -/
def RunPost (m : (ℓ : Loc nD τ sig) → Buf (Elt F) ℓ) (r : PUnit × MemSt nD τ sig (Elt F)) : Prop :=
  ∀ c : Dev nD,
    r.2.mem ((c.tc : Thread nD τ).loc main_v1) = (outAt (Xof m) c : Buf (Elt F) ((c.tc : Thread nD τ).loc main_v1))
    ∧ r.2.mem ((c.tc : Thread nD τ).loc main_arg0) = m ((c.tc : Thread nD τ).loc main_arg0)

end Cert.Kernel.Ar

end
-- ==== Proof.GhostK.lean ====
import proofs.«900695_g7700000000000696_dist_ar_v7x_i8_i_m2048_n512_f32_1_alg».proof.Proof.SchedK
import proofs.«900695_g7700000000000696_dist_ar_v7x_i8_i_m2048_n512_f32_1_alg».proof.Proof.IfaceK

/-!
# What a device starts from, what it owes, the levels, and the pipeline's proof data

A device pays: one unit on each partner's barrier cell (duty `j` of partner `c ⊕ bmask j`: the same `j`, since
flipping by a mask is an involution), and for every band and slot the landing on its partner's receive cell and the
departure on its own send cell. Levels order the waits: a device waits on its barrier cell while it owes every landing,
so the barrier cells lie below all receive cells; the receive cells are ordered by the place of their wait in the
program (slot order 0,…,9,11,10,12,13, bands interleaved), because whenever a device waits for slot `s` of band `b` every
landing it still owes belongs to a slot waited for later. Send cells and the pipeline's staging cells are never owed by
another device: they lie at the bottom.
-/

noncomputable section

namespace Cert.Kernel.Ar

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- The schedule at the launch-time input blocks. -/
abbrev Rd : Rounds.Schedule (GSem nD τ sig) (Fin 3) 𝕄 := arRd (F := F) (Xof m)

/-! ## The cells, indexed -/

/-- A device's cells of the protocol: its barrier cell, its send cells, its receive cells. -/
abbrev CK : Type := Unit ⊕ ((Fin 3 × Fin 14) ⊕ (Fin 3 × Fin 14))

def ksem : CK → SemLoc sig
  | .inl _ => .reg barS
  | .inr (.inl bs) => .dma (sendS bs.1 bs.2)
  | .inr (.inr bs) => .dma (recvS bs.1 bs.2)

abbrev kcell (ck : Dev nD × CK) : GSem nD τ sig := ((ck.1 : Thread nD τ), ksem ck.2)

/-- The persistent part, the same for every device: every cell's invariant under the names `K`, and that round 0
    of every cell is reached. -/
def records (K : Dev nD × CK → ℕ) : sProp 𝕄 :=
  iprop((bigSep Finset.univ fun ck : Dev nD × CK => cellInv ER (Rd m) (K ck) (kcell ck))
    ∗ bigSep Finset.univ fun ck : Dev nD × CK => reached ER (kcell ck) 0)

instance records_persistent (K : Dev nD × CK → ℕ) : BI.Persistent (records m K) := by unfold records; infer_instance

/-- What stays with device `c`: its positions at round 0 of its own cells, and the tokens of the duties IT pays. -/
def linear (c : Dev nD) : sProp 𝕄 :=
  iprop((bigSep Finset.univ fun k : CK => atPos ER (kcell (c, k)) 0 ∅ 0)
    ∗ (bigSep Finset.univ fun j : Fin 3 => dutyTok ER (barCell (xr c (bmask j))) 0 j)
    ∗ (bigSep Finset.univ fun bs : Fin 3 × Fin 14 => dutyTok ER (recvCell (xr c (tmask bs.1 bs.2)) bs.1 bs.2) 0 (0 : Fin 3))
    ∗ (bigSep Finset.univ fun bs : Fin 3 × Fin 14 => dutyTok ER (sendCell c bs.1 bs.2) 0 (0 : Fin 3)))

/-- The credit a device is dealt at launch: its barrier's three units and every landing on its receive cells. -/
def creds (c : Dev nD) : sProp 𝕄 :=
  iprop(cred (tallyAt (barCell c) () 3)
    ∗ bigSep Finset.univ fun bs : Fin 3 × Fin 14 => cred (tallyAt (recvCell c bs.1 bs.2) () (Namt bs.1 bs.2)))

/-! ## What a device owes; the levels -/

/-- The landings of the slots `T` still owed, and the barrier units of the partners `J` still owed. -/
def owedRecv (c : Dev nD) (T : Finset (Fin 3 × Fin 14)) : CellTallies nD τ sig Unit :=
  ∑ bs ∈ T, tallyAt (recvCell (xr c (tmask bs.1 bs.2)) bs.1 bs.2) () (Namt bs.1 bs.2)
def owedBar (c : Dev nD) (J : Finset (Fin 3)) : CellTallies nD τ sig Unit :=
  ∑ j ∈ J, tallyAt (barCell (xr c (bmask j))) () 1

def O₀ (c : Dev nD) : CellTallies nD τ sig Unit := owedRecv c Finset.univ + owedBar c Finset.univ

def L (g : GSem nD τ sig) : Finset Unit := if g.1.2 = .tc then {()} else ∅

/-- The place of slot `s`'s receive wait among the fourteen. -/
def wrank : Fin 14 → ℕ := ![0, 1, 2, 3, 4, 5, 6, 7, 8, 9, 11, 10, 12, 13]

def lv (g : GSem nD τ sig) (_ : Unit) : ℕ :=
  match g.2 with
  | .reg _ => 1
  | .dma q => if isRecv q then 2 + 3 * wrank (slotOfSem q 44) + (bandOfSem q 44).val else 0

/-! ## The pipeline's proof data -/

/-- Device `c`'s block of the input as the input window stages it. -/
def xstg (c : Dev nD) : (cc0_stg0_0 : Ref sig .tc).ty.Contents (Elt F) :=
  (win0_0.blk (0 : Fin 1)).view.read (Elt F) ((s₀ m ρ).mem ((c : Thread nD τ).loc main_arg0))

/-- A scratch buffer whole, at some contents. -/
def scrAny (c : Dev nD) (b : Ref sig .tc) : sProp 𝕄 := iprop(∃ f : Buf (Elt F) ((c : Thread nD τ).loc b), ((c : Thread nD τ).loc b) ↦{fullShare} f)

/-- What device `c`'s body starts from besides its buffers: the records at some names, its linear ghost state, its
    launch credit, the level facts. -/
def start (c : Dev nD) : sProp 𝕄 :=
  iprop((∃ K, records m K ∗ linear c) ∗ creds c ∗ levAts L lv)

def Φ₀ (c : Dev nD) : sProp 𝕄 :=
  iprop(start m c ∗ scrAny c cc0_scratch0 ∗ scrAny c cc0_scratch1 ∗ scrAny c cc0_scratch2)

/-- After the point: the scratch buffers whole again, and the device's own 84 cells at zero, closed. -/
def Φ₁ (c : Dev nD) : sProp 𝕄 :=
  iprop((scrAny c cc0_scratch0 ∗ scrAny c cc0_scratch1 ∗ scrAny c cc0_scratch2)
    ∗ (bigSep Finset.univ fun bs : Fin 3 × Fin 14 => semVal (sendCell c bs.1 bs.2) 0)
    ∗ (bigSep Finset.univ fun bs : Fin 3 × Fin 14 => semVal (recvCell c bs.1 bs.2) 0))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt (Xof m) c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

end Cert.Kernel.Ar

end
-- ==== Proof.ProtoK.lean ====
import proofs.«900695_g7700000000000696_dist_ar_v7x_i8_i_m2048_n512_f32_1_alg».proof.Proof.GhostK

/-!
# The protocol's bookkeeping as one assertion over a finite state

`St c σ` is everything device `c` holds of the rounds discipline at a point of its body, where `σ` records which of its
transfers it has issued (`sent`), which of its send cells (`swt`) and receive cells (`rcv`) it has waited on, which of the
three handshake signals it has sent (`sig`) and whether it has passed the handshake wait (`bar`): what it still owes
(the landings of the transfers not yet issued, the handshake units not yet sent), the tokens of the duties it still has
to pay, the credit of the transfers in flight on its send cells, the credit dealt at launch for the landings it has not
yet consumed, and its position on each of its cells (round 0 until the wait, round 1 after it). The data — chunks of
buffers — is not part of it: each step below takes the chunks it needs and returns the chunks it yields.
-/

noncomputable section

namespace Cert.Kernel.Ar

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A (band, slot) pair. -/
abbrev BS : Type := Fin 3 × Fin 14

/-- Where a device stands in the protocol. -/
structure PSt where
  sent : Finset BS
  swt : Finset BS
  rcv : Finset BS
  sig : Finset (Fin 3)
  bar : Bool

def PSt.init : PSt := ⟨∅, ∅, ∅, ∅, false⟩
def PSt.final : PSt := ⟨Finset.univ, Finset.univ, Finset.univ, Finset.univ, true⟩

/-- The protocol's linear resources of device `c` at state `σ`. -/
def St (c : Dev nD) (σ : PSt) : sProp 𝕄 :=
  iprop((∃ W, owes (c : Thread nD τ) (owedRecv c (Finset.univ \ σ.sent) + owedBar c (Finset.univ \ σ.sig)) W)
    ∗ (bigSep (Finset.univ \ σ.sig) fun j : Fin 3 => dutyTok ER (barCell (xr c (bmask j))) 0 j)
    ∗ (bigSep (Finset.univ \ σ.sent) fun bs : BS =>
        iprop(dutyTok ER (sendCell c bs.1 bs.2) 0 (0 : Fin 3) ∗ dutyTok ER (recvCell (xr c (tmask bs.1 bs.2)) bs.1 bs.2) 0 (0 : Fin 3)))
    ∗ (bigSep (σ.sent \ σ.swt) fun bs : BS => cred (tallyAt (sendCell c bs.1 bs.2) () (Namt bs.1 bs.2)))
    ∗ (bigSep (Finset.univ \ σ.swt) fun bs : BS => atPos ER (sendCell c bs.1 bs.2) 0 ∅ 0)
    ∗ (bigSep σ.swt fun bs : BS => atPos ER (sendCell c bs.1 bs.2) 1 ∅ 0)
    ∗ (bigSep (Finset.univ \ σ.rcv) fun bs : BS =>
        iprop(cred (tallyAt (recvCell c bs.1 bs.2) () (Namt bs.1 bs.2)) ∗ atPos ER (recvCell c bs.1 bs.2) 0 ∅ 0))
    ∗ (bigSep σ.rcv fun bs : BS => atPos ER (recvCell c bs.1 bs.2) 1 ∅ 0)
    ∗ (if σ.bar then atPos ER (barCell c) 1 ∅ 0 else iprop(cred (tallyAt (barCell c) () 3) ∗ atPos ER (barCell c) 0 ∅ 0)))

/-- The persistent context of every step: the cells' invariants and reached rounds, and the level facts. -/
def Pers (K : Dev nD × CK → ℕ) : sProp 𝕄 := iprop(records m K ∗ levAts L lv)

instance Pers_persistent (K : Dev nD × CK → ℕ) : BI.Persistent (Pers m K) := by unfold Pers; infer_instance

end Cert.Kernel.Ar

end
-- ==== Proof.ChunksK.lean ====
import proofs.«900695_g7700000000000696_dist_ar_v7x_i8_i_m2048_n512_f32_1_alg».proof.Proof.SchedK
import Idealize.ShloMosaic.Lib.Memref

/-!
# A buffer of 2048 × 512 is the disjoint union of its twenty-four chunks

The rows 0–2047 are cut into three bands, each band into eight chunks of equal height; chunk `k` of band `b` is
rows `base b + rws b · k` up to `base b + rws b · (k + 1)`, all 512 columns. Consecutive chunks abut and the
bands follow one another without a gap, so every row lies in exactly one chunk: the one named by `bandOf` and
`chunkOf` of the row. Hence owning a whole buffer is owning each of its chunks, at one array's rows or, joined
back, at each chunk's own array.
-/

noncomputable section

namespace Cert.Kernel.Ar

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Rows -/

/-- The first row and the height of each band's chunks, as numbers. -/
theorem base_vals : base 0 = 0 ∧ base 1 = 704 ∧ base 2 = 1344 := ⟨rfl, rfl, rfl⟩
theorem rws_vals : rws 0 = 88 ∧ rws 1 = 80 ∧ rws 2 = 88 := ⟨rfl, rfl, rfl⟩

/-- A row between the first row of chunk `k` of band `b` and the first row of the next chunk has band `b` and
    chunk `k`. -/
theorem band_chunk_row (b : Fin 3) (k : Dev nD) (r : Nat)
    (h1 : base b + rws b * k.val ≤ r) (h2 : r < base b + rws b * k.val + rws b) :
    bandOf r = b ∧ chunkOf r = k := by
  have hk : k.val < 8 := k.isLt
  obtain ⟨b0, b1, b2⟩ := base_vals
  obtain ⟨r0, r1, r2⟩ := rws_vals
  have hb : bandOf r = b := by
    unfold bandOf
    fin_cases b
    · rw [show ((⟨0, by decide⟩ : Fin 3)) = 0 from rfl] at h1 h2 ⊢
      rw [b0, r0] at h2
      rw [if_pos (by omega)]
    · rw [show ((⟨1, by decide⟩ : Fin 3)) = 1 from rfl] at h1 h2 ⊢
      rw [b1, r1] at h1 h2
      rw [if_neg (by omega), if_pos (by omega)]
    · rw [show ((⟨2, by decide⟩ : Fin 3)) = 2 from rfl] at h1 h2 ⊢
      rw [b2, r2] at h1
      rw [if_neg (by omega), if_neg (by omega)]
  refine ⟨hb, Fin.ext ?_⟩
  show ((r - base (bandOf r)) / rws (bandOf r)) % 8 = k.val
  rw [hb]
  fin_cases b
  · rw [show ((⟨0, by decide⟩ : Fin 3)) = 0 from rfl] at h1 h2 ⊢
    rw [b0, r0] at h1 h2 ⊢; omega
  · rw [show ((⟨1, by decide⟩ : Fin 3)) = 1 from rfl] at h1 h2 ⊢
    rw [b1, r1] at h1 h2 ⊢; omega
  · rw [show ((⟨2, by decide⟩ : Fin 3)) = 2 from rfl] at h1 h2 ⊢
    rw [b2, r2] at h1 h2 ⊢; omega

/-- Every row lies in the chunk its band and chunk name. -/
theorem row_in_chunk (r : Nat) (hr : r < 2048) :
    base (bandOf r) + rws (bandOf r) * (chunkOf r).val ≤ r
      ∧ r < base (bandOf r) + rws (bandOf r) * (chunkOf r).val + rws (bandOf r) := by
  obtain ⟨b0, b1, b2⟩ := base_vals
  obtain ⟨r0, r1, r2⟩ := rws_vals
  show base (bandOf r) + rws (bandOf r) * (((r - base (bandOf r)) / rws (bandOf r)) % 8) ≤ r
    ∧ r < base (bandOf r) + rws (bandOf r) * (((r - base (bandOf r)) / rws (bandOf r)) % 8) + rws (bandOf r)
  by_cases c0 : r < 704
  · rw [show bandOf r = 0 from if_pos c0, b0, r0]; omega
  · by_cases c1 : r < 1344
    · rw [show bandOf r = 1 from (if_neg c0).trans (if_pos c1), b1, r1]; omega
    · rw [show bandOf r = 2 from (if_neg c0).trans (if_neg c1), b2, r2]; omega

/-! ## The chunks are pairwise disjoint and cover the array -/

/-- Two different chunks are separated along the rows. -/
theorem chunks_apart : ∀ t t' : Fin 3 × Dev nD, t ≠ t' →
    coff t.1 t.2 0 + csz t.1 0 ≤ coff t'.1 t'.2 0 ∨ coff t'.1 t'.2 0 + csz t'.1 0 ≤ coff t.1 t.2 0 := by decide

theorem chunks_disjoint : ∀ t t' : Fin 3 × Dev nD, t ≠ t' → Disjoint (crect t.1 t.2).set (crect t'.1 t'.2).set :=
  fun t t' h => Rect.unit_disjoint (0 : Fin S2048x512.rank) (chunks_apart t t' h)

theorem chunks_cover : (Finset.univ : Finset (Fin 3 × Dev nD)).biUnion (fun t => (crect t.1 t.2).set) = Finset.univ := by
  refine Finset.eq_univ_iff_forall.mpr fun i => Finset.mem_biUnion.mpr
    ⟨(bandOf (i 0).val, chunkOf (i 0).val), Finset.mem_univ _, Rect.mem_set_unit.mpr fun a => ?_⟩
  have hrow := row_in_chunk (i 0).val (i 0).isLt
  match a with
  | ⟨0, _⟩ => exact hrow
  | ⟨1, _⟩ => exact ⟨Nat.zero_le _, by have h1 : (i 1).val < 512 := (i 1).isLt; show (i 1).val < 0 + 512; omega⟩

/-- An entry of chunk `k` of band `b` has band `b` and chunk `k`. -/
theorem band_chunk_of (b : Fin 3) (k : Dev nD) (j : (crect b k).shape.Idx) :
    bandOf ((crect b k).emb j 0).val = b ∧ chunkOf ((crect b k).emb j 0).val = k := by
  have hj : (j 0).val < rws b := (j 0).isLt
  refine band_chunk_row b k _ ?_ ?_
  · show base b + rws b * k.val ≤ base b + rws b * k.val + 1 * (j 0).val; omega
  · show base b + rws b * k.val + 1 * (j 0).val < base b + rws b * k.val + rws b; omega

/-! ## Owning a whole buffer is owning its chunks -/

/-- A buffer owned at the array `G` is each of its chunks owned at `G`'s rows there, -/
theorem whole_split (p : Dev nD) (M : Memref sig .tc .vmem S2048x512 .f32) (q : PosShare TreeShare) (G : Arr F) :
    (owns (p : Thread nD τ) M q G : sProp 𝕄) ⊢ bigSep Finset.univ fun t : Fin 3 × Dev nD => cown p M t.1 t.2 q G :=
by
  unfold cown
  exact owns_rects (Val := Elt F) (p : Thread nD τ) M q (fun t : Fin 3 × Dev nD => crect t.1 t.2) (fun _ _ => rfl)
    chunks_disjoint chunks_cover G

/-- and chunks owned each at its own array's rows are the buffer owned at the array that reads, in every row,
    the array of that row's chunk. -/
theorem whole_join (p : Dev nD) (M : Memref sig .tc .vmem S2048x512 .f32) (q : PosShare TreeShare)
    (Gs : Fin 3 × Dev nD → Arr F) :
    (bigSep Finset.univ fun t : Fin 3 × Dev nD => cown p M t.1 t.2 q (Gs t) : sProp 𝕄)
      ⊢ owns (p : Thread nD τ) M q (fun i => Gs (bandOf (i 0).val, chunkOf (i 0).val) i) := by
  have e : (bigSep Finset.univ fun t : Fin 3 × Dev nD => cown p M t.1 t.2 q (Gs t) : sProp 𝕄)
      = bigSep Finset.univ fun t : Fin 3 × Dev nD =>
          owns (p : Thread nD τ) (M.slice (crect t.1 t.2) (fun _ => rfl)) q
            (fun j => (fun i : S2048x512.Idx => Gs (bandOf (i 0).val, chunkOf (i 0).val) i) ((crect t.1 t.2).emb j)) :=
    bigSep_congr fun t _ => by
      unfold cown
      refine congrArg (owns (p : Thread nD τ) (chunkM M t.1 t.2) q) (funext fun j => ?_)
      obtain ⟨hb, hk⟩ := band_chunk_of t.1 t.2 j
      show Gs t ((crect t.1 t.2).emb j)
        = Gs (bandOf ((crect t.1 t.2).emb j 0).val, chunkOf ((crect t.1 t.2).emb j 0).val) ((crect t.1 t.2).emb j)
      rw [hb, hk]
  rw [e]
  exact owns_of_rects (Val := Elt F) (Ix := Unit) (Name := ℕ) (U := UU) (Lvl := ℕ) (p : Thread nD τ) M q
    (fun t : Fin 3 × Dev nD => crect t.1 t.2) (fun _ _ => rfl) chunks_disjoint chunks_cover
    (fun i : S2048x512.Idx => Gs (bandOf (i 0).val, chunkOf (i 0).val) i)

/-- The same at some contents, outright: a buffer held whole at some array is every chunk held at some array, -/
theorem whole_splitAny (p : Dev nD) (M : Memref sig .tc .vmem S2048x512 .f32) :
    (iprop(∃ G : Arr F, owns (p : Thread nD τ) M fullShare G) : sProp 𝕄)
      ⊢ bigSep Finset.univ fun t : Fin 3 × Dev nD => cownAny (F := F) p M t.1 t.2 := by
  iintro ⟨%G, H⟩
  ihave H' := (whole_split p M fullShare G) $$ H
  have hm : (bigSep Finset.univ (fun t : Fin 3 × Dev nD => cown p M t.1 t.2 fullShare G) : sProp 𝕄)
      ⊢ bigSep Finset.univ fun t : Fin 3 × Dev nD => cownAny (F := F) p M t.1 t.2 :=
    bigSep_mono fun t _ => (show (cown p M t.1 t.2 fullShare G : sProp 𝕄) ⊢ cownAny (F := F) p M t.1 t.2 from by
      unfold cownAny; iintro Ht; iexists G; iexact Ht)
  iapply hm
  iexact H'

/-- and back: the arrays chosen chunk by chunk are put together row by row. -/
theorem whole_joinAny (p : Dev nD) (M : Memref sig .tc .vmem S2048x512 .f32) :
    (bigSep Finset.univ fun t : Fin 3 × Dev nD => cownAny (F := F) p M t.1 t.2 : sProp 𝕄)
      ⊢ iprop(∃ G : Arr F, owns (p : Thread nD τ) M fullShare G) := by
  haveI : Nonempty (Arr F) := ⟨fun _ => (Elt.inhabited F .f32).default⟩
  refine (bigSep_exists_pi (Y := fun _ : Fin 3 × Dev nD => Arr F) Finset.univ
    (fun t G => cown p M t.1 t.2 fullShare G)).trans ?_
  iintro ⟨%Gs, H⟩
  iexists fun i => Gs (bandOf (i 0).val, chunkOf (i 0).val) i
  iapply (whole_join p M fullShare Gs)
  iexact H

/-! ## The chunks of a band, named from one device's side -/

/-- Flipping the bits of `c` by `k`, as a bijection from the masks to the devices. -/
def xrFrom (c : Dev nD) : Fin 8 ≃ Dev nD :=
  ⟨fun k => xr c k, fun d => xr c d,
    (by decide : ∀ (c : Dev nD) (k : Fin 8), xr c (xr c k) = k) c,
    (by decide : ∀ (c : Dev nD) (d : Dev nD), xr c (xr c d) = d) c⟩

/-- A conjunction over all chunks may be taken over the chunks `c ⊕ h`, `h` a mask. -/
theorem bigSep_xr (c : Dev nD) (Φ : Fin 3 → Dev nD → sProp 𝕄) :
    (bigSep Finset.univ fun t : Fin 3 × Dev nD => Φ t.1 t.2)
      = bigSep Finset.univ fun t : Fin 3 × Fin 8 => Φ t.1 (xr c t.2) :=
  bigSep_univ_equiv ((Equiv.refl (Fin 3)).prodCongr (xrFrom c)) fun t : Fin 3 × Dev nD => Φ t.1 t.2

end Cert.Kernel.Ar

end
-- ==== Proof.Frame0K.lean ====
import proofs.«900695_g7700000000000696_dist_ar_v7x_i8_i_m2048_n512_f32_1_alg».proof.Proof.ProtoK
import proofs.«900695_g7700000000000696_dist_ar_v7x_i8_i_m2048_n512_f32_1_alg».proof.Proof.ChunksK

/-!
# The chunks a device's body starts with and ends with

At the start a device holds its input block whole (cut into the 24 chunks, each at the block's values), its result
buffer and its three scratch buffers at arbitrary contents. Of the result buffer it keeps, per band, the four chunks it
fills itself (its own, `⊕ m₃`, `⊕ m₂`, `⊕ m₂ ⊕ m₃`); the other four, and the scratch chunks its partners' transfers land
in, are what the three handshake signals hand over (`barPay`); the scratch chunks no transfer uses stay aside
(`restR`). At the end it holds every chunk again: the input as it was, result chunk `c ⊕ h` of band `b` at the finished sum
`A3 b (c ⊕ osrc b h)` of the device that completed it, the scratch chunks at whatever landed there.
-/

noncomputable section

namespace Cert.Kernel.Ar

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The sum of the second and third masks of band `b`. -/
def m23 (b : Fin 3) : Fin 8 := ⟨((mk b 1).val ^^^ (mk b 2).val) % 8, Nat.mod_lt _ (by decide)⟩

/-- The three scratch buffers, and the slots that land in each. -/
def MR : Fin 3 → Memref sig .tc .vmem S2048x512 .f32 := ![MR1, MR2, MR3]
def slotsR : Fin 3 → Finset (Fin 14) := ![{0, 1, 2, 3}, {4, 5}, {6, 7}]

/-- The chunks (band, offset from the device) of scratch buffer `i` that some transfer lands in. -/
def usedR (i : Fin 3) : Finset (Fin 3 × Fin 8) := (Finset.univ ×ˢ slotsR i).image fun bs => (bs.1, rmask bs.1 bs.2)

/-- The scratch chunks no transfer touches. -/
def restR (c : Dev nD) : sProp 𝕄 :=
  bigSep Finset.univ fun i : Fin 3 => bigSep (Finset.univ \ usedR i) fun t : Fin 3 × Fin 8 => cownAny (F := F) c (MR i) t.1 (xr c t.2)

/-- The chunks the body starts with. -/
def ChIn (c : Dev nD) : sProp 𝕄 :=
  iprop((bigSep Finset.univ fun t : Fin 3 × Fin 8 => cown c MX t.1 (xr c t.2) fullShare (Xof m c))
    ∗ (bigSep Finset.univ fun b : Fin 3 =>
        iprop(cownAny (F := F) c MO b (xr c 0) ∗ cownAny (F := F) c MO b (xr c (mk b 2)) ∗ cownAny (F := F) c MO b (xr c (mk b 1)) ∗ cownAny (F := F) c MO b (xr c (m23 b))))
    ∗ barPay (F := F) (xr c (bmask 0)) 0 ∗ barPay (F := F) (xr c (bmask 1)) 1 ∗ barPay (F := F) (xr c (bmask 2)) 2
    ∗ restR c)

/-- The offset of the device that completed result chunk `c ⊕ h` of band `b`: `h` without its third-mask part. -/
def osrc (b : Fin 3) (h : Fin 8) : Fin 8 :=
  if inSpan12 b h then h else ⟨(h.val ^^^ (mk b 2).val) % 8, Nat.mod_lt _ (by decide)⟩

/-- The chunks the body ends with. -/
def ChOut (c : Dev nD) : sProp 𝕄 :=
  iprop((bigSep Finset.univ fun t : Fin 3 × Fin 8 => cown c MX t.1 (xr c t.2) fullShare (Xof m c))
    ∗ (bigSep Finset.univ fun t : Fin 3 × Fin 8 => cown c MO t.1 (xr c t.2) fullShare (A3 (Xof m) t.1 (xr c (osrc t.1 t.2))))
    ∗ (bigSep Finset.univ fun i : Fin 3 => bigSep (usedR i) fun t : Fin 3 × Fin 8 => cownAny (F := F) c (MR i) t.1 (xr c t.2))
    ∗ restR c)

/-- The body's core statement: from the protocol's initial state and the initial chunks to the final state and chunks. -/
def BodyCore : Prop :=
  ∀ (K : Dev nD × CK → ℕ) (c : Dev nD) (Kt : PUnit → sProp 𝕄),
    iprop(Pers m K ∗ St c PSt.init ∗ ChIn m c ∗ (iprop(St c PSt.final ∗ ChOut m c) -∗ Kt ⟨⟩))
      ⊢ wp frame (wpE (defs₀ (F := F)) 𝒱₀ (c : Thread nD τ) none) Set.univ
          (cc0_body MX (Memref.isWhole_whole _) MO (Memref.isWhole_whole _) MR1 (Memref.isWhole_whole _) MR2 (Memref.isWhole_whole _)
            MR3 (Memref.isWhole_whole _) cc0_scratch3 cc0_scratch4) Kt

end Cert.Kernel.Ar

end
-- ==== Proof.ScrAnyK.lean ====
import proofs.«900695_g7700000000000696_dist_ar_v7x_i8_i_m2048_n512_f32_1_alg».proof.Proof.GhostK
import Idealize.ShloMosaic.Lib.Memref

/-!
# A scratch buffer held whole, as ownership of its whole memref

A device starts from each scratch buffer whole at some contents. A whole buffer's memref reads the buffer's
contents as they are, so this is owning that memref, outright, at some array: the form in which the buffer is
then cut into its chunks.
-/

noncomputable section

namespace Cert.Kernel.Ar

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- Holding a buffer whole at some contents is owning its whole memref at some array. -/
theorem scrAny_iff (c : Dev nD) (b : Ref sig .tc) :
    scrAny (F := F) c b ⊣⊢ iprop(∃ G, owns (c : Thread nD τ) (Memref.whole b) fullShare G) := by
  unfold scrAny
  simp only [owns_whole]
  exact .rfl

end Cert.Kernel.Ar

end
-- ==== Proof.TablesK.lean ====
import proofs.«900695_g7700000000000696_dist_ar_v7x_i8_i_m2048_n512_f32_1_alg».proof.Proof.GhostK

/-!
# The schedule's tables per cell, and the levels of the waits

The schedule has one round. A device's barrier cell has three duties of one unit each, one per partner; each send
cell and each receive cell has the single duty `0`, of the credit of the slot's destination chunk. The tables below
read the schedule off at each of these cells. A semaphore's index tells which cell it is: the send semaphore of band
`b`, slot `s` is number `2 + 14 b + s`, the receive semaphore `44 + 14 b + s`, so band and slot are recovered by
division with remainder.

Levels. Send cells and staging cells lie at 0, barrier cells at 1, the receive cell of band `b`, slot `s` at
`2 + 3 · wrank s + b`: the place of its wait in the program. A wait is allowed when every cell still owed lies
strictly above the cell waited on.
-/

noncomputable section

namespace Cert.Kernel.Ar

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Which cell a semaphore is -/

theorem isSend_sendS : ∀ (b : Fin 3) (s : Fin 14), isSend (sendS b s) := by decide
theorem not_isRecv_sendS : ∀ (b : Fin 3) (s : Fin 14), ¬ isRecv (sendS b s) := by decide
theorem isRecv_recvS : ∀ (b : Fin 3) (s : Fin 14), isRecv (recvS b s) := by decide
theorem band_sendS : ∀ (b : Fin 3) (s : Fin 14), bandOfSem (sendS b s) 2 = b := by decide
theorem slot_sendS : ∀ (b : Fin 3) (s : Fin 14), slotOfSem (sendS b s) 2 = s := by decide
theorem band_recvS : ∀ (b : Fin 3) (s : Fin 14), bandOfSem (recvS b s) 44 = b := by decide
theorem slot_recvS : ∀ (b : Fin 3) (s : Fin 14), slotOfSem (recvS b s) 44 = s := by decide

/-! ## The payloads may sit in an invariant -/

instance arRd_payload_storable (X : Dev nD → Arr F) (g : GSem nD τ sig) (r : ℕ) (d : Fin 3) :
    BI.Storable (upEmb : UEmb _ 𝕄) ((arRd X).payload g r d) := by
  rcases g with ⟨t, (s | q)⟩
  · show BI.Storable upEmb (barPay (F := F) t.1 d)
    unfold barPay; infer_instance
  · show BI.Storable upEmb (if isRecv q then recvPay X t.1 (bandOfSem q 44) (slotOfSem q 44)
      else if isSend q then sendPay X t.1 (bandOfSem q 2) (slotOfSem q 2) else iprop(emp))
    unfold recvPay sendPay
    (repeat' split) <;> infer_instance

section Sched
variable (c : Dev nD) (b : Fin 3) (s : Fin 14)

/-! ## Duties -/

theorem duties_bar : (Rd (F := F) m).duties (barCell c) 0 = Finset.univ := by
  show (if (0 = 0 ∧ (Kind.tc : Kind) = .tc) then (if barS = barS then (Finset.univ : Finset (Fin 3)) else ∅) else ∅) = _
  rw [if_pos ⟨rfl, rfl⟩, if_pos rfl]
theorem duties_send : (Rd (F := F) m).duties (sendCell c b s) 0 = {0} := by
  show (if (0 = 0 ∧ (Kind.tc : Kind) = .tc) then (if isSend (sendS b s) ∨ isRecv (sendS b s) then ({0} : Finset (Fin 3)) else ∅) else ∅) = _
  rw [if_pos ⟨rfl, rfl⟩, if_pos (.inl (isSend_sendS b s))]
theorem duties_recv : (Rd (F := F) m).duties (recvCell c b s) 0 = {0} := by
  show (if (0 = 0 ∧ (Kind.tc : Kind) = .tc) then (if isSend (recvS b s) ∨ isRecv (recvS b s) then ({0} : Finset (Fin 3)) else ∅) else ∅) = _
  rw [if_pos ⟨rfl, rfl⟩, if_pos (.inr (isRecv_recvS b s))]
theorem duties_later (g : GSem nD τ sig) : ∀ r, 1 ≤ r → (Rd (F := F) m).duties g r = ∅ :=
  fun r hr => by
    show (if r = 0 ∧ g.1.2 = .tc then _ else (∅ : Finset (Fin 3))) = ∅
    exact if_neg fun h => by omega

/-! ## Amounts -/

theorem amount_bar (d : Fin 3) : (Rd (F := F) m).amount (barCell c) 0 d = 1 := rfl
theorem amount_send (d : Fin 3) : (Rd (F := F) m).amount (sendCell c b s) 0 d = Namt b s := by
  show (if isRecv (sendS b s) then Namt (bandOfSem (sendS b s) 44) (slotOfSem (sendS b s) 44)
    else if isSend (sendS b s) then Namt (bandOfSem (sendS b s) 2) (slotOfSem (sendS b s) 2) else 1) = _
  rw [if_neg (not_isRecv_sendS b s), if_pos (isSend_sendS b s), band_sendS, slot_sendS]
theorem amount_recv (d : Fin 3) : (Rd (F := F) m).amount (recvCell c b s) 0 d = Namt b s := by
  show (if isRecv (recvS b s) then Namt (bandOfSem (recvS b s) 44) (slotOfSem (recvS b s) 44)
    else if isSend (recvS b s) then Namt (bandOfSem (recvS b s) 2) (slotOfSem (recvS b s) 2) else 1) = _
  rw [if_pos (isRecv_recvS b s), band_recvS, slot_recvS]

/-! ## Expected units of the round -/

theorem expect_bar : (Rd (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_send : (Rd (F := F) m).expect (sendCell c b s) 0 = Namt b s := by
  unfold Schedule.expect Schedule.amountOf; rw [duties_send, Finset.sum_singleton, amount_send]
theorem expect_recv : (Rd (F := F) m).expect (recvCell c b s) 0 = Namt b s := by
  unfold Schedule.expect Schedule.amountOf; rw [duties_recv, Finset.sum_singleton, amount_recv]

/-! ## Payloads -/

theorem payload_bar (j : Fin 3) : (Rd (F := F) m).payload (barCell c) 0 j = barPay c j := rfl
theorem payload_send (d : Fin 3) : (Rd (F := F) m).payload (sendCell c b s) 0 d = sendPay (Xof m) c b s := by
  show (if isRecv (sendS b s) then recvPay (Xof m) c (bandOfSem (sendS b s) 44) (slotOfSem (sendS b s) 44)
    else if isSend (sendS b s) then sendPay (Xof m) c (bandOfSem (sendS b s) 2) (slotOfSem (sendS b s) 2) else iprop(emp)) = _
  rw [if_neg (not_isRecv_sendS b s), if_pos (isSend_sendS b s), band_sendS, slot_sendS]
theorem payload_recv (d : Fin 3) : (Rd (F := F) m).payload (recvCell c b s) 0 d = recvPay (Xof m) c b s := by
  show (if isRecv (recvS b s) then recvPay (Xof m) c (bandOfSem (recvS b s) 44) (slotOfSem (recvS b s) 44)
    else if isSend (recvS b s) then sendPay (Xof m) c (bandOfSem (recvS b s) 2) (slotOfSem (recvS b s) 2) else iprop(emp)) = _
  rw [if_pos (isRecv_recvS b s), band_recvS, slot_recvS]

/-! ## The rest of a round, no duty taken -/

theorem rest_bar : bigSep ((Rd (F := F) m).duties (barCell c) 0 \ ∅) (fun d => (Rd (F := F) m).payload (barCell c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons,
    bigSepL_singleton, payload_bar, payload_bar, payload_bar]
  rfl
theorem rest_send : bigSep ((Rd (F := F) m).duties (sendCell c b s) 0 \ ∅) (fun d => (Rd (F := F) m).payload (sendCell c b s) 0 d)
    = sendPay (Xof m) c b s := by
  rw [Finset.sdiff_empty, duties_send, bigSep_singleton, payload_send]
theorem rest_recv : bigSep ((Rd (F := F) m).duties (recvCell c b s) 0 \ ∅) (fun d => (Rd (F := F) m).payload (recvCell c b s) 0 d)
    = recvPay (Xof m) c b s := by
  rw [Finset.sdiff_empty, duties_recv, bigSep_singleton, payload_recv]

end Sched

/-! ## The credit of a slot's transfer does not depend on the chunk -/

theorem amount_dst (b : Fin 3) (s : Fin 14) (k : Dev nD) (q : DmaSem sig) :
    (chunkM (dstM s) b k).view.amount (.dma q) = Namt b s := rfl

/-! ## Cells are told apart -/

theorem sendS_inj {b b' : Fin 3} {s s' : Fin 14} (h : sendS b s = sendS b' s') : b = b' ∧ s = s' := by
  have hv := congrArg (fun q : DmaSem sig => q.val) h
  dsimp only at hv
  rw [sendS_val, sendS_val] at hv
  exact ⟨Fin.ext (by omega), Fin.ext (by omega)⟩
theorem recvS_inj {b b' : Fin 3} {s s' : Fin 14} (h : recvS b s = recvS b' s') : b = b' ∧ s = s' := by
  have hv := congrArg (fun q : DmaSem sig => q.val) h
  dsimp only at hv
  rw [recvS_val, recvS_val] at hv
  exact ⟨Fin.ext (by omega), Fin.ext (by omega)⟩
theorem sendS_ne_recvS (b b' : Fin 3) (s s' : Fin 14) : sendS b s ≠ recvS b' s' := fun h => by
  have hv := congrArg (fun q : DmaSem sig => q.val) h
  dsimp only at hv
  rw [sendS_val, recvS_val] at hv
  omega

theorem ksem_injective : Function.Injective (ksem : CK → SemLoc sig) := by
  intro a a' h
  rcases a with _ | ⟨⟨b, s⟩⟩ | ⟨⟨b, s⟩⟩ <;> rcases a' with _ | ⟨⟨b', s'⟩⟩ | ⟨⟨b', s'⟩⟩
  · rfl
  · exact absurd h (fun h => by cases h)
  · exact absurd h (fun h => by cases h)
  · exact absurd h (fun h => by cases h)
  · obtain ⟨rfl, rfl⟩ := sendS_inj (SemLoc.dma.inj h); rfl
  · exact absurd (SemLoc.dma.inj h) (sendS_ne_recvS b b' s s')
  · exact absurd h (fun h => by cases h)
  · exact absurd (SemLoc.dma.inj h).symm (sendS_ne_recvS b' b s' s)
  · obtain ⟨rfl, rfl⟩ := recvS_inj (SemLoc.dma.inj h); rfl

theorem kcell_injective : Function.Injective (kcell : Dev nD × CK → GSem nD τ sig) := by
  rintro ⟨c, k⟩ ⟨c', k'⟩ h
  obtain ⟨hc, hk⟩ := Prod.mk.inj (show ((c : Thread nD τ), ksem k) = ((c' : Thread nD τ), ksem k') from h)
  rw [(Prod.mk.inj hc).1, ksem_injective hk]

/-! ## Levels -/

theorem L_of_ne (g : GSem nD τ sig) (h : g.1.2 ≠ .tc) : L g = ∅ := if_neg h
theorem L_tc (c : Dev nD) (sm : SemLoc sig) : L ((c : Thread nD τ), sm) = {()} := if_pos rfl

/-- A landing still owed is the landing of one of the owed slots, on that slot's partner. -/
theorem owedRecv_pos {c : Dev nD} {T : Finset (Fin 3 × Fin 14)} {g : GSem nD τ sig} {u : Unit} (h : 0 < owedRecv c T g u) :
    ∃ bs ∈ T, g = recvCell (xr c (tmask bs.1 bs.2)) bs.1 bs.2 := by
  unfold owedRecv at h
  obtain ⟨bs, hbs, hp⟩ := Pipeline.sum_pos_exists h
  refine ⟨bs, hbs, ?_⟩
  rw [tallyAt_apply] at hp
  by_contra hn
  rw [if_neg fun h' => hn h'.1] at hp
  exact Nat.lt_irrefl 0 hp

/-- A barrier unit still owed is owed to one of the partners not yet signalled. -/
theorem owedBar_pos {c : Dev nD} {J : Finset (Fin 3)} {g : GSem nD τ sig} {u : Unit} (h : 0 < owedBar c J g u) :
    ∃ j ∈ J, g = barCell (xr c (bmask j)) := by
  unfold owedBar at h
  obtain ⟨j, hj, hp⟩ := Pipeline.sum_pos_exists h
  refine ⟨j, hj, ?_⟩
  rw [tallyAt_apply] at hp
  by_contra hn
  rw [if_neg fun h' => hn h'.1] at hp
  exact Nat.lt_irrefl 0 hp

theorem owed_pos {c : Dev nD} {T : Finset (Fin 3 × Fin 14)} {J : Finset (Fin 3)} {g : GSem nD τ sig} {u : Unit}
    (h : 0 < (owedRecv c T + owedBar c J) g u) :
    (∃ bs ∈ T, g = recvCell (xr c (tmask bs.1 bs.2)) bs.1 bs.2) ∨ (∃ j ∈ J, g = barCell (xr c (bmask j))) := by
  rcases Pipeline.add_pos_cases h with h | h
  · exact .inl (owedRecv_pos h)
  · exact .inr (owedBar_pos h)

theorem lv_recv (c : Dev nD) (b : Fin 3) (s : Fin 14) : lv (recvCell c b s) () = 2 + 3 * wrank s + b.val := by
  show (if isRecv (recvS b s) then 2 + 3 * wrank (slotOfSem (recvS b s) 44) + (bandOfSem (recvS b s) 44).val else 0) = _
  rw [if_pos (isRecv_recvS b s), band_recvS, slot_recvS]
theorem lv_bar (c : Dev nD) : lv (barCell c) () = 1 := rfl
theorem lv_send (c : Dev nD) (b : Fin 3) (s : Fin 14) : lv (sendCell c b s) () = 0 := by
  show (if isRecv (sendS b s) then 2 + 3 * wrank (slotOfSem (sendS b s) 44) + (bandOfSem (sendS b s) 44).val else 0) = _
  rw [if_neg (not_isRecv_sendS b s)]

/-- A wait at level `n` while owing only landings of the slots `T`, all of which lie above `n`. -/
theorem mayWait_below (c : Dev nD) (sm : SemLoc sig) (n : ℕ) (hn : lv ((c : Thread nD τ), sm) () = n) (T : Finset (Fin 3 × Fin 14))
    (hT : ∀ bs ∈ T, n < 2 + 3 * wrank bs.2 + bs.1.val) :
    (levAts L lv : sProp 𝕄) ⊢ MayWait (c : Thread nD τ) sm () (owedRecv c T) :=
  Pipeline.mayWait_of_levAts (by rw [L_tc]; exact Finset.mem_singleton_self _) (fun g u hg => by
    obtain ⟨bs, hbs, rfl⟩ := owedRecv_pos hg
    refine ⟨by rw [L_tc]; exact Finset.mem_singleton_self _, ?_⟩
    show lv ((c : Thread nD τ), sm) () < lv (recvCell (xr c (tmask bs.1 bs.2)) bs.1 bs.2) ()
    rw [hn, lv_recv]; exact hT bs hbs)

theorem mayWait_recv (c : Dev nD) (b : Fin 3) (s : Fin 14) (T : Finset (Fin 3 × Fin 14))
    (hT : ∀ bs ∈ T, 3 * wrank s + b.val < 3 * wrank bs.2 + bs.1.val) :
    (levAts L lv : sProp 𝕄) ⊢ MayWait (c : Thread nD τ) (.dma (recvS b s)) () (owedRecv c T) :=
  mayWait_below c _ _ (lv_recv c b s) T fun bs hbs => by have := hT bs hbs; omega

theorem mayWait_send (c : Dev nD) (b : Fin 3) (s : Fin 14) (T : Finset (Fin 3 × Fin 14)) :
    (levAts L lv : sProp 𝕄) ⊢ MayWait (c : Thread nD τ) (.dma (sendS b s)) () (owedRecv c T) :=
  mayWait_below c _ _ (lv_send c b s) T fun bs hbs => by omega

theorem mayWait_bar (c : Dev nD) (T : Finset (Fin 3 × Fin 14)) :
    (levAts L lv : sProp 𝕄) ⊢ MayWait (c : Thread nD τ) (.reg barS) () (owedRecv c T) :=
  mayWait_below c _ _ (lv_bar c) T fun bs hbs => by omega

theorem mayWait_stage (c : Dev nD) (q : DmaSem sig) (hq : ¬ isSend q ∧ ¬ isRecv q) (O : CellTallies nD τ sig Unit)
    (hO : O = O₀ c ∨ O = 0) :
    (levAts L lv : sProp 𝕄) ⊢ MayWait (c : Thread nD τ) (.dma q) () O := by
  rcases hO with rfl | rfl
  · have h0 : lv ((c : Thread nD τ), SemLoc.dma q) () = 0 := by
      show (if isRecv q then 2 + 3 * wrank (slotOfSem q 44) + (bandOfSem q 44).val else 0) = 0
      rw [if_neg hq.2]
    refine Pipeline.mayWait_of_levAts (by rw [L_tc]; exact Finset.mem_singleton_self _) (fun g u hg => ?_)
    rcases owed_pos (T := Finset.univ) (J := Finset.univ) hg with ⟨bs, _, rfl⟩ | ⟨j, _, rfl⟩
    · refine ⟨by rw [L_tc]; exact Finset.mem_singleton_self _, ?_⟩
      show lv ((c : Thread nD τ), SemLoc.dma q) () < lv (recvCell (xr c (tmask bs.1 bs.2)) bs.1 bs.2) ()
      rw [h0, lv_recv]; omega
    · refine ⟨by rw [L_tc]; exact Finset.mem_singleton_self _, ?_⟩
      show lv ((c : Thread nD τ), SemLoc.dma q) () < lv (barCell (xr c (bmask j))) ()
      rw [h0, lv_bar]; exact Nat.one_pos
  · rw [MayWait_zero]; iintro -; iempintro

/-! ## What the module rests on -/

/-- info: 'Cert.Kernel.Ar.arRd_payload_storable' depends on axioms: [propext, Classical.choice, Quot.sound] -/
#guard_msgs in #print axioms arRd_payload_storable

/-- info: 'Cert.Kernel.Ar.rest_bar' depends on axioms: [propext, Classical.choice, Quot.sound] -/
#guard_msgs in #print axioms rest_bar

/-- info: 'Cert.Kernel.Ar.rest_send' depends on axioms: [propext, Classical.choice, Quot.sound] -/
#guard_msgs in #print axioms rest_send

/-- info: 'Cert.Kernel.Ar.rest_recv' depends on axioms: [propext, Classical.choice, Quot.sound] -/
#guard_msgs in #print axioms rest_recv

/-- info: 'Cert.Kernel.Ar.kcell_injective' depends on axioms: [propext, Classical.choice, Quot.sound] -/
#guard_msgs in #print axioms kcell_injective

/-- info: 'Cert.Kernel.Ar.mayWait_recv' depends on axioms: [propext, Classical.choice, Quot.sound] -/
#guard_msgs in #print axioms mayWait_recv

/-- info: 'Cert.Kernel.Ar.mayWait_send' depends on axioms: [propext, Classical.choice, Quot.sound] -/
#guard_msgs in #print axioms mayWait_send

/-- info: 'Cert.Kernel.Ar.mayWait_bar' depends on axioms: [propext, Classical.choice, Quot.sound] -/
#guard_msgs in #print axioms mayWait_bar

/-- info: 'Cert.Kernel.Ar.mayWait_stage' depends on axioms: [propext, Classical.choice, Quot.sound] -/
#guard_msgs in #print axioms mayWait_stage

end Cert.Kernel.Ar

end
-- ==== Proof.StepsAK.lean ====
import proofs.«900695_g7700000000000696_dist_ar_v7x_i8_i_m2048_n512_f32_1_alg».proof.Proof.ProtoK
import proofs.«900695_g7700000000000696_dist_ar_v7x_i8_i_m2048_n512_f32_1_alg».proof.Proof.TablesK

/-!
# The entry handshake's steps

The initial state from what the launch deals; a handshake signal; the handshake wait.
-/

noncomputable section

namespace Cert.Kernel.Ar

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What the launch hands a device is the initial state. -/
theorem St_init (c : Dev nD) (W : Waits sig Unit) : iprop(linear c ∗ creds c ∗ owes (c : Thread nD τ) (O₀ c) W) ⊢ (St c PSt.init : sProp 𝕄) := by
  have h0 : bigSep (Finset.univ : Finset CK) (fun k : CK => atPos ER (kcell (c, k)) 0 ∅ 0)
      = (iprop(atPos ER (barCell c) 0 ∅ 0
          ∗ (bigSep (Finset.univ : Finset BS) fun bs : BS => atPos ER (sendCell c bs.1 bs.2) 0 ∅ 0)
          ∗ bigSep (Finset.univ : Finset BS) fun bs : BS => atPos ER (recvCell c bs.1 bs.2) 0 ∅ 0) : sProp 𝕄) := by
    rw [bigSep_univ_sum, bigSep_univ_sum, bigSep_univ_of_subsingleton ()]
    rfl
  have h1 : bigSep (Finset.univ : Finset BS) (fun bs : BS =>
        iprop(dutyTok ER (sendCell c bs.1 bs.2) 0 (0 : Fin 3) ∗ dutyTok ER (recvCell (xr c (tmask bs.1 bs.2)) bs.1 bs.2) 0 (0 : Fin 3)))
      = (iprop((bigSep (Finset.univ : Finset BS) fun bs : BS => dutyTok ER (sendCell c bs.1 bs.2) 0 (0 : Fin 3))
          ∗ bigSep (Finset.univ : Finset BS) fun bs : BS => dutyTok ER (recvCell (xr c (tmask bs.1 bs.2)) bs.1 bs.2) 0 (0 : Fin 3)) : sProp 𝕄) :=
    bigSep_sep _ _ _
  have h2 : bigSep (Finset.univ : Finset BS) (fun bs : BS =>
        iprop(cred (tallyAt (recvCell c bs.1 bs.2) () (Namt bs.1 bs.2)) ∗ atPos ER (recvCell c bs.1 bs.2) 0 ∅ 0))
      = (iprop((bigSep (Finset.univ : Finset BS) fun bs : BS => cred (tallyAt (recvCell c bs.1 bs.2) () (Namt bs.1 bs.2)))
          ∗ bigSep (Finset.univ : Finset BS) fun bs : BS => atPos ER (recvCell c bs.1 bs.2) 0 ∅ 0) : sProp 𝕄) :=
    bigSep_sep _ _ _
  unfold St PSt.init linear creds O₀
  simp only [Finset.sdiff_empty, bigSep_empty, Bool.false_eq_true, if_false]
  rw [h0, h1, h2]
  iintro ⟨⟨⟨Hab, Has, Har⟩, Htb, Htr, Hts⟩, ⟨Hcb, Hcr⟩, Ho⟩
  isplitl [Ho]; · iexists W; iexact Ho
  isplitl [Htb]; · iexact Htb
  isplitl [Hts Htr]
  · isplitl [Hts]; · iexact Hts
    iexact Htr
  isplitr; · iempintro
  isplitl [Has]; · iexact Has
  isplitr; · iempintro
  isplitl [Hcr Har]
  · isplitl [Hcr]; · iexact Hcr
    iexact Har
  isplitr; · iempintro
  isplitl [Hcb]; · iexact Hcb
  iexact Hab

/-- The invariant of one cell, out of the records. -/
private theorem inv_at (K : Dev nD × CK → ℕ) (ck : Dev nD × CK) :
    (records m K : sProp 𝕄) ⊢ cellInv ER (Rd (F := F) m) (K ck) (kcell ck) := by
  unfold records
  iintro ⟨H, -⟩
  ihave H' := (bigSep_pick (Φ := fun ck : Dev nD × CK => cellInv ER (Rd (F := F) m) (K ck) (kcell ck)) (Finset.mem_univ ck)) $$ H
  icases H' with ⟨H', -⟩
  iexact H'

/-- Round 0 of one cell is reached, out of the records. -/
private theorem reached_at (K : Dev nD × CK → ℕ) (ck : Dev nD × CK) :
    (records m K : sProp 𝕄) ⊢ reached ER (kcell ck) 0 := by
  unfold records
  iintro ⟨-, H⟩
  ihave H' := (bigSep_pick (Φ := fun ck : Dev nD × CK => reached ER (kcell ck) 0) (Finset.mem_univ ck)) $$ H
  icases H' with ⟨H', -⟩
  iexact H'

section Steps

variable (K : Dev nD × CK → ℕ) (c : Dev nD) (σ : PSt)

local notation "WP" => wp frame (wpE (defs₀ (F := F)) 𝒱₀ (c : Thread nD τ) none) Set.univ

/-- A handshake signal to partner `c ⊕ bmask j`: the chunks of `c`'s buffers that partner's transfers land in go with it. -/
theorem step_signal {α : Type} {Q : α → sProp 𝕄} (j : Fin 3) (hj : j ∉ σ.sig) {k : PUnit → Prog (TpuEff nD τ sig (Elt F) Λ₀ .tc) α} :
    iprop(Pers m K ∗ St c σ ∗ barPay (F := F) (xr c (bmask j)) j)
      ⊢ iprop((St c { σ with sig := insert j σ.sig } -∗ WP (k ⟨⟩) Q)
          -∗ WP (.op (.semSignal ((xr c (bmask j) : Dev nD) : Thread nD τ) barS 1) k) Q) := by
  have hjm : j ∈ Finset.univ \ σ.sig := Finset.mem_sdiff.mpr ⟨Finset.mem_univ _, hj⟩
  have hset : Finset.univ \ insert j σ.sig = (Finset.univ \ σ.sig).erase j := by
    ext x
    simp only [Finset.mem_sdiff, Finset.mem_univ, true_and, Finset.mem_insert, Finset.mem_erase, not_or]
  have hO : owedRecv c (Finset.univ \ σ.sent) + owedBar c (Finset.univ \ σ.sig)
      = (owedRecv c (Finset.univ \ σ.sent) + owedBar c (Finset.univ \ insert j σ.sig))
          + tallyAt (barCell (xr c (bmask j))) () 1 := by
    unfold owedBar
    rw [hset, add_assoc, Finset.sum_erase_add _ _ hjm]
  unfold St Pers
  dsimp only
  iintro ⟨⟨#Hrec, #Hlev⟩, ⟨⟨%W, Ho⟩, Htb, Hrest⟩, Hpay⟩ Hk
  ihave Ht := (bigSep_pick (Φ := fun j : Fin 3 => dutyTok ER (barCell (xr c (bmask j))) 0 j) hjm) $$ Htb
  icases Ht with ⟨Htj, Htb⟩
  iapply (wp_signal 𝒱₀ ER (Rd (F := F) m) (c : Thread nD τ) none (dst := ((xr c (bmask j) : Dev nD) : Thread nD τ)) (sem := barS) (r := 0) (d := j) (k' := 1)
      (κ := K (xr c (bmask j), Sum.inl ()))
      (by rw [duties_bar]; exact Finset.mem_univ _) (amount_bar m _ j) () _ hO) $$ [Ho Htj Hpay]
  · isplitr
    · iapply (inv_at m K (xr c (bmask j), Sum.inl ())); iexact Hrec
    isplitl [Ho]; · iexact Ho
    isplitl [Htj]; · iexact Htj
    isplitl [Hpay]; · rw [payload_bar]; iexact Hpay
    iapply (reached_at m K (xr c (bmask j), Sum.inl ())); iexact Hrec
  iintro Ho
  iapply Hk
  isplitl [Ho]; · iexists W; iexact Ho
  rw [hset]
  isplitl [Htb]; · iexact Htb
  iexact Hrest

/-- The handshake wait, all three signals sent and nothing else done: the three partners' chunks arrive. -/
theorem step_barwait {α : Type} {Q : α → sProp 𝕄} (hs : σ.sig = Finset.univ) (hb : σ.bar = false) {k : PUnit → Prog (TpuEff nD τ sig (Elt F) Λ₀ .tc) α} :
    iprop(Pers m K ∗ St c σ)
      ⊢ iprop((iprop(St c { σ with bar := true } ∗ barPay (F := F) c 0 ∗ barPay (F := F) c 1 ∗ barPay (F := F) c 2) -∗ WP (k ⟨⟩) Q)
          -∗ WP (.op (.semWait barS 3) k) Q) := by
  have hO : owedRecv c (Finset.univ \ σ.sent) + owedBar c (Finset.univ \ σ.sig) = owedRecv c (Finset.univ \ σ.sent) := by
    rw [hs, Finset.sdiff_self]
    unfold owedBar
    rw [Finset.sum_empty, add_zero]
  unfold St Pers
  dsimp only
  rw [hO, hb]
  simp only [Bool.false_eq_true, if_false, if_true]
  iintro ⟨⟨#Hrec, #Hlev⟩, ⟨%W, Ho⟩, Htb, Hts, Hcs, Has0, Has1, Hr0, Hr1, Hcb, Hab⟩ Hk
  iapply (wp_wait_rest_token 𝒱₀ ER (Rd (F := F) m) (c : Thread nD τ) none
      (wpE_semWait_eq 𝒱₀ (c : Thread nD τ) none Set.univ) (Set.mem_univ (K (c, Sum.inl ()))) ()
      (R := 0) (T := ∅) (m := 0) (by rw [expect_bar])) $$ [Hcb Ho Hab]
  · isplitr
    · iapply (inv_at m K (c, Sum.inl ())); iexact Hrec
    isplitl [Hcb]; · iexact Hcb
    isplitl [Ho]; · iexact Ho
    isplitr; · iapply (mayWait_bar c (Finset.univ \ σ.sent)); iexact Hlev
    iexact Hab
  iintro ⟨Ho, Hab, -, Hpay⟩
  ihave Hp := (Entails.of_eq (rest_bar m c)) $$ Hpay
  iapply Hk
  isplitr [Hp]
  · isplitl [Ho]; · iexists _; iexact Ho
    isplitl [Htb]; · iexact Htb
    isplitl [Hts]; · iexact Hts
    isplitl [Hcs]; · iexact Hcs
    isplitl [Has0]; · iexact Has0
    isplitl [Has1]; · iexact Has1
    isplitl [Hr0]; · iexact Hr0
    isplitl [Hr1]; · iexact Hr1
    iexact Hab
  iexact Hp

end Steps

/-- info: 'Cert.Kernel.Ar.St_init' depends on axioms: [propext, Classical.choice, Quot.sound] -/
#guard_msgs in #print axioms St_init

/-- info: 'Cert.Kernel.Ar.step_signal' depends on axioms: [propext, Classical.choice, Quot.sound] -/
#guard_msgs in #print axioms step_signal

/-- info: 'Cert.Kernel.Ar.step_barwait' depends on axioms: [propext, Classical.choice, Quot.sound] -/
#guard_msgs in #print axioms step_barwait

end Cert.Kernel.Ar

end
-- ==== Proof.StepsCK.lean ====
import proofs.«900695_g7700000000000696_dist_ar_v7x_i8_i_m2048_n512_f32_1_alg».proof.Proof.ProtoK
import proofs.«900695_g7700000000000696_dist_ar_v7x_i8_i_m2048_n512_f32_1_alg».proof.Proof.TablesK

/-!
# The waits on the device's own transfer cells, and closing them
-/

noncomputable section

namespace Cert.Kernel.Ar

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Steps

variable (K : Dev nD × CK → ℕ) (c : Dev nD) (σ : PSt)

local notation "WP" => wp frame (wpE (defs₀ (F := F)) 𝒱₀ (c : Thread nD τ) none) Set.univ

/-- Taking one more element out of a complement. -/
theorem univ_sdiff_insert {I : Type} [Fintype I] [DecidableEq I] (i : I) (A : Finset I) :
    (Finset.univ \ insert i A : Finset I) = (Finset.univ \ A).erase i := by
  ext x
  simp only [Finset.mem_sdiff, Finset.mem_univ, true_and, Finset.mem_insert, Finset.mem_erase, not_or]

/-- With every handshake signal sent, nothing is owed on a barrier cell. -/
theorem owedBar_done (hsig : σ.sig = Finset.univ) : owedBar c (Finset.univ \ σ.sig) = 0 := by
  rw [hsig, Finset.sdiff_self]; exact Finset.sum_empty

/-- The persistent context holds every cell's invariant under its name. -/
theorem Pers_cellInv (ck : Dev nD × CK) : Pers m K ⊢ cellInv ER (Rd (F := F) m) (K ck) (kcell ck) := by
  unfold Pers records
  iintro ⟨⟨Hinv, -⟩, -⟩
  iapply (show bigSep Finset.univ (fun ck : Dev nD × CK => cellInv ER (Rd (F := F) m) (K ck) (kcell ck))
      ⊢ cellInv ER (Rd (F := F) m) (K ck) (kcell ck) from bigSep_elim (Finset.mem_univ ck))
  iexact Hinv

/-- The persistent context holds the level facts. -/
theorem Pers_levAts : Pers m K ⊢ (levAts L lv : sProp 𝕄) := by
  unfold Pers
  iintro ⟨-, Hlev⟩
  iexact Hlev

/-- One summand put back into an iterated separating conjunction. -/
theorem bigSep_put {I : Type} [DecidableEq I] {S : Finset I} {i : I} (hi : i ∉ S) {Φ : I → sProp 𝕄} :
    iprop(Φ i ∗ bigSep S Φ) ⊢ bigSep (insert i S) Φ :=
  Entails.of_eq (bigSep_insert hi).symm

/-- Taking one more element out of a difference. -/
theorem sdiff_insert_erase {I : Type} [DecidableEq I] (A B : Finset I) (i : I) : A \ insert i B = (A \ B).erase i := by
  ext x
  simp only [Finset.mem_sdiff, Finset.mem_insert, Finset.mem_erase, not_or]
  tauto

/-- A send cell at round 1, where no round has a duty any more, closes at zero. -/
theorem close_send (bs : BS) :
    iprop(Pers m K ∗ atPos ER (sendCell c bs.1 bs.2) 1 ∅ 0) ⊢ iprop(|={Set.univ}=> semVal (sendCell c bs.1 bs.2) 0) := by
  iintro ⟨#HP, Hat⟩
  ihave #HI := (Pers_cellInv m K (c, Sum.inr (Sum.inl bs))) $$ HP
  iapply (Rounds.cell_close ER (Rd (F := F) m) (Set.mem_univ (K (c, Sum.inr (Sum.inl bs)))) (fun h => h) (R := 1)
    (duties_later m (sendCell c bs.1 bs.2)))
  isplitr; · iexact HI
  iexact Hat

/-- Likewise a receive cell. -/
theorem close_recv (bs : BS) :
    iprop(Pers m K ∗ atPos ER (recvCell c bs.1 bs.2) 1 ∅ 0) ⊢ iprop(|={Set.univ}=> semVal (recvCell c bs.1 bs.2) 0) := by
  iintro ⟨#HP, Hat⟩
  ihave #HI := (Pers_cellInv m K (c, Sum.inr (Sum.inr bs))) $$ HP
  iapply (Rounds.cell_close ER (Rd (F := F) m) (Set.mem_univ (K (c, Sum.inr (Sum.inr bs)))) (fun h => h) (R := 1)
    (duties_later m (recvCell c bs.1 bs.2)))
  isplitr; · iexact HI
  iexact Hat

/-- All of a device's send cells close, under one update. -/
theorem close_sends :
    iprop(Pers m K ∗ bigSep Finset.univ fun bs : BS => atPos ER (sendCell c bs.1 bs.2) 1 ∅ 0)
      ⊢ iprop(|={Set.univ}=> bigSep Finset.univ fun bs : BS => semVal (sendCell c bs.1 bs.2) 0) :=
  (bigSep_with_persistent fun bs _ => close_send m K c bs).trans (bigSep_fupd Finset.univ _)

/-- All of a device's receive cells close, under one update. -/
theorem close_recvs :
    iprop(Pers m K ∗ bigSep Finset.univ fun bs : BS => atPos ER (recvCell c bs.1 bs.2) 1 ∅ 0)
      ⊢ iprop(|={Set.univ}=> bigSep Finset.univ fun bs : BS => semVal (recvCell c bs.1 bs.2) 0) :=
  (bigSep_with_persistent fun bs _ => close_recv m K c bs).trans (bigSep_fupd Finset.univ _)

/-- At the end nothing is owed. -/
theorem owed_final : owedRecv c (Finset.univ \ PSt.final.sent) + owedBar c (Finset.univ \ PSt.final.sig) = 0 := by
  show owedRecv c (Finset.univ \ Finset.univ) + owedBar c (Finset.univ \ Finset.univ) = 0
  rw [Finset.sdiff_self, Finset.sdiff_self]
  unfold owedRecv owedBar
  rw [Finset.sum_empty, Finset.sum_empty, add_zero]

/-- The wait on receive cell `(b, s)`: every landing still owed belongs to a slot waited for later. -/
theorem step_recvwait {α : Type} {Q : α → sProp 𝕄} (b : Fin 3) (s : Fin 14) (hr : (b, s) ∉ σ.rcv) (hsig : σ.sig = Finset.univ)
    (hlv : ∀ bs ∈ (Finset.univ \ σ.sent : Finset BS), 3 * wrank s + b.val < 3 * wrank bs.2 + bs.1.val)
    {sp' : Space} {s' : Shape} {e' : EltTy} {src : Memref sig .tc sp' s' e'} (k0 : Dev nD) {hse} {hde}
    {k : PUnit → Prog (TpuEff nD τ sig (Elt F) Λ₀ .tc) α} :
    iprop(Pers m K ∗ St c σ)
      ⊢ iprop((iprop(St c { σ with rcv := insert (b, s) σ.rcv } ∗ recvPay (Xof m) c b s) -∗ WP (k ⟨⟩) Q)
          -∗ WP (.op (.waitDma2 (recvS b s) src (chunkM (dstM s) b k0) hse hde) k) Q) := by
  have hmem : (b, s) ∈ (Finset.univ \ σ.rcv : Finset BS) := Finset.mem_sdiff.mpr ⟨Finset.mem_univ _, hr⟩
  have hamt : (chunkM (dstM s) b k0).view.dmaCredit = Namt b s := amount_dst b s k0 (recvS b s)
  have hO : owedRecv c (Finset.univ \ σ.sent) + owedBar c (Finset.univ \ σ.sig) = owedRecv c (Finset.univ \ σ.sent) := by
    rw [owedBar_done c σ hsig, add_zero]
  unfold St
  iintro ⟨#HP, ⟨%W, HO⟩, Htsig, Htsent, Hcsend, Hps0, Hps1, Hrc0, Hrc1, Hbar⟩ Hk
  ihave #HI := (Pers_cellInv m K (c, Sum.inr (Sum.inr (b, s)))) $$ HP
  ihave #Hlev := (Pers_levAts m K) $$ HP
  ihave Hpick := (Rounds.bigSep_pick hmem) $$ Hrc0
  icases Hpick with ⟨⟨Hcr, Hat⟩, Hrc0⟩
  iapply (Rounds.wp_wait_rest_token 𝒱₀ ER (Rd (F := F) m) (c : Thread nD τ) none (κ := K (c, Sum.inr (Sum.inr (b, s))))
      (wpE_waitDma2_eq 𝒱₀ (c : Thread nD τ) none Set.univ) (Set.mem_univ _) ()
      (O := owedRecv c (Finset.univ \ σ.sent) + owedBar c (Finset.univ \ σ.sig)) (W := W) (R := 0) (m := 0) (T := ∅)
      (by rw [Nat.zero_add, expect_recv, hamt])) $$ [Hcr HO Hat]
  · isplitr; · iexact HI
    isplitl [Hcr]; · rw [hamt]; iexact Hcr
    isplitl [HO]; · iexact HO
    isplitr; · rw [hO]; iapply (mayWait_recv c b s (Finset.univ \ σ.sent) hlv); iexact Hlev
    iexact Hat
  iintro ⟨HO, Hat, -, Hpay⟩
  ihave Hp := (Entails.of_eq (rest_recv m c b s)) $$ Hpay
  iapply Hk
  isplitr [Hp]
  rotate_left
  · iexact Hp
  rw [univ_sdiff_insert (b, s) σ.rcv]
  isplitl [HO]; · iexists (insert (SemLoc.dma (recvS b s), ()) W); iexact HO
  isplitl [Htsig]; · iexact Htsig
  isplitl [Htsent]; · iexact Htsent
  isplitl [Hcsend]; · iexact Hcsend
  isplitl [Hps0]; · iexact Hps0
  isplitl [Hps1]; · iexact Hps1
  isplitl [Hrc0]; · iexact Hrc0
  isplitl [Hat Hrc1]
  · iapply (bigSep_put hr)
    isplitl [Hat]; · iexact Hat
    iexact Hrc1
  iexact Hbar

/-- The wait on send cell `(b, s)` of a transfer in flight. -/
theorem step_sendwait {α : Type} {Q : α → sProp 𝕄} (b : Fin 3) (s : Fin 14) (hs : (b, s) ∈ σ.sent) (hw : (b, s) ∉ σ.swt) (hsig : σ.sig = Finset.univ)
    {sp' : Space} {s' : Shape} {e' : EltTy} {src : Memref sig .tc sp' s' e'} (k0 : Dev nD) {hse} {hde}
    {k : PUnit → Prog (TpuEff nD τ sig (Elt F) Λ₀ .tc) α} :
    iprop(Pers m K ∗ St c σ)
      ⊢ iprop((iprop(St c { σ with swt := insert (b, s) σ.swt } ∗ sendPay (Xof m) c b s) -∗ WP (k ⟨⟩) Q)
          -∗ WP (.op (.waitDma2 (sendS b s) src (chunkM (dstM s) b k0) hse hde) k) Q) := by
  have hmemS : (b, s) ∈ (σ.sent \ σ.swt : Finset BS) := Finset.mem_sdiff.mpr ⟨hs, hw⟩
  have hmemU : (b, s) ∈ (Finset.univ \ σ.swt : Finset BS) := Finset.mem_sdiff.mpr ⟨Finset.mem_univ _, hw⟩
  have hamt : (chunkM (dstM s) b k0).view.dmaCredit = Namt b s := amount_dst b s k0 (sendS b s)
  have hO : owedRecv c (Finset.univ \ σ.sent) + owedBar c (Finset.univ \ σ.sig) = owedRecv c (Finset.univ \ σ.sent) := by
    rw [owedBar_done c σ hsig, add_zero]
  unfold St
  iintro ⟨#HP, ⟨%W, HO⟩, Htsig, Htsent, Hcsend, Hps0, Hps1, Hrc0, Hrc1, Hbar⟩ Hk
  ihave #HI := (Pers_cellInv m K (c, Sum.inr (Sum.inl (b, s)))) $$ HP
  ihave #Hlev := (Pers_levAts m K) $$ HP
  ihave Hpick := (Rounds.bigSep_pick hmemS) $$ Hcsend
  icases Hpick with ⟨Hcr, Hcsend⟩
  ihave Hpick := (Rounds.bigSep_pick hmemU) $$ Hps0
  icases Hpick with ⟨Hat, Hps0⟩
  iapply (Rounds.wp_wait_rest_token 𝒱₀ ER (Rd (F := F) m) (c : Thread nD τ) none (κ := K (c, Sum.inr (Sum.inl (b, s))))
      (wpE_waitDma2_eq 𝒱₀ (c : Thread nD τ) none Set.univ) (Set.mem_univ _) ()
      (O := owedRecv c (Finset.univ \ σ.sent) + owedBar c (Finset.univ \ σ.sig)) (W := W) (R := 0) (m := 0) (T := ∅)
      (by rw [Nat.zero_add, expect_send, hamt])) $$ [Hcr HO Hat]
  · isplitr; · iexact HI
    isplitl [Hcr]; · rw [hamt]; iexact Hcr
    isplitl [HO]; · iexact HO
    isplitr; · rw [hO]; iapply (mayWait_send c b s (Finset.univ \ σ.sent)); iexact Hlev
    iexact Hat
  iintro ⟨HO, Hat, -, Hpay⟩
  ihave Hp := (Entails.of_eq (rest_send m c b s)) $$ Hpay
  iapply Hk
  isplitr [Hp]
  rotate_left
  · iexact Hp
  rw [sdiff_insert_erase σ.sent σ.swt (b, s), univ_sdiff_insert (b, s) σ.swt]
  isplitl [HO]; · iexists (insert (SemLoc.dma (sendS b s), ()) W); iexact HO
  isplitl [Htsig]; · iexact Htsig
  isplitl [Htsent]; · iexact Htsent
  isplitl [Hcsend]; · iexact Hcsend
  isplitl [Hps0]; · iexact Hps0
  isplitl [Hat Hps1]
  · iapply (bigSep_put hw)
    isplitl [Hat]; · iexact Hat
    iexact Hps1
  isplitl [Hrc0]; · iexact Hrc0
  isplitl [Hrc1]; · iexact Hrc1
  iexact Hbar

/-- At the end: every cell of the device's own 84 closes at zero, and it owes nothing. -/
theorem St_final :
    iprop(Pers m K ∗ St c PSt.final)
      ⊢ |={Set.univ}=> iprop((bigSep Finset.univ fun bs : BS => semVal (sendCell c bs.1 bs.2) 0)
          ∗ (bigSep Finset.univ fun bs : BS => semVal (recvCell c bs.1 bs.2) 0) ∗ ∃ W, owes (c : Thread nD τ) 0 W) := by
  unfold St
  iintro ⟨#HP, ⟨%W, HO⟩, -, -, -, -, Hps1, -, Hrc1, -⟩
  imod (close_sends m K c) $$ [Hps1] with Hs
  · isplitr; · iexact HP
    iexact Hps1
  imod (close_recvs m K c) $$ [Hrc1] with Hr
  · isplitr; · iexact HP
    iexact Hrc1
  imodintro
  isplitl [Hs]; · iexact Hs
  isplitl [Hr]; · iexact Hr
  iexists W
  rw [owed_final c]
  iexact HO

/-- In this program a transfer's credit depends on the view's extent and element type only, not on the buffer: the chunk of
    a slot's source buffer credits what the chunk of its destination buffer does. -/
theorem amount_src (b : Fin 3) (s : Fin 14) (k : Dev nD) (q : DmaSem sig) :
    (chunkM (srcM s) b k).view.amount (.dma q) = Namt b s := rfl

/-- The wait on send cell `(b, s)` through any view whose credit is the slot's. -/
theorem step_sendwait_at {α : Type} {Q : α → sProp 𝕄} (b : Fin 3) (s : Fin 14) (hs : (b, s) ∈ σ.sent) (hw : (b, s) ∉ σ.swt) (hsig : σ.sig = Finset.univ)
    {sp' : Space} {s' : Shape} {e' : EltTy} {src : Memref sig .tc sp' s' e'}
    {κd : Kind} {spd : Space} {sd : Shape} {ed : EltTy} {dst : Memref sig κd spd sd ed} (hamt : dst.view.dmaCredit = Namt b s) {hse} {hde}
    {k : PUnit → Prog (TpuEff nD τ sig (Elt F) Λ₀ .tc) α} :
    iprop(Pers m K ∗ St c σ)
      ⊢ iprop((iprop(St c { σ with swt := insert (b, s) σ.swt } ∗ sendPay (Xof m) c b s) -∗ WP (k ⟨⟩) Q)
          -∗ WP (.op (.waitDma2 (sendS b s) src dst hse hde) k) Q) := by
  have hmemS : (b, s) ∈ (σ.sent \ σ.swt : Finset BS) := Finset.mem_sdiff.mpr ⟨hs, hw⟩
  have hmemU : (b, s) ∈ (Finset.univ \ σ.swt : Finset BS) := Finset.mem_sdiff.mpr ⟨Finset.mem_univ _, hw⟩
  have hO : owedRecv c (Finset.univ \ σ.sent) + owedBar c (Finset.univ \ σ.sig) = owedRecv c (Finset.univ \ σ.sent) := by
    rw [owedBar_done c σ hsig, add_zero]
  unfold St
  iintro ⟨#HP, ⟨%W, HO⟩, Htsig, Htsent, Hcsend, Hps0, Hps1, Hrc0, Hrc1, Hbar⟩ Hk
  ihave #HI := (Pers_cellInv m K (c, Sum.inr (Sum.inl (b, s)))) $$ HP
  ihave #Hlev := (Pers_levAts m K) $$ HP
  ihave Hpick := (Rounds.bigSep_pick hmemS) $$ Hcsend
  icases Hpick with ⟨Hcr, Hcsend⟩
  ihave Hpick := (Rounds.bigSep_pick hmemU) $$ Hps0
  icases Hpick with ⟨Hat, Hps0⟩
  iapply (Rounds.wp_wait_rest_token 𝒱₀ ER (Rd (F := F) m) (c : Thread nD τ) none (κ := K (c, Sum.inr (Sum.inl (b, s))))
      (wpE_waitDma2_eq 𝒱₀ (c : Thread nD τ) none Set.univ) (Set.mem_univ _) ()
      (O := owedRecv c (Finset.univ \ σ.sent) + owedBar c (Finset.univ \ σ.sig)) (W := W) (R := 0) (m := 0) (T := ∅)
      (by rw [Nat.zero_add, expect_send, hamt])) $$ [Hcr HO Hat]
  · isplitr; · iexact HI
    isplitl [Hcr]; · rw [hamt]; iexact Hcr
    isplitl [HO]; · iexact HO
    isplitr; · rw [hO]; iapply (mayWait_send c b s (Finset.univ \ σ.sent)); iexact Hlev
    iexact Hat
  iintro ⟨HO, Hat, -, Hpay⟩
  ihave Hp := (Entails.of_eq (rest_send m c b s)) $$ Hpay
  iapply Hk
  isplitr [Hp]
  rotate_left
  · iexact Hp
  rw [sdiff_insert_erase σ.sent σ.swt (b, s), univ_sdiff_insert (b, s) σ.swt]
  isplitl [HO]; · iexists (insert (SemLoc.dma (sendS b s), ()) W); iexact HO
  isplitl [Htsig]; · iexact Htsig
  isplitl [Htsent]; · iexact Htsent
  isplitl [Hcsend]; · iexact Hcsend
  isplitl [Hps0]; · iexact Hps0
  isplitl [Hat Hps1]
  · iapply (bigSep_put hw)
    isplitl [Hat]; · iexact Hat
    iexact Hps1
  isplitl [Hrc0]; · iexact Hrc0
  isplitl [Hrc1]; · iexact Hrc1
  iexact Hbar

/-- The same wait named through the chunk of the slot's SOURCE buffer, as the kernel writes it: the credit is the same. -/
theorem step_sendwait_srcbuf {α : Type} {Q : α → sProp 𝕄} (b : Fin 3) (s : Fin 14) (hs : (b, s) ∈ σ.sent) (hw : (b, s) ∉ σ.swt) (hsig : σ.sig = Finset.univ)
    {sp' : Space} {s' : Shape} {e' : EltTy} {src : Memref sig .tc sp' s' e'} (k0 : Dev nD) {hse} {hde}
    {k : PUnit → Prog (TpuEff nD τ sig (Elt F) Λ₀ .tc) α} :
    iprop(Pers m K ∗ St c σ)
      ⊢ iprop((iprop(St c { σ with swt := insert (b, s) σ.swt } ∗ sendPay (Xof m) c b s) -∗ WP (k ⟨⟩) Q)
          -∗ WP (.op (.waitDma2 (sendS b s) src (chunkM (srcM s) b k0) hse hde) k) Q) := by
  exact step_sendwait_at m K c σ b s hs hw hsig (amount_src b s k0 (sendS b s))

/-- info: 'Cert.Kernel.Ar.step_recvwait' depends on axioms: [propext, Classical.choice, Quot.sound] -/
#guard_msgs in #print axioms step_recvwait

/-- info: 'Cert.Kernel.Ar.step_sendwait' depends on axioms: [propext, Classical.choice, Quot.sound] -/
#guard_msgs in #print axioms step_sendwait

/-- info: 'Cert.Kernel.Ar.St_final' depends on axioms: [propext, Classical.choice, Quot.sound] -/
#guard_msgs in #print axioms St_final

/-- info: 'Cert.Kernel.Ar.step_sendwait_srcbuf' depends on axioms: [propext, Classical.choice, Quot.sound] -/
#guard_msgs in #print axioms step_sendwait_srcbuf

end Steps

end Cert.Kernel.Ar

end
-- ==== Proof.LaunchK.lean ====
import proofs.«900695_g7700000000000696_dist_ar_v7x_i8_i_m2048_n512_f32_1_alg».proof.Proof.GhostK
import proofs.«900695_g7700000000000696_dist_ar_v7x_i8_i_m2048_n512_f32_1_alg».proof.Proof.TablesK
import proofs.«900695_g7700000000000696_dist_ar_v7x_i8_i_m2048_n512_f32_1_alg».proof.Proof.Gen.Kernel.Points

/-!
# The launch: from every device's body to the run of the whole mesh

The launch theorem turns "each device's body is proved" into the run of @main on the eight devices. It is handed:
the kernel's own 84 scoped semaphores; the protocol's ghost state funded for the 85 cells of every device and the
duty tokens of their one round; the global step that puts every cell's counter under its invariant and deals each
duty token to the device that pays the duty (a barrier duty to the partner across that mask, a landing to its
sender, a departure to the sender itself); the launch credit, which is exactly what a device waits for; and the
reading of the two arrays after the run: the input as it was, the result written whole at the one point.
-/

noncomputable section

namespace Cert.Kernel.Ar

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

/-- A device's own scoped semaphores besides the staging pair: the send and the receive semaphore of every band and slot. -/
abbrev OK : Type := (Fin 3 × Fin 14) ⊕ (Fin 3 × Fin 14)

def osem : OK → SemLoc sig
  | .inl bs => .dma (sendS bs.1 bs.2)
  | .inr bs => .dma (recvS bs.1 bs.2)

theorem ownSemFacts : Pipeline.OwnSemFacts cfg0.spec osem := by decide

theorem share_eq (c : Dev nD) (w : Fin cfg0.W) : (dats m ρ 0 c).share w = fullShare := by unfold Dat.share; split <;> rfl

/-! ## The cells and tokens funded -/

def arCells : Finset (GSem nD τ sig) := Finset.univ.map ⟨kcell, kcell_injective⟩

/-- The duties of a device's own cells: the barrier's three, and the one of each send and receive cell. -/
abbrev TK : Type := Fin 3 ⊕ OK

/-- The cell a duty belongs to, and its name there. -/
def tcell : TK → CK
  | .inl _ => .inl ()
  | .inr k => .inr k
def tduty : TK → Fin 3
  | .inl j => j
  | .inr _ => 0

def tokOf (cj : Dev nD × TK) : GSem nD τ sig × ℕ × Fin 3 := (kcell (cj.1, tcell cj.2), 0, tduty cj.2)

theorem tokOf_injective : Function.Injective (tokOf : Dev nD × TK → GSem nD τ sig × ℕ × Fin 3) := by
  rintro ⟨c, t⟩ ⟨c', t'⟩ h
  obtain ⟨h1, h2⟩ := Prod.mk.inj (show (kcell (c, tcell t), (0 : ℕ), tduty t) = (kcell (c', tcell t'), (0 : ℕ), tduty t') from h)
  have h3 : tduty t = tduty t' := (Prod.mk.inj h2).2
  obtain ⟨hc, hk⟩ := Prod.mk.inj (kcell_injective h1)
  subst hc
  have : t = t' := by
    rcases t with j | k <;> rcases t' with j' | k'
    · exact congrArg Sum.inl h3
    · exact absurd hk (fun h => by cases h)
    · exact absurd hk (fun h => by cases h)
    · exact congrArg Sum.inr (Sum.inr.inj hk)
  rw [this]

def arToks : Finset (GSem nD τ sig × ℕ × Fin 3) := Finset.univ.map ⟨tokOf, tokOf_injective⟩

def u₀ : UU :=
  (initOf (Pipeline.cells cfgs cellOf_inj) (Pipeline.launchToks cfgs cellOf_inj), initOf arCells arToks)

/-- The duty tokens of device `c`'s own cells, as minted. -/
def toks (c : Dev nD) : sProp 𝕄 :=
  iprop((bigSep Finset.univ fun j : Fin 3 => dutyTok ER (barCell c) 0 j)
    ∗ (bigSep Finset.univ fun bs : Fin 3 × Fin 14 => dutyTok ER (sendCell c bs.1 bs.2) 0 (0 : Fin 3))
    ∗ (bigSep Finset.univ fun bs : Fin 3 × Fin 14 => dutyTok ER (recvCell c bs.1 bs.2) 0 (0 : Fin 3)))

/-- What the launch element deals device `c`. -/
def G (c : Dev nD) : sProp 𝕄 :=
  iprop((bigSep Finset.univ fun k : CK => roundState ER (Rd m) (kcell (c, k)) 0)
    ∗ (bigSep Finset.univ fun k : CK => iprop(atPos ER (kcell (c, k)) 0 ∅ 0 ∗ reached ER (kcell (c, k)) 0)) ∗ toks c)

/-- What the global step makes of it. -/
def G' (c : Dev nD) : sProp 𝕄 := iprop(∃ K, records m K ∗ linear c)

omit [FloatOps F] in
/-- A conjunction over a device's cells, cell kind by cell kind. -/
theorem bigSep_CK (Φ : CK → sProp 𝕄) :
    bigSep Finset.univ Φ = iprop(Φ (.inl ()) ∗ (bigSep Finset.univ fun bs : Fin 3 × Fin 14 => Φ (.inr (.inl bs)))
      ∗ (bigSep Finset.univ fun bs : Fin 3 × Fin 14 => Φ (.inr (.inr bs)))) := by
  rw [bigSep_univ_sum, bigSep_univ_sum, bigSep_univ_of_subsingleton ()]
  rfl

omit [FloatOps F] in
/-- A conjunction over three duties, one by one. -/
theorem bigSep_fin3 (Φ : Fin 3 → sProp 𝕄) : bigSep Finset.univ Φ = iprop(Φ 0 ∗ Φ 1 ∗ Φ 2) := bigSep_univ_eq_bigSepL [0, 1, 2] (by decide) (by decide) Φ

theorem fund_ar : BI.own (ER (initOf arCells arToks)) ⊢ (|==> bigSep Finset.univ (G m) : sProp 𝕄) := by
  have hX (Φ : GSem nD τ sig → sProp 𝕄) : bigSep arCells Φ = bigSep Finset.univ fun c : Dev nD => bigSep Finset.univ fun k : CK => Φ (kcell (c, k)) := by
    unfold arCells; rw [bigSep_map, bigSep_univ_prod]; rfl
  have hT : bigSep arToks (fun x => (dutyTok ER x.1 x.2.1 x.2.2 : sProp 𝕄)) = bigSep Finset.univ fun c : Dev nD => toks c := by
    unfold arToks; rw [bigSep_map, bigSep_univ_prod]
    exact bigSep_congr fun c _ => by unfold toks; rw [bigSep_univ_sum, bigSep_univ_sum]; rfl
  iintro HX
  imod (Rounds.fund ER (Rd m) arCells arToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every cell under its invariant, every token with its payer -/

omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun bs : Fin 3 × Fin 14 => semVal (sendCell c bs.1 bs.2) 0)
      ∗ (bigSep Finset.univ fun bs : Fin 3 × Fin 14 => semVal (recvCell c bs.1 bs.2) 0)) := by
  unfold Pipeline.ownSems0; rw [bigSep_univ_sum]; rfl

omit [FloatOps F] in
/-- The barrier semaphore is the one semaphore of a core that is not scoped. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, bigSep_CK]
  iintro ⟨⟨HS, HV⟩, HB⟩
  isplitl [HB]; · iexact HB
  isplitl [HS]; · iexact HS
  iexact HV

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (Rd m) κ (kcell (c, k))))
          ∗ (bigSep Finset.univ fun k : CK => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (Rd m) (kcell (c, k)) 0)
      ⊢ (|={Set.univ}=> bigSep Finset.univ fun k : CK => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens of the duties device `c` pays: a unit on each partner's barrier cell, every landing on a partner's receive
    cell, every departure on its own send cell. -/
def payToks (c : Dev nD) : sProp 𝕄 :=
  iprop((bigSep Finset.univ fun j : Fin 3 => dutyTok ER (barCell (xr c (bmask j))) 0 j)
    ∗ (bigSep Finset.univ fun bs : Fin 3 × Fin 14 => dutyTok ER (recvCell (xr c (tmask bs.1 bs.2)) bs.1 bs.2) 0 (0 : Fin 3))
    ∗ (bigSep Finset.univ fun bs : Fin 3 × Fin 14 => dutyTok ER (sendCell c bs.1 bs.2) 0 (0 : Fin 3)))

omit [FloatOps F] in
/-- Dealing across the masks: a family indexed by (device, duty) is the same family with each duty's device flipped by that
    duty's mask, since flipping by a mask permutes the devices. -/
theorem deal {J : Type} [Fintype J] (f : J → Fin 8) (Φ : Dev nD → J → sProp 𝕄) :
    (bigSep Finset.univ fun c : Dev nD => bigSep Finset.univ fun j : J => Φ c j)
      = bigSep Finset.univ fun c : Dev nD => bigSep Finset.univ fun j : J => Φ (xr c (f j)) j := by
  rw [bigSep_univ_comm, bigSep_univ_comm (fun c j => Φ (xr c (f j)) j)]
  exact bigSep_congr fun j _ => bigSep_univ_equiv (xrEquiv (f j)) (fun c => Φ c j)

omit [FloatOps F] in
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    deal bmask (fun c j => (dutyTok ER (barCell c) 0 j : sProp 𝕄)),
    deal (fun bs : Fin 3 × Fin 14 => tmask bs.1 bs.2) (fun c bs => (dutyTok ER (recvCell c bs.1 bs.2) 0 (0 : Fin 3) : sProp 𝕄))]
  iintro ⟨H1, H2, H3⟩
  isplitl [H1]; · iexact H1
  isplitl [H3]; · iexact H3
  iexact H2

omit [FloatOps F] in
/-- A persistent assertion is shared out to every member of a conjunction. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CK => iprop(∃ κ : ℕ, cellInv ER (Rd m) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CK => iprop(∃ κ : ℕ, cellInv ER (Rd m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (Rd m) κ (kcell ck) : sProp 𝕄))) $$ HI
  icases HK with ⟨%K, #HI⟩
  ihave Htk := (toks_around (F := F)) $$ Htok
  iapply (bigSep_with_persistent (R := records m K) fun c _ => show iprop(records m K ∗ linear c) ⊢ G' m c from by
    unfold G'; iintro H; iexists K; iexact H)
  isplitr
  · unfold records; isplitl; · iexact HI
    iexact HR
  · iapply ((Entails.of_eq (bigSep_sep' Finset.univ (fun c : Dev nD => bigSep Finset.univ fun k : CK => (atPos ER (kcell (c, k)) 0 ∅ 0 : sProp 𝕄)) payToks).symm).trans
      (bigSep_mono fun c _ => show _ ⊢ linear c from Entails.of_eq (by unfold linear payToks; rfl)))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

omit [FloatOps F] in
/-- Three units on one cell are the credit of three. -/
theorem cred3 (g : GSem nD τ sig) :
    iprop(cred (tallyAt g () 1) ∗ cred (tallyAt g () 1) ∗ cred (tallyAt g () 1)) ⊢ (cred (tallyAt g () 3) : sProp 𝕄) := by
  rw [show (tallyAt g () 3 : CellTallies nD τ sig Unit) = tallyAt g () 1 + (tallyAt g () 1 + tallyAt g () 1) from by rw [tallyAt_add, tallyAt_add]]
  exact (sep_mono_right (cred_add _ _).2).trans (cred_add _ _).2

omit [FloatOps F] in
/-- What the devices owe at launch, summed over them, is what each device waits for: its three partners' units on its barrier
    cell (the partner across mask `j` owes duty `j`) and, per band and slot, the landing its partner across that slot's mask
    owes its receive cell. -/
theorem creds_intro (c : Dev nD) : (Pipeline.launchCred O₀ c : sProp 𝕄) ⊢ creds c := by
  have hO : (O₀ : Dev nD → CellTallies nD τ sig Unit)
      = fun d => (∑ bs ∈ (Finset.univ : Finset (Fin 3 × Fin 14)), tallyAt (recvCell (xr d (tmask bs.1 bs.2)) bs.1 bs.2) () (Namt bs.1 bs.2))
          + ∑ j ∈ (Finset.univ : Finset (Fin 3)), tallyAt (barCell (xr d (bmask j))) () 1 := rfl
  rw [hO, Pipeline.launchCred_add,
    Pipeline.launchCred_sum Finset.univ (fun (bs : Fin 3 × Fin 14) (d : Dev nD) => (tallyAt (recvCell (xr d (tmask bs.1 bs.2)) bs.1 bs.2) () (Namt bs.1 bs.2) : CellTallies nD τ sig Unit)) c,
    Pipeline.launchCred_sum Finset.univ (fun (j : Fin 3) (d : Dev nD) => (tallyAt (barCell (xr d (bmask j))) () 1 : CellTallies nD τ sig Unit)) c]
  unfold creds
  have hB : (bigSep Finset.univ fun j : Fin 3 => Pipeline.launchCred (fun d : Dev nD => (tallyAt (barCell (xr d (bmask j))) () 1 : CellTallies nD τ sig Unit)) c : sProp 𝕄)
      ⊢ cred (tallyAt (barCell c) () 3) :=
    ((bigSep_mono fun j _ => Pipeline.launchCred_tallyAt (SemLoc.reg barS) (fun d : Dev nD => xr d (bmask j)) (fun d => xr d (bmask j))
        (fun d => xr_xr d _) (fun d => xr_xr d _) () 1 c).trans
      (Entails.of_eq (bigSep_fin3 fun _ : Fin 3 => (cred (tallyAt (barCell c) () 1) : sProp 𝕄)))).trans (cred3 (barCell c))
  have hR : (bigSep Finset.univ fun bs : Fin 3 × Fin 14 =>
        Pipeline.launchCred (fun d : Dev nD => (tallyAt (recvCell (xr d (tmask bs.1 bs.2)) bs.1 bs.2) () (Namt bs.1 bs.2) : CellTallies nD τ sig Unit)) c : sProp 𝕄)
      ⊢ bigSep Finset.univ fun bs : Fin 3 × Fin 14 => cred (tallyAt (recvCell c bs.1 bs.2) () (Namt bs.1 bs.2)) :=
    bigSep_mono fun bs _ => Pipeline.launchCred_tallyAt (SemLoc.dma (recvS bs.1 bs.2)) (fun d : Dev nD => xr d (tmask bs.1 bs.2)) (fun d => xr d (tmask bs.1 bs.2))
      (fun d => xr_xr d _) (fun d => xr_xr d _) () (Namt bs.1 bs.2) c
  iintro ⟨HR, HB⟩
  isplitl [HB]
  · iapply hB; iexact HB
  · iapply hR; iexact HR

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scrAny
  iintro ⟨Hs, -, H0, H1, H2⟩
  isplitl [Hs]; · iexact Hs
  isplitl [H0]; · iexact H0
  isplitl [H1]; · iexact H1
  iexact H2

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁ scrAny
  iintro ⟨⟨H0, H1, H2⟩, HzS, HzV⟩
  isplitr; · iempintro
  isplitl [HzS HzV]
  · isplitl [HzS] <;> iassumption
  isplitl [H0]; · iexact H0
  isplitl [H1]; · iexact H1
  iexact H2

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The arrays after the run -/

/-- The input array is never written back: it ends as the launch-time memory holds it. -/
theorem final_in (c : Dev nD) :
    (dats m ρ 0 c).arrAt (0 : Fin 2) cfg0.N = m ((c : Thread nD τ).loc main_arg0) :=
  (dats (F := F) m ρ 0 c).arrAt_in (0 : Fin 2) rfl _

/-- The result window's block is the whole array and the grid has one point, which writes it back: the array ends as what the
    body leaves in the result's staging buffer, written whole. -/
theorem final_out (c : Dev nD) :
    (dats m ρ 0 c).arrAt (1 : Fin 2) cfg0.N = (outAt (Xof m) c : Buf (Elt F) ((c : Thread nD τ).loc main_v1)) := by
  show (dats m ρ 0 c).arrAt (1 : Fin 2) ((t0_0 : Fin cfg0.N).val + 1) = _
  rw [Dat.arrAt_succ, flush0_1, if_pos rfl]
  have hz : (fun a => win0_1.index t0_0 a * main_v1.ty.shape.size a) = fun _ => 0 := funext fun a => Nat.zero_mul _
  exact Memref.write_access_unit_zero_univ (Elt F) main_v1 hz (fun a => by rw [congrFun hz a]; simp) _ (outAt (Xof m) c)

/-! ## The run -/

set_option maxRecDepth 100000 in
/-- At the compiled mesh of eight devices, for any float values, from any memory with zero counters: every weakly fair
    execution of @main terminates, and every final state has each device's result array at the butterfly's value of the
    launch-time input blocks and its input block unchanged — given the body's obligation on every device. -/
theorem run_main (hbody : ∀ c : Dev nD, BodyObligation (dats (F := F) m ρ 0 c) (defs₀ (F := F)) 𝒱₀ () Set.univ) :
    θ_run (defs (F := F)) (onTc (τ := τ) (main (F := F))) (s₀ m ρ) (RunPost m) := by
  refine Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := ?hmain)
    (hbody := ?hbody) (hne := ?hne) (harr := ?harr) (hstage := ?hstage) (hshare := ?hshare)
    (hdistinct := ?hdistinct)
    (O₀ := O₀) (howed₀ := ?howed0) (howedN := ?howedN)
    (L := L) (lv := lv) (hL := ?hL) (hwaits := ?hwaits)
    (G := G m) (G' := G' m) (u₀ := u₀)
    (hu₀ := ?hu0)
    (hglob := ?hglob)
    (hA := ?hA) (hpf := ?hpf)
    (X := start m) (Y := fun _ => iprop(emp)) (Z := fun _ => iprop(emp))
    (hX := ?hX) (hin := ?hin) (hout := ?hout)
    (QY := fun _ _ => True)
    (hY := ?hY)
    (hQ := ?hQ)
  case hmain => exact fun _ => rfl
  case hbody => exact hbody
  case hne => exact block_pos0
  case harr => exact arr_whole0
  case hstage => exact stage_whole0
  case hshare => exact share_eq m ρ
  case hdistinct => exact winFacts0.arr_inj
  case howed0 => exact fun _ => rfl
  case howedN => exact fun _ => rfl
  case hL => exact L_of_ne
  case hwaits => exact waits m ρ
  case hu0 =>
    unfold u₀
    iintro Hu
    ihave H := (ownU_pair _ _) $$ Hu
    icases H with ⟨HP, HX⟩
    imod (fund_ar m) $$ HX with HG
    imodintro
    isplitl [HP] <;> iassumption
  case hglob => exact glob m
  case hA => exact fun _ _ => rfl
  case hpf => exact fun _ k => k.elim0
  case hX => exact start_intro m ρ
  case hin => exact phi0_intro m ρ
  case hout => exact phi1_exit m ρ
  case hY =>
    intro c s'
    iintro ⟨-, -, HSI⟩
    imodintro
    isplitr; · ipureintro; trivial
    iexact HSI
  case hQ => exact fun s h c => ⟨((h c).1 (1 : Fin 2)).trans (final_out m ρ c), ((h c).1 (0 : Fin 2)).trans (final_in m ρ c)⟩

/-- info: 'Cert.Kernel.Ar.run_main' depends on axioms: [propext, Classical.choice, Quot.sound] -/
#guard_msgs in #print axioms run_main

end Cert.Kernel.Ar

end
-- ==== Proof.BodyObK.lean ====
import proofs.«900695_g7700000000000696_dist_ar_v7x_i8_i_m2048_n512_f32_1_alg».proof.Proof.Frame0K
import proofs.«900695_g7700000000000696_dist_ar_v7x_i8_i_m2048_n512_f32_1_alg».proof.Proof.ScrAnyK
import proofs.«900695_g7700000000000696_dist_ar_v7x_i8_i_m2048_n512_f32_1_alg».proof.Proof.StepsAK
import proofs.«900695_g7700000000000696_dist_ar_v7x_i8_i_m2048_n512_f32_1_alg».proof.Proof.StepsCK
import proofs.«900695_g7700000000000696_dist_ar_v7x_i8_i_m2048_n512_f32_1_alg».proof.Proof.TablesK
import proofs.«900695_g7700000000000696_dist_ar_v7x_i8_i_m2048_n512_f32_1_alg».proof.Proof.LaunchK
import proofs.«900695_g7700000000000696_dist_ar_v7x_i8_i_m2048_n512_f32_1_alg».proof.Proof.Gen.Kernel.Launch
import proofs.«900695_g7700000000000696_dist_ar_v7x_i8_i_m2048_n512_f32_1_alg».proof.Proof.Gen.Kernel.Points

/-!
# A device's body against the pipeline's body obligation

The pipeline hands a device's body, at the grid's one point, the launch-time ghost state, the input block in its staging
buffer, the result's staging buffer and the three scratch buffers at arbitrary contents. The buffers are cut into chunks and
regrouped into what the protocol's first step needs (the chunks the device keeps, and those its three handshake signals hand
over); the body's core statement then runs the protocol; at the end the chunks are joined into whole buffers again, the
result buffer reading, row by row, the finished sum of the device that completed that row's chunk.
-/

noncomputable section

namespace Cert.Kernel.Ar

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cutting the buffers into the protocol's chunks, and joining them again -/

omit [FloatOps F] in
/-- A conjunction over the image of a set under a map injective on it is the conjunction over the set. -/
theorem bigSep_image {I J : Type} [DecidableEq J] {s : Finset I} {f : I → J} (hf : ∀ x ∈ s, ∀ y ∈ s, f x = f y → x = y)
    (Φ : J → sProp 𝕄) : bigSep (s.image f) Φ = bigSep s fun i => Φ (f i) :=
  Finset.fold_image hf

omit [FloatOps F] in
theorem bigSep_fin3' (Φ : Fin 3 → sProp 𝕄) : bigSep Finset.univ Φ = iprop(Φ 0 ∗ Φ 1 ∗ Φ 2) :=
  bigSep_univ_eq_bigSepL [0, 1, 2] (by decide) (by decide) Φ
omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The chunk (band, offset from the receiver) that slot `s` of band `b` lands in. -/
def gch (bs : BS) : Fin 3 × Fin 8 := (bs.1, rmask bs.1 bs.2)

/-- The slots landing in scratch buffer `i`, and those landing in a partner's result buffer at the hand-over (10 to 13), over
    all bands. -/
def SL (i : Fin 3) : Finset BS := Finset.univ ×ˢ slotsR i
def SO : Finset BS := Finset.univ ×ˢ ({10, 11, 12, 13} : Finset (Fin 14))

/-- The four result chunks of band `b` a device fills itself. -/
def kk (bn : Fin 3 × Fin 4) : Fin 3 × Fin 8 := (bn.1, ![0, mk bn.1 2, mk bn.1 1, m23 bn.1] bn.2)

/-- The landing chunk of a slot, on the receiving device `c`, at whatever it holds. -/
def land (c : Dev nD) (bs : BS) : sProp 𝕄 := cownAny (F := F) c (dstM bs.2) bs.1 (xr c (rmask bs.1 bs.2))

theorem gch_inj_SL : ∀ i : Fin 3, ∀ x ∈ SL i, ∀ y ∈ SL i, gch x = gch y → x = y := by decide
theorem gch_inj_SO : ∀ x ∈ SO, ∀ y ∈ SO, gch x = gch y → x = y := by decide
theorem kk_inj : ∀ x y : Fin 3 × Fin 4, kk x = kk y → x = y := by decide
/-- Every result chunk is one the device fills itself or one a hand-over slot lands in, and not both. -/
theorem keep_hand : (Finset.univ : Finset (Fin 3 × Fin 8)) = (Finset.univ.image kk) ∪ (SO.image gch) := by decide
theorem keep_hand_disj : Disjoint ((Finset.univ : Finset (Fin 3 × Fin 4)).image kk) (SO.image gch) := by decide
/-- Every slot but 8 and 9 is handed to exactly one partner; grouped by destination buffer these are the slots of the three
    scratch buffers and the hand-over slots of the result buffer. -/
theorem handed_union : handed 0 ∪ (handed 1 ∪ handed 2) = SL 0 ∪ (SL 1 ∪ (SL 2 ∪ SO)) := by decide
theorem handed_disj : Disjoint (handed 0) (handed 1 ∪ handed 2) ∧ Disjoint (handed 1) (handed 2) := by decide
theorem SL_disj : Disjoint (SL 0) (SL 1 ∪ (SL 2 ∪ SO)) ∧ Disjoint (SL 1) (SL 2 ∪ SO) ∧ Disjoint (SL 2) SO := by decide

theorem dstM_SL : ∀ (i : Fin 3) (s : Fin 14), s ∈ slotsR i → dstM s = MR i := by
  intro i s
  fin_cases i <;> fin_cases s <;> first | (intro _; rfl) | (intro h; exact absurd h (by decide))
theorem dstM_SO : ∀ s : Fin 14, s ∈ ({10, 11, 12, 13} : Finset (Fin 14)) → dstM s = MO := by
  intro s
  fin_cases s <;> first | (intro _; rfl) | (intro h; exact absurd h (by decide))

omit [FloatOps F] in
/-- The handshake duty `j` that device `c` pays its partner across mask `j`, seen from `c`: the landing chunks, on `c`, of the
    slots that partner sends to `c`. -/
theorem barPay_eq (c : Dev nD) (j : Fin 3) : barPay (F := F) (xr c (bmask j)) j = bigSep (handed j) (land (F := F) c) := by
  unfold barPay land
  refine bigSep_congr fun bs hbs => ?_
  have htm : tmask bs.1 bs.2 = bmask j := (Finset.mem_filter.mp hbs).2.1
  have h2 : xr (xr c (bmask j)) (cmask bs.1 bs.2) = xr c (rmask bs.1 bs.2) := by rw [xr_xr', ← htm]; rfl
  rw [xr_xr, h2]

omit [FloatOps F] in
theorem hands_eq (c : Dev nD) :
    (iprop(barPay (F := F) (xr c (bmask 0)) 0 ∗ barPay (F := F) (xr c (bmask 1)) 1 ∗ barPay (F := F) (xr c (bmask 2)) 2) : sProp 𝕄)
      = iprop(bigSep (SL 0) (land c) ∗ bigSep (SL 1) (land c) ∗ bigSep (SL 2) (land c) ∗ bigSep SO (land c)) := by
  have e1 : bigSep (handed 0 ∪ (handed 1 ∪ handed 2)) (land (F := F) c)
      = iprop(bigSep (handed 0) (land c) ∗ bigSep (handed 1) (land c) ∗ bigSep (handed 2) (land c)) := by
    rw [bigSep_union handed_disj.1, bigSep_union handed_disj.2]
    rfl
  have e2 : bigSep (SL 0 ∪ (SL 1 ∪ (SL 2 ∪ SO))) (land (F := F) c)
      = iprop(bigSep (SL 0) (land c) ∗ bigSep (SL 1) (land c) ∗ bigSep (SL 2) (land c) ∗ bigSep SO (land c)) := by
    rw [bigSep_union SL_disj.1, bigSep_union SL_disj.2.1, bigSep_union SL_disj.2.2]
    rfl
  rw [barPay_eq c 0, barPay_eq c 1, barPay_eq c 2]
  exact e1.symm.trans ((congrArg (fun S => bigSep S (land (F := F) c)) handed_union).trans e2)

/-- A scratch buffer held whole is the chunks its slots land in and the chunks no transfer touches (`hb`: holding the buffer
    whole is owning scratch memref `i` at some array). -/
theorem scr_split (c : Dev nD) (i : Fin 3) (b : Ref sig .tc)
    (hb : (scrAny (F := F) c b : sProp 𝕄) ⊢ iprop(∃ G : Arr F, owns (c : Thread nD τ) (MR i) fullShare G)) :
    (scrAny (F := F) c b : sProp 𝕄)
      ⊢ iprop(bigSep (SL i) (land c) ∗ bigSep (Finset.univ \ usedR i) fun t : Fin 3 × Fin 8 => cownAny (F := F) c (MR i) t.1 (xr c t.2)) := by
  have hU : (bigSep (usedR i) fun t : Fin 3 × Fin 8 => cownAny (F := F) c (MR i) t.1 (xr c t.2)) = bigSep (SL i) (land (F := F) c) := by
    show bigSep ((SL i).image gch) _ = _
    rw [bigSep_image (gch_inj_SL i)]
    exact bigSep_congr fun bs hbs => by unfold land; rw [dstM_SL i bs.2 (Finset.mem_product.mp hbs).2] <;> rfl
  refine hb.trans ((whole_splitAny c (MR i)).trans (Entails.of_eq ?_))
  rw [bigSep_xr c (fun b k => cownAny (F := F) c (MR i) b k), bigSep_sdiff_split (Finset.subset_univ (usedR i))]
  exact congrArg (fun A : sProp 𝕄 => iprop(A ∗ bigSep (Finset.univ \ usedR i) fun t : Fin 3 × Fin 8 => cownAny (F := F) c (MR i) t.1 (xr c t.2))) hU

/-- and back. -/
theorem scr_join (c : Dev nD) (i : Fin 3) (b : Ref sig .tc)
    (hb : iprop(∃ G : Arr F, owns (c : Thread nD τ) (MR i) fullShare G) ⊢ (scrAny (F := F) c b : sProp 𝕄)) :
    (iprop((bigSep (usedR i) fun t : Fin 3 × Fin 8 => cownAny (F := F) c (MR i) t.1 (xr c t.2))
        ∗ bigSep (Finset.univ \ usedR i) fun t : Fin 3 × Fin 8 => cownAny (F := F) c (MR i) t.1 (xr c t.2)) : sProp 𝕄)
      ⊢ scrAny (F := F) c b := by
  refine (Entails.of_eq ?_).trans ((whole_joinAny c (MR i)).trans hb)
  rw [bigSep_xr c (fun b k => cownAny (F := F) c (MR i) b k), bigSep_sdiff_split (Finset.subset_univ (usedR i))]
  rfl

/-- The result buffer held whole is, per band, the four chunks the device fills itself, and the landing chunks of the hand-over
    slots. -/
theorem mo_split (c : Dev nD) :
    (iprop(∃ G : Arr F, owns (c : Thread nD τ) MO fullShare G) : sProp 𝕄)
      ⊢ iprop((bigSep Finset.univ fun b : Fin 3 =>
            iprop(cownAny (F := F) c MO b (xr c 0) ∗ cownAny (F := F) c MO b (xr c (mk b 2)) ∗ cownAny (F := F) c MO b (xr c (mk b 1)) ∗ cownAny (F := F) c MO b (xr c (m23 b))))
          ∗ bigSep SO (land c)) := by
  have hA : (bigSep Finset.univ fun a : Fin 3 => bigSep Finset.univ fun n : Fin 4 => cownAny (F := F) c MO (kk (a, n)).1 (xr c (kk (a, n)).2))
      = bigSep Finset.univ fun b : Fin 3 =>
          iprop(cownAny (F := F) c MO b (xr c 0) ∗ cownAny (F := F) c MO b (xr c (mk b 2)) ∗ cownAny (F := F) c MO b (xr c (mk b 1)) ∗ cownAny (F := F) c MO b (xr c (m23 b))) :=
    bigSep_congr fun b _ => bigSep_fin4 fun n : Fin 4 => cownAny (F := F) c MO (kk (b, n)).1 (xr c (kk (b, n)).2)
  have hB : (bigSep SO fun bs : BS => cownAny (F := F) c MO (gch bs).1 (xr c (gch bs).2)) = bigSep SO (land (F := F) c) :=
    bigSep_congr fun bs hbs => by unfold land; rw [dstM_SO bs.2 (Finset.mem_product.mp hbs).2] <;> rfl
  refine (whole_splitAny c MO).trans (Entails.of_eq ?_)
  rw [bigSep_xr c (fun b k => cownAny (F := F) c MO b k), keep_hand, bigSep_union keep_hand_disj,
    bigSep_image (fun x _ y _ h => kk_inj x y h), bigSep_image gch_inj_SO, bigSep_univ_prod]
  exact congrArg₂ (fun A B : sProp 𝕄 => iprop(A ∗ B)) hA hB

theorem pre_split (c : Dev nD) :
    iprop(owns (c : Thread nD τ) MX fullShare (Xof m c) ∗ (∃ G : Arr F, owns (c : Thread nD τ) MO fullShare G)
        ∗ scrAny c cc0_scratch0 ∗ scrAny c cc0_scratch1 ∗ scrAny c cc0_scratch2)
      ⊢ (ChIn m c : sProp 𝕄) := by
  have hX : (owns (c : Thread nD τ) MX fullShare (Xof m c) : sProp 𝕄)
      ⊢ bigSep Finset.univ fun t : Fin 3 × Fin 8 => cown c MX t.1 (xr c t.2) fullShare (Xof m c) :=
    (whole_split c MX fullShare (Xof m c)).trans (Entails.of_eq (bigSep_xr c (fun b k => cown c MX b k fullShare (Xof m c))))
  have hB := hands_eq (F := F) c
  iintro ⟨Hx, Ho, H0, H1, H2⟩
  ihave Hx' := hX $$ Hx
  ihave Ho' := (mo_split c) $$ Ho
  icases Ho' with ⟨Hkeep, HLO⟩
  ihave H0' := (scr_split c 0 cc0_scratch0 (scrAny_iff c cc0_scratch0).1) $$ H0
  icases H0' with ⟨HL0, HR0⟩
  ihave H1' := (scr_split c 1 cc0_scratch1 (scrAny_iff c cc0_scratch1).1) $$ H1
  icases H1' with ⟨HL1, HR1⟩
  ihave H2' := (scr_split c 2 cc0_scratch2 (scrAny_iff c cc0_scratch2).1) $$ H2
  icases H2' with ⟨HL2, HR2⟩
  ihave HB := (Entails.of_eq hB.symm) $$ [HL0 HL1 HL2 HLO]
  · isplitl [HL0]; · iexact HL0
    isplitl [HL1]; · iexact HL1
    isplitl [HL2]; · iexact HL2
    iexact HLO
  icases HB with ⟨B0, B1, B2⟩
  unfold ChIn restR
  rw [bigSep_fin3' fun i : Fin 3 => bigSep (Finset.univ \ usedR i) fun t : Fin 3 × Fin 8 => cownAny (F := F) c (MR i) t.1 (xr c t.2)]
  isplitl [Hx']; · iexact Hx'
  isplitl [Hkeep]; · iexact Hkeep
  isplitl [B0]; · iexact B0
  isplitl [B1]; · iexact B1
  isplitl [B2]; · iexact B2
  isplitl [HR0]; · iexact HR0
  isplitl [HR1]; · iexact HR1
  iexact HR2

/-- The device that completed result chunk `c ⊕ h` of band `b`, as the value names it. -/
theorem srcDev_xr : ∀ (b : Fin 3) (c : Dev nD) (h : Fin 8), srcDev b c (xr c h) = xr c (osrc b h) := by decide

theorem post_join (c : Dev nD) :
    (ChOut m c : sProp 𝕄)
      ⊢ iprop(owns (c : Thread nD τ) MX fullShare (Xof m c) ∗ owns (c : Thread nD τ) MO fullShare (outAt (Xof m) c)
        ∗ scrAny c cc0_scratch0 ∗ scrAny c cc0_scratch1 ∗ scrAny c cc0_scratch2) := by
  have hX : (bigSep Finset.univ fun t : Fin 3 × Fin 8 => cown c MX t.1 (xr c t.2) fullShare (Xof m c) : sProp 𝕄)
      ⊢ owns (c : Thread nD τ) MX fullShare (Xof m c) := by
    rw [← bigSep_xr c (fun b k => cown c MX b k fullShare (Xof m c))]
    exact whole_join c MX fullShare (fun _ => Xof m c)
  have hO : (bigSep Finset.univ fun t : Fin 3 × Fin 8 => cown c MO t.1 (xr c t.2) fullShare (A3 (Xof m) t.1 (xr c (osrc t.1 t.2))) : sProp 𝕄)
      ⊢ owns (c : Thread nD τ) MO fullShare (outAt (Xof m) c) := by
    rw [bigSep_congr (Ψ := fun t : Fin 3 × Fin 8 => cown c MO t.1 (xr c t.2) fullShare (A3 (Xof m) t.1 (srcDev t.1 c (xr c t.2))))
        (fun t _ => by rw [srcDev_xr]),
      ← bigSep_xr c (fun b k => cown c MO b k fullShare (A3 (Xof m) b (srcDev b c k)))]
    exact whole_join c MO fullShare (fun t => A3 (Xof m) t.1 (srcDev t.1 c t.2))
  unfold ChOut restR
  rw [bigSep_fin3' fun i : Fin 3 => bigSep (usedR i) fun t : Fin 3 × Fin 8 => cownAny (F := F) c (MR i) t.1 (xr c t.2),
    bigSep_fin3' fun i : Fin 3 => bigSep (Finset.univ \ usedR i) fun t : Fin 3 × Fin 8 => cownAny (F := F) c (MR i) t.1 (xr c t.2)]
  iintro ⟨Hx, Ho, ⟨U0, U1, U2⟩, R0, R1, R2⟩
  isplitl [Hx]; · iapply hX; iexact Hx
  isplitl [Ho]; · iapply hO; iexact Ho
  isplitl [U0 R0]
  · iapply (scr_join c 0 cc0_scratch0 (scrAny_iff c cc0_scratch0).2)
    isplitl [U0]; · iexact U0
    iexact R0
  isplitl [U1 R1]
  · iapply (scr_join c 1 cc0_scratch1 (scrAny_iff c cc0_scratch1).2)
    isplitl [U1]; · iexact U1
    iexact R1
  iapply (scr_join c 2 cc0_scratch2 (scrAny_iff c cc0_scratch2).2)
  isplitl [U2]; · iexact U2
  iexact R2

/-! ## The body obligation -/

/-- The input window's block is the whole array: what it stages is the device's input block. -/
theorem xstg_eq (c : Dev nD) : xstg m ρ c = Xof m c := by
  unfold xstg Xof
  have hz : (fun a => win0_0.index (0 : Fin 1) a * main_arg0.ty.shape.size a) = fun _ => 0 := funext fun a => Nat.zero_mul _
  exact Memref.read_access_unit_zero (Elt F) main_arg0 hz (fun a => by rw [congrFun hz a]; simp) _

set_option maxRecDepth 100000 in
/-- What the pipeline hands the body at the one point, -/
def bodyPre' (c : Dev nD) : sProp 𝕄 :=
  iprop(Φ₀ m c ∗ (dats m ρ 0 c).owesAt () t0_0.castSucc
    ∗ (∃ d, owns (c : Thread nD τ) MX fullShare ((dats m ρ 0 c).before (0 : Fin 2) t0_0 d))
    ∗ (∃ d, owns (c : Thread nD τ) MO fullShare ((dats m ρ 0 c).before (1 : Fin 2) t0_0 d)))

set_option maxRecDepth 100000 in
/-- and what it takes back. -/
def bodyPost (c : Dev nD) : sProp 𝕄 :=
  iprop(Φ₁ c ∗ (dats m ρ 0 c).owesAt () t0_0.succ
    ∗ owns (c : Thread nD τ) MX fullShare (xstg m ρ c) ∗ owns (c : Thread nD τ) MO fullShare (outAt (Xof m) c))

set_option maxRecDepth 100000 in
theorem body_from_core_upd (hcore : BodyCore (F := F) m) (c : Dev nD) :
    bodyPre' m ρ c ⊢ wp frame (wpE (defs₀ (F := F)) 𝒱₀ (c : Thread nD τ) none) Set.univ
      (cc0_body MX (Memref.isWhole_whole _) MO (Memref.isWhole_whole _) MR1 (Memref.isWhole_whole _) MR2 (Memref.isWhole_whole _)
        MR3 (Memref.isWhole_whole _) cc0_scratch3 cc0_scratch4) (fun _ => iprop(|={Set.univ}=> bodyPost m ρ c)) := by
  unfold bodyPre' Φ₀ start
  iintro ⟨⟨⟨⟨%K, #Hrec, Hlin⟩, Hcr, #Hlev⟩, Hs0, Hs1, Hs2⟩, Ho, ⟨%d0, Hx⟩, ⟨%d1, Hout⟩⟩
  have hx : (dats m ρ 0 c).before (0 : Fin 2) t0_0 d0 = Xof m c := by
    unfold Dat.before; rw [if_pos (fetch0_0 t0_0)]; exact xstg_eq m ρ c
  rw [hx]
  unfold Dat.owesAt Pipeline.owesWithin
  icases Ho with ⟨%W, %hW, HO⟩
  rw [show (dats m ρ 0 c).owed t0_0.castSucc = O₀ c from rfl]
  ihave HSt := (St_init (F := F) c W) $$ [Hlin Hcr HO]
  · isplitl [Hlin]; · iexact Hlin
    isplitl [Hcr]; · iexact Hcr
    iexact HO
  ihave HCh := (pre_split m c) $$ [Hx Hout Hs0 Hs1 Hs2]
  · isplitl [Hx]; · iexact Hx
    isplitl [Hout]; · iexists _; iexact Hout
    isplitl [Hs0]; · iexact Hs0
    isplitl [Hs1]; · iexact Hs1
    iexact Hs2
  iapply (hcore K c (fun _ => iprop(|={Set.univ}=> bodyPost m ρ c)))
  isplitr
  · unfold Pers; isplitr; · iexact Hrec
    iexact Hlev
  isplitl [HSt]; · iexact HSt
  isplitl [HCh]; · iexact HCh
  iintro ⟨HSt', HCh'⟩
  imod (St_final m K c) $$ [HSt'] with ⟨HzS, HzV, %W', HO'⟩
  · isplitr
    · unfold Pers; isplitr; · iexact Hrec
      iexact Hlev
    iexact HSt'
  imodintro
  ihave HB := (post_join m c) $$ HCh'
  icases HB with ⟨Hx', Hout', Hs0', Hs1', Hs2'⟩
  unfold bodyPost Φ₁ Dat.owesAt Pipeline.owesWithin
  rw [show (dats m ρ 0 c).owed t0_0.succ = 0 from rfl, xstg_eq]
  isplitl [Hs0' Hs1' Hs2' HzS HzV]
  · isplitl [Hs0' Hs1' Hs2']
    · isplitl [Hs0']; · iexact Hs0'
      isplitl [Hs1']; · iexact Hs1'
      iexact Hs2'
    isplitl [HzS]; · iexact HzS
    iexact HzV
  isplitl [HO']
  · iexists W'
    isplitr; · ipureintro; exact fun _ _ => Or.inl trivial
    iexact HO'
  isplitl [Hx']; · iexact Hx'
  iexact Hout'

set_option maxRecDepth 100000 in
/-- The closing update is absorbed by the body's weakest precondition. -/
theorem body_from_core (hcore : BodyCore (F := F) m) (c : Dev nD) :
    bodyPre' m ρ c ⊢ wp frame (wpE (defs₀ (F := F)) 𝒱₀ (c : Thread nD τ) none) Set.univ
      (cc0_body MX (Memref.isWhole_whole _) MO (Memref.isWhole_whole _) MR1 (Memref.isWhole_whole _) MR2 (Memref.isWhole_whole _)
        MR3 (Memref.isWhole_whole _) cc0_scratch3 cc0_scratch4) (fun _ => bodyPost m ρ c) :=
  (body_from_core_upd m ρ hcore c).trans (wp_fupd frame (wpE (defs₀ (F := F)) 𝒱₀ (c : Thread nD τ) none) Set.univ _ _)

set_option maxRecDepth 100000 in
/-- The library's body obligation on device `c`, from the body's core statement. -/
theorem body_obligation (hcore : BodyCore (F := F) m) (c : Dev nD) :
    BodyObligation (dats (F := F) m ρ 0 c) (defs₀ (F := F)) 𝒱₀ () Set.univ := fun t => by
  obtain rfl := fin_N0 t
  rw [bigSep_W0, bigSep_W0]
  exact body_from_core m ρ hcore c

/-- info: 'Cert.Kernel.Ar.body_obligation' depends on axioms: [propext, Classical.choice, Quot.sound] -/
#guard_msgs in #print axioms body_obligation

/-! ## The run, from the body's core statement -/

/-- At the compiled mesh of eight devices, from any memory with zero counters: every weakly fair execution of @main terminates,
    and every final state has each device's result array at the butterfly's value of the launch-time input blocks and its input
    block unchanged — given the body's core statement. -/
theorem run_all (hcore : BodyCore (F := F) m) :
    θ_run (defs (F := F)) (onTc (τ := τ) (main (F := F))) (s₀ m ρ) (RunPost m) :=
  run_main m ρ (body_obligation m ρ hcore)

/-- info: 'Cert.Kernel.Ar.run_all' depends on axioms: [propext, Classical.choice, Quot.sound] -/
#guard_msgs in #print axioms run_all

end Cert.Kernel.Ar

end
-- ==== Proof.StepsB.lean ====
import proofs.«900695_g7700000000000696_dist_ar_v7x_i8_i_m2048_n512_f32_1_alg».proof.Proof.Proto
import proofs.«900695_g7700000000000696_dist_ar_v7x_i8_i_m2048_n512_f32_1_alg».proof.Proof.Tables

/-!
# Issuing a transfer

The two forms of the transfer step: the source chunk back with the send cell's wait, or travelling with the landing (slots 4, 5).
-/

noncomputable section

namespace Cert.KernelIdeal.Ar

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The mesh: where a transfer's chunk and sender are, seen from the receiver -/

/-- The chunk a transfer lands in, named from the receiver, is the chunk it carries, named from the sender. -/
theorem xr_rmask : ∀ (c : Dev nD) (b : Fin 3) (s : Fin 14), xr (xr c (tmask b s)) (rmask b s) = xr c (cmask b s) := by decide

/-- The receiver's partner of a slot is the sender. -/
theorem xr_tmask_back (c : Dev nD) (b : Fin 3) (s : Fin 14) : xr (xr c (tmask b s)) (tmask b s) = c := xr_xr c (tmask b s)

/-- Only slots 4 and 5 carry their source chunk along; they read the result buffer. -/
theorem withSrc_cases : ∀ s : Fin 14, withSrc s = true → s = 4 ∨ s = 5 := by decide

/-! ## What is owed before and after a transfer is issued -/

section Owed
variable (c : Dev nD) (σ : PSt)

theorem owed_send (b : Fin 3) (s : Fin 14) (hs : (b, s) ∉ σ.sent) :
    owedRecv c (Finset.univ \ σ.sent) + owedBar c (Finset.univ \ σ.sig)
      = (owedRecv c (Finset.univ \ insert (b, s) σ.sent) + owedBar c (Finset.univ \ σ.sig))
        + tallyAt (recvCell (xr c (tmask b s)) b s) () (Namt b s) := by
  have hmem : (b, s) ∈ Finset.univ \ σ.sent := Finset.mem_sdiff.mpr ⟨Finset.mem_univ _, hs⟩
  unfold owedRecv
  rw [Finset.sdiff_insert, add_right_comm, Finset.sum_erase_add _ _ hmem]

end Owed

/-! ## The persistent records at one cell -/

section Recs
variable (K : Dev nD × CK → ℕ)

theorem Pers_inv (ck : Dev nD × CK) : Pers m K ⊢ cellInv ER (Rd m) (K ck) (kcell ck) := by
  have h : (bigSep Finset.univ fun ck : Dev nD × CK => cellInv ER (Rd m) (K ck) (kcell ck))
      ⊢ cellInv ER (Rd m) (K ck) (kcell ck) := bigSep_elim (Finset.mem_univ ck)
  unfold Pers records
  iintro ⟨⟨H, -⟩, -⟩
  iapply h $$ H

theorem Pers_reached (ck : Dev nD × CK) : Pers m K ⊢ (reached ER (kcell ck) 0 : sProp 𝕄) := by
  have h : (bigSep Finset.univ fun ck : Dev nD × CK => (reached ER (kcell ck) 0 : sProp 𝕄))
      ⊢ reached ER (kcell ck) 0 := bigSep_elim (Finset.mem_univ ck)
  unfold Pers records
  iintro ⟨⟨-, H⟩, -⟩
  iapply h $$ H

end Recs
/-! ## The bookkeeping of a transfer: what the step takes out of the state, and how the state closes again -/

/-- One more summand joins an iterated separating conjunction. -/
theorem bigSep_put_send {I : Type} [DecidableEq I] {A : Finset I} {i : I} (hi : i ∉ A) (Φ : I → sProp 𝕄) :
    iprop(Φ i ∗ bigSep A Φ) ⊢ bigSep (insert i A) Φ :=
  Entails.of_eq (bigSep_insert hi).symm

section Book
variable (c : Dev nD) (σ : PSt)

/-- Issuing transfer `(b, s)`: the state gives the owes term and the two tokens of the transfer's duties, and closes again at
    the state with the transfer issued from the send cell's credit and the owes term less the landing. -/
theorem St_send (b : Fin 3) (s : Fin 14) (hs : (b, s) ∉ σ.sent) :
    (St c σ : sProp 𝕄) ⊢ iprop(∃ W, owes (c : Thread nD τ) (owedRecv c (Finset.univ \ σ.sent) + owedBar c (Finset.univ \ σ.sig)) W
        ∗ dutyTok ER (sendCell c b s) 0 (0 : Fin 3) ∗ dutyTok ER (recvCell (xr c (tmask b s)) b s) 0 (0 : Fin 3)
        ∗ ((cred (tallyAt (sendCell c b s) () (Namt b s))
              ∗ owes (c : Thread nD τ) (owedRecv c (Finset.univ \ insert (b, s) σ.sent) + owedBar c (Finset.univ \ σ.sig)) W)
            -∗ St c { σ with sent := insert (b, s) σ.sent })) := by
  have hmem : (b, s) ∈ Finset.univ \ σ.sent := Finset.mem_sdiff.mpr ⟨Finset.mem_univ _, hs⟩
  unfold St
  iintro ⟨⟨%W, HO⟩, Hsig, Htok, Hcr, Hrest⟩
  ihave Htok' := (bigSep_pick hmem) $$ Htok
  icases Htok' with ⟨⟨Ht1, Ht2⟩, Htok⟩
  iexists W
  isplitl [HO]; · iexact HO
  isplitl [Ht1]; · iexact Ht1
  isplitl [Ht2]; · iexact Ht2
  iintro ⟨Hc, HO⟩
  dsimp only
  isplitl [HO]; · iexists W; iexact HO
  isplitl [Hsig]; · iexact Hsig
  isplitl [Htok]; · rw [Finset.sdiff_insert]; iexact Htok
  isplitl [Hcr Hc]
  · by_cases hw : (b, s) ∈ σ.swt
    · rw [Finset.insert_sdiff_of_mem _ hw]; iexact Hcr
    · rw [Finset.insert_sdiff_of_notMem _ hw]
      iapply (bigSep_put_send (fun h => hs (Finset.mem_sdiff.mp h).1)
        (fun bs : BS => (cred (tallyAt (sendCell c bs.1 bs.2) () (Namt bs.1 bs.2)) : sProp 𝕄)))
      isplitl [Hc]; · iexact Hc
      iexact Hcr
  iexact Hrest

end Book

/-! ## The payloads a transfer's two cells are paid with -/

section Pay
variable (c : Dev nD) (b : Fin 3) (s : Fin 14)

/-- The source chunk's elements, reading the sender's value, are the send cell's payload. -/
theorem sendPay_of_src (hw : withSrc s = false)
    (fs : Buf (Elt F) ((chunkM (srcM s) b (xr c (cmask b s))).view.loc (c : Thread nD τ)))
    (hfs : (chunkM (srcM s) b (xr c (cmask b s))).view.read (Elt F) fs
      = fun j => cval (Xof m) b s c ((crect b (xr c (cmask b s))).emb j)) :
    ((chunkM (srcM s) b (xr c (cmask b s))).view.loc (c : Thread nD τ) ↦[(chunkM (srcM s) b (xr c (cmask b s))).view.set]{sshare s} fs : sProp 𝕄)
      ⊢ (Rd m).payload (sendCell c b s) 0 (0 : Fin 3) := by
  rw [payload_send]; unfold sendPay; rw [hw, if_neg Bool.false_ne_true]
  unfold cown owns
  iintro H; iexists fs
  isplitr; · ipureintro; exact hfs
  iexact H

/-- The destination chunk rewritten by the transfer reads the sender's value: the partner's receive payload. -/
theorem recvPay_of_landed (hw : withSrc s = false)
    (fs : Buf (Elt F) ((chunkM (srcM s) b (xr c (cmask b s))).view.loc (c : Thread nD τ)))
    (hfs : (chunkM (srcM s) b (xr c (cmask b s))).view.read (Elt F) fs
      = fun j => cval (Xof m) b s c ((crect b (xr c (cmask b s))).emb j))
    (fd : Buf (Elt F) ((chunkM (dstM s) b (xr c (cmask b s))).view.loc (Dev.tc (xr c (tmask b s)) : Thread nD τ))) :
    ((chunkM (dstM s) b (xr c (cmask b s))).view.loc (Dev.tc (xr c (tmask b s)) : Thread nD τ)
        ↦[(chunkM (dstM s) b (xr c (cmask b s))).view.set]{fullShare}
        ((chunkM (dstM s) b (xr c (cmask b s))).view.write (Elt F) fd
          ((chunkM (srcM s) b (xr c (cmask b s))).view.read (Elt F) fs) Finset.univ) : sProp 𝕄)
      ⊢ (Rd m).payload (recvCell (xr c (tmask b s)) b s) 0 (0 : Fin 3) := by
  rw [payload_recv]; unfold recvPay; rw [hw, if_neg Bool.false_ne_true, xr_rmask, xr_tmask_back]
  unfold cown owns
  iintro H
  isplitl [H]
  · iexists ((chunkM (dstM s) b (xr c (cmask b s))).view.write (Elt F) fd
          ((chunkM (srcM s) b (xr c (cmask b s))).view.read (Elt F) fs) Finset.univ)
    isplitr; · ipureintro; rw [View.read_write_univ]; exact hfs
    iexact H
  · iempintro

end Pay

section PaySrc
variable (c : Dev nD) (b : Fin 3) (s : Fin 14)

/-- The slots that carry their source chunk along read it from the result buffer. -/
theorem srcM_of_withSrc (hw : withSrc s = true) : srcM s = MO := by
  rcases withSrc_cases s hw with rfl | rfl <;> rfl

/-- Nothing is the send cell's payload when the source chunk travels with the landing. -/
theorem sendPay_of_emp (hw : withSrc s = true) : (emp : sProp 𝕄) ⊢ (Rd m).payload (sendCell c b s) 0 (0 : Fin 3) := by
  rw [payload_send]; unfold sendPay; rw [hw, if_pos rfl]

/-- The destination chunk rewritten by the transfer, with the source chunk whole: the partner's receive payload of slots 4, 5. -/
theorem recvPay_of_landed_src (hw : withSrc s = true)
    (fs : Buf (Elt F) ((chunkM (srcM s) b (xr c (cmask b s))).view.loc (c : Thread nD τ)))
    (hfs : (chunkM (srcM s) b (xr c (cmask b s))).view.read (Elt F) fs
      = fun j => cval (Xof m) b s c ((crect b (xr c (cmask b s))).emb j))
    (fd : Buf (Elt F) ((chunkM (dstM s) b (xr c (cmask b s))).view.loc (Dev.tc (xr c (tmask b s)) : Thread nD τ))) :
    iprop(((chunkM (dstM s) b (xr c (cmask b s))).view.loc (Dev.tc (xr c (tmask b s)) : Thread nD τ)
        ↦[(chunkM (dstM s) b (xr c (cmask b s))).view.set]{fullShare}
        ((chunkM (dstM s) b (xr c (cmask b s))).view.write (Elt F) fd
          ((chunkM (srcM s) b (xr c (cmask b s))).view.read (Elt F) fs) Finset.univ))
      ∗ ((chunkM (srcM s) b (xr c (cmask b s))).view.loc (c : Thread nD τ) ↦[(chunkM (srcM s) b (xr c (cmask b s))).view.set]{fullShare} fs) : sProp 𝕄)
      ⊢ (Rd m).payload (recvCell (xr c (tmask b s)) b s) 0 (0 : Fin 3) := by
  rw [payload_recv]; unfold recvPay; rw [hw, if_pos rfl, xr_rmask, xr_tmask_back, ← srcM_of_withSrc s hw]
  unfold cown owns
  iintro ⟨Hd, Hs⟩
  isplitl [Hd]
  · iexists ((chunkM (dstM s) b (xr c (cmask b s))).view.write (Elt F) fd
          ((chunkM (srcM s) b (xr c (cmask b s))).view.read (Elt F) fs) Finset.univ)
    isplitr; · ipureintro; rw [View.read_write_univ]; exact hfs
    iexact Hd
  · iexists fs
    isplitr; · ipureintro; exact hfs
    iexact Hs

end PaySrc

/-! ## The two steps -/

section Steps

variable (K : Dev nD × CK → ℕ) (c : Dev nD) (σ : PSt)

local notation "WP" => wp frame (wpE (defs₀ (F := F)) 𝒱₀ (c : Thread nD τ) none) Set.univ

/-- A transfer whose source chunk comes back with the send cell's wait. -/
theorem step_send {α : Type} {Q : α → sProp 𝕄} (b : Fin 3) (s : Fin 14) (hs : (b, s) ∉ σ.sent) (hw : withSrc s = false)
    {hsc} {hse} {hde} {hsem} {k : PUnit → Prog (TpuEff nD τ sig (Elt F) Λ₀ .tc) α} :
    iprop(Pers m K ∗ St c σ ∗ cown c (srcM s) b (xr c (cmask b s)) (sshare s) (cval (Xof m) b s c)
        ∗ cownAny (F := F) (xr c (tmask b s)) (dstM s) b (xr c (cmask b s)))
      ⊢ iprop((St c { σ with sent := insert (b, s) σ.sent } -∗ WP (k ⟨⟩) Q)
          -∗ WP (.op (.enqueueDma (chunkM (srcM s) b (xr c (cmask b s)))
                (.remote (Dev.tc (xr c (tmask b s)) : Thread nD τ) (chunkM (dstM s) b (xr c (cmask b s))) (.dma (sendS b s)) hsc)
                (.dma (recvS b s)) hse hde hsem) k) Q) := by
  unfold cown cownAny cown owns
  iintro ⟨#HP, HSt, ⟨%fs, %hfs, Hsrc⟩, ⟨%G, %fd, %hfd, Hdst⟩⟩ Hk
  ihave HSt' := (St_send c σ b s hs) $$ HSt
  icases HSt' with ⟨%W, HO, Ht1, Ht2, Hput⟩
  iapply (Rounds.wp_send_pointsTo 𝒱₀ ER (Rd m) (c : Thread nD τ) none
      (c' := (Dev.tc (xr c (tmask b s)) : Thread nD τ))
      (src := chunkM (srcM s) b (xr c (cmask b s))) (dst := chunkM (dstM s) b (xr c (cmask b s)))
      (q := sshare s) (fs := fs) (fd := fd)
      (κ₁ := K (c, .inr (.inl (b, s)))) (κ₂ := K (xr c (tmask b s), .inr (.inr (b, s))))
      (r₁ := 0) (r₂ := 0) (d₁ := (0 : Fin 3)) (d₂ := (0 : Fin 3))
      (by rw [duties_send]; exact Finset.mem_singleton_self _) (by rw [duties_recv]; exact Finset.mem_singleton_self _)
      () () (Namt b s) (amount_dst b s _ _) (amount_send m c b s 0) (amount_recv m (xr c (tmask b s)) b s 0)
      (owedRecv c (Finset.univ \ insert (b, s) σ.sent) + owedBar c (Finset.univ \ σ.sig)) (owed_send c σ b s hs) (W := W)
      (sendPay_of_src m c b s hw fs hfs) (recvPay_of_landed m c b s hw fs hfs fd)) $$ [HO Ht1 Ht2 Hsrc Hdst]
  · isplitr; · iapply (Pers_inv m K (c, .inr (.inl (b, s)))); iexact HP
    isplitr; · iapply (Pers_inv m K (xr c (tmask b s), .inr (.inr (b, s)))); iexact HP
    isplitl [Hsrc]; · iexact Hsrc
    isplitl [Hdst]; · iexact Hdst
    isplitl [HO]; · iexact HO
    isplitl [Ht1]; · iexact Ht1
    isplitr; · iapply (Pers_reached m K (c, .inr (.inl (b, s)))); iexact HP
    isplitl [Ht2]; · iexact Ht2
    iapply (Pers_reached m K (xr c (tmask b s), .inr (.inr (b, s)))); iexact HP
  iintro ⟨Hc, HO⟩
  iapply Hk
  iapply Hput
  isplitl [Hc]; · iexact Hc
  iexact HO

/-- A transfer of slot 4 or 5: the source chunk travels with the landing. -/
theorem step_send_src {α : Type} {Q : α → sProp 𝕄} (b : Fin 3) (s : Fin 14) (hs : (b, s) ∉ σ.sent) (hw : withSrc s = true)
    {hsc} {hse} {hde} {hsem} {k : PUnit → Prog (TpuEff nD τ sig (Elt F) Λ₀ .tc) α} :
    iprop(Pers m K ∗ St c σ ∗ cown c (srcM s) b (xr c (cmask b s)) fullShare (cval (Xof m) b s c)
        ∗ cownAny (F := F) (xr c (tmask b s)) (dstM s) b (xr c (cmask b s)))
      ⊢ iprop((St c { σ with sent := insert (b, s) σ.sent } -∗ WP (k ⟨⟩) Q)
          -∗ WP (.op (.enqueueDma (chunkM (srcM s) b (xr c (cmask b s)))
                (.remote (Dev.tc (xr c (tmask b s)) : Thread nD τ) (chunkM (dstM s) b (xr c (cmask b s))) (.dma (sendS b s)) hsc)
                (.dma (recvS b s)) hse hde hsem) k) Q) := by
  unfold cown cownAny cown owns
  iintro ⟨#HP, HSt, ⟨%fs, %hfs, Hsrc⟩, ⟨%G, %fd, %hfd, Hdst⟩⟩ Hk
  ihave HSt' := (St_send c σ b s hs) $$ HSt
  icases HSt' with ⟨%W, HO, Ht1, Ht2, Hput⟩
  iapply (Rounds.wp_send_landing_pointsTo 𝒱₀ ER (Rd m) (c : Thread nD τ) none
      (c' := (Dev.tc (xr c (tmask b s)) : Thread nD τ))
      (src := chunkM (srcM s) b (xr c (cmask b s))) (dst := chunkM (dstM s) b (xr c (cmask b s)))
      (q := fullShare) (fs := fs) (fd := fd)
      (κ₁ := K (c, .inr (.inl (b, s)))) (κ₂ := K (xr c (tmask b s), .inr (.inr (b, s))))
      (r₁ := 0) (r₂ := 0) (d₁ := (0 : Fin 3)) (d₂ := (0 : Fin 3))
      (by rw [duties_send]; exact Finset.mem_singleton_self _) (by rw [duties_recv]; exact Finset.mem_singleton_self _)
      () () (Namt b s) (amount_dst b s _ _) (amount_send m c b s 0) (amount_recv m (xr c (tmask b s)) b s 0)
      (owedRecv c (Finset.univ \ insert (b, s) σ.sent) + owedBar c (Finset.univ \ σ.sig)) (owed_send c σ b s hs) (W := W)
      (sendPay_of_emp m c b s hw) (recvPay_of_landed_src m c b s hw fs hfs fd)) $$ [HO Ht1 Ht2 Hsrc Hdst]
  · isplitr; · iapply (Pers_inv m K (c, .inr (.inl (b, s)))); iexact HP
    isplitr; · iapply (Pers_inv m K (xr c (tmask b s), .inr (.inr (b, s)))); iexact HP
    isplitl [Hsrc]; · iexact Hsrc
    isplitl [Hdst]; · iexact Hdst
    isplitl [HO]; · iexact HO
    isplitl [Ht1]; · iexact Ht1
    isplitr; · iapply (Pers_reached m K (c, .inr (.inl (b, s)))); iexact HP
    isplitl [Ht2]; · iexact Ht2
    iapply (Pers_reached m K (xr c (tmask b s), .inr (.inr (b, s)))); iexact HP
  iintro ⟨Hc, HO⟩
  iapply Hk
  iapply Hput
  isplitl [Hc]; · iexact Hc
  iexact HO

end Steps

/-! ## What the module rests on -/

/-- info: 'Cert.KernelIdeal.Ar.step_send' depends on axioms: [propext, Classical.choice, Quot.sound] -/
#guard_msgs in #print axioms step_send

/-- info: 'Cert.KernelIdeal.Ar.step_send_src' depends on axioms: [propext, Classical.choice, Quot.sound] -/
#guard_msgs in #print axioms step_send_src

end Cert.KernelIdeal.Ar

end
-- ==== Proof.Data.lean ====
import proofs.«900695_g7700000000000696_dist_ar_v7x_i8_i_m2048_n512_f32_1_alg».proof.Proof.Proto
import proofs.«900695_g7700000000000696_dist_ar_v7x_i8_i_m2048_n512_f32_1_alg».proof.Proof.Chunks
import Idealize.ShloMosaic.Lib.StableHlo.CollectiveRules

/-!
# Loads, adds and stores on one chunk

The body's arithmetic is always the same: read a chunk of one buffer, read the same chunk of a second buffer, add them
element by element, and store the sum over that chunk of the result buffer. Stated once, over any chunk, with the chunk's
rectangle and the payload function as variables (so that a printed instance matches by name), in two forms: the sum of
two other buffers' chunks into the result buffer's, and the result buffer's own chunk plus another buffer's.
-/

noncomputable section

namespace Cert.KernelIdeal.Ar

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- A chunk owned outright is its two half shares. -/
theorem cown_share (p : Dev nD) (M : Memref sig .tc .vmem S2048x512 .f32) (b : Fin 3) (k : Dev nD) (G : Arr F) :
    (cown p M b k fullShare G : sProp 𝕄) ⊣⊢ iprop(cown p M b k fullShare.left G ∗ cown p M b k fullShare.right G) := by
  unfold cown
  exact owns_share (p : Thread nD τ) (chunkM M b k) (PosShare.mem_left_op_right fullShare) _

/-- A chunk at given contents is a chunk at some contents. -/
theorem cown_any (p : Dev nD) (M : Memref sig .tc .vmem S2048x512 .f32) (b : Fin 3) (k : Dev nD) (G : Arr F) :
    (cown p M b k fullShare G : sProp 𝕄) ⊢ cownAny (F := F) p M b k := by
  unfold cownAny; iintro H; iexists G; iexact H

/-- A chunk owned, opened: some contents of the buffer that the chunk's view reads as the rows of `G`, and the
    chunk's elements at those contents. -/
theorem cown_open (p : Dev nD) (M : Memref sig .tc .vmem S2048x512 .f32) (b : Fin 3) (k : Dev nD) (q : PosShare TreeShare) (G : Arr F) :
    (cown p M b k q G : sProp 𝕄)
      ⊢ iprop(∃ f, ⌜(M.access (crect b k)).read (Elt F) f = fun j => G ((crect b k).emb j)⌝
          ∗ ((M.access (crect b k)).loc (p : Thread nD τ) ↦[(M.access (crect b k)).set]{q} f)) := .rfl

/-- And closed again. -/
theorem cown_close (p : Dev nD) (M : Memref sig .tc .vmem S2048x512 .f32) (b : Fin 3) (k : Dev nD) (q : PosShare TreeShare) (G : Arr F) :
    (iprop(∃ f, ⌜(M.access (crect b k)).read (Elt F) f = fun j => G ((crect b k).emb j)⌝
          ∗ ((M.access (crect b k)).loc (p : Thread nD τ) ↦[(M.access (crect b k)).set]{q} f)) : sProp 𝕄)
      ⊢ cown p M b k q G := .rfl

section Steps

variable (c : Dev nD)

local notation "WP" => wp frame (wpE (defs₀ (F := F)) 𝒱₀ (c : Thread nD τ) none) Set.univ

/-- `out[chunk] := M1[chunk] + M2[chunk]`: two loads, the (unused) load of the result chunk, the store. -/
theorem step_add {α : Type} {Q : α → sProp 𝕄} (b : Fin 3) (kc : Dev nD) (r : Rect S2048x512) (hr : r = crect b kc)
    (M1 M2 MOut : Memref sig .tc .vmem S2048x512 .f32) (q1 q2 : PosShare TreeShare) (G1 G2 : Arr F)
    (pay : (r.shape.Idx → Elt F .f32) → (r.shape.Idx → Elt F .f32) → (r.shape.Idx → Elt F .f32))
    (hpay : ∀ u v, pay u v = fun i => FloatOps.addf (u i) (v i))
    {hl1 hl2 hl3 hx hm} {kk : PUnit → Prog (TpuEff nD τ sig (Elt F) Λ₀ .tc) α} :
    iprop(cown c M1 b kc q1 G1 ∗ cown c M2 b kc q2 G2 ∗ cownAny (F := F) c MOut b kc)
      ⊢ iprop((iprop(cown c M1 b kc q1 G1 ∗ cown c M2 b kc q2 G2 ∗ cown c MOut b kc fullShare (addf G1 G2)) -∗ WP (kk ⟨⟩) Q)
          -∗ WP (.op (.load M1 r.toLoadRect hl1) fun v1 => .op (.load M2 r.toLoadRect hl2) fun v2 =>
                .op (.load MOut r.toLoadRect hl3) fun _ => .op (.store MOut r (pay v1 v2) Finset.univ hx hm) kk) Q) := by
  subst hr
  iintro ⟨H1, H2, H3⟩ Hk
  ihave H1' := (cown_open c M1 b kc q1 G1) $$ H1
  icases H1' with ⟨%f1, %h1, H1⟩
  ihave H2' := (cown_open c M2 b kc q2 G2) $$ H2
  icases H2' with ⟨%f2, %h2, H2⟩
  ihave H3' := (show (cownAny (F := F) c MOut b kc : sProp 𝕄) ⊢ iprop(∃ G3 : Arr F, cown c MOut b kc fullShare G3) from .rfl) $$ H3
  icases H3' with ⟨%G3, H3⟩
  ihave H3'' := (cown_open c MOut b kc fullShare G3) $$ H3
  icases H3'' with ⟨%f3, -, H3⟩
  iapply (wp_load_rect (defs := defs₀ (F := F)) 𝒱₀ (c : Thread nD τ) none Set.univ (Γ := .empty) (Q := Q)
    (m := M1) (r := crect b kc) (hl := hl1) (q := q1) (f := f1) subset_rfl) $$ H1
  iintro H1
  rw [h1]
  iapply (wp_load_rect (defs := defs₀ (F := F)) 𝒱₀ (c : Thread nD τ) none Set.univ (Γ := .empty) (Q := Q)
    (m := M2) (r := crect b kc) (hl := hl2) (q := q2) (f := f2) subset_rfl) $$ H2
  iintro H2
  rw [h2]
  iapply (wp_load_rect (defs := defs₀ (F := F)) 𝒱₀ (c : Thread nD τ) none Set.univ (Γ := .empty) (Q := Q)
    (m := MOut) (r := crect b kc) (hl := hl3) (q := fullShare) (f := f3) subset_rfl) $$ H3
  iintro H3
  iapply (wp_store (defs := defs₀ (F := F)) 𝒱₀ (c : Thread nD τ) none Set.univ (Γ := .empty) (Q := Q)
    (m := MOut) (r := crect b kc) (Mk := Finset.univ) (hx := hx) (hm := hm) (k := kk) (f := f3)
    (S := (MOut.access (crect b kc)).set) (by rw [View.setOn_univ])) $$ H3
  iintro H3
  iapply Hk
  isplitl [H1]
  · iapply (cown_close c M1 b kc q1 G1)
    iexists f1
    isplitr
    · ipureintro; exact h1
    · iexact H1
  isplitl [H2]
  · iapply (cown_close c M2 b kc q2 G2)
    iexists f2
    isplitr
    · ipureintro; exact h2
    · iexact H2
  · iapply (cown_close c MOut b kc fullShare (addf G1 G2))
    iexists (MOut.access (crect b kc)).write (Elt F) f3
      (pay (fun j => G1 ((crect b kc).emb j)) (fun j => G2 ((crect b kc).emb j))) Finset.univ
    isplitr
    · ipureintro
      rw [View.read_write_univ, hpay]
      rfl
    · iexact H3

/-- `out[chunk] := out[chunk] + M2[chunk]`. -/
theorem step_acc {α : Type} {Q : α → sProp 𝕄} (b : Fin 3) (kc : Dev nD) (r : Rect S2048x512) (hr : r = crect b kc)
    (M2 MOut : Memref sig .tc .vmem S2048x512 .f32) (q2 : PosShare TreeShare) (G1 G2 : Arr F)
    (pay : (r.shape.Idx → Elt F .f32) → (r.shape.Idx → Elt F .f32) → (r.shape.Idx → Elt F .f32))
    (hpay : ∀ u v, pay u v = fun i => FloatOps.addf (u i) (v i))
    {hl1 hl2 hl3 hx hm} {kk : PUnit → Prog (TpuEff nD τ sig (Elt F) Λ₀ .tc) α} :
    iprop(cown c MOut b kc fullShare G1 ∗ cown c M2 b kc q2 G2)
      ⊢ iprop((iprop(cown c MOut b kc fullShare (addf G1 G2) ∗ cown c M2 b kc q2 G2) -∗ WP (kk ⟨⟩) Q)
          -∗ WP (.op (.load MOut r.toLoadRect hl1) fun v1 => .op (.load M2 r.toLoadRect hl2) fun v2 =>
                .op (.load MOut r.toLoadRect hl3) fun _ => .op (.store MOut r (pay v1 v2) Finset.univ hx hm) kk) Q) := by
  subst hr
  iintro ⟨H1, H2⟩ Hk
  ihave H1' := (cown_open c MOut b kc fullShare G1) $$ H1
  icases H1' with ⟨%f1, %h1, H1⟩
  ihave H2' := (cown_open c M2 b kc q2 G2) $$ H2
  icases H2' with ⟨%f2, %h2, H2⟩
  iapply (wp_load_rect (defs := defs₀ (F := F)) 𝒱₀ (c : Thread nD τ) none Set.univ (Γ := .empty) (Q := Q)
    (m := MOut) (r := crect b kc) (hl := hl1) (q := fullShare) (f := f1) subset_rfl) $$ H1
  iintro H1
  rw [h1]
  iapply (wp_load_rect (defs := defs₀ (F := F)) 𝒱₀ (c : Thread nD τ) none Set.univ (Γ := .empty) (Q := Q)
    (m := M2) (r := crect b kc) (hl := hl2) (q := q2) (f := f2) subset_rfl) $$ H2
  iintro H2
  rw [h2]
  iapply (wp_load_rect (defs := defs₀ (F := F)) 𝒱₀ (c : Thread nD τ) none Set.univ (Γ := .empty) (Q := Q)
    (m := MOut) (r := crect b kc) (hl := hl3) (q := fullShare) (f := f1) subset_rfl) $$ H1
  iintro H1
  iapply (wp_store (defs := defs₀ (F := F)) 𝒱₀ (c : Thread nD τ) none Set.univ (Γ := .empty) (Q := Q)
    (m := MOut) (r := crect b kc) (Mk := Finset.univ) (hx := hx) (hm := hm) (k := kk) (f := f1)
    (S := (MOut.access (crect b kc)).set) (by rw [View.setOn_univ])) $$ H1
  iintro H1
  iapply Hk
  isplitl [H1]
  · iapply (cown_close c MOut b kc fullShare (addf G1 G2))
    iexists (MOut.access (crect b kc)).write (Elt F) f1
      (pay (fun j => G1 ((crect b kc).emb j)) (fun j => G2 ((crect b kc).emb j))) Finset.univ
    isplitr
    · ipureintro
      rw [View.read_write_univ, hpay]
      rfl
    · iexact H1
  · iapply (cown_close c M2 b kc q2 G2)
    iexists f2
    isplitr
    · ipureintro; exact h2
    · iexact H2

end Steps

end Cert.KernelIdeal.Ar

end
-- ==== Proof.Wrap.lean ====
import proofs.«900695_g7700000000000696_dist_ar_v7x_i8_i_m2048_n512_f32_1_alg».proof.Proof.StepsA
import proofs.«900695_g7700000000000696_dist_ar_v7x_i8_i_m2048_n512_f32_1_alg».proof.Proof.StepsB
import proofs.«900695_g7700000000000696_dist_ar_v7x_i8_i_m2048_n512_f32_1_alg».proof.Proof.StepsC
import proofs.«900695_g7700000000000696_dist_ar_v7x_i8_i_m2048_n512_f32_1_alg».proof.Proof.Data
import proofs.«900695_g7700000000000696_dist_ar_v7x_i8_i_m2048_n512_f32_1_alg».proof.Proof.Frame0

/-!
# The order of the protocol's steps, and the step lemmas in the form the printed body meets them

`prog` lists the protocol's steps of one device in program order, as the kernel's loops issue them (a handshake signal,
the handshake wait, a transfer, a wait on a receive cell, a wait on a send cell); `stAt n` is the protocol state after
the first `n` of them. The step lemmas are restated with every operand of the operation a variable tied by an equation,
and with the state before and after given explicitly, so that a printed instruction matches by name and every side
condition is a closed decidable fact.
-/

noncomputable section

namespace Cert.KernelIdeal.Ar

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The program's protocol steps -/

inductive PStep where
  | sig (j : Fin 3)
  | bar
  | send (b : Fin 3) (s : Fin 14)
  | rw (b : Fin 3) (s : Fin 14)
  | sw (b : Fin 3) (s : Fin 14)
  deriving DecidableEq

instance : DecidableEq PSt := fun a b => by
  rcases a with ⟨a1, a2, a3, a4, a5⟩; rcases b with ⟨b1, b2, b3, b4, b5⟩
  exact decidable_of_iff (a1 = b1 ∧ a2 = b2 ∧ a3 = b3 ∧ a4 = b4 ∧ a5 = b5)
    ⟨fun ⟨h1, h2, h3, h4, h5⟩ => by subst h1 h2 h3 h4 h5; rfl, fun h => by cases h; exact ⟨rfl, rfl, rfl, rfl, rfl⟩⟩

def PSt.step (σ : PSt) : PStep → PSt
  | .sig j => { σ with sig := insert j σ.sig }
  | .bar => { σ with bar := true }
  | .send b s => { σ with sent := insert (b, s) σ.sent }
  | .rw b s => { σ with rcv := insert (b, s) σ.rcv }
  | .sw b s => { σ with swt := insert (b, s) σ.swt }

def B3 : List (Fin 3) := [0, 1, 2]

/-- One device's protocol steps in program order: the handshake; the four first-stage transfers of each band; then, band
    by band within each phase, the receive waits each followed by the transfers it enables (the two third-stage waits
    also wait for the other third-stage transfer's departure before its source is overwritten); the last receive waits;
    and finally the departures of all other transfers, in the order the transfers were issued. -/
def prog : List PStep :=
  [.sig 0, .sig 1, .sig 2, .bar]
  ++ B3.flatMap (fun b => [.send b 0, .send b 1, .send b 2, .send b 3])
  ++ B3.flatMap (fun b => [.rw b 0, .send b 4])
  ++ B3.flatMap (fun b => [.rw b 1, .send b 5])
  ++ B3.flatMap (fun b => [.rw b 2, .rw b 3])
  ++ B3.flatMap (fun b => [.rw b 4, .send b 6])
  ++ B3.flatMap (fun b => [.rw b 5, .send b 7])
  ++ B3.flatMap (fun b => [.rw b 6, .sw b 7, .send b 9, .send b 11])
  ++ B3.flatMap (fun b => [.rw b 7, .sw b 6, .send b 8, .send b 10])
  ++ B3.flatMap (fun b => [.rw b 8, .send b 12])
  ++ B3.flatMap (fun b => [.rw b 9, .send b 13])
  ++ ([11, 10, 12, 13] : List (Fin 14)).flatMap (fun s => B3.map (fun b => .rw b s))
  ++ B3.flatMap (fun b => [.sw b 0, .sw b 1, .sw b 2, .sw b 3])
  ++ B3.map (fun b => .sw b 4) ++ B3.map (fun b => .sw b 5)
  ++ B3.flatMap (fun b => [.sw b 9, .sw b 11])
  ++ B3.flatMap (fun b => [.sw b 8, .sw b 10])
  ++ B3.map (fun b => .sw b 12) ++ B3.map (fun b => .sw b 13)

/-- The protocol state after the first `n` steps. -/
def stAt (n : ℕ) : PSt := (prog.take n).foldl PSt.step PSt.init

theorem prog_length : prog.length = 130 := by decide
theorem stAt_final : stAt 130 = PSt.final := by decide +kernel

/-- Step `n` of the program is `p`: then the state after it is the state before it, stepped. -/
theorem stAt_succ (n : ℕ) (p : PStep) (h : prog[n]? = some p) : stAt (n + 1) = (stAt n).step p := by
  unfold stAt
  rw [List.take_succ, List.foldl_append, h]
  rfl

/-! ## The step lemmas, operand by operand -/

section W

variable (K : Dev nD × CK → ℕ) (c : Dev nD)

local notation "WP" => wp frame (wpE (defs₀ (F := F)) 𝒱₀ (c : Thread nD τ) none) Set.univ

theorem step_signal' {α : Type} {Q : α → sProp 𝕄} (σ σ' : PSt) (j : Fin 3) (hσ : σ' = σ.step (.sig j)) (hj : j ∉ σ.sig)
    (n : Dev nD) (hn : n = xr c (bmask j)) (sm : Sem sig) (hsm : sm = barS) (a : ℕ) (ha : a = 1)
    {k : PUnit → Prog (TpuEff nD τ sig (Elt F) Λ₀ .tc) α} :
    iprop(Pers m K ∗ St c σ ∗ barPay (F := F) (xr c (bmask j)) j)
      ⊢ iprop((St c σ' -∗ WP (k ⟨⟩) Q) -∗ WP (.op (.semSignal ((n : Dev nD), Proc.tc) sm a) k) Q) := by
  subst hσ; subst hn; subst hsm; subst ha
  exact step_signal m K c σ j hj

theorem step_barwait' {α : Type} {Q : α → sProp 𝕄} (σ σ' : PSt) (hσ : σ' = σ.step .bar) (hs : σ.sig = Finset.univ) (hb : σ.bar = false)
    (sm : Sem sig) (hsm : sm = barS) (a : ℕ) (ha : a = 3) {k : PUnit → Prog (TpuEff nD τ sig (Elt F) Λ₀ .tc) α} :
    iprop(Pers m K ∗ St c σ)
      ⊢ iprop((iprop(St c σ' ∗ barPay (F := F) c 0 ∗ barPay (F := F) c 1 ∗ barPay (F := F) c 2) -∗ WP (k ⟨⟩) Q)
          -∗ WP (.op (.semWait sm a) k) Q) := by
  subst hσ; subst hsm; subst ha
  exact step_barwait m K c σ hs hb

theorem step_send' {α : Type} {Q : α → sProp 𝕄} (σ σ' : PSt) (b : Fin 3) (s : Fin 14) (hσ : σ' = σ.step (.send b s))
    (hs : (b, s) ∉ σ.sent) (hw : withSrc s = false)
    (sh : Shape) (hsh : sh = (crect b (xr c (cmask b s))).shape) (src dst : Memref sig .tc .vmem sh .f32)
    (hsrc : HEq src (chunkM (srcM s) b (xr c (cmask b s)))) (hdst : HEq dst (chunkM (dstM s) b (xr c (cmask b s))))
    (n : Dev nD) (hn : n = xr c (tmask b s)) (ss rs : DmaSem sig) (hss : ss = sendS b s) (hrs : rs = recvS b s)
    {hsc} {hse} {hde} {hsem} {k : PUnit → Prog (TpuEff nD τ sig (Elt F) Λ₀ .tc) α} :
    iprop(Pers m K ∗ St c σ ∗ cown c (srcM s) b (xr c (cmask b s)) (sshare s) (cval (Xof m) b s c)
        ∗ cownAny (F := F) (xr c (tmask b s)) (dstM s) b (xr c (cmask b s)))
      ⊢ iprop((St c σ' -∗ WP (k ⟨⟩) Q)
          -∗ WP (.op (.enqueueDma src (.remote (Dev.tc n : Thread nD τ) dst (.dma ss) hsc) (.dma rs) hse hde hsem) k) Q) := by
  subst hσ; subst hsh; subst hn; subst hss; subst hrs
  cases eq_of_heq hsrc; cases eq_of_heq hdst
  exact step_send m K c σ b s hs hw

theorem step_send_src' {α : Type} {Q : α → sProp 𝕄} (σ σ' : PSt) (b : Fin 3) (s : Fin 14) (hσ : σ' = σ.step (.send b s))
    (hs : (b, s) ∉ σ.sent) (hw : withSrc s = true)
    (sh : Shape) (hsh : sh = (crect b (xr c (cmask b s))).shape) (src dst : Memref sig .tc .vmem sh .f32)
    (hsrc : HEq src (chunkM (srcM s) b (xr c (cmask b s)))) (hdst : HEq dst (chunkM (dstM s) b (xr c (cmask b s))))
    (n : Dev nD) (hn : n = xr c (tmask b s)) (ss rs : DmaSem sig) (hss : ss = sendS b s) (hrs : rs = recvS b s)
    {hsc} {hse} {hde} {hsem} {k : PUnit → Prog (TpuEff nD τ sig (Elt F) Λ₀ .tc) α} :
    iprop(Pers m K ∗ St c σ ∗ cown c (srcM s) b (xr c (cmask b s)) fullShare (cval (Xof m) b s c)
        ∗ cownAny (F := F) (xr c (tmask b s)) (dstM s) b (xr c (cmask b s)))
      ⊢ iprop((St c σ' -∗ WP (k ⟨⟩) Q)
          -∗ WP (.op (.enqueueDma src (.remote (Dev.tc n : Thread nD τ) dst (.dma ss) hsc) (.dma rs) hse hde hsem) k) Q) := by
  subst hσ; subst hsh; subst hn; subst hss; subst hrs
  cases eq_of_heq hsrc; cases eq_of_heq hdst
  exact step_send_src m K c σ b s hs hw

/-- The landed chunk of a slot whose source stays with the sender. -/
theorem recvPay_plain (p : Dev nD) (b : Fin 3) (s : Fin 14) (hw : withSrc s = false) :
    (recvPay (Xof m) p b s : sProp 𝕄) ⊢ cown p (dstM s) b (xr p (rmask b s)) fullShare (cval (Xof m) b s (xr p (tmask b s))) := by
  unfold recvPay; rw [hw]
  iintro ⟨H, -⟩; iexact H

/-- The landed chunk and the sender's source chunk, for slots 4 and 5. -/
theorem recvPay_src (p : Dev nD) (b : Fin 3) (s : Fin 14) (hw : withSrc s = true) :
    (recvPay (Xof m) p b s : sProp 𝕄) ⊢ iprop(cown p (dstM s) b (xr p (rmask b s)) fullShare (cval (Xof m) b s (xr p (tmask b s)))
      ∗ cown (xr p (tmask b s)) MO b (xr p (rmask b s)) fullShare (cval (Xof m) b s (xr p (tmask b s)))) := by
  unfold recvPay; rw [hw]
  exact .rfl

theorem sendPay_plain (p : Dev nD) (b : Fin 3) (s : Fin 14) (hw : withSrc s = false) :
    (sendPay (Xof m) p b s : sProp 𝕄) ⊢ cown p (srcM s) b (xr p (cmask b s)) (sshare s) (cval (Xof m) b s p) := by
  unfold sendPay; rw [hw]; exact .rfl

theorem step_recvwait' {α : Type} {Q : α → sProp 𝕄} (σ σ' : PSt) (b : Fin 3) (s : Fin 14) (hσ : σ' = σ.step (.rw b s))
    (hr : (b, s) ∉ σ.rcv) (hsig : σ.sig = Finset.univ)
    (hlv : ∀ bs ∈ (Finset.univ \ σ.sent : Finset BS), 3 * wrank s + b.val < 3 * wrank bs.2 + bs.1.val)
    (sm : DmaSem sig) (hsm : sm = recvS b s) (k0 : Dev nD) (sh : Shape) (hsh : sh = (crect b k0).shape)
    (dst : Memref sig .tc .vmem sh .f32) (hdst : HEq dst (chunkM (dstM s) b k0))
    {sp' : Space} {s' : Shape} {e' : EltTy} {src : Memref sig .tc sp' s' e'} {hse} {hde}
    {k : PUnit → Prog (TpuEff nD τ sig (Elt F) Λ₀ .tc) α} :
    iprop(Pers m K ∗ St c σ)
      ⊢ iprop((iprop(St c σ' ∗ recvPay (Xof m) c b s) -∗ WP (k ⟨⟩) Q)
          -∗ WP (.op (.waitDma2 sm src dst hse hde) k) Q) := by
  subst hσ; subst hsm; subst hsh
  cases eq_of_heq hdst
  exact step_recvwait m K c σ b s hr hsig hlv k0

theorem step_sendwait' {α : Type} {Q : α → sProp 𝕄} (σ σ' : PSt) (b : Fin 3) (s : Fin 14) (hσ : σ' = σ.step (.sw b s))
    (hs : (b, s) ∈ σ.sent) (hw : (b, s) ∉ σ.swt) (hsig : σ.sig = Finset.univ)
    (sm : DmaSem sig) (hsm : sm = sendS b s) (k0 : Dev nD) (sh : Shape) (hsh : sh = (crect b k0).shape)
    (dst : Memref sig .tc .vmem sh .f32) (hdst : HEq dst (chunkM (dstM s) b k0))
    {sp' : Space} {s' : Shape} {e' : EltTy} {src : Memref sig .tc sp' s' e'} {hse} {hde}
    {k : PUnit → Prog (TpuEff nD τ sig (Elt F) Λ₀ .tc) α} :
    iprop(Pers m K ∗ St c σ)
      ⊢ iprop((iprop(St c σ' ∗ sendPay (Xof m) c b s) -∗ WP (k ⟨⟩) Q)
          -∗ WP (.op (.waitDma2 sm src dst hse hde) k) Q) := by
  subst hσ; subst hsm; subst hsh
  cases eq_of_heq hdst
  exact step_sendwait m K c σ b s hs hw hsig k0

end W

end Cert.KernelIdeal.Ar

end
-- ==== Proof.Lists.lean ====
import proofs.«900695_g7700000000000696_dist_ar_v7x_i8_i_m2048_n512_f32_1_alg».proof.Proof.Wrap

/-! Finite conjunctions written out: over the 24 chunks (band, offset) of a buffer, over the three bands, over the twelve
    transfers whose destination chunks one handshake signal carries, and over the chunks of each scratch buffer that some
    transfer lands in, each as an explicit chain. -/

noncomputable section

namespace Cert.KernelIdeal.Ar

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem bigSep_b3 (Φ : Fin 3 → sProp 𝕄) : bigSep Finset.univ Φ = iprop(Φ 0 ∗ Φ 1 ∗ Φ 2) :=
  bigSep_univ_eq_bigSepL [0, 1, 2] (by decide) (by decide) Φ

theorem bigSep_38 (Φ : Fin 3 × Fin 8 → sProp 𝕄) :
    bigSep Finset.univ Φ = iprop(Φ (0, 0) ∗ Φ (0, 1) ∗ Φ (0, 2) ∗ Φ (0, 3) ∗ Φ (0, 4) ∗ Φ (0, 5) ∗ Φ (0, 6) ∗ Φ (0, 7) ∗ Φ (1, 0) ∗ Φ (1, 1) ∗ Φ (1, 2) ∗ Φ (1, 3) ∗ Φ (1, 4) ∗ Φ (1, 5) ∗ Φ (1, 6) ∗ Φ (1, 7) ∗ Φ (2, 0) ∗ Φ (2, 1) ∗ Φ (2, 2) ∗ Φ (2, 3) ∗ Φ (2, 4) ∗ Φ (2, 5) ∗ Φ (2, 6) ∗ Φ (2, 7)) :=
  bigSep_univ_eq_bigSepL [(0, 0), (0, 1), (0, 2), (0, 3), (0, 4), (0, 5), (0, 6), (0, 7), (1, 0), (1, 1), (1, 2), (1, 3), (1, 4), (1, 5), (1, 6), (1, 7), (2, 0), (2, 1), (2, 2), (2, 3), (2, 4), (2, 5), (2, 6), (2, 7)] (by decide) (by decide) Φ

theorem handed_0 (Φ : Fin 3 × Fin 14 → sProp 𝕄) :
    bigSep (handed 0) Φ = iprop(Φ (0, 0) ∗ Φ (0, 1) ∗ Φ (0, 2) ∗ Φ (0, 3) ∗ Φ (0, 10) ∗ Φ (0, 11) ∗ Φ (0, 12) ∗ Φ (0, 13) ∗ Φ (1, 6) ∗ Φ (1, 7) ∗ Φ (2, 4) ∗ Φ (2, 5)) :=
  bigSep_eq_bigSepL_of_eq [(0, 0), (0, 1), (0, 2), (0, 3), (0, 10), (0, 11), (0, 12), (0, 13), (1, 6), (1, 7), (2, 4), (2, 5)] (by decide) (by decide) Φ

theorem handed_1 (Φ : Fin 3 × Fin 14 → sProp 𝕄) :
    bigSep (handed 1) Φ = iprop(Φ (0, 4) ∗ Φ (0, 5) ∗ Φ (1, 0) ∗ Φ (1, 1) ∗ Φ (1, 2) ∗ Φ (1, 3) ∗ Φ (1, 10) ∗ Φ (1, 11) ∗ Φ (1, 12) ∗ Φ (1, 13) ∗ Φ (2, 6) ∗ Φ (2, 7)) :=
  bigSep_eq_bigSepL_of_eq [(0, 4), (0, 5), (1, 0), (1, 1), (1, 2), (1, 3), (1, 10), (1, 11), (1, 12), (1, 13), (2, 6), (2, 7)] (by decide) (by decide) Φ

theorem handed_2 (Φ : Fin 3 × Fin 14 → sProp 𝕄) :
    bigSep (handed 2) Φ = iprop(Φ (0, 6) ∗ Φ (0, 7) ∗ Φ (1, 4) ∗ Φ (1, 5) ∗ Φ (2, 0) ∗ Φ (2, 1) ∗ Φ (2, 2) ∗ Φ (2, 3) ∗ Φ (2, 10) ∗ Φ (2, 11) ∗ Φ (2, 12) ∗ Φ (2, 13)) :=
  bigSep_eq_bigSepL_of_eq [(0, 6), (0, 7), (1, 4), (1, 5), (2, 0), (2, 1), (2, 2), (2, 3), (2, 10), (2, 11), (2, 12), (2, 13)] (by decide) (by decide) Φ

theorem usedR_0 (Φ : Fin 3 × Fin 8 → sProp 𝕄) :
    bigSep (usedR 0) Φ = iprop(Φ (0, 3) ∗ Φ (0, 7) ∗ Φ (0, 0) ∗ Φ (0, 4) ∗ Φ (1, 4) ∗ Φ (1, 5) ∗ Φ (1, 0) ∗ Φ (1, 1) ∗ Φ (2, 1) ∗ Φ (2, 2) ∗ Φ (2, 0) ∗ Φ (2, 3)) :=
  bigSep_eq_bigSepL_of_eq [(0, 3), (0, 7), (0, 0), (0, 4), (1, 4), (1, 5), (1, 0), (1, 1), (2, 1), (2, 2), (2, 0), (2, 3)] (by decide) (by decide) Φ

theorem usedR_1 (Φ : Fin 3 × Fin 8 → sProp 𝕄) :
    bigSep (usedR 1) Φ = iprop(Φ (0, 0) ∗ Φ (0, 4) ∗ Φ (1, 0) ∗ Φ (1, 1) ∗ Φ (2, 0) ∗ Φ (2, 3)) :=
  bigSep_eq_bigSepL_of_eq [(0, 0), (0, 4), (1, 0), (1, 1), (2, 0), (2, 3)] (by decide) (by decide) Φ

theorem usedR_2 (Φ : Fin 3 × Fin 8 → sProp 𝕄) :
    bigSep (usedR 2) Φ = iprop(Φ (0, 4) ∗ Φ (0, 0) ∗ Φ (1, 1) ∗ Φ (1, 0) ∗ Φ (2, 3) ∗ Φ (2, 0)) :=
  bigSep_eq_bigSepL_of_eq [(0, 4), (0, 0), (1, 1), (1, 0), (2, 3), (2, 0)] (by decide) (by decide) Φ

end Cert.KernelIdeal.Ar

end
-- ==== Proof.Wrap2.lean ====
import proofs.«900695_g7700000000000696_dist_ar_v7x_i8_i_m2048_n512_f32_1_alg».proof.Proof.Wrap
import proofs.«900695_g7700000000000696_dist_ar_v7x_i8_i_m2048_n512_f32_1_alg».proof.Proof.Lists
import Idealize.ShloMosaic.Lib.Pipeline.Value

/-!
# The step lemmas as the printed instructions spell their operands

A printed transfer names its source and destination as slices of a whole buffer at an offset the body computes from
the device id. Here each operand is spelt that way, with the buffer, the offset and the extent as variables, and
equations saying which chunk they are (the offset's closed form is one of the table's equations).
-/

noncomputable section

namespace Cert.KernelIdeal.Ar

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A rectangle at an offset and extent that are a chunk's is the chunk's rectangle. -/
theorem rect_eq (b : Fin 3) (kc : Dev nD) {off sz : Fin 2 → Nat} {inb} (hoff : off = coff b kc) (hsz : sz = csz b) :
    Rect.unit (s := S2048x512) off sz inb = crect b kc := by
  subst hoff; subst hsz; rfl

section W

variable (K : Dev nD × CK → ℕ) (c : Dev nD)

local notation "WP" => wp frame (wpE (defs₀ (F := F)) 𝒱₀ (c : Thread nD τ) none) Set.univ

theorem send_op {α : Type} {Q : α → sProp 𝕄} (σ σ' : PSt) (b : Fin 3) (s : Fin 14) (hσ : σ' = σ.step (.send b s))
    (hs : (b, s) ∉ σ.sent) (hw : withSrc s = false)
    (Ms Md : Memref sig .tc .vmem S2048x512 .f32) (hMs : Ms = srcM s) (hMd : Md = dstM s)
    {off sz off' : Fin 2 → Nat} {inb inb' hr hr'}
    (hoff : off = coff b (xr c (cmask b s))) (hsz : sz = csz b) (hoff' : off' = coff b (xr c (cmask b s)))
    (n : Dev nD) (hn : n = xr c (tmask b s)) (ss rs : DmaSem sig) (hss : ss = sendS b s) (hrs : rs = recvS b s)
    {hsc} {hse} {hde} {hsem} {k : PUnit → Prog (TpuEff nD τ sig (Elt F) Λ₀ .tc) α} :
    iprop(Pers m K ∗ St c σ ∗ cown c (srcM s) b (xr c (cmask b s)) (sshare s) (cval (Xof m) b s c)
        ∗ cownAny (F := F) (xr c (tmask b s)) (dstM s) b (xr c (cmask b s)))
      ⊢ iprop((St c σ' -∗ WP (k ⟨⟩) Q)
          -∗ WP (.op (.enqueueDma (Ms.slice (Rect.unit (s := S2048x512) off sz inb) hr)
                (.remote (Dev.tc n : Thread nD τ) (Md.slice (Rect.unit (s := S2048x512) off' sz inb') hr') (.dma ss) hsc)
                (.dma rs) hse hde hsem) k) Q) := by
  subst hσ; subst hMs; subst hMd; subst hoff; subst hoff'; subst hsz; subst hn; subst hss; subst hrs
  exact step_send m K c σ b s hs hw

theorem send_src_op {α : Type} {Q : α → sProp 𝕄} (σ σ' : PSt) (b : Fin 3) (s : Fin 14) (hσ : σ' = σ.step (.send b s))
    (hs : (b, s) ∉ σ.sent) (hw : withSrc s = true)
    (Ms Md : Memref sig .tc .vmem S2048x512 .f32) (hMs : Ms = srcM s) (hMd : Md = dstM s)
    {off sz off' : Fin 2 → Nat} {inb inb' hr hr'}
    (hoff : off = coff b (xr c (cmask b s))) (hsz : sz = csz b) (hoff' : off' = coff b (xr c (cmask b s)))
    (n : Dev nD) (hn : n = xr c (tmask b s)) (ss rs : DmaSem sig) (hss : ss = sendS b s) (hrs : rs = recvS b s)
    {hsc} {hse} {hde} {hsem} {k : PUnit → Prog (TpuEff nD τ sig (Elt F) Λ₀ .tc) α} :
    iprop(Pers m K ∗ St c σ ∗ cown c (srcM s) b (xr c (cmask b s)) fullShare (cval (Xof m) b s c)
        ∗ cownAny (F := F) (xr c (tmask b s)) (dstM s) b (xr c (cmask b s)))
      ⊢ iprop((St c σ' -∗ WP (k ⟨⟩) Q)
          -∗ WP (.op (.enqueueDma (Ms.slice (Rect.unit (s := S2048x512) off sz inb) hr)
                (.remote (Dev.tc n : Thread nD τ) (Md.slice (Rect.unit (s := S2048x512) off' sz inb') hr') (.dma ss) hsc)
                (.dma rs) hse hde hsem) k) Q) := by
  subst hσ; subst hMs; subst hMd; subst hoff; subst hoff'; subst hsz; subst hn; subst hss; subst hrs
  exact step_send_src m K c σ b s hs hw

theorem recv_op {α : Type} {Q : α → sProp 𝕄} (σ σ' : PSt) (b : Fin 3) (s : Fin 14) (hσ : σ' = σ.step (.rw b s))
    (hr : (b, s) ∉ σ.rcv) (hsig : σ.sig = Finset.univ)
    (hlv : ∀ bs ∈ (Finset.univ \ σ.sent : Finset BS), 3 * wrank s + b.val < 3 * wrank bs.2 + bs.1.val)
    (sm : DmaSem sig) (hsm : sm = recvS b s) (Md : Memref sig .tc .vmem S2048x512 .f32) (hMd : Md = dstM s) (k0 : Dev nD)
    {off sz : Fin 2 → Nat} {inb hrr} (hoff : off = coff b k0) (hsz : sz = csz b)
    {sp' : Space} {s' : Shape} {e' : EltTy} {src : Memref sig .tc sp' s' e'} {hse} {hde}
    {k : PUnit → Prog (TpuEff nD τ sig (Elt F) Λ₀ .tc) α} :
    iprop(Pers m K ∗ St c σ)
      ⊢ iprop((iprop(St c σ' ∗ recvPay (Xof m) c b s) -∗ WP (k ⟨⟩) Q)
          -∗ WP (.op (.waitDma2 sm src (Md.slice (Rect.unit (s := S2048x512) off sz inb) hrr) hse hde) k) Q) := by
  subst hσ; subst hsm; subst hMd; subst hoff; subst hsz
  exact step_recvwait m K c σ b s hr hsig hlv k0

theorem sendwait_op {α : Type} {Q : α → sProp 𝕄} (σ σ' : PSt) (b : Fin 3) (s : Fin 14) (hσ : σ' = σ.step (.sw b s))
    (hs : (b, s) ∈ σ.sent) (hw : (b, s) ∉ σ.swt) (hsig : σ.sig = Finset.univ)
    (sm : DmaSem sig) (hsm : sm = sendS b s) (Md : Memref sig .tc .vmem S2048x512 .f32) (hMd : Md = dstM s) (k0 : Dev nD)
    {off sz : Fin 2 → Nat} {inb hrr} (hoff : off = coff b k0) (hsz : sz = csz b)
    {sp' : Space} {s' : Shape} {e' : EltTy} {src : Memref sig .tc sp' s' e'} {hse} {hde}
    {k : PUnit → Prog (TpuEff nD τ sig (Elt F) Λ₀ .tc) α} :
    iprop(Pers m K ∗ St c σ)
      ⊢ iprop((iprop(St c σ' ∗ sendPay (Xof m) c b s) -∗ WP (k ⟨⟩) Q)
          -∗ WP (.op (.waitDma2 sm src (Md.slice (Rect.unit (s := S2048x512) off sz inb) hrr) hse hde) k) Q) := by
  subst hσ; subst hsm; subst hMd; subst hoff; subst hsz
  exact step_sendwait m K c σ b s hs hw hsig k0

/-- The wait on a send cell as the body prints it: its destination view is a chunk of the transfer's SOURCE buffer. -/
theorem sendwait_src_op {α : Type} {Q : α → sProp 𝕄} (σ σ' : PSt) (b : Fin 3) (s : Fin 14) (hσ : σ' = σ.step (.sw b s))
    (hs : (b, s) ∈ σ.sent) (hw : (b, s) ∉ σ.swt) (hsig : σ.sig = Finset.univ)
    (sm : DmaSem sig) (hsm : sm = sendS b s) (Ms : Memref sig .tc .vmem S2048x512 .f32) (hMs : Ms = srcM s) (k0 : Dev nD)
    {off sz : Fin 2 → Nat} {inb hrr} (hoff : off = coff b k0) (hsz : sz = csz b)
    {sp' : Space} {s' : Shape} {e' : EltTy} {src : Memref sig .tc sp' s' e'} {hse} {hde}
    {k : PUnit → Prog (TpuEff nD τ sig (Elt F) Λ₀ .tc) α} :
    iprop(Pers m K ∗ St c σ)
      ⊢ iprop((iprop(St c σ' ∗ sendPay (Xof m) c b s) -∗ WP (k ⟨⟩) Q)
          -∗ WP (.op (.waitDma2 sm src (Ms.slice (Rect.unit (s := S2048x512) off sz inb) hrr) hse hde) k) Q) := by
  subst hσ; subst hsm; subst hMs; subst hoff; subst hsz
  exact step_sendwait_srcbuf m K c σ b s hs hw hsig k0

/-- A chunk's contents restated. -/
theorem cown_val (p : Dev nD) (M : Memref sig .tc .vmem S2048x512 .f32) (b : Fin 3) (k : Dev nD) (q : PosShare TreeShare) {G G' : Arr F} (h : G = G') :
    (cown p M b k q G : sProp 𝕄) ⊢ cown p M b k q G' := by subst h; exact .rfl

end W

end Cert.KernelIdeal.Ar

end
-- ==== Proof.Body.lean ====
import proofs.«900695_g7700000000000696_dist_ar_v7x_i8_i_m2048_n512_f32_1_alg».proof.Proof.Wrap2
import proofs.«900695_g7700000000000696_dist_ar_v7x_i8_i_m2048_n512_f32_1_alg».proof.Proof.Lists
import proofs.«900695_g7700000000000696_dist_ar_v7x_i8_i_m2048_n512_f32_1_alg».proof.Proof.Gen.KernelIdeal.Skeleton
import proofs.«900695_g7700000000000696_dist_ar_v7x_i8_i_m2048_n512_f32_1_alg».proof.Proof.Gen.KernelIdeal.Points

/-!
# The body of the kernel, stepped from the initial state and chunks to the final ones

Masks per band (first, second, third stage): band 0: 1, 3, 4; band 1: 3, 4, 1; band 2: 4, 1, 3. A chunk is named by its
offset from the device (`c ⊕ h`): `X<b><h>` the input's, `O<b>a/b/c/d` the result buffer's chunks at offsets 0, m₂, m₃, m₂ ⊕ m₃
(the four the device fills or re-fills itself), `E<b>_<s>` the result chunks arriving in slot s from the first partner,
`R<b>_<s>` the scratch chunk slot s landed in, `D<b>_<s>` the destination chunk of the device's own transfer of slot s on
its partner, `P<b>_4/5` the second partner's result chunk that came with slots 4, 5. The body is walked in program order:
the handshake; the first-stage transfers; then wait, add, forward, stage by stage; then the all-gather; then the waits
for the departures.
-/

noncomputable section

namespace Cert.KernelIdeal.Ar

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Each payload function of the body is the elementwise sum of its two arguments. -/
local macro "paytac" : tactic => `(tactic| (intro u v; simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26]; exact congrArg (fun w => addf w v) (shapeCast_self u _)))

set_option hygiene false in
local macro "psig " n:num n':num j:num V:ident g:ident : tactic => `(tactic| (
  iapply (step_signal' m K c (stAt $n) (stAt $n') $j (stAt_succ $n _ (by decide)) (by decide +kernel) _ ($V c) _ rfl _ rfl) $$ [HS $g:ident]
  · isplitr
    · iexact HP
    isplitl [HS]
    · iexact HS
    iexact $g:ident
  iintro HS))

set_option hygiene false in
local macro "pbar " n:num n':num : tactic => `(tactic| (
  iapply (step_barwait' m K c (stAt $n) (stAt $n') (stAt_succ $n _ (by decide)) (by decide +kernel) (by decide +kernel) _ rfl _ rfl) $$ [HS]
  · isplitr
    · iexact HP
    iexact HS
  iintro ⟨HS, Hp0, Hp1, Hp2⟩))

set_option hygiene false in
local macro "psend " n:num n':num b:num s:num Ms:ident Md:ident E:ident V:ident x:ident d:ident : tactic => `(tactic| (
  iapply (send_op m K c (stAt $n) (stAt $n') $b $s (stAt_succ $n _ (by decide)) (by decide +kernel) rfl $Ms $Md rfl rfl ($E c) rfl ($E c) _ ($V c) _ _ rfl rfl) $$ [HS $x:ident $d:ident]
  · isplitr
    · iexact HP
    isplitl [HS]
    · iexact HS
    isplitl [$x:ident]
    · iexact $x:ident
    iexact $d:ident
  iintro HS))

set_option hygiene false in
local macro "psends " n:num n':num b:num s:num Ms:ident Md:ident E:ident V:ident x:ident d:ident : tactic => `(tactic| (
  iapply (send_src_op m K c (stAt $n) (stAt $n') $b $s (stAt_succ $n _ (by decide)) (by decide +kernel) rfl $Ms $Md rfl rfl ($E c) rfl ($E c) _ ($V c) _ _ rfl rfl) $$ [HS $x:ident $d:ident]
  · isplitr
    · iexact HP
    isplitl [HS]
    · iexact HS
    isplitl [$x:ident]
    · iexact $x:ident
    iexact $d:ident
  iintro HS))

set_option hygiene false in
local macro "precv " n:num n':num b:num s:num Md:ident E:ident r:ident : tactic => `(tactic| (
  iapply (recv_op m K c (stAt $n) (stAt $n') $b $s (stAt_succ $n _ (by decide)) (by decide +kernel) (by decide +kernel) (by decide +kernel) _ rfl $Md rfl (xr c (cmask $b $s)) ($E c) rfl) $$ [HS]
  · isplitr
    · iexact HP
    iexact HS
  iintro ⟨HS, Hpay⟩
  ihave $r:ident := (recvPay_plain m c $b $s rfl) $$ Hpay))

set_option hygiene false in
local macro "precvs " n:num n':num b:num s:num Md:ident E:ident r:ident p:ident : tactic => `(tactic| (
  iapply (recv_op m K c (stAt $n) (stAt $n') $b $s (stAt_succ $n _ (by decide)) (by decide +kernel) (by decide +kernel) (by decide +kernel) _ rfl $Md rfl (xr c (cmask $b $s)) ($E c) rfl) $$ [HS]
  · isplitr
    · iexact HP
    iexact HS
  iintro ⟨HS, Hpay⟩
  ihave Hpay := (recvPay_src m c $b $s rfl) $$ Hpay
  icases Hpay with ⟨$r:ident, $p:ident⟩))

set_option hygiene false in
local macro "pswait " n:num n':num b:num s:num Md:ident E:ident x:ident : tactic => `(tactic| (
  iapply (sendwait_src_op m K c (stAt $n) (stAt $n') $b $s (stAt_succ $n _ (by decide)) (by decide +kernel) (by decide +kernel) (by decide +kernel) _ rfl $Md rfl (xr c (cmask $b $s)) ($E c) rfl) $$ [HS]
  · isplitr
    · iexact HP
    iexact HS
  iintro ⟨HS, Hpay⟩
  ihave $x:ident := (sendPay_plain m c $b $s rfl) $$ Hpay))

set_option hygiene false in
local macro "pswait0 " n:num n':num b:num s:num Md:ident E:ident : tactic => `(tactic| (
  iapply (sendwait_src_op m K c (stAt $n) (stAt $n') $b $s (stAt_succ $n _ (by decide)) (by decide +kernel) (by decide +kernel) (by decide +kernel) _ rfl $Md rfl (xr c (cmask $b $s)) ($E c) rfl) $$ [HS]
  · isplitr
    · iexact HP
    iexact HS
  iintro ⟨HS, -⟩))

set_option hygiene false in
local macro "padd " b:num kc:term:max M1:ident M2:ident pay:term:max E:ident h1:ident h2:ident ho:ident : tactic => `(tactic| (
  iapply (step_add c $b $kc _ (rect_eq $b $kc ($E c) rfl) $M1 $M2 MO _ _ _ _ $pay (by paytac)) $$ [$h1:ident $h2:ident $ho:ident]
  · isplitl [$h1:ident]
    · iexact $h1:ident
    isplitl [$h2:ident]
    · iexact $h2:ident
    iexact $ho:ident
  iintro ⟨$h1:ident, $h2:ident, $ho:ident⟩))

set_option hygiene false in
local macro "pacc " b:num kc:term:max M2:ident pay:term:max E:ident ho:ident h2:ident : tactic => `(tactic| (
  iapply (step_acc c $b $kc _ (rect_eq $b $kc ($E c) rfl) $M2 MO _ _ _ $pay (by paytac)) $$ [$ho:ident $h2:ident]
  · isplitl [$ho:ident]
    · iexact $ho:ident
    iexact $h2:ident
  iintro ⟨$ho:ident, $h2:ident⟩))

set_option hygiene false in
local macro "phalve " b:num kc:term:max h:ident hL:ident hR:ident : tactic => `(tactic| (
  ihave Hhalf := ((cown_share c MO $b $kc _).1) $$ $h:ident
  icases Hhalf with ⟨$hL:ident, $hR:ident⟩))

set_option hygiene false in
local macro "pjoin " b:num kc:term:max hL:ident hR:ident h:ident : tactic => `(tactic| (
  ihave $h:ident := ((cown_share c MO $b $kc _).2) $$ [$hL:ident $hR:ident]
  · isplitl [$hL:ident]
    · iexact $hL:ident
    iexact $hR:ident))

set_option hygiene false in
local macro "pany " h:ident : tactic => `(tactic| (ihave $h:ident := (cown_any _ _ _ _ _) $$ $h:ident))

local macro "pex " h:ident : tactic => `(tactic| (isplitl [$h:ident]; iexact $h:ident))

/-- The finished sum of a device, restated at the offset its own chunks are filed under. -/
theorem A3_own (X : Dev nD → Arr F) (b : Fin 3) (c : Dev nD) (h : Fin 8) (hh : osrc b h = 0) :
    A3 X b c = A3 X b (xr c (osrc b h)) := by rw [hh, xr_zero]

/-- The finished sum that came through the first partner from its second partner, at the offset it is filed under. -/
theorem A3_fwd (X : Dev nD → Arr F) (b : Fin 3) (c : Dev nD) (h : Fin 8)
    (hh : ∀ c : Dev nD, xr (xr c (mk b 0)) (mk b 1) = xr c (osrc b h)) :
    A3 X b (xr (xr c (mk b 0)) (mk b 1)) = A3 X b (xr c (osrc b h)) := by rw [hh c]

/-- A handshake payload is the conjunction, over the transfers it serves, of their destination chunks. -/
theorem barPay_open (p : Dev nD) (j : Fin 3) :
    (barPay (F := F) p j : sProp 𝕄) ⊢ bigSep (handed j) (fun bs => cownAny (F := F) (xr p (bmask j)) (dstM bs.2) bs.1 (xr p (cmask bs.1 bs.2))) := by
  unfold barPay; exact .rfl

set_option maxRecDepth 65536 in
set_option maxHeartbeats 16000000 in
theorem body_core : BodyCore (F := F) m := by
  intro K c Kt
  unfold ChIn
  simp only [bigSep_38, bigSep_b3]
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel k0_part35_skel k0_part36_skel k0_part37_skel k0_part38_skel k0_part39_skel k0_part40_skel k0_part41_skel k0_part42_skel k0_part43_skel k0_part44_skel k0_part45_skel k0_part46_skel k0_part47_skel k0_part48_skel k0_part49_skel k0_part50_skel
  simp only [semSignalWord, semWaitWord, Prog.lift, Prog.bind_op, Prog.bind_ret, Prog.pure_eq_ret, wp_deviceId]
  iintro ⟨#HP, HS, ⟨⟨X00, X01, X02, X03, X04, X05, X06, X07, X10, X11, X12, X13, X14, X15, X16, X17, X20, X21, X22, X23, X24, X25, X26, X27⟩, ⟨⟨O0a, O0c, O0b, O0d⟩, ⟨O1a, O1c, O1b, O1d⟩, ⟨O2a, O2c, O2b, O2d⟩⟩, Hg0, Hg1, Hg2, Hrest⟩, Hk⟩

  -- the handshake: three signals, each carrying this device's chunks that partner's transfers land in; then the wait
  psig 0 1 0 dev1_eq Hg0
  psig 1 2 1 dev2_eq Hg1
  psig 2 3 2 dev3_eq Hg2
  pbar 3 4
  ihave Hp0 := (barPay_open c 0) $$ Hp0
  ihave Hp0 := (Entails.of_eq (handed_0 _)) $$ Hp0
  ihave Hp1 := (barPay_open c 1) $$ Hp1
  ihave Hp1 := (Entails.of_eq (handed_1 _)) $$ Hp1
  ihave Hp2 := (barPay_open c 2) $$ Hp2
  ihave Hp2 := (Entails.of_eq (handed_2 _)) $$ Hp2
  icases Hp0 with ⟨D0_0, D0_1, D0_2, D0_3, D0_10, D0_11, D0_12, D0_13, D1_6, D1_7, D2_4, D2_5⟩
  icases Hp1 with ⟨D0_4, D0_5, D1_0, D1_1, D1_2, D1_3, D1_10, D1_11, D1_12, D1_13, D2_6, D2_7⟩
  icases Hp2 with ⟨D0_6, D0_7, D1_4, D1_5, D2_0, D2_1, D2_2, D2_3, D2_10, D2_11, D2_12, D2_13⟩
  -- first stage: four chunks of the input to the first partner, per band
  psend 4 5 0 0 MX MR1 off1_0_1_3_eq dev4_eq X02 D0_0
  psend 5 6 0 1 MX MR1 off1_0_1_7_eq dev5_eq X06 D0_1
  psend 6 7 0 2 MX MR1 off1_0_1_0_eq dev6_eq X01 D0_2
  psend 7 8 0 3 MX MR1 off1_0_1_4_eq dev7_eq X05 D0_3
  psend 8 9 1 0 MX MR1 off2_3_4_eq dev8_eq X17 D1_0
  psend 9 10 1 1 MX MR1 off2_3_5_eq dev9_eq X16 D1_1
  psend 10 11 1 2 MX MR1 off2_3_0_eq dev10_eq X13 D1_2
  psend 11 12 1 3 MX MR1 off2_3_1_eq dev11_eq X12 D1_3
  psend 12 13 2 0 MX MR1 off1_1344_4_1_eq dev12_eq X25 D2_0
  psend 13 14 2 1 MX MR1 off1_1344_4_2_eq dev13_eq X26 D2_1
  psend 14 15 2 2 MX MR1 off1_1344_4_0_eq dev14_eq X24 D2_2
  psend 15 16 2 3 MX MR1 off1_1344_4_3_eq dev15_eq X27 D2_3
  -- slot 0 arrives: chunk ⊕ m₂ becomes x + r₁ and goes to the second partner with its source
  precv 16 17 0 0 MR1 off1_0_1_3_eq R0_0
  padd 0 (xr c 3) MX MR1 k0_pay1 off3_0_3_eq X03 R0_0 O0b
  psends 17 18 0 4 MO MR2 off4_0_3_eq dev16_eq O0b D0_4
  precv 18 19 1 0 MR1 off2_3_4_eq R1_0
  padd 1 (xr c 4) MX MR1 k0_pay2 off5_4_eq X14 R1_0 O1b
  psends 19 20 1 4 MO MR2 off6_4_eq dev17_eq O1b D1_4
  precv 20 21 2 0 MR1 off1_1344_4_1_eq R2_0
  padd 2 (xr c 1) MX MR1 k0_pay3 off3_1344_1_eq X21 R2_0 O2b
  psends 21 22 2 4 MO MR2 off4_1344_1_eq dev18_eq O2b D2_4
  -- slot 1 arrives: chunk ⊕ m₂ ⊕ m₃ likewise
  precv 22 23 0 1 MR1 off1_0_1_7_eq R0_1
  padd 0 (xr c 7) MX MR1 k0_pay4 off7_0_3_4_eq X07 R0_1 O0d
  psends 23 24 0 5 MO MR2 off1_0_3_4_eq dev19_eq O0d D0_5
  precv 24 25 1 1 MR1 off2_3_5_eq R1_1
  padd 1 (xr c 5) MX MR1 k0_pay5 off8_eq X15 R1_1 O1d
  psends 25 26 1 5 MO MR2 off2_4_1_eq dev20_eq O1d D1_5
  precv 26 27 2 1 MR1 off1_1344_4_2_eq R2_1
  padd 2 (xr c 2) MX MR1 (fun u v => k0_pay7 (k0_pay6 u) v) off7_1344_1_3_eq X22 R2_1 O2d
  psends 27 28 2 5 MO MR2 off1_1344_1_3_eq dev21_eq O2d D2_5
  -- slots 2, 3 arrive: the device's own chunk and chunk ⊕ m₃ become x + r₁
  precv 28 29 0 2 MR1 off1_0_1_0_eq R0_2
  padd 0 (xr c 0) MX MR1 k0_pay8 off3_0_0_eq X00 R0_2 O0a
  precv 29 30 0 3 MR1 off1_0_1_4_eq R0_3
  padd 0 (xr c 4) MX MR1 k0_pay9 off3_0_4_eq X04 R0_3 O0c
  precv 30 31 1 2 MR1 off2_3_0_eq R1_2
  padd 1 (xr c 0) MX MR1 k0_pay10 off5_0_eq X10 R1_2 O1a
  precv 31 32 1 3 MR1 off2_3_1_eq R1_3
  padd 1 (xr c 1) MX MR1 k0_pay11 off5_1_eq X11 R1_3 O1c
  precv 32 33 2 2 MR1 off1_1344_4_0_eq R2_2
  padd 2 (xr c 0) MX MR1 k0_pay12 off3_1344_0_eq X20 R2_2 O2a
  precv 33 34 2 3 MR1 off1_1344_4_3_eq R2_3
  padd 2 (xr c 3) MX MR1 k0_pay13 off3_1344_3_eq X23 R2_3 O2c
  -- slot 4 arrives (with the partner's source chunk): own chunk += r₂, on to the third partner
  precvs 34 35 0 4 MR2 off4_0_3_eq R0_4 P0_4
  pacc 0 (xr c 0) MR2 k0_pay14 off9_0_eq O0a R0_4
  psend 35 36 0 6 MO MR3 off10_0_eq dev22_eq O0a D0_6
  precvs 36 37 1 4 MR2 off6_4_eq R1_4 P1_4
  pacc 1 (xr c 0) MR2 k0_pay15 off11_eq O1a R1_4
  psend 37 38 1 6 MO MR3 off12_eq dev23_eq O1a D1_6
  precvs 38 39 2 4 MR2 off4_1344_1_eq R2_4 P2_4
  pacc 2 (xr c 0) MR2 k0_pay16 off9_1344_eq O2a R2_4
  psend 39 40 2 6 MO MR3 off10_1344_eq dev24_eq O2a D2_6
  -- slot 5 arrives: chunk ⊕ m₃ += r₂, on to the third partner
  precvs 40 41 0 5 MR2 off1_0_3_4_eq R0_5 P0_5
  pacc 0 (xr c 4) MR2 k0_pay17 off3_0_4_eq O0c R0_5
  psend 41 42 0 7 MO MR3 off4_0_4_eq dev25_eq O0c D0_7
  precvs 42 43 1 5 MR2 off2_4_1_eq R1_5 P1_5
  pacc 1 (xr c 1) MR2 k0_pay18 off5_1_eq O1c R1_5
  psend 43 44 1 7 MO MR3 off6_1_eq dev26_eq O1c D1_7
  precvs 44 45 2 5 MR2 off1_1344_1_3_eq R2_5 P2_5
  pacc 2 (xr c 3) MR2 k0_pay19 off3_1344_3_eq O2c R2_5
  psend 45 46 2 7 MO MR3 off4_1344_3_eq dev27_eq O2c D2_7

  -- slot 6 arrives and slot 7 has left: chunk ⊕ m₃ += r₃ is finished; it goes, shared, to the second and the first partner
  precv 46 47 0 6 MR3 off10_0_eq R0_6
  pswait 47 48 0 7 MO off4_0_4_eq O0c
  pacc 0 (xr c 4) MR3 k0_pay20 off3_0_4_eq O0c R0_6
  phalve 0 (xr c 4) O0c O0cL O0cR
  pany P0_5
  psend 48 49 0 9 MO MO off4_0_4_eq dev28_eq O0cL P0_5
  psend 49 50 0 11 MO MO off4_0_4_eq dev29_eq O0cR D0_11
  precv 50 51 1 6 MR3 off12_eq R1_6
  pswait 51 52 1 7 MO off6_1_eq O1c
  pacc 1 (xr c 1) MR3 k0_pay21 off5_1_eq O1c R1_6
  phalve 1 (xr c 1) O1c O1cL O1cR
  pany P1_5
  psend 52 53 1 9 MO MO off6_1_eq dev30_eq O1cL P1_5
  psend 53 54 1 11 MO MO off6_1_eq dev31_eq O1cR D1_11
  precv 54 55 2 6 MR3 off10_1344_eq R2_6
  pswait 55 56 2 7 MO off4_1344_3_eq O2c
  pacc 2 (xr c 3) MR3 (fun u v => k0_pay23 (k0_pay22 u) v) off3_1344_3_eq O2c R2_6
  phalve 2 (xr c 3) O2c O2cL O2cR
  pany P2_5
  psend 56 57 2 9 MO MO off4_1344_3_eq dev32_eq O2cL P2_5
  psend 57 58 2 11 MO MO off4_1344_3_eq dev33_eq O2cR D2_11
  -- slot 7 arrives and slot 6 has left: the device's own chunk += r₃ is finished; shared to the second and first partner
  precv 58 59 0 7 MR3 off4_0_4_eq R0_7
  pswait 59 60 0 6 MO off10_0_eq O0a
  pacc 0 (xr c 0) MR3 k0_pay24 off9_0_eq O0a R0_7
  phalve 0 (xr c 0) O0a O0aL O0aR
  pany P0_4
  psend 60 61 0 8 MO MO off10_0_eq dev34_eq O0aL P0_4
  psend 61 62 0 10 MO MO off10_0_eq dev35_eq O0aR D0_10
  precv 62 63 1 7 MR3 off6_1_eq R1_7
  pswait 63 64 1 6 MO off12_eq O1a
  pacc 1 (xr c 0) MR3 k0_pay25 off11_eq O1a R1_7
  phalve 1 (xr c 0) O1a O1aL O1aR
  pany P1_4
  psend 64 65 1 8 MO MO off12_eq dev36_eq O1aL P1_4
  psend 65 66 1 10 MO MO off12_eq dev37_eq O1aR D1_10
  precv 66 67 2 7 MR3 off4_1344_3_eq R2_7
  pswait 67 68 2 6 MO off10_1344_eq O2a
  pacc 2 (xr c 0) MR3 k0_pay26 off9_1344_eq O2a R2_7
  phalve 2 (xr c 0) O2a O2aL O2aR
  pany P2_4
  psend 68 69 2 8 MO MO off10_1344_eq dev38_eq O2aL P2_4
  psend 69 70 2 10 MO MO off10_1344_eq dev39_eq O2aR D2_10
  -- slots 8, 9 arrive from the second partner: forwarded to the first partner
  precv 70 71 0 8 MO off10_0_eq O0b
  psend 71 72 0 12 MO MO off4_0_3_eq dev40_eq O0b D0_12
  precv 72 73 1 8 MO off12_eq O1b
  psend 73 74 1 12 MO MO off6_4_eq dev41_eq O1b D1_12
  precv 74 75 2 8 MO off10_1344_eq O2b
  psend 75 76 2 12 MO MO off4_1344_1_eq dev42_eq O2b D2_12
  precv 76 77 0 9 MO off4_0_4_eq O0d
  psend 77 78 0 13 MO MO off1_0_3_4_eq dev43_eq O0d D0_13
  precv 78 79 1 9 MO off6_1_eq O1d
  psend 79 80 1 13 MO MO off2_4_1_eq dev44_eq O1d D1_13
  precv 80 81 2 9 MO off4_1344_3_eq O2d
  psend 81 82 2 13 MO MO off1_1344_1_3_eq dev45_eq O2d D2_13
  -- the four chunks from the first partner arrive
  precv 82 83 0 11 MO off4_0_4_eq E0_11
  precv 83 84 1 11 MO off6_1_eq E1_11
  precv 84 85 2 11 MO off4_1344_3_eq E2_11
  precv 85 86 0 10 MO off10_0_eq E0_10
  precv 86 87 1 10 MO off12_eq E1_10
  precv 87 88 2 10 MO off10_1344_eq E2_10
  precv 88 89 0 12 MO off4_0_3_eq E0_12
  precv 89 90 1 12 MO off6_4_eq E1_12
  precv 90 91 2 12 MO off4_1344_1_eq E2_12
  precv 91 92 0 13 MO off1_0_3_4_eq E0_13
  precv 92 93 1 13 MO off2_4_1_eq E1_13
  precv 93 94 2 13 MO off1_1344_1_3_eq E2_13
  -- every other transfer has left: the source chunks come back
  pswait 94 95 0 0 MX off1_0_1_3_eq X02
  pswait 95 96 0 1 MX off1_0_1_7_eq X06
  pswait 96 97 0 2 MX off1_0_1_0_eq X01
  pswait 97 98 0 3 MX off1_0_1_4_eq X05
  pswait 98 99 1 0 MX off2_3_4_eq X17
  pswait 99 100 1 1 MX off2_3_5_eq X16
  pswait 100 101 1 2 MX off2_3_0_eq X13
  pswait 101 102 1 3 MX off2_3_1_eq X12
  pswait 102 103 2 0 MX off1_1344_4_1_eq X25
  pswait 103 104 2 1 MX off1_1344_4_2_eq X26
  pswait 104 105 2 2 MX off1_1344_4_0_eq X24
  pswait 105 106 2 3 MX off1_1344_4_3_eq X27
  pswait0 106 107 0 4 MO off4_0_3_eq
  pswait0 107 108 1 4 MO off6_4_eq
  pswait0 108 109 2 4 MO off4_1344_1_eq
  pswait0 109 110 0 5 MO off1_0_3_4_eq
  pswait0 110 111 1 5 MO off2_4_1_eq
  pswait0 111 112 2 5 MO off1_1344_1_3_eq
  pswait 112 113 0 9 MO off4_0_4_eq O0cL
  pswait 113 114 0 11 MO off4_0_4_eq O0cR
  pswait 114 115 1 9 MO off6_1_eq O1cL
  pswait 115 116 1 11 MO off6_1_eq O1cR
  pswait 116 117 2 9 MO off4_1344_3_eq O2cL
  pswait 117 118 2 11 MO off4_1344_3_eq O2cR
  pswait 118 119 0 8 MO off10_0_eq O0aL
  pswait 119 120 0 10 MO off10_0_eq O0aR
  pswait 120 121 1 8 MO off12_eq O1aL
  pswait 121 122 1 10 MO off12_eq O1aR
  pswait 122 123 2 8 MO off10_1344_eq O2aL
  pswait 123 124 2 10 MO off10_1344_eq O2aR
  pswait 124 125 0 12 MO off4_0_3_eq O0b
  pswait 125 126 1 12 MO off6_4_eq O1b
  pswait 126 127 2 12 MO off4_1344_1_eq O2b
  pswait 127 128 0 13 MO off1_0_3_4_eq O0d
  pswait 128 129 1 13 MO off2_4_1_eq O1d
  pswait 129 130 2 13 MO off1_1344_1_3_eq O2d

  -- the two halves of each finished chunk are one chunk again
  pjoin 0 (xr c 0) O0aL O0aR O0a
  pjoin 0 (xr c 4) O0cL O0cR O0c
  pjoin 1 (xr c 0) O1aL O1aR O1a
  pjoin 1 (xr c 1) O1cL O1cR O1c
  pjoin 2 (xr c 0) O2aL O2aR O2a
  pjoin 2 (xr c 3) O2cL O2cR O2c
  -- the device's own finished sums, and those forwarded by the first partner, at the offsets they are filed under
  ihave O0a := (cown_val c MO 0 (xr c 0) fullShare (G := cval (Xof m) 0 8 c) (A3_own (Xof m) 0 c 0 (by decide))) $$ O0a
  ihave O0c := (cown_val c MO 0 (xr c 4) fullShare (G := cval (Xof m) 0 9 c) (A3_own (Xof m) 0 c 4 (by decide))) $$ O0c
  ihave O1a := (cown_val c MO 1 (xr c 0) fullShare (G := cval (Xof m) 1 8 c) (A3_own (Xof m) 1 c 0 (by decide))) $$ O1a
  ihave O1c := (cown_val c MO 1 (xr c 1) fullShare (G := cval (Xof m) 1 9 c) (A3_own (Xof m) 1 c 1 (by decide))) $$ O1c
  ihave O2a := (cown_val c MO 2 (xr c 0) fullShare (G := cval (Xof m) 2 8 c) (A3_own (Xof m) 2 c 0 (by decide))) $$ O2a
  ihave O2c := (cown_val c MO 2 (xr c 3) fullShare (G := cval (Xof m) 2 9 c) (A3_own (Xof m) 2 c 3 (by decide))) $$ O2c
  ihave E0_12 := (cown_val c (dstM 12) 0 (xr c (rmask 0 12)) fullShare (G := cval (Xof m) 0 12 (xr c (tmask 0 12))) (A3_fwd (Xof m) 0 c 2 (by decide))) $$ E0_12
  ihave E0_13 := (cown_val c (dstM 13) 0 (xr c (rmask 0 13)) fullShare (G := cval (Xof m) 0 13 (xr c (tmask 0 13))) (A3_fwd (Xof m) 0 c 6 (by decide))) $$ E0_13
  ihave E1_12 := (cown_val c (dstM 12) 1 (xr c (rmask 1 12)) fullShare (G := cval (Xof m) 1 12 (xr c (tmask 1 12))) (A3_fwd (Xof m) 1 c 7 (by decide))) $$ E1_12
  ihave E1_13 := (cown_val c (dstM 13) 1 (xr c (rmask 1 13)) fullShare (G := cval (Xof m) 1 13 (xr c (tmask 1 13))) (A3_fwd (Xof m) 1 c 6 (by decide))) $$ E1_13
  ihave E2_12 := (cown_val c (dstM 12) 2 (xr c (rmask 2 12)) fullShare (G := cval (Xof m) 2 12 (xr c (tmask 2 12))) (A3_fwd (Xof m) 2 c 5 (by decide))) $$ E2_12
  ihave E2_13 := (cown_val c (dstM 13) 2 (xr c (rmask 2 13)) fullShare (G := cval (Xof m) 2 13 (xr c (tmask 2 13))) (A3_fwd (Xof m) 2 c 6 (by decide))) $$ E2_13
  -- the scratch chunks, at whatever landed in them
  pany R0_0
  pany R0_1
  pany R0_2
  pany R0_3
  pany R0_4
  pany R0_5
  pany R0_6
  pany R0_7
  pany R1_0
  pany R1_1
  pany R1_2
  pany R1_3
  pany R1_4
  pany R1_5
  pany R1_6
  pany R1_7
  pany R2_0
  pany R2_1
  pany R2_2
  pany R2_3
  pany R2_4
  pany R2_5
  pany R2_6
  pany R2_7
  -- the body returns: the final state and the final chunks
  rw [wp_ret]
  imodintro
  iapply Hk
  ihave HS := (Entails.of_eq (congrArg (St c) stAt_final)) $$ HS
  isplitl [HS]
  · iexact HS
  unfold ChOut
  simp only [bigSep_38, bigSep_b3, usedR_0, usedR_1, usedR_2]
  isplitl [X00 X01 X02 X03 X04 X05 X06 X07 X10 X11 X12 X13 X14 X15 X16 X17 X20 X21 X22 X23 X24 X25 X26 X27]
  · pex X00
    pex X01
    pex X02
    pex X03
    pex X04
    pex X05
    pex X06
    pex X07
    pex X10
    pex X11
    pex X12
    pex X13
    pex X14
    pex X15
    pex X16
    pex X17
    pex X20
    pex X21
    pex X22
    pex X23
    pex X24
    pex X25
    pex X26
    iexact X27
  isplitl [O0a E0_10 E0_12 O0b O0c E0_11 E0_13 O0d O1a O1c E1_11 E1_10 O1b O1d E1_13 E1_12 O2a O2b O2d O2c E2_10 E2_12 E2_13 E2_11]
  · pex O0a
    pex E0_10
    pex E0_12
    pex O0b
    pex O0c
    pex E0_11
    pex E0_13
    pex O0d
    pex O1a
    pex O1c
    pex E1_11
    pex E1_10
    pex O1b
    pex O1d
    pex E1_13
    pex E1_12
    pex O2a
    pex O2b
    pex O2d
    pex O2c
    pex E2_10
    pex E2_12
    pex E2_13
    iexact E2_11
  isplitl [R0_0 R0_1 R0_2 R0_3 R1_0 R1_1 R1_2 R1_3 R2_0 R2_1 R2_2 R2_3 R0_4 R0_5 R1_4 R1_5 R2_4 R2_5 R0_6 R0_7 R1_6 R1_7 R2_6 R2_7]
  · isplitl [R0_0 R0_1 R0_2 R0_3 R1_0 R1_1 R1_2 R1_3 R2_0 R2_1 R2_2 R2_3]
    · pex R0_0
      pex R0_1
      pex R0_2
      pex R0_3
      pex R1_0
      pex R1_1
      pex R1_2
      pex R1_3
      pex R2_0
      pex R2_1
      pex R2_2
      iexact R2_3
    isplitl [R0_4 R0_5 R1_4 R1_5 R2_4 R2_5]
    · pex R0_4
      pex R0_5
      pex R1_4
      pex R1_5
      pex R2_4
      iexact R2_5
    pex R0_6
    pex R0_7
    pex R1_6
    pex R1_7
    pex R2_6
    iexact R2_7
  iexact Hrest

/-- info: 'Cert.KernelIdeal.Ar.body_core' depends on axioms: [propext, Classical.choice, Quot.sound] -/
#guard_msgs in #print axioms body_core

end Cert.KernelIdeal.Ar

end
-- ==== Proof.StepsBK.lean ====
import proofs.«900695_g7700000000000696_dist_ar_v7x_i8_i_m2048_n512_f32_1_alg».proof.Proof.ProtoK
import proofs.«900695_g7700000000000696_dist_ar_v7x_i8_i_m2048_n512_f32_1_alg».proof.Proof.TablesK

/-!
# Issuing a transfer

The two forms of the transfer step: the source chunk back with the send cell's wait, or travelling with the landing (slots 4, 5).
-/

noncomputable section

namespace Cert.Kernel.Ar

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The mesh: where a transfer's chunk and sender are, seen from the receiver -/

/-- The chunk a transfer lands in, named from the receiver, is the chunk it carries, named from the sender. -/
theorem xr_rmask : ∀ (c : Dev nD) (b : Fin 3) (s : Fin 14), xr (xr c (tmask b s)) (rmask b s) = xr c (cmask b s) := by decide

/-- The receiver's partner of a slot is the sender. -/
theorem xr_tmask_back (c : Dev nD) (b : Fin 3) (s : Fin 14) : xr (xr c (tmask b s)) (tmask b s) = c := xr_xr c (tmask b s)

/-- Only slots 4 and 5 carry their source chunk along; they read the result buffer. -/
theorem withSrc_cases : ∀ s : Fin 14, withSrc s = true → s = 4 ∨ s = 5 := by decide

/-! ## What is owed before and after a transfer is issued -/

section Owed
variable (c : Dev nD) (σ : PSt)

theorem owed_send (b : Fin 3) (s : Fin 14) (hs : (b, s) ∉ σ.sent) :
    owedRecv c (Finset.univ \ σ.sent) + owedBar c (Finset.univ \ σ.sig)
      = (owedRecv c (Finset.univ \ insert (b, s) σ.sent) + owedBar c (Finset.univ \ σ.sig))
        + tallyAt (recvCell (xr c (tmask b s)) b s) () (Namt b s) := by
  have hmem : (b, s) ∈ Finset.univ \ σ.sent := Finset.mem_sdiff.mpr ⟨Finset.mem_univ _, hs⟩
  unfold owedRecv
  rw [Finset.sdiff_insert, add_right_comm, Finset.sum_erase_add _ _ hmem]

end Owed

/-! ## The persistent records at one cell -/

section Recs
variable (K : Dev nD × CK → ℕ)

theorem Pers_inv (ck : Dev nD × CK) : Pers m K ⊢ cellInv ER (Rd m) (K ck) (kcell ck) := by
  have h : (bigSep Finset.univ fun ck : Dev nD × CK => cellInv ER (Rd m) (K ck) (kcell ck))
      ⊢ cellInv ER (Rd m) (K ck) (kcell ck) := bigSep_elim (Finset.mem_univ ck)
  unfold Pers records
  iintro ⟨⟨H, -⟩, -⟩
  iapply h $$ H

theorem Pers_reached (ck : Dev nD × CK) : Pers m K ⊢ (reached ER (kcell ck) 0 : sProp 𝕄) := by
  have h : (bigSep Finset.univ fun ck : Dev nD × CK => (reached ER (kcell ck) 0 : sProp 𝕄))
      ⊢ reached ER (kcell ck) 0 := bigSep_elim (Finset.mem_univ ck)
  unfold Pers records
  iintro ⟨⟨-, H⟩, -⟩
  iapply h $$ H

end Recs
/-! ## The bookkeeping of a transfer: what the step takes out of the state, and how the state closes again -/

/-- One more summand joins an iterated separating conjunction. -/
theorem bigSep_put_send {I : Type} [DecidableEq I] {A : Finset I} {i : I} (hi : i ∉ A) (Φ : I → sProp 𝕄) :
    iprop(Φ i ∗ bigSep A Φ) ⊢ bigSep (insert i A) Φ :=
  Entails.of_eq (bigSep_insert hi).symm

section Book
variable (c : Dev nD) (σ : PSt)

/-- Issuing transfer `(b, s)`: the state gives the owes term and the two tokens of the transfer's duties, and closes again at
    the state with the transfer issued from the send cell's credit and the owes term less the landing. -/
theorem St_send (b : Fin 3) (s : Fin 14) (hs : (b, s) ∉ σ.sent) :
    (St c σ : sProp 𝕄) ⊢ iprop(∃ W, owes (c : Thread nD τ) (owedRecv c (Finset.univ \ σ.sent) + owedBar c (Finset.univ \ σ.sig)) W
        ∗ dutyTok ER (sendCell c b s) 0 (0 : Fin 3) ∗ dutyTok ER (recvCell (xr c (tmask b s)) b s) 0 (0 : Fin 3)
        ∗ ((cred (tallyAt (sendCell c b s) () (Namt b s))
              ∗ owes (c : Thread nD τ) (owedRecv c (Finset.univ \ insert (b, s) σ.sent) + owedBar c (Finset.univ \ σ.sig)) W)
            -∗ St c { σ with sent := insert (b, s) σ.sent })) := by
  have hmem : (b, s) ∈ Finset.univ \ σ.sent := Finset.mem_sdiff.mpr ⟨Finset.mem_univ _, hs⟩
  unfold St
  iintro ⟨⟨%W, HO⟩, Hsig, Htok, Hcr, Hrest⟩
  ihave Htok' := (bigSep_pick hmem) $$ Htok
  icases Htok' with ⟨⟨Ht1, Ht2⟩, Htok⟩
  iexists W
  isplitl [HO]; · iexact HO
  isplitl [Ht1]; · iexact Ht1
  isplitl [Ht2]; · iexact Ht2
  iintro ⟨Hc, HO⟩
  dsimp only
  isplitl [HO]; · iexists W; iexact HO
  isplitl [Hsig]; · iexact Hsig
  isplitl [Htok]; · rw [Finset.sdiff_insert]; iexact Htok
  isplitl [Hcr Hc]
  · by_cases hw : (b, s) ∈ σ.swt
    · rw [Finset.insert_sdiff_of_mem _ hw]; iexact Hcr
    · rw [Finset.insert_sdiff_of_notMem _ hw]
      iapply (bigSep_put_send (fun h => hs (Finset.mem_sdiff.mp h).1)
        (fun bs : BS => (cred (tallyAt (sendCell c bs.1 bs.2) () (Namt bs.1 bs.2)) : sProp 𝕄)))
      isplitl [Hc]; · iexact Hc
      iexact Hcr
  iexact Hrest

end Book

/-! ## The payloads a transfer's two cells are paid with -/

section Pay
variable (c : Dev nD) (b : Fin 3) (s : Fin 14)

/-- The source chunk's elements, reading the sender's value, are the send cell's payload. -/
theorem sendPay_of_src (hw : withSrc s = false)
    (fs : Buf (Elt F) ((chunkM (srcM s) b (xr c (cmask b s))).view.loc (c : Thread nD τ)))
    (hfs : (chunkM (srcM s) b (xr c (cmask b s))).view.read (Elt F) fs
      = fun j => cval (Xof m) b s c ((crect b (xr c (cmask b s))).emb j)) :
    ((chunkM (srcM s) b (xr c (cmask b s))).view.loc (c : Thread nD τ) ↦[(chunkM (srcM s) b (xr c (cmask b s))).view.set]{sshare s} fs : sProp 𝕄)
      ⊢ (Rd m).payload (sendCell c b s) 0 (0 : Fin 3) := by
  rw [payload_send]; unfold sendPay; rw [hw, if_neg Bool.false_ne_true]
  unfold cown owns
  iintro H; iexists fs
  isplitr; · ipureintro; exact hfs
  iexact H

/-- The destination chunk rewritten by the transfer reads the sender's value: the partner's receive payload. -/
theorem recvPay_of_landed (hw : withSrc s = false)
    (fs : Buf (Elt F) ((chunkM (srcM s) b (xr c (cmask b s))).view.loc (c : Thread nD τ)))
    (hfs : (chunkM (srcM s) b (xr c (cmask b s))).view.read (Elt F) fs
      = fun j => cval (Xof m) b s c ((crect b (xr c (cmask b s))).emb j))
    (fd : Buf (Elt F) ((chunkM (dstM s) b (xr c (cmask b s))).view.loc (Dev.tc (xr c (tmask b s)) : Thread nD τ))) :
    ((chunkM (dstM s) b (xr c (cmask b s))).view.loc (Dev.tc (xr c (tmask b s)) : Thread nD τ)
        ↦[(chunkM (dstM s) b (xr c (cmask b s))).view.set]{fullShare}
        ((chunkM (dstM s) b (xr c (cmask b s))).view.write (Elt F) fd
          ((chunkM (srcM s) b (xr c (cmask b s))).view.read (Elt F) fs) Finset.univ) : sProp 𝕄)
      ⊢ (Rd m).payload (recvCell (xr c (tmask b s)) b s) 0 (0 : Fin 3) := by
  rw [payload_recv]; unfold recvPay; rw [hw, if_neg Bool.false_ne_true, xr_rmask, xr_tmask_back]
  unfold cown owns
  iintro H
  isplitl [H]
  · iexists ((chunkM (dstM s) b (xr c (cmask b s))).view.write (Elt F) fd
          ((chunkM (srcM s) b (xr c (cmask b s))).view.read (Elt F) fs) Finset.univ)
    isplitr; · ipureintro; rw [View.read_write_univ]; exact hfs
    iexact H
  · iempintro

end Pay

section PaySrc
variable (c : Dev nD) (b : Fin 3) (s : Fin 14)

/-- The slots that carry their source chunk along read it from the result buffer. -/
theorem srcM_of_withSrc (hw : withSrc s = true) : srcM s = MO := by
  rcases withSrc_cases s hw with rfl | rfl <;> rfl

/-- Nothing is the send cell's payload when the source chunk travels with the landing. -/
theorem sendPay_of_emp (hw : withSrc s = true) : (emp : sProp 𝕄) ⊢ (Rd m).payload (sendCell c b s) 0 (0 : Fin 3) := by
  rw [payload_send]; unfold sendPay; rw [hw, if_pos rfl]

/-- The destination chunk rewritten by the transfer, with the source chunk whole: the partner's receive payload of slots 4, 5. -/
theorem recvPay_of_landed_src (hw : withSrc s = true)
    (fs : Buf (Elt F) ((chunkM (srcM s) b (xr c (cmask b s))).view.loc (c : Thread nD τ)))
    (hfs : (chunkM (srcM s) b (xr c (cmask b s))).view.read (Elt F) fs
      = fun j => cval (Xof m) b s c ((crect b (xr c (cmask b s))).emb j))
    (fd : Buf (Elt F) ((chunkM (dstM s) b (xr c (cmask b s))).view.loc (Dev.tc (xr c (tmask b s)) : Thread nD τ))) :
    iprop(((chunkM (dstM s) b (xr c (cmask b s))).view.loc (Dev.tc (xr c (tmask b s)) : Thread nD τ)
        ↦[(chunkM (dstM s) b (xr c (cmask b s))).view.set]{fullShare}
        ((chunkM (dstM s) b (xr c (cmask b s))).view.write (Elt F) fd
          ((chunkM (srcM s) b (xr c (cmask b s))).view.read (Elt F) fs) Finset.univ))
      ∗ ((chunkM (srcM s) b (xr c (cmask b s))).view.loc (c : Thread nD τ) ↦[(chunkM (srcM s) b (xr c (cmask b s))).view.set]{fullShare} fs) : sProp 𝕄)
      ⊢ (Rd m).payload (recvCell (xr c (tmask b s)) b s) 0 (0 : Fin 3) := by
  rw [payload_recv]; unfold recvPay; rw [hw, if_pos rfl, xr_rmask, xr_tmask_back, ← srcM_of_withSrc s hw]
  unfold cown owns
  iintro ⟨Hd, Hs⟩
  isplitl [Hd]
  · iexists ((chunkM (dstM s) b (xr c (cmask b s))).view.write (Elt F) fd
          ((chunkM (srcM s) b (xr c (cmask b s))).view.read (Elt F) fs) Finset.univ)
    isplitr; · ipureintro; rw [View.read_write_univ]; exact hfs
    iexact Hd
  · iexists fs
    isplitr; · ipureintro; exact hfs
    iexact Hs

end PaySrc

/-! ## The two steps -/

section Steps

variable (K : Dev nD × CK → ℕ) (c : Dev nD) (σ : PSt)

local notation "WP" => wp frame (wpE (defs₀ (F := F)) 𝒱₀ (c : Thread nD τ) none) Set.univ

/-- A transfer whose source chunk comes back with the send cell's wait. -/
theorem step_send {α : Type} {Q : α → sProp 𝕄} (b : Fin 3) (s : Fin 14) (hs : (b, s) ∉ σ.sent) (hw : withSrc s = false)
    {hsc} {hse} {hde} {hsem} {k : PUnit → Prog (TpuEff nD τ sig (Elt F) Λ₀ .tc) α} :
    iprop(Pers m K ∗ St c σ ∗ cown c (srcM s) b (xr c (cmask b s)) (sshare s) (cval (Xof m) b s c)
        ∗ cownAny (F := F) (xr c (tmask b s)) (dstM s) b (xr c (cmask b s)))
      ⊢ iprop((St c { σ with sent := insert (b, s) σ.sent } -∗ WP (k ⟨⟩) Q)
          -∗ WP (.op (.enqueueDma (chunkM (srcM s) b (xr c (cmask b s)))
                (.remote (Dev.tc (xr c (tmask b s)) : Thread nD τ) (chunkM (dstM s) b (xr c (cmask b s))) (.dma (sendS b s)) hsc)
                (.dma (recvS b s)) hse hde hsem) k) Q) := by
  unfold cown cownAny cown owns
  iintro ⟨#HP, HSt, ⟨%fs, %hfs, Hsrc⟩, ⟨%G, %fd, %hfd, Hdst⟩⟩ Hk
  ihave HSt' := (St_send c σ b s hs) $$ HSt
  icases HSt' with ⟨%W, HO, Ht1, Ht2, Hput⟩
  iapply (Rounds.wp_send_pointsTo 𝒱₀ ER (Rd m) (c : Thread nD τ) none
      (c' := (Dev.tc (xr c (tmask b s)) : Thread nD τ))
      (src := chunkM (srcM s) b (xr c (cmask b s))) (dst := chunkM (dstM s) b (xr c (cmask b s)))
      (q := sshare s) (fs := fs) (fd := fd)
      (κ₁ := K (c, .inr (.inl (b, s)))) (κ₂ := K (xr c (tmask b s), .inr (.inr (b, s))))
      (r₁ := 0) (r₂ := 0) (d₁ := (0 : Fin 3)) (d₂ := (0 : Fin 3))
      (by rw [duties_send]; exact Finset.mem_singleton_self _) (by rw [duties_recv]; exact Finset.mem_singleton_self _)
      () () (Namt b s) (amount_dst b s _ _) (amount_send m c b s 0) (amount_recv m (xr c (tmask b s)) b s 0)
      (owedRecv c (Finset.univ \ insert (b, s) σ.sent) + owedBar c (Finset.univ \ σ.sig)) (owed_send c σ b s hs) (W := W)
      (sendPay_of_src m c b s hw fs hfs) (recvPay_of_landed m c b s hw fs hfs fd)) $$ [HO Ht1 Ht2 Hsrc Hdst]
  · isplitr; · iapply (Pers_inv m K (c, .inr (.inl (b, s)))); iexact HP
    isplitr; · iapply (Pers_inv m K (xr c (tmask b s), .inr (.inr (b, s)))); iexact HP
    isplitl [Hsrc]; · iexact Hsrc
    isplitl [Hdst]; · iexact Hdst
    isplitl [HO]; · iexact HO
    isplitl [Ht1]; · iexact Ht1
    isplitr; · iapply (Pers_reached m K (c, .inr (.inl (b, s)))); iexact HP
    isplitl [Ht2]; · iexact Ht2
    iapply (Pers_reached m K (xr c (tmask b s), .inr (.inr (b, s)))); iexact HP
  iintro ⟨Hc, HO⟩
  iapply Hk
  iapply Hput
  isplitl [Hc]; · iexact Hc
  iexact HO

/-- A transfer of slot 4 or 5: the source chunk travels with the landing. -/
theorem step_send_src {α : Type} {Q : α → sProp 𝕄} (b : Fin 3) (s : Fin 14) (hs : (b, s) ∉ σ.sent) (hw : withSrc s = true)
    {hsc} {hse} {hde} {hsem} {k : PUnit → Prog (TpuEff nD τ sig (Elt F) Λ₀ .tc) α} :
    iprop(Pers m K ∗ St c σ ∗ cown c (srcM s) b (xr c (cmask b s)) fullShare (cval (Xof m) b s c)
        ∗ cownAny (F := F) (xr c (tmask b s)) (dstM s) b (xr c (cmask b s)))
      ⊢ iprop((St c { σ with sent := insert (b, s) σ.sent } -∗ WP (k ⟨⟩) Q)
          -∗ WP (.op (.enqueueDma (chunkM (srcM s) b (xr c (cmask b s)))
                (.remote (Dev.tc (xr c (tmask b s)) : Thread nD τ) (chunkM (dstM s) b (xr c (cmask b s))) (.dma (sendS b s)) hsc)
                (.dma (recvS b s)) hse hde hsem) k) Q) := by
  unfold cown cownAny cown owns
  iintro ⟨#HP, HSt, ⟨%fs, %hfs, Hsrc⟩, ⟨%G, %fd, %hfd, Hdst⟩⟩ Hk
  ihave HSt' := (St_send c σ b s hs) $$ HSt
  icases HSt' with ⟨%W, HO, Ht1, Ht2, Hput⟩
  iapply (Rounds.wp_send_landing_pointsTo 𝒱₀ ER (Rd m) (c : Thread nD τ) none
      (c' := (Dev.tc (xr c (tmask b s)) : Thread nD τ))
      (src := chunkM (srcM s) b (xr c (cmask b s))) (dst := chunkM (dstM s) b (xr c (cmask b s)))
      (q := fullShare) (fs := fs) (fd := fd)
      (κ₁ := K (c, .inr (.inl (b, s)))) (κ₂ := K (xr c (tmask b s), .inr (.inr (b, s))))
      (r₁ := 0) (r₂ := 0) (d₁ := (0 : Fin 3)) (d₂ := (0 : Fin 3))
      (by rw [duties_send]; exact Finset.mem_singleton_self _) (by rw [duties_recv]; exact Finset.mem_singleton_self _)
      () () (Namt b s) (amount_dst b s _ _) (amount_send m c b s 0) (amount_recv m (xr c (tmask b s)) b s 0)
      (owedRecv c (Finset.univ \ insert (b, s) σ.sent) + owedBar c (Finset.univ \ σ.sig)) (owed_send c σ b s hs) (W := W)
      (sendPay_of_emp m c b s hw) (recvPay_of_landed_src m c b s hw fs hfs fd)) $$ [HO Ht1 Ht2 Hsrc Hdst]
  · isplitr; · iapply (Pers_inv m K (c, .inr (.inl (b, s)))); iexact HP
    isplitr; · iapply (Pers_inv m K (xr c (tmask b s), .inr (.inr (b, s)))); iexact HP
    isplitl [Hsrc]; · iexact Hsrc
    isplitl [Hdst]; · iexact Hdst
    isplitl [HO]; · iexact HO
    isplitl [Ht1]; · iexact Ht1
    isplitr; · iapply (Pers_reached m K (c, .inr (.inl (b, s)))); iexact HP
    isplitl [Ht2]; · iexact Ht2
    iapply (Pers_reached m K (xr c (tmask b s), .inr (.inr (b, s)))); iexact HP
  iintro ⟨Hc, HO⟩
  iapply Hk
  iapply Hput
  isplitl [Hc]; · iexact Hc
  iexact HO

end Steps

/-! ## What the module rests on -/

/-- info: 'Cert.Kernel.Ar.step_send' depends on axioms: [propext, Classical.choice, Quot.sound] -/
#guard_msgs in #print axioms step_send

/-- info: 'Cert.Kernel.Ar.step_send_src' depends on axioms: [propext, Classical.choice, Quot.sound] -/
#guard_msgs in #print axioms step_send_src

end Cert.Kernel.Ar

end
-- ==== Proof.DataK.lean ====
import proofs.«900695_g7700000000000696_dist_ar_v7x_i8_i_m2048_n512_f32_1_alg».proof.Proof.ProtoK
import proofs.«900695_g7700000000000696_dist_ar_v7x_i8_i_m2048_n512_f32_1_alg».proof.Proof.ChunksK
import Idealize.ShloMosaic.Lib.StableHlo.CollectiveRules

/-!
# Loads, adds and stores on one chunk

The body's arithmetic is always the same: read a chunk of one buffer, read the same chunk of a second buffer, add them
element by element, and store the sum over that chunk of the result buffer. Stated once, over any chunk, with the chunk's
rectangle and the payload function as variables (so that a printed instance matches by name), in two forms: the sum of
two other buffers' chunks into the result buffer's, and the result buffer's own chunk plus another buffer's.
-/

noncomputable section

namespace Cert.Kernel.Ar

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- A chunk owned outright is its two half shares. -/
theorem cown_share (p : Dev nD) (M : Memref sig .tc .vmem S2048x512 .f32) (b : Fin 3) (k : Dev nD) (G : Arr F) :
    (cown p M b k fullShare G : sProp 𝕄) ⊣⊢ iprop(cown p M b k fullShare.left G ∗ cown p M b k fullShare.right G) := by
  unfold cown
  exact owns_share (p : Thread nD τ) (chunkM M b k) (PosShare.mem_left_op_right fullShare) _

/-- A chunk at given contents is a chunk at some contents. -/
theorem cown_any (p : Dev nD) (M : Memref sig .tc .vmem S2048x512 .f32) (b : Fin 3) (k : Dev nD) (G : Arr F) :
    (cown p M b k fullShare G : sProp 𝕄) ⊢ cownAny (F := F) p M b k := by
  unfold cownAny; iintro H; iexists G; iexact H

/-- A chunk owned, opened: some contents of the buffer that the chunk's view reads as the rows of `G`, and the
    chunk's elements at those contents. -/
theorem cown_open (p : Dev nD) (M : Memref sig .tc .vmem S2048x512 .f32) (b : Fin 3) (k : Dev nD) (q : PosShare TreeShare) (G : Arr F) :
    (cown p M b k q G : sProp 𝕄)
      ⊢ iprop(∃ f, ⌜(M.access (crect b k)).read (Elt F) f = fun j => G ((crect b k).emb j)⌝
          ∗ ((M.access (crect b k)).loc (p : Thread nD τ) ↦[(M.access (crect b k)).set]{q} f)) := .rfl

/-- And closed again. -/
theorem cown_close (p : Dev nD) (M : Memref sig .tc .vmem S2048x512 .f32) (b : Fin 3) (k : Dev nD) (q : PosShare TreeShare) (G : Arr F) :
    (iprop(∃ f, ⌜(M.access (crect b k)).read (Elt F) f = fun j => G ((crect b k).emb j)⌝
          ∗ ((M.access (crect b k)).loc (p : Thread nD τ) ↦[(M.access (crect b k)).set]{q} f)) : sProp 𝕄)
      ⊢ cown p M b k q G := .rfl

section Steps

variable (c : Dev nD)

local notation "WP" => wp frame (wpE (defs₀ (F := F)) 𝒱₀ (c : Thread nD τ) none) Set.univ

/-- `out[chunk] := M1[chunk] + M2[chunk]`: two loads, the (unused) load of the result chunk, the store. -/
theorem step_add {α : Type} {Q : α → sProp 𝕄} (b : Fin 3) (kc : Dev nD) (r : Rect S2048x512) (hr : r = crect b kc)
    (M1 M2 MOut : Memref sig .tc .vmem S2048x512 .f32) (q1 q2 : PosShare TreeShare) (G1 G2 : Arr F)
    (pay : (r.shape.Idx → Elt F .f32) → (r.shape.Idx → Elt F .f32) → (r.shape.Idx → Elt F .f32))
    (hpay : ∀ u v, pay u v = fun i => FloatOps.addf (u i) (v i))
    {hl1 hl2 hl3 hx hm} {kk : PUnit → Prog (TpuEff nD τ sig (Elt F) Λ₀ .tc) α} :
    iprop(cown c M1 b kc q1 G1 ∗ cown c M2 b kc q2 G2 ∗ cownAny (F := F) c MOut b kc)
      ⊢ iprop((iprop(cown c M1 b kc q1 G1 ∗ cown c M2 b kc q2 G2 ∗ cown c MOut b kc fullShare (addf G1 G2)) -∗ WP (kk ⟨⟩) Q)
          -∗ WP (.op (.load M1 r.toLoadRect hl1) fun v1 => .op (.load M2 r.toLoadRect hl2) fun v2 =>
                .op (.load MOut r.toLoadRect hl3) fun _ => .op (.store MOut r (pay v1 v2) Finset.univ hx hm) kk) Q) := by
  subst hr
  iintro ⟨H1, H2, H3⟩ Hk
  ihave H1' := (cown_open c M1 b kc q1 G1) $$ H1
  icases H1' with ⟨%f1, %h1, H1⟩
  ihave H2' := (cown_open c M2 b kc q2 G2) $$ H2
  icases H2' with ⟨%f2, %h2, H2⟩
  ihave H3' := (show (cownAny (F := F) c MOut b kc : sProp 𝕄) ⊢ iprop(∃ G3 : Arr F, cown c MOut b kc fullShare G3) from .rfl) $$ H3
  icases H3' with ⟨%G3, H3⟩
  ihave H3'' := (cown_open c MOut b kc fullShare G3) $$ H3
  icases H3'' with ⟨%f3, -, H3⟩
  iapply (wp_load_rect (defs := defs₀ (F := F)) 𝒱₀ (c : Thread nD τ) none Set.univ (Γ := .empty) (Q := Q)
    (m := M1) (r := crect b kc) (hl := hl1) (q := q1) (f := f1) subset_rfl) $$ H1
  iintro H1
  rw [h1]
  iapply (wp_load_rect (defs := defs₀ (F := F)) 𝒱₀ (c : Thread nD τ) none Set.univ (Γ := .empty) (Q := Q)
    (m := M2) (r := crect b kc) (hl := hl2) (q := q2) (f := f2) subset_rfl) $$ H2
  iintro H2
  rw [h2]
  iapply (wp_load_rect (defs := defs₀ (F := F)) 𝒱₀ (c : Thread nD τ) none Set.univ (Γ := .empty) (Q := Q)
    (m := MOut) (r := crect b kc) (hl := hl3) (q := fullShare) (f := f3) subset_rfl) $$ H3
  iintro H3
  iapply (wp_store (defs := defs₀ (F := F)) 𝒱₀ (c : Thread nD τ) none Set.univ (Γ := .empty) (Q := Q)
    (m := MOut) (r := crect b kc) (Mk := Finset.univ) (hx := hx) (hm := hm) (k := kk) (f := f3)
    (S := (MOut.access (crect b kc)).set) (by rw [View.setOn_univ])) $$ H3
  iintro H3
  iapply Hk
  isplitl [H1]
  · iapply (cown_close c M1 b kc q1 G1)
    iexists f1
    isplitr
    · ipureintro; exact h1
    · iexact H1
  isplitl [H2]
  · iapply (cown_close c M2 b kc q2 G2)
    iexists f2
    isplitr
    · ipureintro; exact h2
    · iexact H2
  · iapply (cown_close c MOut b kc fullShare (addf G1 G2))
    iexists (MOut.access (crect b kc)).write (Elt F) f3
      (pay (fun j => G1 ((crect b kc).emb j)) (fun j => G2 ((crect b kc).emb j))) Finset.univ
    isplitr
    · ipureintro
      rw [View.read_write_univ, hpay]
      rfl
    · iexact H3

/-- `out[chunk] := out[chunk] + M2[chunk]`. -/
theorem step_acc {α : Type} {Q : α → sProp 𝕄} (b : Fin 3) (kc : Dev nD) (r : Rect S2048x512) (hr : r = crect b kc)
    (M2 MOut : Memref sig .tc .vmem S2048x512 .f32) (q2 : PosShare TreeShare) (G1 G2 : Arr F)
    (pay : (r.shape.Idx → Elt F .f32) → (r.shape.Idx → Elt F .f32) → (r.shape.Idx → Elt F .f32))
    (hpay : ∀ u v, pay u v = fun i => FloatOps.addf (u i) (v i))
    {hl1 hl2 hl3 hx hm} {kk : PUnit → Prog (TpuEff nD τ sig (Elt F) Λ₀ .tc) α} :
    iprop(cown c MOut b kc fullShare G1 ∗ cown c M2 b kc q2 G2)
      ⊢ iprop((iprop(cown c MOut b kc fullShare (addf G1 G2) ∗ cown c M2 b kc q2 G2) -∗ WP (kk ⟨⟩) Q)
          -∗ WP (.op (.load MOut r.toLoadRect hl1) fun v1 => .op (.load M2 r.toLoadRect hl2) fun v2 =>
                .op (.load MOut r.toLoadRect hl3) fun _ => .op (.store MOut r (pay v1 v2) Finset.univ hx hm) kk) Q) := by
  subst hr
  iintro ⟨H1, H2⟩ Hk
  ihave H1' := (cown_open c MOut b kc fullShare G1) $$ H1
  icases H1' with ⟨%f1, %h1, H1⟩
  ihave H2' := (cown_open c M2 b kc q2 G2) $$ H2
  icases H2' with ⟨%f2, %h2, H2⟩
  iapply (wp_load_rect (defs := defs₀ (F := F)) 𝒱₀ (c : Thread nD τ) none Set.univ (Γ := .empty) (Q := Q)
    (m := MOut) (r := crect b kc) (hl := hl1) (q := fullShare) (f := f1) subset_rfl) $$ H1
  iintro H1
  rw [h1]
  iapply (wp_load_rect (defs := defs₀ (F := F)) 𝒱₀ (c : Thread nD τ) none Set.univ (Γ := .empty) (Q := Q)
    (m := M2) (r := crect b kc) (hl := hl2) (q := q2) (f := f2) subset_rfl) $$ H2
  iintro H2
  rw [h2]
  iapply (wp_load_rect (defs := defs₀ (F := F)) 𝒱₀ (c : Thread nD τ) none Set.univ (Γ := .empty) (Q := Q)
    (m := MOut) (r := crect b kc) (hl := hl3) (q := fullShare) (f := f1) subset_rfl) $$ H1
  iintro H1
  iapply (wp_store (defs := defs₀ (F := F)) 𝒱₀ (c : Thread nD τ) none Set.univ (Γ := .empty) (Q := Q)
    (m := MOut) (r := crect b kc) (Mk := Finset.univ) (hx := hx) (hm := hm) (k := kk) (f := f1)
    (S := (MOut.access (crect b kc)).set) (by rw [View.setOn_univ])) $$ H1
  iintro H1
  iapply Hk
  isplitl [H1]
  · iapply (cown_close c MOut b kc fullShare (addf G1 G2))
    iexists (MOut.access (crect b kc)).write (Elt F) f1
      (pay (fun j => G1 ((crect b kc).emb j)) (fun j => G2 ((crect b kc).emb j))) Finset.univ
    isplitr
    · ipureintro
      rw [View.read_write_univ, hpay]
      rfl
    · iexact H1
  · iapply (cown_close c M2 b kc q2 G2)
    iexists f2
    isplitr
    · ipureintro; exact h2
    · iexact H2

end Steps

end Cert.Kernel.Ar

end
-- ==== Proof.WrapK.lean ====
import proofs.«900695_g7700000000000696_dist_ar_v7x_i8_i_m2048_n512_f32_1_alg».proof.Proof.StepsAK
import proofs.«900695_g7700000000000696_dist_ar_v7x_i8_i_m2048_n512_f32_1_alg».proof.Proof.StepsBK
import proofs.«900695_g7700000000000696_dist_ar_v7x_i8_i_m2048_n512_f32_1_alg».proof.Proof.StepsCK
import proofs.«900695_g7700000000000696_dist_ar_v7x_i8_i_m2048_n512_f32_1_alg».proof.Proof.DataK
import proofs.«900695_g7700000000000696_dist_ar_v7x_i8_i_m2048_n512_f32_1_alg».proof.Proof.Frame0K

/-!
# The order of the protocol's steps, and the step lemmas in the form the printed body meets them

`prog` lists the protocol's steps of one device in program order, as the kernel's loops issue them (a handshake signal,
the handshake wait, a transfer, a wait on a receive cell, a wait on a send cell); `stAt n` is the protocol state after
the first `n` of them. The step lemmas are restated with every operand of the operation a variable tied by an equation,
and with the state before and after given explicitly, so that a printed instruction matches by name and every side
condition is a closed decidable fact.
-/

noncomputable section

namespace Cert.Kernel.Ar

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The program's protocol steps -/

inductive PStep where
  | sig (j : Fin 3)
  | bar
  | send (b : Fin 3) (s : Fin 14)
  | rw (b : Fin 3) (s : Fin 14)
  | sw (b : Fin 3) (s : Fin 14)
  deriving DecidableEq

instance : DecidableEq PSt := fun a b => by
  rcases a with ⟨a1, a2, a3, a4, a5⟩; rcases b with ⟨b1, b2, b3, b4, b5⟩
  exact decidable_of_iff (a1 = b1 ∧ a2 = b2 ∧ a3 = b3 ∧ a4 = b4 ∧ a5 = b5)
    ⟨fun ⟨h1, h2, h3, h4, h5⟩ => by subst h1 h2 h3 h4 h5; rfl, fun h => by cases h; exact ⟨rfl, rfl, rfl, rfl, rfl⟩⟩

def PSt.step (σ : PSt) : PStep → PSt
  | .sig j => { σ with sig := insert j σ.sig }
  | .bar => { σ with bar := true }
  | .send b s => { σ with sent := insert (b, s) σ.sent }
  | .rw b s => { σ with rcv := insert (b, s) σ.rcv }
  | .sw b s => { σ with swt := insert (b, s) σ.swt }

def B3 : List (Fin 3) := [0, 1, 2]

/-- One device's protocol steps in program order: the handshake; the four first-stage transfers of each band; then, band
    by band within each phase, the receive waits each followed by the transfers it enables (the two third-stage waits
    also wait for the other third-stage transfer's departure before its source is overwritten); the last receive waits;
    and finally the departures of all other transfers, in the order the transfers were issued. -/
def prog : List PStep :=
  [.sig 0, .sig 1, .sig 2, .bar]
  ++ B3.flatMap (fun b => [.send b 0, .send b 1, .send b 2, .send b 3])
  ++ B3.flatMap (fun b => [.rw b 0, .send b 4])
  ++ B3.flatMap (fun b => [.rw b 1, .send b 5])
  ++ B3.flatMap (fun b => [.rw b 2, .rw b 3])
  ++ B3.flatMap (fun b => [.rw b 4, .send b 6])
  ++ B3.flatMap (fun b => [.rw b 5, .send b 7])
  ++ B3.flatMap (fun b => [.rw b 6, .sw b 7, .send b 9, .send b 11])
  ++ B3.flatMap (fun b => [.rw b 7, .sw b 6, .send b 8, .send b 10])
  ++ B3.flatMap (fun b => [.rw b 8, .send b 12])
  ++ B3.flatMap (fun b => [.rw b 9, .send b 13])
  ++ ([11, 10, 12, 13] : List (Fin 14)).flatMap (fun s => B3.map (fun b => .rw b s))
  ++ B3.flatMap (fun b => [.sw b 0, .sw b 1, .sw b 2, .sw b 3])
  ++ B3.map (fun b => .sw b 4) ++ B3.map (fun b => .sw b 5)
  ++ B3.flatMap (fun b => [.sw b 9, .sw b 11])
  ++ B3.flatMap (fun b => [.sw b 8, .sw b 10])
  ++ B3.map (fun b => .sw b 12) ++ B3.map (fun b => .sw b 13)

/-- The protocol state after the first `n` steps. -/
def stAt (n : ℕ) : PSt := (prog.take n).foldl PSt.step PSt.init

theorem prog_length : prog.length = 130 := by decide
theorem stAt_final : stAt 130 = PSt.final := by decide +kernel

/-- Step `n` of the program is `p`: then the state after it is the state before it, stepped. -/
theorem stAt_succ (n : ℕ) (p : PStep) (h : prog[n]? = some p) : stAt (n + 1) = (stAt n).step p := by
  unfold stAt
  rw [List.take_succ, List.foldl_append, h]
  rfl

/-! ## The step lemmas, operand by operand -/

section W

variable (K : Dev nD × CK → ℕ) (c : Dev nD)

local notation "WP" => wp frame (wpE (defs₀ (F := F)) 𝒱₀ (c : Thread nD τ) none) Set.univ

theorem step_signal' {α : Type} {Q : α → sProp 𝕄} (σ σ' : PSt) (j : Fin 3) (hσ : σ' = σ.step (.sig j)) (hj : j ∉ σ.sig)
    (n : Dev nD) (hn : n = xr c (bmask j)) (sm : Sem sig) (hsm : sm = barS) (a : ℕ) (ha : a = 1)
    {k : PUnit → Prog (TpuEff nD τ sig (Elt F) Λ₀ .tc) α} :
    iprop(Pers m K ∗ St c σ ∗ barPay (F := F) (xr c (bmask j)) j)
      ⊢ iprop((St c σ' -∗ WP (k ⟨⟩) Q) -∗ WP (.op (.semSignal ((n : Dev nD), Proc.tc) sm a) k) Q) := by
  subst hσ; subst hn; subst hsm; subst ha
  exact step_signal m K c σ j hj

theorem step_barwait' {α : Type} {Q : α → sProp 𝕄} (σ σ' : PSt) (hσ : σ' = σ.step .bar) (hs : σ.sig = Finset.univ) (hb : σ.bar = false)
    (sm : Sem sig) (hsm : sm = barS) (a : ℕ) (ha : a = 3) {k : PUnit → Prog (TpuEff nD τ sig (Elt F) Λ₀ .tc) α} :
    iprop(Pers m K ∗ St c σ)
      ⊢ iprop((iprop(St c σ' ∗ barPay (F := F) c 0 ∗ barPay (F := F) c 1 ∗ barPay (F := F) c 2) -∗ WP (k ⟨⟩) Q)
          -∗ WP (.op (.semWait sm a) k) Q) := by
  subst hσ; subst hsm; subst ha
  exact step_barwait m K c σ hs hb

theorem step_send' {α : Type} {Q : α → sProp 𝕄} (σ σ' : PSt) (b : Fin 3) (s : Fin 14) (hσ : σ' = σ.step (.send b s))
    (hs : (b, s) ∉ σ.sent) (hw : withSrc s = false)
    (sh : Shape) (hsh : sh = (crect b (xr c (cmask b s))).shape) (src dst : Memref sig .tc .vmem sh .f32)
    (hsrc : HEq src (chunkM (srcM s) b (xr c (cmask b s)))) (hdst : HEq dst (chunkM (dstM s) b (xr c (cmask b s))))
    (n : Dev nD) (hn : n = xr c (tmask b s)) (ss rs : DmaSem sig) (hss : ss = sendS b s) (hrs : rs = recvS b s)
    {hsc} {hse} {hde} {hsem} {k : PUnit → Prog (TpuEff nD τ sig (Elt F) Λ₀ .tc) α} :
    iprop(Pers m K ∗ St c σ ∗ cown c (srcM s) b (xr c (cmask b s)) (sshare s) (cval (Xof m) b s c)
        ∗ cownAny (F := F) (xr c (tmask b s)) (dstM s) b (xr c (cmask b s)))
      ⊢ iprop((St c σ' -∗ WP (k ⟨⟩) Q)
          -∗ WP (.op (.enqueueDma src (.remote (Dev.tc n : Thread nD τ) dst (.dma ss) hsc) (.dma rs) hse hde hsem) k) Q) := by
  subst hσ; subst hsh; subst hn; subst hss; subst hrs
  cases eq_of_heq hsrc; cases eq_of_heq hdst
  exact step_send m K c σ b s hs hw

theorem step_send_src' {α : Type} {Q : α → sProp 𝕄} (σ σ' : PSt) (b : Fin 3) (s : Fin 14) (hσ : σ' = σ.step (.send b s))
    (hs : (b, s) ∉ σ.sent) (hw : withSrc s = true)
    (sh : Shape) (hsh : sh = (crect b (xr c (cmask b s))).shape) (src dst : Memref sig .tc .vmem sh .f32)
    (hsrc : HEq src (chunkM (srcM s) b (xr c (cmask b s)))) (hdst : HEq dst (chunkM (dstM s) b (xr c (cmask b s))))
    (n : Dev nD) (hn : n = xr c (tmask b s)) (ss rs : DmaSem sig) (hss : ss = sendS b s) (hrs : rs = recvS b s)
    {hsc} {hse} {hde} {hsem} {k : PUnit → Prog (TpuEff nD τ sig (Elt F) Λ₀ .tc) α} :
    iprop(Pers m K ∗ St c σ ∗ cown c (srcM s) b (xr c (cmask b s)) fullShare (cval (Xof m) b s c)
        ∗ cownAny (F := F) (xr c (tmask b s)) (dstM s) b (xr c (cmask b s)))
      ⊢ iprop((St c σ' -∗ WP (k ⟨⟩) Q)
          -∗ WP (.op (.enqueueDma src (.remote (Dev.tc n : Thread nD τ) dst (.dma ss) hsc) (.dma rs) hse hde hsem) k) Q) := by
  subst hσ; subst hsh; subst hn; subst hss; subst hrs
  cases eq_of_heq hsrc; cases eq_of_heq hdst
  exact step_send_src m K c σ b s hs hw

/-- The landed chunk of a slot whose source stays with the sender. -/
theorem recvPay_plain (p : Dev nD) (b : Fin 3) (s : Fin 14) (hw : withSrc s = false) :
    (recvPay (Xof m) p b s : sProp 𝕄) ⊢ cown p (dstM s) b (xr p (rmask b s)) fullShare (cval (Xof m) b s (xr p (tmask b s))) := by
  unfold recvPay; rw [hw]
  iintro ⟨H, -⟩; iexact H

/-- The landed chunk and the sender's source chunk, for slots 4 and 5. -/
theorem recvPay_src (p : Dev nD) (b : Fin 3) (s : Fin 14) (hw : withSrc s = true) :
    (recvPay (Xof m) p b s : sProp 𝕄) ⊢ iprop(cown p (dstM s) b (xr p (rmask b s)) fullShare (cval (Xof m) b s (xr p (tmask b s)))
      ∗ cown (xr p (tmask b s)) MO b (xr p (rmask b s)) fullShare (cval (Xof m) b s (xr p (tmask b s)))) := by
  unfold recvPay; rw [hw]
  exact .rfl

theorem sendPay_plain (p : Dev nD) (b : Fin 3) (s : Fin 14) (hw : withSrc s = false) :
    (sendPay (Xof m) p b s : sProp 𝕄) ⊢ cown p (srcM s) b (xr p (cmask b s)) (sshare s) (cval (Xof m) b s p) := by
  unfold sendPay; rw [hw]; exact .rfl

theorem step_recvwait' {α : Type} {Q : α → sProp 𝕄} (σ σ' : PSt) (b : Fin 3) (s : Fin 14) (hσ : σ' = σ.step (.rw b s))
    (hr : (b, s) ∉ σ.rcv) (hsig : σ.sig = Finset.univ)
    (hlv : ∀ bs ∈ (Finset.univ \ σ.sent : Finset BS), 3 * wrank s + b.val < 3 * wrank bs.2 + bs.1.val)
    (sm : DmaSem sig) (hsm : sm = recvS b s) (k0 : Dev nD) (sh : Shape) (hsh : sh = (crect b k0).shape)
    (dst : Memref sig .tc .vmem sh .f32) (hdst : HEq dst (chunkM (dstM s) b k0))
    {sp' : Space} {s' : Shape} {e' : EltTy} {src : Memref sig .tc sp' s' e'} {hse} {hde}
    {k : PUnit → Prog (TpuEff nD τ sig (Elt F) Λ₀ .tc) α} :
    iprop(Pers m K ∗ St c σ)
      ⊢ iprop((iprop(St c σ' ∗ recvPay (Xof m) c b s) -∗ WP (k ⟨⟩) Q)
          -∗ WP (.op (.waitDma2 sm src dst hse hde) k) Q) := by
  subst hσ; subst hsm; subst hsh
  cases eq_of_heq hdst
  exact step_recvwait m K c σ b s hr hsig hlv k0

theorem step_sendwait' {α : Type} {Q : α → sProp 𝕄} (σ σ' : PSt) (b : Fin 3) (s : Fin 14) (hσ : σ' = σ.step (.sw b s))
    (hs : (b, s) ∈ σ.sent) (hw : (b, s) ∉ σ.swt) (hsig : σ.sig = Finset.univ)
    (sm : DmaSem sig) (hsm : sm = sendS b s) (k0 : Dev nD) (sh : Shape) (hsh : sh = (crect b k0).shape)
    (dst : Memref sig .tc .vmem sh .f32) (hdst : HEq dst (chunkM (dstM s) b k0))
    {sp' : Space} {s' : Shape} {e' : EltTy} {src : Memref sig .tc sp' s' e'} {hse} {hde}
    {k : PUnit → Prog (TpuEff nD τ sig (Elt F) Λ₀ .tc) α} :
    iprop(Pers m K ∗ St c σ)
      ⊢ iprop((iprop(St c σ' ∗ sendPay (Xof m) c b s) -∗ WP (k ⟨⟩) Q)
          -∗ WP (.op (.waitDma2 sm src dst hse hde) k) Q) := by
  subst hσ; subst hsm; subst hsh
  cases eq_of_heq hdst
  exact step_sendwait m K c σ b s hs hw hsig k0

end W

end Cert.Kernel.Ar

end
-- ==== Proof.ListsK.lean ====
import proofs.«900695_g7700000000000696_dist_ar_v7x_i8_i_m2048_n512_f32_1_alg».proof.Proof.WrapK

/-! Finite conjunctions written out: over the 24 chunks (band, offset) of a buffer, over the three bands, over the twelve
    transfers whose destination chunks one handshake signal carries, and over the chunks of each scratch buffer that some
    transfer lands in, each as an explicit chain. -/

noncomputable section

namespace Cert.Kernel.Ar

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem bigSep_b3 (Φ : Fin 3 → sProp 𝕄) : bigSep Finset.univ Φ = iprop(Φ 0 ∗ Φ 1 ∗ Φ 2) :=
  bigSep_univ_eq_bigSepL [0, 1, 2] (by decide) (by decide) Φ

theorem bigSep_38 (Φ : Fin 3 × Fin 8 → sProp 𝕄) :
    bigSep Finset.univ Φ = iprop(Φ (0, 0) ∗ Φ (0, 1) ∗ Φ (0, 2) ∗ Φ (0, 3) ∗ Φ (0, 4) ∗ Φ (0, 5) ∗ Φ (0, 6) ∗ Φ (0, 7) ∗ Φ (1, 0) ∗ Φ (1, 1) ∗ Φ (1, 2) ∗ Φ (1, 3) ∗ Φ (1, 4) ∗ Φ (1, 5) ∗ Φ (1, 6) ∗ Φ (1, 7) ∗ Φ (2, 0) ∗ Φ (2, 1) ∗ Φ (2, 2) ∗ Φ (2, 3) ∗ Φ (2, 4) ∗ Φ (2, 5) ∗ Φ (2, 6) ∗ Φ (2, 7)) :=
  bigSep_univ_eq_bigSepL [(0, 0), (0, 1), (0, 2), (0, 3), (0, 4), (0, 5), (0, 6), (0, 7), (1, 0), (1, 1), (1, 2), (1, 3), (1, 4), (1, 5), (1, 6), (1, 7), (2, 0), (2, 1), (2, 2), (2, 3), (2, 4), (2, 5), (2, 6), (2, 7)] (by decide) (by decide) Φ

theorem handed_0 (Φ : Fin 3 × Fin 14 → sProp 𝕄) :
    bigSep (handed 0) Φ = iprop(Φ (0, 0) ∗ Φ (0, 1) ∗ Φ (0, 2) ∗ Φ (0, 3) ∗ Φ (0, 10) ∗ Φ (0, 11) ∗ Φ (0, 12) ∗ Φ (0, 13) ∗ Φ (1, 6) ∗ Φ (1, 7) ∗ Φ (2, 4) ∗ Φ (2, 5)) :=
  bigSep_eq_bigSepL_of_eq [(0, 0), (0, 1), (0, 2), (0, 3), (0, 10), (0, 11), (0, 12), (0, 13), (1, 6), (1, 7), (2, 4), (2, 5)] (by decide) (by decide) Φ

theorem handed_1 (Φ : Fin 3 × Fin 14 → sProp 𝕄) :
    bigSep (handed 1) Φ = iprop(Φ (0, 4) ∗ Φ (0, 5) ∗ Φ (1, 0) ∗ Φ (1, 1) ∗ Φ (1, 2) ∗ Φ (1, 3) ∗ Φ (1, 10) ∗ Φ (1, 11) ∗ Φ (1, 12) ∗ Φ (1, 13) ∗ Φ (2, 6) ∗ Φ (2, 7)) :=
  bigSep_eq_bigSepL_of_eq [(0, 4), (0, 5), (1, 0), (1, 1), (1, 2), (1, 3), (1, 10), (1, 11), (1, 12), (1, 13), (2, 6), (2, 7)] (by decide) (by decide) Φ

theorem handed_2 (Φ : Fin 3 × Fin 14 → sProp 𝕄) :
    bigSep (handed 2) Φ = iprop(Φ (0, 6) ∗ Φ (0, 7) ∗ Φ (1, 4) ∗ Φ (1, 5) ∗ Φ (2, 0) ∗ Φ (2, 1) ∗ Φ (2, 2) ∗ Φ (2, 3) ∗ Φ (2, 10) ∗ Φ (2, 11) ∗ Φ (2, 12) ∗ Φ (2, 13)) :=
  bigSep_eq_bigSepL_of_eq [(0, 6), (0, 7), (1, 4), (1, 5), (2, 0), (2, 1), (2, 2), (2, 3), (2, 10), (2, 11), (2, 12), (2, 13)] (by decide) (by decide) Φ

theorem usedR_0 (Φ : Fin 3 × Fin 8 → sProp 𝕄) :
    bigSep (usedR 0) Φ = iprop(Φ (0, 3) ∗ Φ (0, 7) ∗ Φ (0, 0) ∗ Φ (0, 4) ∗ Φ (1, 4) ∗ Φ (1, 5) ∗ Φ (1, 0) ∗ Φ (1, 1) ∗ Φ (2, 1) ∗ Φ (2, 2) ∗ Φ (2, 0) ∗ Φ (2, 3)) :=
  bigSep_eq_bigSepL_of_eq [(0, 3), (0, 7), (0, 0), (0, 4), (1, 4), (1, 5), (1, 0), (1, 1), (2, 1), (2, 2), (2, 0), (2, 3)] (by decide) (by decide) Φ

theorem usedR_1 (Φ : Fin 3 × Fin 8 → sProp 𝕄) :
    bigSep (usedR 1) Φ = iprop(Φ (0, 0) ∗ Φ (0, 4) ∗ Φ (1, 0) ∗ Φ (1, 1) ∗ Φ (2, 0) ∗ Φ (2, 3)) :=
  bigSep_eq_bigSepL_of_eq [(0, 0), (0, 4), (1, 0), (1, 1), (2, 0), (2, 3)] (by decide) (by decide) Φ

theorem usedR_2 (Φ : Fin 3 × Fin 8 → sProp 𝕄) :
    bigSep (usedR 2) Φ = iprop(Φ (0, 4) ∗ Φ (0, 0) ∗ Φ (1, 1) ∗ Φ (1, 0) ∗ Φ (2, 3) ∗ Φ (2, 0)) :=
  bigSep_eq_bigSepL_of_eq [(0, 4), (0, 0), (1, 1), (1, 0), (2, 3), (2, 0)] (by decide) (by decide) Φ

end Cert.Kernel.Ar

end
-- ==== Proof.Wrap2K.lean ====
import proofs.«900695_g7700000000000696_dist_ar_v7x_i8_i_m2048_n512_f32_1_alg».proof.Proof.WrapK
import proofs.«900695_g7700000000000696_dist_ar_v7x_i8_i_m2048_n512_f32_1_alg».proof.Proof.ListsK
import Idealize.ShloMosaic.Lib.Pipeline.Value

/-!
# The step lemmas as the printed instructions spell their operands

A printed transfer names its source and destination as slices of a whole buffer at an offset the body computes from
the device id. Here each operand is spelt that way, with the buffer, the offset and the extent as variables, and
equations saying which chunk they are (the offset's closed form is one of the table's equations).
-/

noncomputable section

namespace Cert.Kernel.Ar

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A rectangle at an offset and extent that are a chunk's is the chunk's rectangle. -/
theorem rect_eq (b : Fin 3) (kc : Dev nD) {off sz : Fin 2 → Nat} {inb} (hoff : off = coff b kc) (hsz : sz = csz b) :
    Rect.unit (s := S2048x512) off sz inb = crect b kc := by
  subst hoff; subst hsz; rfl

section W

variable (K : Dev nD × CK → ℕ) (c : Dev nD)

local notation "WP" => wp frame (wpE (defs₀ (F := F)) 𝒱₀ (c : Thread nD τ) none) Set.univ

theorem send_op {α : Type} {Q : α → sProp 𝕄} (σ σ' : PSt) (b : Fin 3) (s : Fin 14) (hσ : σ' = σ.step (.send b s))
    (hs : (b, s) ∉ σ.sent) (hw : withSrc s = false)
    (Ms Md : Memref sig .tc .vmem S2048x512 .f32) (hMs : Ms = srcM s) (hMd : Md = dstM s)
    {off sz off' : Fin 2 → Nat} {inb inb' hr hr'}
    (hoff : off = coff b (xr c (cmask b s))) (hsz : sz = csz b) (hoff' : off' = coff b (xr c (cmask b s)))
    (n : Dev nD) (hn : n = xr c (tmask b s)) (ss rs : DmaSem sig) (hss : ss = sendS b s) (hrs : rs = recvS b s)
    {hsc} {hse} {hde} {hsem} {k : PUnit → Prog (TpuEff nD τ sig (Elt F) Λ₀ .tc) α} :
    iprop(Pers m K ∗ St c σ ∗ cown c (srcM s) b (xr c (cmask b s)) (sshare s) (cval (Xof m) b s c)
        ∗ cownAny (F := F) (xr c (tmask b s)) (dstM s) b (xr c (cmask b s)))
      ⊢ iprop((St c σ' -∗ WP (k ⟨⟩) Q)
          -∗ WP (.op (.enqueueDma (Ms.slice (Rect.unit (s := S2048x512) off sz inb) hr)
                (.remote (Dev.tc n : Thread nD τ) (Md.slice (Rect.unit (s := S2048x512) off' sz inb') hr') (.dma ss) hsc)
                (.dma rs) hse hde hsem) k) Q) := by
  subst hσ; subst hMs; subst hMd; subst hoff; subst hoff'; subst hsz; subst hn; subst hss; subst hrs
  exact step_send m K c σ b s hs hw

theorem send_src_op {α : Type} {Q : α → sProp 𝕄} (σ σ' : PSt) (b : Fin 3) (s : Fin 14) (hσ : σ' = σ.step (.send b s))
    (hs : (b, s) ∉ σ.sent) (hw : withSrc s = true)
    (Ms Md : Memref sig .tc .vmem S2048x512 .f32) (hMs : Ms = srcM s) (hMd : Md = dstM s)
    {off sz off' : Fin 2 → Nat} {inb inb' hr hr'}
    (hoff : off = coff b (xr c (cmask b s))) (hsz : sz = csz b) (hoff' : off' = coff b (xr c (cmask b s)))
    (n : Dev nD) (hn : n = xr c (tmask b s)) (ss rs : DmaSem sig) (hss : ss = sendS b s) (hrs : rs = recvS b s)
    {hsc} {hse} {hde} {hsem} {k : PUnit → Prog (TpuEff nD τ sig (Elt F) Λ₀ .tc) α} :
    iprop(Pers m K ∗ St c σ ∗ cown c (srcM s) b (xr c (cmask b s)) fullShare (cval (Xof m) b s c)
        ∗ cownAny (F := F) (xr c (tmask b s)) (dstM s) b (xr c (cmask b s)))
      ⊢ iprop((St c σ' -∗ WP (k ⟨⟩) Q)
          -∗ WP (.op (.enqueueDma (Ms.slice (Rect.unit (s := S2048x512) off sz inb) hr)
                (.remote (Dev.tc n : Thread nD τ) (Md.slice (Rect.unit (s := S2048x512) off' sz inb') hr') (.dma ss) hsc)
                (.dma rs) hse hde hsem) k) Q) := by
  subst hσ; subst hMs; subst hMd; subst hoff; subst hoff'; subst hsz; subst hn; subst hss; subst hrs
  exact step_send_src m K c σ b s hs hw

theorem recv_op {α : Type} {Q : α → sProp 𝕄} (σ σ' : PSt) (b : Fin 3) (s : Fin 14) (hσ : σ' = σ.step (.rw b s))
    (hr : (b, s) ∉ σ.rcv) (hsig : σ.sig = Finset.univ)
    (hlv : ∀ bs ∈ (Finset.univ \ σ.sent : Finset BS), 3 * wrank s + b.val < 3 * wrank bs.2 + bs.1.val)
    (sm : DmaSem sig) (hsm : sm = recvS b s) (Md : Memref sig .tc .vmem S2048x512 .f32) (hMd : Md = dstM s) (k0 : Dev nD)
    {off sz : Fin 2 → Nat} {inb hrr} (hoff : off = coff b k0) (hsz : sz = csz b)
    {sp' : Space} {s' : Shape} {e' : EltTy} {src : Memref sig .tc sp' s' e'} {hse} {hde}
    {k : PUnit → Prog (TpuEff nD τ sig (Elt F) Λ₀ .tc) α} :
    iprop(Pers m K ∗ St c σ)
      ⊢ iprop((iprop(St c σ' ∗ recvPay (Xof m) c b s) -∗ WP (k ⟨⟩) Q)
          -∗ WP (.op (.waitDma2 sm src (Md.slice (Rect.unit (s := S2048x512) off sz inb) hrr) hse hde) k) Q) := by
  subst hσ; subst hsm; subst hMd; subst hoff; subst hsz
  exact step_recvwait m K c σ b s hr hsig hlv k0

theorem sendwait_op {α : Type} {Q : α → sProp 𝕄} (σ σ' : PSt) (b : Fin 3) (s : Fin 14) (hσ : σ' = σ.step (.sw b s))
    (hs : (b, s) ∈ σ.sent) (hw : (b, s) ∉ σ.swt) (hsig : σ.sig = Finset.univ)
    (sm : DmaSem sig) (hsm : sm = sendS b s) (Md : Memref sig .tc .vmem S2048x512 .f32) (hMd : Md = dstM s) (k0 : Dev nD)
    {off sz : Fin 2 → Nat} {inb hrr} (hoff : off = coff b k0) (hsz : sz = csz b)
    {sp' : Space} {s' : Shape} {e' : EltTy} {src : Memref sig .tc sp' s' e'} {hse} {hde}
    {k : PUnit → Prog (TpuEff nD τ sig (Elt F) Λ₀ .tc) α} :
    iprop(Pers m K ∗ St c σ)
      ⊢ iprop((iprop(St c σ' ∗ sendPay (Xof m) c b s) -∗ WP (k ⟨⟩) Q)
          -∗ WP (.op (.waitDma2 sm src (Md.slice (Rect.unit (s := S2048x512) off sz inb) hrr) hse hde) k) Q) := by
  subst hσ; subst hsm; subst hMd; subst hoff; subst hsz
  exact step_sendwait m K c σ b s hs hw hsig k0

/-- The wait on a send cell as the body prints it: its destination view is a chunk of the transfer's SOURCE buffer. -/
theorem sendwait_src_op {α : Type} {Q : α → sProp 𝕄} (σ σ' : PSt) (b : Fin 3) (s : Fin 14) (hσ : σ' = σ.step (.sw b s))
    (hs : (b, s) ∈ σ.sent) (hw : (b, s) ∉ σ.swt) (hsig : σ.sig = Finset.univ)
    (sm : DmaSem sig) (hsm : sm = sendS b s) (Ms : Memref sig .tc .vmem S2048x512 .f32) (hMs : Ms = srcM s) (k0 : Dev nD)
    {off sz : Fin 2 → Nat} {inb hrr} (hoff : off = coff b k0) (hsz : sz = csz b)
    {sp' : Space} {s' : Shape} {e' : EltTy} {src : Memref sig .tc sp' s' e'} {hse} {hde}
    {k : PUnit → Prog (TpuEff nD τ sig (Elt F) Λ₀ .tc) α} :
    iprop(Pers m K ∗ St c σ)
      ⊢ iprop((iprop(St c σ' ∗ sendPay (Xof m) c b s) -∗ WP (k ⟨⟩) Q)
          -∗ WP (.op (.waitDma2 sm src (Ms.slice (Rect.unit (s := S2048x512) off sz inb) hrr) hse hde) k) Q) := by
  subst hσ; subst hsm; subst hMs; subst hoff; subst hsz
  exact step_sendwait_srcbuf m K c σ b s hs hw hsig k0

/-- A chunk's contents restated. -/
theorem cown_val (p : Dev nD) (M : Memref sig .tc .vmem S2048x512 .f32) (b : Fin 3) (k : Dev nD) (q : PosShare TreeShare) {G G' : Arr F} (h : G = G') :
    (cown p M b k q G : sProp 𝕄) ⊢ cown p M b k q G' := by subst h; exact .rfl

end W

end Cert.Kernel.Ar

end
-- ==== Proof.BodyK.lean ====
import proofs.«900695_g7700000000000696_dist_ar_v7x_i8_i_m2048_n512_f32_1_alg».proof.Proof.Wrap2K
import proofs.«900695_g7700000000000696_dist_ar_v7x_i8_i_m2048_n512_f32_1_alg».proof.Proof.ListsK
import proofs.«900695_g7700000000000696_dist_ar_v7x_i8_i_m2048_n512_f32_1_alg».proof.Proof.Gen.Kernel.Skeleton
import proofs.«900695_g7700000000000696_dist_ar_v7x_i8_i_m2048_n512_f32_1_alg».proof.Proof.Gen.Kernel.Points

/-!
# The body of the kernel, stepped from the initial state and chunks to the final ones

Masks per band (first, second, third stage): band 0: 1, 3, 4; band 1: 3, 4, 1; band 2: 4, 1, 3. A chunk is named by its
offset from the device (`c ⊕ h`): `X<b><h>` the input's, `O<b>a/b/c/d` the result buffer's chunks at offsets 0, m₂, m₃, m₂ ⊕ m₃
(the four the device fills or re-fills itself), `E<b>_<s>` the result chunks arriving in slot s from the first partner,
`R<b>_<s>` the scratch chunk slot s landed in, `D<b>_<s>` the destination chunk of the device's own transfer of slot s on
its partner, `P<b>_4/5` the second partner's result chunk that came with slots 4, 5. The body is walked in program order:
the handshake; the first-stage transfers; then wait, add, forward, stage by stage; then the all-gather; then the waits
for the departures.
-/

noncomputable section

namespace Cert.Kernel.Ar

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Each payload function of the body is the elementwise sum of its two arguments. -/
local macro "paytac" : tactic => `(tactic| (intro u v; simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26]; exact congrArg (fun w => addf w v) (shapeCast_self u _)))

set_option hygiene false in
local macro "psig " n:num n':num j:num V:ident g:ident : tactic => `(tactic| (
  iapply (step_signal' m K c (stAt $n) (stAt $n') $j (stAt_succ $n _ (by decide)) (by decide +kernel) _ ($V c) _ rfl _ rfl) $$ [HS $g:ident]
  · isplitr
    · iexact HP
    isplitl [HS]
    · iexact HS
    iexact $g:ident
  iintro HS))

set_option hygiene false in
local macro "pbar " n:num n':num : tactic => `(tactic| (
  iapply (step_barwait' m K c (stAt $n) (stAt $n') (stAt_succ $n _ (by decide)) (by decide +kernel) (by decide +kernel) _ rfl _ rfl) $$ [HS]
  · isplitr
    · iexact HP
    iexact HS
  iintro ⟨HS, Hp0, Hp1, Hp2⟩))

set_option hygiene false in
local macro "psend " n:num n':num b:num s:num Ms:ident Md:ident E:ident V:ident x:ident d:ident : tactic => `(tactic| (
  iapply (send_op m K c (stAt $n) (stAt $n') $b $s (stAt_succ $n _ (by decide)) (by decide +kernel) rfl $Ms $Md rfl rfl ($E c) rfl ($E c) _ ($V c) _ _ rfl rfl) $$ [HS $x:ident $d:ident]
  · isplitr
    · iexact HP
    isplitl [HS]
    · iexact HS
    isplitl [$x:ident]
    · iexact $x:ident
    iexact $d:ident
  iintro HS))

set_option hygiene false in
local macro "psends " n:num n':num b:num s:num Ms:ident Md:ident E:ident V:ident x:ident d:ident : tactic => `(tactic| (
  iapply (send_src_op m K c (stAt $n) (stAt $n') $b $s (stAt_succ $n _ (by decide)) (by decide +kernel) rfl $Ms $Md rfl rfl ($E c) rfl ($E c) _ ($V c) _ _ rfl rfl) $$ [HS $x:ident $d:ident]
  · isplitr
    · iexact HP
    isplitl [HS]
    · iexact HS
    isplitl [$x:ident]
    · iexact $x:ident
    iexact $d:ident
  iintro HS))

set_option hygiene false in
local macro "precv " n:num n':num b:num s:num Md:ident E:ident r:ident : tactic => `(tactic| (
  iapply (recv_op m K c (stAt $n) (stAt $n') $b $s (stAt_succ $n _ (by decide)) (by decide +kernel) (by decide +kernel) (by decide +kernel) _ rfl $Md rfl (xr c (cmask $b $s)) ($E c) rfl) $$ [HS]
  · isplitr
    · iexact HP
    iexact HS
  iintro ⟨HS, Hpay⟩
  ihave $r:ident := (recvPay_plain m c $b $s rfl) $$ Hpay))

set_option hygiene false in
local macro "precvs " n:num n':num b:num s:num Md:ident E:ident r:ident p:ident : tactic => `(tactic| (
  iapply (recv_op m K c (stAt $n) (stAt $n') $b $s (stAt_succ $n _ (by decide)) (by decide +kernel) (by decide +kernel) (by decide +kernel) _ rfl $Md rfl (xr c (cmask $b $s)) ($E c) rfl) $$ [HS]
  · isplitr
    · iexact HP
    iexact HS
  iintro ⟨HS, Hpay⟩
  ihave Hpay := (recvPay_src m c $b $s rfl) $$ Hpay
  icases Hpay with ⟨$r:ident, $p:ident⟩))

set_option hygiene false in
local macro "pswait " n:num n':num b:num s:num Md:ident E:ident x:ident : tactic => `(tactic| (
  iapply (sendwait_src_op m K c (stAt $n) (stAt $n') $b $s (stAt_succ $n _ (by decide)) (by decide +kernel) (by decide +kernel) (by decide +kernel) _ rfl $Md rfl (xr c (cmask $b $s)) ($E c) rfl) $$ [HS]
  · isplitr
    · iexact HP
    iexact HS
  iintro ⟨HS, Hpay⟩
  ihave $x:ident := (sendPay_plain m c $b $s rfl) $$ Hpay))

set_option hygiene false in
local macro "pswait0 " n:num n':num b:num s:num Md:ident E:ident : tactic => `(tactic| (
  iapply (sendwait_src_op m K c (stAt $n) (stAt $n') $b $s (stAt_succ $n _ (by decide)) (by decide +kernel) (by decide +kernel) (by decide +kernel) _ rfl $Md rfl (xr c (cmask $b $s)) ($E c) rfl) $$ [HS]
  · isplitr
    · iexact HP
    iexact HS
  iintro ⟨HS, -⟩))

set_option hygiene false in
local macro "padd " b:num kc:term:max M1:ident M2:ident pay:term:max E:ident h1:ident h2:ident ho:ident : tactic => `(tactic| (
  iapply (step_add c $b $kc _ (rect_eq $b $kc ($E c) rfl) $M1 $M2 MO _ _ _ _ $pay (by paytac)) $$ [$h1:ident $h2:ident $ho:ident]
  · isplitl [$h1:ident]
    · iexact $h1:ident
    isplitl [$h2:ident]
    · iexact $h2:ident
    iexact $ho:ident
  iintro ⟨$h1:ident, $h2:ident, $ho:ident⟩))

set_option hygiene false in
local macro "pacc " b:num kc:term:max M2:ident pay:term:max E:ident ho:ident h2:ident : tactic => `(tactic| (
  iapply (step_acc c $b $kc _ (rect_eq $b $kc ($E c) rfl) $M2 MO _ _ _ $pay (by paytac)) $$ [$ho:ident $h2:ident]
  · isplitl [$ho:ident]
    · iexact $ho:ident
    iexact $h2:ident
  iintro ⟨$ho:ident, $h2:ident⟩))

set_option hygiene false in
local macro "phalve " b:num kc:term:max h:ident hL:ident hR:ident : tactic => `(tactic| (
  ihave Hhalf := ((cown_share c MO $b $kc _).1) $$ $h:ident
  icases Hhalf with ⟨$hL:ident, $hR:ident⟩))

set_option hygiene false in
local macro "pjoin " b:num kc:term:max hL:ident hR:ident h:ident : tactic => `(tactic| (
  ihave $h:ident := ((cown_share c MO $b $kc _).2) $$ [$hL:ident $hR:ident]
  · isplitl [$hL:ident]
    · iexact $hL:ident
    iexact $hR:ident))

set_option hygiene false in
local macro "pany " h:ident : tactic => `(tactic| (ihave $h:ident := (cown_any _ _ _ _ _) $$ $h:ident))

local macro "pex " h:ident : tactic => `(tactic| (isplitl [$h:ident]; iexact $h:ident))

/-- The finished sum of a device, restated at the offset its own chunks are filed under. -/
theorem A3_own (X : Dev nD → Arr F) (b : Fin 3) (c : Dev nD) (h : Fin 8) (hh : osrc b h = 0) :
    A3 X b c = A3 X b (xr c (osrc b h)) := by rw [hh, xr_zero]

/-- The finished sum that came through the first partner from its second partner, at the offset it is filed under. -/
theorem A3_fwd (X : Dev nD → Arr F) (b : Fin 3) (c : Dev nD) (h : Fin 8)
    (hh : ∀ c : Dev nD, xr (xr c (mk b 0)) (mk b 1) = xr c (osrc b h)) :
    A3 X b (xr (xr c (mk b 0)) (mk b 1)) = A3 X b (xr c (osrc b h)) := by rw [hh c]

/-- A handshake payload is the conjunction, over the transfers it serves, of their destination chunks. -/
theorem barPay_open (p : Dev nD) (j : Fin 3) :
    (barPay (F := F) p j : sProp 𝕄) ⊢ bigSep (handed j) (fun bs => cownAny (F := F) (xr p (bmask j)) (dstM bs.2) bs.1 (xr p (cmask bs.1 bs.2))) := by
  unfold barPay; exact .rfl

set_option maxRecDepth 65536 in
set_option maxHeartbeats 16000000 in
theorem body_core : BodyCore (F := F) m := by
  intro K c Kt
  unfold ChIn
  simp only [bigSep_38, bigSep_b3]
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel k0_part35_skel k0_part36_skel k0_part37_skel k0_part38_skel k0_part39_skel k0_part40_skel k0_part41_skel k0_part42_skel k0_part43_skel k0_part44_skel k0_part45_skel k0_part46_skel k0_part47_skel k0_part48_skel k0_part49_skel k0_part50_skel
  simp only [semSignalWord, semWaitWord, Prog.lift, Prog.bind_op, Prog.bind_ret, Prog.pure_eq_ret, wp_deviceId]
  iintro ⟨#HP, HS, ⟨⟨X00, X01, X02, X03, X04, X05, X06, X07, X10, X11, X12, X13, X14, X15, X16, X17, X20, X21, X22, X23, X24, X25, X26, X27⟩, ⟨⟨O0a, O0c, O0b, O0d⟩, ⟨O1a, O1c, O1b, O1d⟩, ⟨O2a, O2c, O2b, O2d⟩⟩, Hg0, Hg1, Hg2, Hrest⟩, Hk⟩

  -- the handshake: three signals, each carrying this device's chunks that partner's transfers land in; then the wait
  psig 0 1 0 dev1_eq Hg0
  psig 1 2 1 dev2_eq Hg1
  psig 2 3 2 dev3_eq Hg2
  pbar 3 4
  ihave Hp0 := (barPay_open c 0) $$ Hp0
  ihave Hp0 := (Entails.of_eq (handed_0 _)) $$ Hp0
  ihave Hp1 := (barPay_open c 1) $$ Hp1
  ihave Hp1 := (Entails.of_eq (handed_1 _)) $$ Hp1
  ihave Hp2 := (barPay_open c 2) $$ Hp2
  ihave Hp2 := (Entails.of_eq (handed_2 _)) $$ Hp2
  icases Hp0 with ⟨D0_0, D0_1, D0_2, D0_3, D0_10, D0_11, D0_12, D0_13, D1_6, D1_7, D2_4, D2_5⟩
  icases Hp1 with ⟨D0_4, D0_5, D1_0, D1_1, D1_2, D1_3, D1_10, D1_11, D1_12, D1_13, D2_6, D2_7⟩
  icases Hp2 with ⟨D0_6, D0_7, D1_4, D1_5, D2_0, D2_1, D2_2, D2_3, D2_10, D2_11, D2_12, D2_13⟩
  -- first stage: four chunks of the input to the first partner, per band
  psend 4 5 0 0 MX MR1 off1_0_1_3_eq dev4_eq X02 D0_0
  psend 5 6 0 1 MX MR1 off1_0_1_7_eq dev5_eq X06 D0_1
  psend 6 7 0 2 MX MR1 off1_0_1_0_eq dev6_eq X01 D0_2
  psend 7 8 0 3 MX MR1 off1_0_1_4_eq dev7_eq X05 D0_3
  psend 8 9 1 0 MX MR1 off2_3_4_eq dev8_eq X17 D1_0
  psend 9 10 1 1 MX MR1 off2_3_5_eq dev9_eq X16 D1_1
  psend 10 11 1 2 MX MR1 off2_3_0_eq dev10_eq X13 D1_2
  psend 11 12 1 3 MX MR1 off2_3_1_eq dev11_eq X12 D1_3
  psend 12 13 2 0 MX MR1 off1_1344_4_1_eq dev12_eq X25 D2_0
  psend 13 14 2 1 MX MR1 off1_1344_4_2_eq dev13_eq X26 D2_1
  psend 14 15 2 2 MX MR1 off1_1344_4_0_eq dev14_eq X24 D2_2
  psend 15 16 2 3 MX MR1 off1_1344_4_3_eq dev15_eq X27 D2_3
  -- slot 0 arrives: chunk ⊕ m₂ becomes x + r₁ and goes to the second partner with its source
  precv 16 17 0 0 MR1 off1_0_1_3_eq R0_0
  padd 0 (xr c 3) MX MR1 k0_pay1 off3_0_3_eq X03 R0_0 O0b
  psends 17 18 0 4 MO MR2 off4_0_3_eq dev16_eq O0b D0_4
  precv 18 19 1 0 MR1 off2_3_4_eq R1_0
  padd 1 (xr c 4) MX MR1 k0_pay2 off5_4_eq X14 R1_0 O1b
  psends 19 20 1 4 MO MR2 off6_4_eq dev17_eq O1b D1_4
  precv 20 21 2 0 MR1 off1_1344_4_1_eq R2_0
  padd 2 (xr c 1) MX MR1 k0_pay3 off3_1344_1_eq X21 R2_0 O2b
  psends 21 22 2 4 MO MR2 off4_1344_1_eq dev18_eq O2b D2_4
  -- slot 1 arrives: chunk ⊕ m₂ ⊕ m₃ likewise
  precv 22 23 0 1 MR1 off1_0_1_7_eq R0_1
  padd 0 (xr c 7) MX MR1 k0_pay4 off7_0_3_4_eq X07 R0_1 O0d
  psends 23 24 0 5 MO MR2 off1_0_3_4_eq dev19_eq O0d D0_5
  precv 24 25 1 1 MR1 off2_3_5_eq R1_1
  padd 1 (xr c 5) MX MR1 k0_pay5 off8_eq X15 R1_1 O1d
  psends 25 26 1 5 MO MR2 off2_4_1_eq dev20_eq O1d D1_5
  precv 26 27 2 1 MR1 off1_1344_4_2_eq R2_1
  padd 2 (xr c 2) MX MR1 (fun u v => k0_pay7 (k0_pay6 u) v) off7_1344_1_3_eq X22 R2_1 O2d
  psends 27 28 2 5 MO MR2 off1_1344_1_3_eq dev21_eq O2d D2_5
  -- slots 2, 3 arrive: the device's own chunk and chunk ⊕ m₃ become x + r₁
  precv 28 29 0 2 MR1 off1_0_1_0_eq R0_2
  padd 0 (xr c 0) MX MR1 k0_pay8 off3_0_0_eq X00 R0_2 O0a
  precv 29 30 0 3 MR1 off1_0_1_4_eq R0_3
  padd 0 (xr c 4) MX MR1 k0_pay9 off3_0_4_eq X04 R0_3 O0c
  precv 30 31 1 2 MR1 off2_3_0_eq R1_2
  padd 1 (xr c 0) MX MR1 k0_pay10 off5_0_eq X10 R1_2 O1a
  precv 31 32 1 3 MR1 off2_3_1_eq R1_3
  padd 1 (xr c 1) MX MR1 k0_pay11 off5_1_eq X11 R1_3 O1c
  precv 32 33 2 2 MR1 off1_1344_4_0_eq R2_2
  padd 2 (xr c 0) MX MR1 k0_pay12 off3_1344_0_eq X20 R2_2 O2a
  precv 33 34 2 3 MR1 off1_1344_4_3_eq R2_3
  padd 2 (xr c 3) MX MR1 k0_pay13 off3_1344_3_eq X23 R2_3 O2c
  -- slot 4 arrives (with the partner's source chunk): own chunk += r₂, on to the third partner
  precvs 34 35 0 4 MR2 off4_0_3_eq R0_4 P0_4
  pacc 0 (xr c 0) MR2 k0_pay14 off9_0_eq O0a R0_4
  psend 35 36 0 6 MO MR3 off10_0_eq dev22_eq O0a D0_6
  precvs 36 37 1 4 MR2 off6_4_eq R1_4 P1_4
  pacc 1 (xr c 0) MR2 k0_pay15 off11_eq O1a R1_4
  psend 37 38 1 6 MO MR3 off12_eq dev23_eq O1a D1_6
  precvs 38 39 2 4 MR2 off4_1344_1_eq R2_4 P2_4
  pacc 2 (xr c 0) MR2 k0_pay16 off9_1344_eq O2a R2_4
  psend 39 40 2 6 MO MR3 off10_1344_eq dev24_eq O2a D2_6
  -- slot 5 arrives: chunk ⊕ m₃ += r₂, on to the third partner
  precvs 40 41 0 5 MR2 off1_0_3_4_eq R0_5 P0_5
  pacc 0 (xr c 4) MR2 k0_pay17 off3_0_4_eq O0c R0_5
  psend 41 42 0 7 MO MR3 off4_0_4_eq dev25_eq O0c D0_7
  precvs 42 43 1 5 MR2 off2_4_1_eq R1_5 P1_5
  pacc 1 (xr c 1) MR2 k0_pay18 off5_1_eq O1c R1_5
  psend 43 44 1 7 MO MR3 off6_1_eq dev26_eq O1c D1_7
  precvs 44 45 2 5 MR2 off1_1344_1_3_eq R2_5 P2_5
  pacc 2 (xr c 3) MR2 k0_pay19 off3_1344_3_eq O2c R2_5
  psend 45 46 2 7 MO MR3 off4_1344_3_eq dev27_eq O2c D2_7

  -- slot 6 arrives and slot 7 has left: chunk ⊕ m₃ += r₃ is finished; it goes, shared, to the second and the first partner
  precv 46 47 0 6 MR3 off10_0_eq R0_6
  pswait 47 48 0 7 MO off4_0_4_eq O0c
  pacc 0 (xr c 4) MR3 k0_pay20 off3_0_4_eq O0c R0_6
  phalve 0 (xr c 4) O0c O0cL O0cR
  pany P0_5
  psend 48 49 0 9 MO MO off4_0_4_eq dev28_eq O0cL P0_5
  psend 49 50 0 11 MO MO off4_0_4_eq dev29_eq O0cR D0_11
  precv 50 51 1 6 MR3 off12_eq R1_6
  pswait 51 52 1 7 MO off6_1_eq O1c
  pacc 1 (xr c 1) MR3 k0_pay21 off5_1_eq O1c R1_6
  phalve 1 (xr c 1) O1c O1cL O1cR
  pany P1_5
  psend 52 53 1 9 MO MO off6_1_eq dev30_eq O1cL P1_5
  psend 53 54 1 11 MO MO off6_1_eq dev31_eq O1cR D1_11
  precv 54 55 2 6 MR3 off10_1344_eq R2_6
  pswait 55 56 2 7 MO off4_1344_3_eq O2c
  pacc 2 (xr c 3) MR3 (fun u v => k0_pay23 (k0_pay22 u) v) off3_1344_3_eq O2c R2_6
  phalve 2 (xr c 3) O2c O2cL O2cR
  pany P2_5
  psend 56 57 2 9 MO MO off4_1344_3_eq dev32_eq O2cL P2_5
  psend 57 58 2 11 MO MO off4_1344_3_eq dev33_eq O2cR D2_11
  -- slot 7 arrives and slot 6 has left: the device's own chunk += r₃ is finished; shared to the second and first partner
  precv 58 59 0 7 MR3 off4_0_4_eq R0_7
  pswait 59 60 0 6 MO off10_0_eq O0a
  pacc 0 (xr c 0) MR3 k0_pay24 off9_0_eq O0a R0_7
  phalve 0 (xr c 0) O0a O0aL O0aR
  pany P0_4
  psend 60 61 0 8 MO MO off10_0_eq dev34_eq O0aL P0_4
  psend 61 62 0 10 MO MO off10_0_eq dev35_eq O0aR D0_10
  precv 62 63 1 7 MR3 off6_1_eq R1_7
  pswait 63 64 1 6 MO off12_eq O1a
  pacc 1 (xr c 0) MR3 k0_pay25 off11_eq O1a R1_7
  phalve 1 (xr c 0) O1a O1aL O1aR
  pany P1_4
  psend 64 65 1 8 MO MO off12_eq dev36_eq O1aL P1_4
  psend 65 66 1 10 MO MO off12_eq dev37_eq O1aR D1_10
  precv 66 67 2 7 MR3 off4_1344_3_eq R2_7
  pswait 67 68 2 6 MO off10_1344_eq O2a
  pacc 2 (xr c 0) MR3 k0_pay26 off9_1344_eq O2a R2_7
  phalve 2 (xr c 0) O2a O2aL O2aR
  pany P2_4
  psend 68 69 2 8 MO MO off10_1344_eq dev38_eq O2aL P2_4
  psend 69 70 2 10 MO MO off10_1344_eq dev39_eq O2aR D2_10
  -- slots 8, 9 arrive from the second partner: forwarded to the first partner
  precv 70 71 0 8 MO off10_0_eq O0b
  psend 71 72 0 12 MO MO off4_0_3_eq dev40_eq O0b D0_12
  precv 72 73 1 8 MO off12_eq O1b
  psend 73 74 1 12 MO MO off6_4_eq dev41_eq O1b D1_12
  precv 74 75 2 8 MO off10_1344_eq O2b
  psend 75 76 2 12 MO MO off4_1344_1_eq dev42_eq O2b D2_12
  precv 76 77 0 9 MO off4_0_4_eq O0d
  psend 77 78 0 13 MO MO off1_0_3_4_eq dev43_eq O0d D0_13
  precv 78 79 1 9 MO off6_1_eq O1d
  psend 79 80 1 13 MO MO off2_4_1_eq dev44_eq O1d D1_13
  precv 80 81 2 9 MO off4_1344_3_eq O2d
  psend 81 82 2 13 MO MO off1_1344_1_3_eq dev45_eq O2d D2_13
  -- the four chunks from the first partner arrive
  precv 82 83 0 11 MO off4_0_4_eq E0_11
  precv 83 84 1 11 MO off6_1_eq E1_11
  precv 84 85 2 11 MO off4_1344_3_eq E2_11
  precv 85 86 0 10 MO off10_0_eq E0_10
  precv 86 87 1 10 MO off12_eq E1_10
  precv 87 88 2 10 MO off10_1344_eq E2_10
  precv 88 89 0 12 MO off4_0_3_eq E0_12
  precv 89 90 1 12 MO off6_4_eq E1_12
  precv 90 91 2 12 MO off4_1344_1_eq E2_12
  precv 91 92 0 13 MO off1_0_3_4_eq E0_13
  precv 92 93 1 13 MO off2_4_1_eq E1_13
  precv 93 94 2 13 MO off1_1344_1_3_eq E2_13
  -- every other transfer has left: the source chunks come back
  pswait 94 95 0 0 MX off1_0_1_3_eq X02
  pswait 95 96 0 1 MX off1_0_1_7_eq X06
  pswait 96 97 0 2 MX off1_0_1_0_eq X01
  pswait 97 98 0 3 MX off1_0_1_4_eq X05
  pswait 98 99 1 0 MX off2_3_4_eq X17
  pswait 99 100 1 1 MX off2_3_5_eq X16
  pswait 100 101 1 2 MX off2_3_0_eq X13
  pswait 101 102 1 3 MX off2_3_1_eq X12
  pswait 102 103 2 0 MX off1_1344_4_1_eq X25
  pswait 103 104 2 1 MX off1_1344_4_2_eq X26
  pswait 104 105 2 2 MX off1_1344_4_0_eq X24
  pswait 105 106 2 3 MX off1_1344_4_3_eq X27
  pswait0 106 107 0 4 MO off4_0_3_eq
  pswait0 107 108 1 4 MO off6_4_eq
  pswait0 108 109 2 4 MO off4_1344_1_eq
  pswait0 109 110 0 5 MO off1_0_3_4_eq
  pswait0 110 111 1 5 MO off2_4_1_eq
  pswait0 111 112 2 5 MO off1_1344_1_3_eq
  pswait 112 113 0 9 MO off4_0_4_eq O0cL
  pswait 113 114 0 11 MO off4_0_4_eq O0cR
  pswait 114 115 1 9 MO off6_1_eq O1cL
  pswait 115 116 1 11 MO off6_1_eq O1cR
  pswait 116 117 2 9 MO off4_1344_3_eq O2cL
  pswait 117 118 2 11 MO off4_1344_3_eq O2cR
  pswait 118 119 0 8 MO off10_0_eq O0aL
  pswait 119 120 0 10 MO off10_0_eq O0aR
  pswait 120 121 1 8 MO off12_eq O1aL
  pswait 121 122 1 10 MO off12_eq O1aR
  pswait 122 123 2 8 MO off10_1344_eq O2aL
  pswait 123 124 2 10 MO off10_1344_eq O2aR
  pswait 124 125 0 12 MO off4_0_3_eq O0b
  pswait 125 126 1 12 MO off6_4_eq O1b
  pswait 126 127 2 12 MO off4_1344_1_eq O2b
  pswait 127 128 0 13 MO off1_0_3_4_eq O0d
  pswait 128 129 1 13 MO off2_4_1_eq O1d
  pswait 129 130 2 13 MO off1_1344_1_3_eq O2d

  -- the two halves of each finished chunk are one chunk again
  pjoin 0 (xr c 0) O0aL O0aR O0a
  pjoin 0 (xr c 4) O0cL O0cR O0c
  pjoin 1 (xr c 0) O1aL O1aR O1a
  pjoin 1 (xr c 1) O1cL O1cR O1c
  pjoin 2 (xr c 0) O2aL O2aR O2a
  pjoin 2 (xr c 3) O2cL O2cR O2c
  -- the device's own finished sums, and those forwarded by the first partner, at the offsets they are filed under
  ihave O0a := (cown_val c MO 0 (xr c 0) fullShare (G := cval (Xof m) 0 8 c) (A3_own (Xof m) 0 c 0 (by decide))) $$ O0a
  ihave O0c := (cown_val c MO 0 (xr c 4) fullShare (G := cval (Xof m) 0 9 c) (A3_own (Xof m) 0 c 4 (by decide))) $$ O0c
  ihave O1a := (cown_val c MO 1 (xr c 0) fullShare (G := cval (Xof m) 1 8 c) (A3_own (Xof m) 1 c 0 (by decide))) $$ O1a
  ihave O1c := (cown_val c MO 1 (xr c 1) fullShare (G := cval (Xof m) 1 9 c) (A3_own (Xof m) 1 c 1 (by decide))) $$ O1c
  ihave O2a := (cown_val c MO 2 (xr c 0) fullShare (G := cval (Xof m) 2 8 c) (A3_own (Xof m) 2 c 0 (by decide))) $$ O2a
  ihave O2c := (cown_val c MO 2 (xr c 3) fullShare (G := cval (Xof m) 2 9 c) (A3_own (Xof m) 2 c 3 (by decide))) $$ O2c
  ihave E0_12 := (cown_val c (dstM 12) 0 (xr c (rmask 0 12)) fullShare (G := cval (Xof m) 0 12 (xr c (tmask 0 12))) (A3_fwd (Xof m) 0 c 2 (by decide))) $$ E0_12
  ihave E0_13 := (cown_val c (dstM 13) 0 (xr c (rmask 0 13)) fullShare (G := cval (Xof m) 0 13 (xr c (tmask 0 13))) (A3_fwd (Xof m) 0 c 6 (by decide))) $$ E0_13
  ihave E1_12 := (cown_val c (dstM 12) 1 (xr c (rmask 1 12)) fullShare (G := cval (Xof m) 1 12 (xr c (tmask 1 12))) (A3_fwd (Xof m) 1 c 7 (by decide))) $$ E1_12
  ihave E1_13 := (cown_val c (dstM 13) 1 (xr c (rmask 1 13)) fullShare (G := cval (Xof m) 1 13 (xr c (tmask 1 13))) (A3_fwd (Xof m) 1 c 6 (by decide))) $$ E1_13
  ihave E2_12 := (cown_val c (dstM 12) 2 (xr c (rmask 2 12)) fullShare (G := cval (Xof m) 2 12 (xr c (tmask 2 12))) (A3_fwd (Xof m) 2 c 5 (by decide))) $$ E2_12
  ihave E2_13 := (cown_val c (dstM 13) 2 (xr c (rmask 2 13)) fullShare (G := cval (Xof m) 2 13 (xr c (tmask 2 13))) (A3_fwd (Xof m) 2 c 6 (by decide))) $$ E2_13
  -- the scratch chunks, at whatever landed in them
  pany R0_0
  pany R0_1
  pany R0_2
  pany R0_3
  pany R0_4
  pany R0_5
  pany R0_6
  pany R0_7
  pany R1_0
  pany R1_1
  pany R1_2
  pany R1_3
  pany R1_4
  pany R1_5
  pany R1_6
  pany R1_7
  pany R2_0
  pany R2_1
  pany R2_2
  pany R2_3
  pany R2_4
  pany R2_5
  pany R2_6
  pany R2_7
  -- the body returns: the final state and the final chunks
  rw [wp_ret]
  imodintro
  iapply Hk
  ihave HS := (Entails.of_eq (congrArg (St c) stAt_final)) $$ HS
  isplitl [HS]
  · iexact HS
  unfold ChOut
  simp only [bigSep_38, bigSep_b3, usedR_0, usedR_1, usedR_2]
  isplitl [X00 X01 X02 X03 X04 X05 X06 X07 X10 X11 X12 X13 X14 X15 X16 X17 X20 X21 X22 X23 X24 X25 X26 X27]
  · pex X00
    pex X01
    pex X02
    pex X03
    pex X04
    pex X05
    pex X06
    pex X07
    pex X10
    pex X11
    pex X12
    pex X13
    pex X14
    pex X15
    pex X16
    pex X17
    pex X20
    pex X21
    pex X22
    pex X23
    pex X24
    pex X25
    pex X26
    iexact X27
  isplitl [O0a E0_10 E0_12 O0b O0c E0_11 E0_13 O0d O1a O1c E1_11 E1_10 O1b O1d E1_13 E1_12 O2a O2b O2d O2c E2_10 E2_12 E2_13 E2_11]
  · pex O0a
    pex E0_10
    pex E0_12
    pex O0b
    pex O0c
    pex E0_11
    pex E0_13
    pex O0d
    pex O1a
    pex O1c
    pex E1_11
    pex E1_10
    pex O1b
    pex O1d
    pex E1_13
    pex E1_12
    pex O2a
    pex O2b
    pex O2d
    pex O2c
    pex E2_10
    pex E2_12
    pex E2_13
    iexact E2_11
  isplitl [R0_0 R0_1 R0_2 R0_3 R1_0 R1_1 R1_2 R1_3 R2_0 R2_1 R2_2 R2_3 R0_4 R0_5 R1_4 R1_5 R2_4 R2_5 R0_6 R0_7 R1_6 R1_7 R2_6 R2_7]
  · isplitl [R0_0 R0_1 R0_2 R0_3 R1_0 R1_1 R1_2 R1_3 R2_0 R2_1 R2_2 R2_3]
    · pex R0_0
      pex R0_1
      pex R0_2
      pex R0_3
      pex R1_0
      pex R1_1
      pex R1_2
      pex R1_3
      pex R2_0
      pex R2_1
      pex R2_2
      iexact R2_3
    isplitl [R0_4 R0_5 R1_4 R1_5 R2_4 R2_5]
    · pex R0_4
      pex R0_5
      pex R1_4
      pex R1_5
      pex R2_4
      iexact R2_5
    pex R0_6
    pex R0_7
    pex R1_6
    pex R1_7
    pex R2_6
    iexact R2_7
  iexact Hrest

/-- info: 'Cert.Kernel.Ar.body_core' depends on axioms: [propext, Classical.choice, Quot.sound] -/
#guard_msgs in #print axioms body_core

end Cert.Kernel.Ar

end
-- ==== Proof.Value.lean ====
import proofs.«900695_g7700000000000696_dist_ar_v7x_i8_i_m2048_n512_f32_1_alg».proof.Proof.Iface
import proofs.«900695_g7700000000000696_dist_ar_v7x_i8_i_m2048_n512_f32_1_alg».proof.Proof.Gen.ReferenceIdeal.Run
import proofs.«900695_g7700000000000696_dist_ar_v7x_i8_i_m2048_n512_f32_1_alg».proof.Proof.Gen.ReferenceIdeal.Read
import proofs.«900695_g7700000000000696_dist_ar_v7x_i8_i_m2048_n512_f32_1_alg».proof.Proof.Gen.Pre_finite_inputs_Kernel
import proofs.«900695_g7700000000000696_dist_ar_v7x_i8_i_m2048_n512_f32_1_alg».proof.Proof.Gen.Pre_finite_inputs_ReferenceIdeal
import Idealize.ShloMosaic.Lib.ValueIdx
import Idealize.ShloMosaic.PureOps.Ideal.Laws

/-!
# The butterfly's value is the sum over the devices, and that is the reference

In band `b` with masks `(m₁, m₂, m₃)` the three stages add, at device `d`, the blocks of the eight devices
`d ⊕ h`, `h` running over the sums of subsets of the masks. The masks are linearly independent over GF(2),
so these are all eight devices, each once; addition of extended reals is commutative and associative, so the
bracketing the butterfly happens to use does not matter: every chunk of every device's result is the plain sum
of the eight input blocks at that index.

The reference reshapes the whole array of 16384 × 512 to 8 × 2048 × 512 and sums over the leading axis,
starting from zero. Entry `(r, l)` of slab `k` is entry `(2048 k + r, l)` of the whole array, which is entry
`(r, l)` of block `k` along the rows: so the reference's result at an index is the same sum.
-/

noncomputable section

namespace Cert.KernelIdeal.ArValue

open Idealize.ShloMosaic Idealize.SL.Sem Cert.KernelIdeal Cert.KernelIdeal.Ar

/-! ## The reference runs -/

/-- The reference's run with its result dropped: it terminates and leaves its argument as it was. -/
theorem frame_ref : Cert.frame_ReferenceIdeal :=
  fun m ρ _ => (θ_run Cert.ReferenceIdeal.defs _ _).mono (fun _ h c => (h c).2)
    (Cert.ReferenceIdeal.Value.run (F := Ideal) m ρ)

/-! ## The eight summands of a band are the eight devices -/

/-- The devices whose blocks device `d` has added up after the three stages of band `b`, in the order of the
    butterfly's bracketing. -/
def ids (b : Fin 3) (d : Dev nD) : List (Dev nD) :=
  [d, xr d (mk b 0), xr d (mk b 1), xr (xr d (mk b 1)) (mk b 0),
   xr d (mk b 2), xr (xr d (mk b 2)) (mk b 0), xr (xr d (mk b 2)) (mk b 1), xr (xr (xr d (mk b 2)) (mk b 1)) (mk b 0)]

/-- They are pairwise different and every device is among them. -/
theorem ids_all : ∀ (b : Fin 3) (d : Dev nD), (ids b d).Nodup ∧ ∀ k : Dev nD, k ∈ ids b d := by decide

/-- So a sum over the devices is the sum along that list. -/
theorem sum_ids (b : Fin 3) (d : Dev nD) (g : Dev nD → EReal) : ∑ k : Dev nD, g k = ((ids b d).map g).sum := by
  obtain ⟨hn, hm⟩ := ids_all b d
  rw [← List.sum_toFinset g hn]
  exact congrArg (fun s => Finset.sum s g) (Finset.eq_univ_iff_forall.mpr fun k => List.mem_toFinset.mpr (hm k)).symm

/-- The third partial sum, at any device of any band, is the sum of all eight blocks. -/
theorem A3_apply (X : Dev nD → Arr Ideal) (b : Fin 3) (d : Dev nD) (i : S2048x512.Idx) :
    A3 X b d i = ∑ k : Dev nD, X k i := by
  rw [sum_ids b d fun k => X k i]
  simp only [ids, List.map_cons, List.map_nil, List.sum_cons, List.sum_nil, add_zero, A3, A2, A1,
    ValueIdx.addf_apply, add_assoc]

/-- Hence so is every entry of every device's result. -/
theorem outAt_apply (X : Dev nD → Arr Ideal) (c : Dev nD) (i : S2048x512.Idx) :
    outAt X c i = ∑ k : Dev nD, X k i := A3_apply X _ _ i

/-! ## The reference's result at an index -/

/-- Where entry `i` of block `k` along the rows lies in the whole array is where the reference's reshape reads
    entry `i` of slab `k`: row `2048 k + r`, the same column. -/
theorem idx_eq (h : Layout.Tiles ⟨2, ![2048, 512]⟩ ⟨2, ![16384, 512]⟩ 0 8) (k : Fin 8) (i : S2048x512.Idx) :
    h.idx k i = Cert.ReferenceIdeal.Read.idx_main_v0 (Cert.ReferenceIdeal.Read.idx_main_v1 i k) := by
  have h0 : (i 0).val < 2048 := (i 0).isLt
  have h1 : (i 1).val < 512 := (i 1).isLt
  funext a
  match a with
  | ⟨0, _⟩ =>
    exact Fin.ext (show k.val * 2048 + (i 0).val = ((k.val * 2048 + (i 0).val) * 512 + (i 1).val) / 512 by omega)
  | ⟨1, _⟩ =>
    exact Fin.ext (show (i 1).val = ((k.val * 2048 + (i 0).val) * 512 + (i 1).val) % 512 by omega)

/-- The reference's result at an index: zero plus the sum over the eight slabs, which are the eight blocks of the
    whole array along its rows. -/
theorem ref_apply (x0 : (⟨Cert.ReferenceIdeal.S16384x512, .f32⟩ : BufTy).Contents (Elt Ideal)) (i : S2048x512.Idx) :
    Cert.ReferenceIdeal.Read.val_main_v1 (F := Ideal) x0 i
      = ∑ k : Fin 8, Layout.block ⟨2, ![2048, 512]⟩ ⟨2, ![16384, 512]⟩ 0 8 k x0 (by decide) i := by
  rw [Cert.ReferenceIdeal.Read.val_main_v1_apply, Cert.ReferenceIdeal.Read.val_main_cst_apply, Ideal.ofBits_def,
    Ideal.ofBits_zero_f32, zero_add]
  refine Finset.sum_congr rfl fun k _ => ?_
  rw [Cert.ReferenceIdeal.Read.val_main_v0_apply, Layout.block_apply, idx_eq]

/-- When every device's block of the input is its block of the reference's whole array, every device's result
    is the reference's result. -/
theorem out_eq_ref (m : (ℓ : Loc nD τ sig) → Buf (Elt Ideal) ℓ)
    (x0 : (⟨Cert.ReferenceIdeal.S16384x512, .f32⟩ : BufTy).Contents (Elt Ideal))
    (hagree : ∀ c : Dev nD, m ((c.tc : Thread nD τ).loc main_arg0) = Layout.block ⟨2, ![2048, 512]⟩ ⟨2, ![16384, 512]⟩ 0 8 c x0)
    (c : Dev nD) :
    (outAt (Xof m) c : S2048x512.Idx → EReal) = Cert.ReferenceIdeal.Read.val_main_v1 (F := Ideal) x0 := by
  funext i
  rw [outAt_apply, ref_apply]
  exact Finset.sum_congr rfl fun k _ => congrFun (hagree k) i

/-! ## The claim, from the kernel's run -/

/-- Given the kernel's run with the butterfly's value in every device's result, the kernel and the reference
    agree: the common value is the reference's reduction of its whole array. -/
theorem algebraic_of_run
    (hrun : ∀ (m : (ℓ : Loc Cert.KernelIdeal.nD Cert.KernelIdeal.τ Cert.KernelIdeal.sig) → Buf (Elt Ideal) ℓ)
      (ρ : Dev Cert.KernelIdeal.nD → PrngReg),
      θ_run (Cert.KernelIdeal.defs (F := Ideal)) (onTc (τ := Cert.KernelIdeal.τ) (Cert.KernelIdeal.main (F := Ideal)))
        ⟨m, fun _ => 0, ρ⟩ (Cert.KernelIdeal.Ar.RunPost (F := Ideal) m)) :
    Cert.algebraic_KernelIdeal_ReferenceIdeal := by
  intro m g m' g' _ hagree
  refine ⟨Cert.ReferenceIdeal.Read.val_main_v1 (F := Ideal)
    (m' (((0 : Dev Cert.ReferenceIdeal.nD).tc : Thread Cert.ReferenceIdeal.nD Cert.ReferenceIdeal.τ).loc
      Cert.ReferenceIdeal.main_arg0)), ?_, ?_⟩
  · exact (θ_run _ _ _).mono (fun r h c => ⟨(h c).1.trans (out_eq_ref m _ hagree c), (h c).2⟩) (hrun m g)
  · exact (θ_run Cert.ReferenceIdeal.defs _ _).mono
      (fun _ h => ⟨(h 0).1.trans (Cert.ReferenceIdeal.Read.val_main_v1_eq _), (h 0).2⟩)
      (Cert.ReferenceIdeal.Value.run (F := Ideal) m' g')

/-- info: 'Cert.KernelIdeal.ArValue.algebraic_of_run' depends on axioms: [propext, Classical.choice, Quot.sound] -/
#guard_msgs in
#print axioms algebraic_of_run

end Cert.KernelIdeal.ArValue

end
-- ==== Proof.lean ====
/- The proof of `Cert.Claim` (proofs.«900695_g7700000000000696_dist_ar_v7x_i8_i_m2048_n512_f32_1_alg».proof.Defs): frame_Kernel ∧ frame_KernelIdeal ∧ frame_ReferenceIdeal ∧
   preserves_Kernel_KernelIdeal ∧ algebraic_KernelIdeal_ReferenceIdeal.

   The kernel is an all-reduce over a mesh of eight devices: each device holds one block of 2048 × 512 of an array of
   16384 × 512, and every device must end with the sum of the eight blocks; the reference computes that sum on one device.
   A device's id is read as three bits. The block's rows are cut into three bands, each band into eight chunks, and each band
   runs a butterfly: three stages of pairwise exchange with the partner across one mask (the masks 1, 3, 4, in a different
   cyclic order per band so that the three links of a device are loaded evenly), halving at each stage the chunks a device is
   responsible for and adding what arrives, so that after the third stage a device holds the finished sum on two chunks; these
   are then copied back along the same links until every device holds every chunk. Every transfer moves one chunk to one
   partner, on its own pair of send and receive semaphores; the kernel opens with a handshake on the runtime's barrier
   semaphore, each device signalling its three partners and waiting for three units.

   The run. The devices' synchronisation is proved under the rounds discipline: every semaphore is a cell of one round whose
   duties are the transfers and signals that credit it, each duty handing the cell's owner a payload — the landed chunk at the
   value its sender held (the input block in the first stage, a partial sum in the second and third, a finished sum in the
   copying back), or, for a handshake unit, the partner's chunks that the signalling device's transfers will land in. No wait
   can block for ever because the cells are levelled by the place of their wait in the program, and whenever a device waits on
   a cell everything it still owes lies strictly above it. One device's body, at a symbolic device, is a sequence of protocol
   steps over a finite record of what has been sent, waited for and signalled; the launch theorem of the pipeline library
   turns the body's statement on every device into the run of the whole mesh: every weakly fair execution terminates, nothing
   faults, each device's result array ends as the butterfly's value of the eight launch-time blocks, and its input block ends
   as it was. The argument uses nothing about the floats but that they can be moved and added, so it holds of the program as
   printed, at the word level, and of the program read at the extended reals alike.

   The claims. The three frames are that run with the value dropped (the reference's from its generated run). `preserves`
   is trivial: the ideal pass rewrote no operation. For `algebraic`, at the extended reals addition is associative and
   commutative, and the three masks are linearly independent over the field of two elements, so the butterfly's bracketing
   of a band adds each of the eight blocks exactly once: every row of every device's result is the sum over the eight devices
   of that row of their blocks, which is the row of the reference's result over the whole array cut in eight along its rows. -/
import proofs.«900695_g7700000000000696_dist_ar_v7x_i8_i_m2048_n512_f32_1_alg».proof.Defs
import proofs.«900695_g7700000000000696_dist_ar_v7x_i8_i_m2048_n512_f32_1_alg».proof.Proof.Gen.Kernel
import proofs.«900695_g7700000000000696_dist_ar_v7x_i8_i_m2048_n512_f32_1_alg».proof.Proof.Gen.Kernel.Skeleton
import proofs.«900695_g7700000000000696_dist_ar_v7x_i8_i_m2048_n512_f32_1_alg».proof.Proof.Gen.Kernel.Launch
import proofs.«900695_g7700000000000696_dist_ar_v7x_i8_i_m2048_n512_f32_1_alg».proof.Proof.Gen.Kernel.Points
import proofs.«900695_g7700000000000696_dist_ar_v7x_i8_i_m2048_n512_f32_1_alg».proof.Proof.Gen.Kernel.Frame
import proofs.«900695_g7700000000000696_dist_ar_v7x_i8_i_m2048_n512_f32_1_alg».proof.Proof.Gen.KernelIdeal
import proofs.«900695_g7700000000000696_dist_ar_v7x_i8_i_m2048_n512_f32_1_alg».proof.Proof.Gen.KernelIdeal.Skeleton
import proofs.«900695_g7700000000000696_dist_ar_v7x_i8_i_m2048_n512_f32_1_alg».proof.Proof.Gen.KernelIdeal.Launch
import proofs.«900695_g7700000000000696_dist_ar_v7x_i8_i_m2048_n512_f32_1_alg».proof.Proof.Gen.KernelIdeal.Points
import proofs.«900695_g7700000000000696_dist_ar_v7x_i8_i_m2048_n512_f32_1_alg».proof.Proof.Gen.KernelIdeal.Frame
import proofs.«900695_g7700000000000696_dist_ar_v7x_i8_i_m2048_n512_f32_1_alg».proof.Proof.Gen.ReferenceIdeal
import proofs.«900695_g7700000000000696_dist_ar_v7x_i8_i_m2048_n512_f32_1_alg».proof.Proof.Gen.Pre_finite_inputs_Kernel
import proofs.«900695_g7700000000000696_dist_ar_v7x_i8_i_m2048_n512_f32_1_alg».proof.Proof.Gen.Pre_finite_inputs_ReferenceIdeal
import proofs.«900695_g7700000000000696_dist_ar_v7x_i8_i_m2048_n512_f32_1_alg».proof.Proof.BodyOb
import proofs.«900695_g7700000000000696_dist_ar_v7x_i8_i_m2048_n512_f32_1_alg».proof.Proof.BodyObK
import proofs.«900695_g7700000000000696_dist_ar_v7x_i8_i_m2048_n512_f32_1_alg».proof.Proof.Body
import proofs.«900695_g7700000000000696_dist_ar_v7x_i8_i_m2048_n512_f32_1_alg».proof.Proof.BodyK
import proofs.«900695_g7700000000000696_dist_ar_v7x_i8_i_m2048_n512_f32_1_alg».proof.Proof.Value
import Idealize.ShloMosaic.Adequacy
import Idealize.ShloMosaic.Init

noncomputable section

namespace Cert.Proof

open Idealize.ShloMosaic Idealize.SL.Sem

/-- The word-level program runs and leaves each device's input block as it was: its run, with the result's value dropped. -/
theorem frame_Kernel : Cert.frame_Kernel :=
  fun m g _ => (θ_run _ _ _).mono (fun _ h c => (h c).2) (Cert.Kernel.Ar.run_all m g (Cert.Kernel.Ar.body_core m))

/-- The same of the program read at the extended reals. -/
theorem frame_KernelIdeal : Cert.frame_KernelIdeal :=
  fun m g _ => (θ_run _ _ _).mono (fun _ h c => (h c).2) (Cert.KernelIdeal.Ar.run_all m g (Cert.KernelIdeal.Ar.body_core m))

/-- The reference's frame, from its generated run. -/
theorem frame_ReferenceIdeal : Cert.frame_ReferenceIdeal := Cert.KernelIdeal.ArValue.frame_ref

/-- The ideal pass rewrote no operation. -/
theorem preserves : Cert.preserves_Kernel_KernelIdeal := trivial

/-- At the extended reals every device's result is its part (all) of the reference's: the butterfly's sum of the eight blocks
    is the reference's sum over the array's eight row blocks. -/
theorem algebraic : Cert.algebraic_KernelIdeal_ReferenceIdeal :=
  Cert.KernelIdeal.ArValue.algebraic_of_run (fun m ρ => Cert.KernelIdeal.Ar.run_all m ρ (Cert.KernelIdeal.Ar.body_core m))

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_Kernel, frame_KernelIdeal, frame_ReferenceIdeal, preserves, algebraic⟩

end Cert.Proof

end
